-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3200000x1 : Shape := ⟨2, ![3200000, 1]⟩
abbrev S3 : Shape := ⟨1, ![3]⟩
abbrev S3x32 : Shape := ⟨2, ![3, 32]⟩
abbrev S32 : Shape := ⟨1, ![32]⟩
abbrev S32x32 : Shape := ⟨2, ![32, 32]⟩
abbrev S71x64 : Shape := ⟨2, ![71, 64]⟩
abbrev S64 : Shape := ⟨1, ![64]⟩
abbrev S64x32 : Shape := ⟨2, ![64, 32]⟩
abbrev S64x1 : Shape := ⟨2, ![64, 1]⟩
abbrev S1 : Shape := ⟨1, ![1]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3200000x1 : S_.BroadcastsInDim S3200000x1 (![] : Fin 0 → Fin S3200000x1.rank)
  reducesTo_S3200000x1_S_d0_1 : S3200000x1.ReducesTo [0, 1] S_
  bcast_S_S3 : S_.BroadcastsInDim S3 (![] : Fin 0 → Fin S3.rank)
  reducesTo_S3_S_d0 : S3.ReducesTo [0] S_
  bcast_S_S3x32 : S_.BroadcastsInDim S3x32 (![] : Fin 0 → Fin S3x32.rank)
  reducesTo_S3x32_S_d0_1 : S3x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S71x64 : S_.BroadcastsInDim S71x64 (![] : Fin 0 → Fin S71x64.rank)
  reducesTo_S71x64_S_d0_1 : S71x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part5 {F : FTy → Type} [FloatOps F] (main_v78 : IVec S_ 1) (main_v84 : IVec S_ 1) : IVec S_ 1 :=
  let main_v85 : IVec S_ 1 := andi main_v78 main_v84
  main_v85

def fn_part4 {F : FTy → Type} [FloatOps F] (main_arg1 : IVec S2x3200000 32) (main_arg15 : FVec F S64x1 .f32) (main_arg16 : FVec F S1 .f32) (main_v63 : IVec S_ 1) (main_v67 : IVec S_ 1) : IVec S_ 1 :=
  let main_v68 : IVec S_ 1 := andi main_v63 main_v67
  let main_v69 : FVec F S64x1 .f32 := Host.absf main_arg15
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg16
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S2x3200000 32 := broadcastInDim S2x3200000 ![] bcast_S_S2x3200000 main_c_30
  let main_v80 : IVec S2x3200000 1 := cmpi .sge main_arg1 main_v79
  let main_c_31 : IVec S_ 32 := constantI S_ 32 100000#32
  let main_v81 : IVec S2x3200000 32 := broadcastInDim S2x3200000 ![] bcast_S_S2x3200000 main_c_31
  let main_v82 : IVec S2x3200000 1 := cmpi .slt main_arg1 main_v81
  let main_v83 : IVec S2x3200000 1 := andi main_v80 main_v82
  let main_c_32 : IVec S_ 1 := constantI S_ 1 1#1
  let main_v84 : IVec S_ 1 := (fun x v => Host.reduce IntOp.andi x v reducesTo_S2x3200000_S_d0_1 h_S_) main_v83 main_c_32
  fn_part5 (F := F) main_v78 main_v84

def fn_part3 {F : FTy → Type} [FloatOps F] (main_arg1 : IVec S2x3200000 32) (main_arg12 : FVec F S32 .f32) (main_arg13 : FVec F S71x64 .f32) (main_arg14 : FVec F S64 .f32) (main_arg15 : FVec F S64x1 .f32) (main_arg16 : FVec F S1 .f32) (main_v48 : IVec S_ 1) (main_v49 : FVec F S64x32 .f32) (main_v50 : FVec F S64x32 .f32) : IVec S_ 1 :=
  let main_v51 : IVec S64x32 1 := cmpf .olt main_v49 main_v50
  let main_c_19 : IVec S_ 1 := constantI S_ 1 1#1
  let main_v52 : IVec S_ 1 := (fun x v => Host.reduce IntOp.andi x v reducesTo_S64x32_S_d0_1 h_S_) main_v51 main_c_19
  let main_v53 : IVec S_ 1 := andi main_v48 main_v52
  let main_v54 : FVec F S32 .f32 := Host.absf main_arg12
  let main_cst_20 : FVec F S_ .f32 := constant S_ .f32 0x7F800000#32
  let main_v55 : FVec F S32 .f32 := broadcastInDim S32 ![] bcast_S_S32 main_cst_20
  let main_v56 : IVec S32 1 := cmpf .olt main_v54 main_v55
  let main_c_21 : IVec S_ 1 := constantI S_ 1 1#1
  let main_v57 : IVec S_ 1 := (fun x v => Host.reduce IntOp.andi x v reducesTo_S32_S_d0 h_S_) main_v56 main_c_21
  let main_v58 : IVec S_ 1 := andi main_v53 main_v57
  let main_v59 : FVec F S71x64 .f32 := Host.absf main_arg13
  let main_cst_22 : FVec F S_ .f32 := constant S_ .f32 0x7F800000#32
  let main_v60 : FVec F S71x64 .f32 := broadcastInDim S71x64 ![] bcast_S_S71x64 main_cst_22
  let main_v61 : IVec S71x64 1 := cmpf .olt main_v59 main_v60
  let main_c_23 : IVec S_ 1 := constantI S_ 1 1#1
  let main_v62 : IVec S_ 1 := (fun x v => Host.reduce IntOp.andi x v reducesTo_S71x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg1 main_arg15 main_arg16 main_v63 main_v67

def fn_part2 {F : FTy → Type} [FloatOps F] (main_arg1 : IVec S2x3200000 32) (main_arg8 : FVec F S32 .f32) (main_arg9 : FVec F S71x64 .f32) (main_arg10 : FVec F S64 .f32) (main_arg11 : FVec F S64x32 .f32) (main_arg12 : FVec F S32 .f32) (main_arg13 : FVec F S71x64 .f32) (main_arg14 : FVec F S64 .f32) (main_arg15 : FVec F S64x1 .f32) (main_arg16 : FVec F S1 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S71x64 .f32 := Host.absf main_arg9
  let main_cst_14 : FVec F S_ .f32 := constant S_ .f32 0x7F800000#32
  let main_v40 : FVec F S71x64 .f32 := broadcastInDim S71x64 ![] bcast_S_S71x64 main_cst_14
  let main_v41 : IVec S71x64 1 := cmpf .olt main_v39 main_v40
  let main_c_15 : IVec S_ 1 := constantI S_ 1 1#1
  let main_v42 : IVec S_ 1 := (fun x v => Host.reduce IntOp.andi x v reducesTo_S71x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x32 .f32 := Host.absf main_arg11
  let main_cst_18 : FVec F S_ .f32 := constant S_ .f32 0x7F800000#32
  let main_v50 : FVec F S64x32 .f32 := broadcastInDim S64x32 ![] bcast_S_S64x32 main_cst_18
  fn_part3 (F := F) main_arg1 main_arg12 main_arg13 main_arg14 main_arg15 main_arg16 main_v48 main_v49 main_v50

def fn_part1 {F : FTy → Type} [FloatOps F] (main_arg1 : IVec S2x3200000 32) (main_arg5 : FVec F S3x32 .f32) (main_arg6 : FVec F S32 .f32) (main_arg7 : FVec F S32x32 .f32) (main_arg8 : FVec F S32 .f32) (main_arg9 : FVec F S71x64 .f32) (main_arg10 : FVec F S64 .f32) (main_arg11 : FVec F S64x32 .f32) (main_arg12 : FVec F S32 .f32) (main_arg13 : FVec F S71x64 .f32) (main_arg14 : FVec F S64 .f32) (main_arg15 : FVec F S64x1 .f32) (main_arg16 : FVec F S1 .f32) (main_v13 : IVec S_ 1) (main_v16 : IVec S3 1) : IVec S_ 1 :=
  let main_c_5 : IVec S_ 1 := constantI S_ 1 1#1
  let main_v17 : IVec S_ 1 := (fun x v => Host.reduce IntOp.andi x v reducesTo_S3_S_d0 h_S_) main_v16 main_c_5
  let main_v18 : IVec S_ 1 := andi main_v13 main_v17
  let main_v19 : FVec F S3x32 .f32 := Host.absf main_arg5
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x32 .f32 := Host.absf main_arg7
  let main_cst_10 : FVec F S_ .f32 := constant S_ .f32 0x7F800000#32
  let main_v30 : FVec F S32x32 .f32 := broadcastInDim S32x32 ![] bcast_S_S32x32 main_cst_10
  let main_v31 : IVec S32x32 1 := cmpf .olt main_v29 main_v30
  let main_c_11 : IVec S_ 1 := constantI S_ 1 1#1
  let main_v32 : IVec S_ 1 := (fun x v => Host.reduce IntOp.andi x v reducesTo_S32x32_S_d0_1 h_S_) main_v31 main_c_11
  let main_v33 : IVec S_ 1 := andi main_v28 main_v32
  fn_part2 (F := F) main_arg1 main_arg8 main_arg9 main_arg10 main_arg11 main_arg12 main_arg13 main_arg14 main_arg15 main_arg16 main_v33

def fn {F : FTy → Type} [FloatOps F] (main_arg0 : FVec F S100000x3 .f32) (main_arg1 : IVec S2x3200000 32) (main_arg2 : FVec F S3200000x1 .f32) (main_arg3 : FVec F S3 .f32) (main_arg4 : FVec F S3 .f32) (main_arg5 : FVec F S3x32 .f32) (main_arg6 : FVec F S32 .f32) (main_arg7 : FVec F S32x32 .f32) (main_arg8 : FVec F S32 .f32) (main_arg9 : FVec F S71x64 .f32) (main_arg10 : FVec F S64 .f32) (main_arg11 : FVec F S64x32 .f32) (main_arg12 : FVec F S32 .f32) (main_arg13 : FVec F S71x64 .f32) (main_arg14 : FVec F S64 .f32) (main_arg15 : FVec F S64x1 .f32) (main_arg16 : FVec F S1 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3200000x1 .f32 := Host.absf main_arg2
  let main_cst_0 : FVec F S_ .f32 := constant S_ .f32 0x7F800000#32
  let main_v5 : FVec F S3200000x1 .f32 := broadcastInDim S3200000x1 ![] bcast_S_S3200000x1 main_cst_0
  let main_v6 : IVec S3200000x1 1 := cmpf .olt main_v4 main_v5
  let main_c_1 : IVec S_ 1 := constantI S_ 1 1#1
  let main_v7 : IVec S_ 1 := (fun x v => Host.reduce IntOp.andi x v reducesTo_S3200000x1_S_d0_1 h_S_) main_v6 main_c_1
  let main_v8 : IVec S_ 1 := andi main_v3 main_v7
  let main_v9 : FVec F S3 .f32 := Host.absf main_arg3
  let main_cst_2 : FVec F S_ .f32 := constant S_ .f32 0x7F800000#32
  let main_v10 : FVec F S3 .f32 := broadcastInDim S3 ![] bcast_S_S3 main_cst_2
  let main_v11 : IVec S3 1 := cmpf .olt main_v9 main_v10
  let main_c_3 : IVec S_ 1 := constantI S_ 1 1#1
  let main_v12 : IVec S_ 1 := (fun x v => Host.reduce IntOp.andi x v reducesTo_S3_S_d0 h_S_) main_v11 main_c_3
  let main_v13 : IVec S_ 1 := andi main_v8 main_v12
  let main_v14 : FVec F S3 .f32 := Host.absf main_arg4
  let main_cst_4 : FVec F S_ .f32 := constant S_ .f32 0x7F800000#32
  let main_v15 : FVec F S3 .f32 := broadcastInDim S3 ![] bcast_S_S3 main_cst_4
  let main_v16 : IVec S3 1 := cmpf .olt main_v14 main_v15
  fn_part1 (F := F) main_arg1 main_arg5 main_arg6 main_arg7 main_arg8 main_arg9 main_arg10 main_arg11 main_arg12 main_arg13 main_arg14 main_arg15 main_arg16 main_v13 main_v16
-- ==== Kernel.lean ====
abbrev S100000x3 : Shape := ⟨2, ![100000, 3]⟩
abbrev S2x3200000 : Shape := ⟨2, ![2, 3200000]⟩
abbrev S3200000x1 : Shape := ⟨2, ![3200000, 1]⟩
abbrev S3 : Shape := ⟨1, ![3]⟩
abbrev S3x32 : Shape := ⟨2, ![3, 32]⟩
abbrev S32 : Shape := ⟨1, ![32]⟩
abbrev S32x32 : Shape := ⟨2, ![32, 32]⟩
abbrev S71x64 : Shape := ⟨2, ![71, 64]⟩
abbrev S64 : Shape := ⟨1, ![64]⟩
abbrev S64x32 : Shape := ⟨2, ![64, 32]⟩
abbrev S64x1 : Shape := ⟨2, ![64, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S1x3 : Shape := ⟨2, ![1, 3]⟩
abbrev S1x32 : Shape := ⟨2, ![1, 32]⟩
abbrev S100000x35 : Shape := ⟨2, ![100000, 35]⟩
abbrev S20000x3 : Shape := ⟨2, ![20000, 3]⟩
abbrev S20000x35 : Shape := ⟨2, ![20000, 35]⟩
abbrev S20000x32 : Shape := ⟨2, ![20000, 32]⟩
abbrev S1x1 : Shape := ⟨2, ![1, 1]⟩
abbrev S3200000x35 : Shape := ⟨2, ![3200000, 35]⟩
abbrev S35x64 : Shape := ⟨2, ![35, 64]⟩
abbrev S1x64 : Shape := ⟨2, ![1, 64]⟩
abbrev S3200000x32 : Shape := ⟨2, ![3200000, 32]⟩
abbrev S12800x35 : Shape := ⟨2, ![12800, 35]⟩
abbrev S12800x1 : Shape := ⟨2, ![12800, 1]⟩
abbrev S12800x32 : Shape := ⟨2, ![12800, 32]⟩
abbrev S12800x64 : Shape := ⟨2, ![12800, 64]⟩
abbrev S100000x32 : Shape := ⟨2, ![100000, 32]⟩

abbrev nBuf : Space → Nat
  | .hbm => 167
  | .vmem => 40
  | .smem => 0
  | _ => 0

abbrev hbmTy0_0 (i : Nat) : BufTy := match i % 128 with
  | 0 => ⟨S100000x3, .f32⟩
  | 1 => ⟨S2x3200000, .i32⟩
  | 2 => ⟨S3200000x1, .f32⟩
  | 3 => ⟨S3, .f32⟩
  | 4 => ⟨S3, .f32⟩
  | 5 => ⟨S3x32, .f32⟩
  | 6 => ⟨S32, .f32⟩
  | 7 => ⟨S32x32, .f32⟩
  | 8 => ⟨S32, .f32⟩
  | 9 => ⟨S71x64, .f32⟩
  | 10 => ⟨S64, .f32⟩
  | 11 => ⟨S64x32, .f32⟩
  | 12 => ⟨S32, .f32⟩
  | 13 => ⟨S71x64, .f32⟩
  | 14 => ⟨S64, .f32⟩
  | 15 => ⟨S64x1, .f32⟩
  | 16 => ⟨S1, .f32⟩
  | 17 => ⟨S1x3200000, .i32⟩
  | 18 => ⟨S3200000, .i32⟩
  | 19 => ⟨S1x3200000, .i32⟩
  | 20 => ⟨S3200000, .i32⟩
  | 21 => ⟨S_, .f32⟩
  | 22 => ⟨S3, .f32⟩
  | 23 => ⟨S_, .f32⟩
  | 24 => ⟨S3, .f32⟩
  | 25 => ⟨S3, .f32⟩
  | 26 => ⟨S1x3, .f32⟩
  | 27 => ⟨S_, .i32⟩
  | 28 => ⟨S_, .f32⟩
  | 29 => ⟨S3, .f32⟩
  | 30 => ⟨S1x3, .f32⟩
  | 31 => ⟨S_, .f32⟩
  | 32 => ⟨S1x3, .f32⟩
  | 33 => ⟨S1x3, .f32⟩
  | 34 => ⟨S100000x3, .f32⟩
  | 35 => ⟨S100000x3, .f32⟩
  | 36 => ⟨S100000x3, .f32⟩
  | 37 => ⟨S_, .f32⟩
  | 38 => ⟨S_, .f32⟩
  | 39 => ⟨S_, .f32⟩
  | 40 => ⟨S_, .f32⟩
  | 41 => ⟨S3, .f32⟩
  | 42 => ⟨S3, .f32⟩
  | 43 => ⟨S3, .f32⟩
  | 44 => ⟨S_, .f32⟩
  | 45 => ⟨S_, .i1⟩
  | 46 => ⟨S_, .f32⟩
  | 47 => ⟨S_, .f32⟩
  | 48 => ⟨S3, .f32⟩
  | 49 => ⟨S3, .f32⟩
  | 50 => ⟨S1x3, .f32⟩
  | 51 => ⟨S1x3, .f32⟩
  | 52 => ⟨S1x3, .f32⟩
  | 53 => ⟨S1x32, .f32⟩
  | 54 => ⟨S1x32, .f32⟩
  | 55 => ⟨S100000x35, .f32⟩
  | 56 => ⟨S100000x3, .f32⟩
  | 57 => ⟨S_, .i32⟩
  | 58 => ⟨S3200000, .i32⟩
  | 59 => ⟨S3200000, .i1⟩
  | 60 => ⟨S_, .i32⟩
  | 61 => ⟨S3200000, .i32⟩
  | 62 => ⟨S3200000, .i32⟩
  | 63 => ⟨S3200000, .i32⟩
  | 64 => ⟨S3200000x1, .i32⟩
  | 65 => ⟨S1, .i32⟩
  | 66 => ⟨S_, .i32⟩
  | 67 => ⟨S3200000x1, .i32⟩
  | 68 => ⟨S3200000x1, .i1⟩
  | 69 => ⟨S1x1, .i32⟩
  | 70 => ⟨S3200000x1, .i32⟩
  | 71 => ⟨S3200000x1, .i1⟩
  | 72 => ⟨S3200000x1, .i1⟩
  | 73 => ⟨S_, .i1⟩
  | 74 => ⟨S3200000, .i1⟩
  | 75 => ⟨S3200000x35, .f32⟩
  | 76 => ⟨S3200000x35, .i1⟩
  | 77 => ⟨S_, .f32⟩
  | 78 => ⟨S3200000x35, .f32⟩
  | 79 => ⟨S3200000x35, .f32⟩
  | 80 => ⟨S_, .i32⟩
  | 81 => ⟨S3200000, .i32⟩
  | 82 => ⟨S3200000, .i1⟩
  | 83 => ⟨S_, .i32⟩
  | 84 => ⟨S3200000, .i32⟩
  | 85 => ⟨S3200000, .i32⟩
  | 86 => ⟨S3200000, .i32⟩
  | 87 => ⟨S3200000x1, .i32⟩
  | 88 => ⟨S1, .i32⟩
  | 89 => ⟨S_, .i32⟩
  | 90 => ⟨S3200000x1, .i32⟩
  | 91 => ⟨S3200000x1, .i1⟩
  | 92 => ⟨S1x1, .i32⟩
  | 93 => ⟨S3200000x1, .i32⟩
  | 94 => ⟨S3200000x1, .i1⟩
  | 95 => ⟨S3200000x1, .i1⟩
  | 96 => ⟨S_, .i1⟩
  | 97 => ⟨S3200000, .i1⟩
  | 98 => ⟨S3200000x35, .f32⟩
  | 99 => ⟨S3200000x35, .i1⟩
  | 100 => ⟨S_, .f32⟩
  | 101 => ⟨S3200000x35, .f32⟩
  | 102 => ⟨S3200000x35, .f32⟩
  | 103 => ⟨S35x64, .f32⟩
  | 104 => ⟨S35x64, .f32⟩
  | 105 => ⟨S1x64, .f32⟩
  | 106 => ⟨S1x64, .f32⟩
  | 107 => ⟨S1x32, .f32⟩
  | 108 => ⟨S3200000x32, .f32⟩
  | 109 => ⟨S_, .f32⟩
  | 110 => ⟨S100000x32, .f32⟩
  | 111 => ⟨S3200000x1, .i32⟩
  | 112 => ⟨S100000x32, .f32⟩
  | 113 => ⟨S100000x35, .f32⟩
  | 114 => ⟨S_, .i32⟩
  | 115 => ⟨S3200000, .i32⟩
  | 116 => ⟨S3200000, .i1⟩
  | 117 => ⟨S_, .i32⟩
  | 118 => ⟨S3200000, .i32⟩
  | 119 => ⟨S3200000, .i32⟩
  | 120 => ⟨S3200000, .i32⟩
  | 121 => ⟨S3200000x1, .i32⟩
  | 122 => ⟨S1, .i32⟩
  | 123 => ⟨S_, .i32⟩
  | 124 => ⟨S3200000x1, .i32⟩
  | 125 => ⟨S3200000x1, .i1⟩
  | 126 => ⟨S1x1, .i32⟩
  | 127 => ⟨S3200000x1, .i32⟩
  | _ => ⟨S100000x3, .f32⟩

abbrev hbmTy0_1 (i : Nat) : BufTy := match i % 128 with
  | 0 => ⟨S3200000x1, .i1⟩
  | 1 => ⟨S3200000x1, .i1⟩
  | 2 => ⟨S_, .i1⟩
  | 3 => ⟨S3200000, .i1⟩
  | 4 => ⟨S3200000x35, .f32⟩
  | 5 => ⟨S3200000x35, .i1⟩
  | 6 => ⟨S_, .f32⟩
  | 7 => ⟨S3200000x35, .f32⟩
  | 8 => ⟨S3200000x35, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S1, .i32⟩
  | 18 => ⟨S_, .i32⟩
  | 19 => ⟨S3200000x1, .i32⟩
  | 20 => ⟨S3200000x1, .i1⟩
  | 21 => ⟨S1x1, .i32⟩
  | 22 => ⟨S3200000x1, .i32⟩
  | 23 => ⟨S3200000x1, .i1⟩
  | 24 => ⟨S3200000x1, .i1⟩
  | 25 => ⟨S_, .i1⟩
  | 26 => ⟨S3200000, .i1⟩
  | 27 => ⟨S3200000x35, .f32⟩
  | 28 => ⟨S3200000x35, .i1⟩
  | 29 => ⟨S_, .f32⟩
  | 30 => ⟨S3200000x35, .f32⟩
  | 31 => ⟨S3200000x35, .f32⟩
  | 32 => ⟨S35x64, .f32⟩
  | 33 => ⟨S35x64, .f32⟩
  | 34 => ⟨S1x64, .f32⟩
  | 35 => ⟨S1x64, .f32⟩
  | 36 => ⟨S1x1, .f32⟩
  | 37 => ⟨S3200000x1, .f32⟩
  | 38 => ⟨S3200000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | .local _ .vmem, ⟨0, _⟩ => ⟨S20000x3, .f32⟩
  | .local _ .vmem, ⟨1, _⟩ => ⟨S20000x3, .f32⟩
  | .local _ .vmem, ⟨2, _⟩ => ⟨S1x3, .f32⟩
  | .local _ .vmem, ⟨3, _⟩ => ⟨S1x3, .f32⟩
  | .local _ .vmem, ⟨4, _⟩ => ⟨S1x3, .f32⟩
  | .local _ .vmem, ⟨5, _⟩ => ⟨S1x3, .f32⟩
  | .local _ .vmem, ⟨6, _⟩ => ⟨S3x32, .f32⟩
  | .local _ .vmem, ⟨7, _⟩ => ⟨S1x32, .f32⟩
  | .local _ .vmem, ⟨8, _⟩ => ⟨S32x32, .f32⟩
  | .local _ .vmem, ⟨9, _⟩ => ⟨S1x32, .f32⟩
  | .local _ .vmem, ⟨10, _⟩ => ⟨S20000x35, .f32⟩
  | .local _ .vmem, ⟨11, _⟩ => ⟨S20000x35, .f32⟩
  | .local _ .vmem, ⟨12, _⟩ => ⟨S12800x35, .f32⟩
  | .local _ .vmem, ⟨13, _⟩ => ⟨S12800x35, .f32⟩
  | .local _ .vmem, ⟨14, _⟩ => ⟨S12800x35, .f32⟩
  | .local _ .vmem, ⟨15, _⟩ => ⟨S12800x35, .f32⟩
  | .local _ .vmem, ⟨16, _⟩ => ⟨S12800x1, .f32⟩
  | .local _ .vmem, ⟨17, _⟩ => ⟨S12800x1, .f32⟩
  | .local _ .vmem, ⟨18, _⟩ => ⟨S35x64, .f32⟩
  | .local _ .vmem, ⟨19, _⟩ => ⟨S35x64, .f32⟩
  | .local _ .vmem, ⟨20, _⟩ => ⟨S1x64, .f32⟩
  | .local _ .vmem, ⟨21, _⟩ => ⟨S1x64, .f32⟩
  | .local _ .vmem, ⟨22, _⟩ => ⟨S64x32, .f32⟩
  | .local _ .vmem, ⟨23, _⟩ => ⟨S1x32, .f32⟩
  | .local _ .vmem, ⟨24, _⟩ => ⟨S12800x32, .f32⟩
  | .local _ .vmem, ⟨25, _⟩ => ⟨S12800x32, .f32⟩
  | .local _ .vmem, ⟨26, _⟩ => ⟨S12800x35, .f32⟩
  | .local _ .vmem, ⟨27, _⟩ => ⟨S12800x35, .f32⟩
  | .local _ .vmem, ⟨28, _⟩ => ⟨S12800x35, .f32⟩
  | .local _ .vmem, ⟨29, _⟩ => ⟨S12800x35, .f32⟩
  | .local _ .vmem, ⟨30, _⟩ => ⟨S12800x1, .f32⟩
  | .local _ .vmem, ⟨31, _⟩ => ⟨S12800x1, .f32⟩
  | .local _ .vmem, ⟨32, _⟩ => ⟨S35x64, .f32⟩
  | .local _ .vmem, ⟨33, _⟩ => ⟨S35x64, .f32⟩
  | .local _ .vmem, ⟨34, _⟩ => ⟨S1x64, .f32⟩
  | .local _ .vmem, ⟨35, _⟩ => ⟨S1x64, .f32⟩
  | .local _ .vmem, ⟨36, _⟩ => ⟨S64x1, .f32⟩
  | .local _ .vmem, ⟨37, _⟩ => ⟨S1x1, .f32⟩
  | .local _ .vmem, ⟨38, _⟩ => ⟨S12800x1, .f32⟩
  | .local _ .vmem, ⟨39, _⟩ => ⟨S12800x1, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_c : Ref sig .tc := ⟨.hbm, 27, rfl⟩
abbrev main_call0_cst : Ref sig .tc := ⟨.hbm, 28, rfl⟩
abbrev main_call0_v0 : Ref sig .tc := ⟨.hbm, 29, rfl⟩
abbrev main_call0_v1 : Ref sig .tc := ⟨.hbm, 30, rfl⟩
abbrev main_call0_cst_0 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_call0_v5 : Ref sig .tc := ⟨.hbm, 35, rfl⟩
abbrev main_call0_v6 : Ref sig .tc := ⟨.hbm, 36, rfl⟩
abbrev main_call0_v7 : Ref sig .tc := ⟨.hbm, 37, rfl⟩
abbrev main_call0_cst_1 : Ref sig .tc := ⟨.hbm, 38, rfl⟩
abbrev main_call0_v8 : Ref sig .tc := ⟨.hbm, 39, rfl⟩
abbrev main_call0_cst_2 : Ref sig .tc := ⟨.hbm, 40, rfl⟩
abbrev main_call0_v9 : Ref sig .tc := ⟨.hbm, 41, rfl⟩
abbrev main_call0_v10 : Ref sig .tc := ⟨.hbm, 42, rfl⟩
abbrev main_call0_v11 : Ref sig .tc := ⟨.hbm, 43, rfl⟩
abbrev main_call0_cst_3 : Ref sig .tc := ⟨.hbm, 44, rfl⟩
abbrev main_call0_v12 : Ref sig .tc := ⟨.hbm, 45, rfl⟩
abbrev main_call0_cst_4 : Ref sig .tc := ⟨.hbm, 46, rfl⟩
abbrev main_call0_call0_v0 : Ref sig .tc := ⟨.hbm, 47, rfl⟩
abbrev main_call0_call0_v1 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_call1_c : Ref sig .tc := ⟨.hbm, 57, rfl⟩
abbrev main_call1_v0 : Ref sig .tc := ⟨.hbm, 58, rfl⟩
abbrev main_call1_v1 : Ref sig .tc := ⟨.hbm, 59, rfl⟩
abbrev main_call1_c_0 : Ref sig .tc := ⟨.hbm, 60, rfl⟩
abbrev main_call1_v2 : Ref sig .tc := ⟨.hbm, 61, rfl⟩
abbrev main_call1_v3 : Ref sig .tc := ⟨.hbm, 62, rfl⟩
abbrev main_call1_v4 : Ref sig .tc := ⟨.hbm, 63, rfl⟩
abbrev main_call1_v5 : Ref sig .tc := ⟨.hbm, 64, rfl⟩
abbrev main_call1_c_1 : Ref sig .tc := ⟨.hbm, 65, rfl⟩
abbrev main_call1_c_2 : Ref sig .tc := ⟨.hbm, 66, rfl⟩
abbrev main_call1_v6 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_call1_v11 : Ref sig .tc := ⟨.hbm, 72, rfl⟩
abbrev main_call1_c_3 : Ref sig .tc := ⟨.hbm, 73, rfl⟩
abbrev main_call1_v12 : Ref sig .tc := ⟨.hbm, 74, rfl⟩
abbrev main_call1_v13 : Ref sig .tc := ⟨.hbm, 75, rfl⟩
abbrev main_call1_v14 : Ref sig .tc := ⟨.hbm, 76, rfl⟩
abbrev main_call1_cst : Ref sig .tc := ⟨.hbm, 77, rfl⟩
abbrev main_call1_v15 : Ref sig .tc := ⟨.hbm, 78, rfl⟩
abbrev main_v16 : Ref sig .tc := ⟨.hbm, 79, rfl⟩
abbrev main_call2_c : Ref sig .tc := ⟨.hbm, 80, rfl⟩
abbrev main_call2_v0 : Ref sig .tc := ⟨.hbm, 81, rfl⟩
abbrev main_call2_v1 : Ref sig .tc := ⟨.hbm, 82, rfl⟩
abbrev main_call2_c_0 : Ref sig .tc := ⟨.hbm, 83, rfl⟩
abbrev main_call2_v2 : Ref sig .tc := ⟨.hbm, 84, rfl⟩
abbrev main_call2_v3 : Ref sig .tc := ⟨.hbm, 85, rfl⟩
abbrev main_call2_v4 : Ref sig .tc := ⟨.hbm, 86, rfl⟩
abbrev main_call2_v5 : Ref sig .tc := ⟨.hbm, 87, rfl⟩
abbrev main_call2_c_1 : Ref sig .tc := ⟨.hbm, 88, rfl⟩
abbrev main_call2_c_2 : Ref sig .tc := ⟨.hbm, 89, rfl⟩
abbrev main_call2_v6 : Ref sig .tc := ⟨.hbm, 90, rfl⟩
abbrev main_call2_v7 : Ref sig .tc := ⟨.hbm, 91, rfl⟩
abbrev main_call2_v8 : Ref sig .tc := ⟨.hbm, 92, rfl⟩
abbrev main_call2_v9 : Ref sig .tc := ⟨.hbm, 93, rfl⟩
abbrev main_call2_v10 : Ref sig .tc := ⟨.hbm, 94, rfl⟩
abbrev main_call2_v11 : Ref sig .tc := ⟨.hbm, 95, rfl⟩
abbrev main_call2_c_3 : Ref sig .tc := ⟨.hbm, 96, rfl⟩
abbrev main_call2_v12 : Ref sig .tc := ⟨.hbm, 97, rfl⟩
abbrev main_call2_v13 : Ref sig .tc := ⟨.hbm, 98, rfl⟩
abbrev main_call2_v14 : Ref sig .tc := ⟨.hbm, 99, rfl⟩
abbrev main_call2_cst : Ref sig .tc := ⟨.hbm, 100, rfl⟩
abbrev main_call2_v15 : Ref sig .tc := ⟨.hbm, 101, rfl⟩
abbrev main_v17 : Ref sig .tc := ⟨.hbm, 102, rfl⟩
abbrev main_v18 : Ref sig .tc := ⟨.hbm, 103, rfl⟩
abbrev main_v19 : Ref sig .tc := ⟨.hbm, 104, rfl⟩
abbrev main_v20 : Ref sig .tc := ⟨.hbm, 105, rfl⟩
abbrev main_v21 : Ref sig .tc := ⟨.hbm, 106, rfl⟩
abbrev main_v22 : Ref sig .tc := ⟨.hbm, 107, rfl⟩
abbrev main_v23 : Ref sig .tc := ⟨.hbm, 108, rfl⟩
abbrev main_cst_1 : Ref sig .tc := ⟨.hbm, 109, rfl⟩
abbrev main_v24 : Ref sig .tc := ⟨.hbm, 110, rfl⟩
abbrev main_v25 : Ref sig .tc := ⟨.hbm, 111, rfl⟩
abbrev main_v26 : Ref sig .tc := ⟨.hbm, 112, rfl⟩
abbrev main_v27 : Ref sig .tc := ⟨.hbm, 113, rfl⟩
abbrev main_call3_c : Ref sig .tc := ⟨.hbm, 114, rfl⟩
abbrev main_call3_v0 : Ref sig .tc := ⟨.hbm, 115, rfl⟩
abbrev main_call3_v1 : Ref sig .tc := ⟨.hbm, 116, rfl⟩
abbrev main_call3_c_0 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_c_1 : Ref sig .tc := ⟨.hbm, 122, rfl⟩
abbrev main_call3_c_2 : Ref sig .tc := ⟨.hbm, 123, rfl⟩
abbrev main_call3_v6 : Ref sig .tc := ⟨.hbm, 124, rfl⟩
abbrev main_call3_v7 : Ref sig .tc := ⟨.hbm, 125, rfl⟩
abbrev main_call3_v8 : Ref sig .tc := ⟨.hbm, 126, rfl⟩
abbrev main_call3_v9 : Ref sig .tc := ⟨.hbm, 127, rfl⟩
abbrev main_call3_v10 : Ref sig .tc := ⟨.hbm, 128, rfl⟩
abbrev main_call3_v11 : Ref sig .tc := ⟨.hbm, 129, rfl⟩
abbrev main_call3_c_3 : Ref sig .tc := ⟨.hbm, 130, rfl⟩
abbrev main_call3_v12 : Ref sig .tc := ⟨.hbm, 131, rfl⟩
abbrev main_call3_v13 : Ref sig .tc := ⟨.hbm, 132, rfl⟩
abbrev main_call3_v14 : Ref sig .tc := ⟨.hbm, 133, rfl⟩
abbrev main_call3_cst : Ref sig .tc := ⟨.hbm, 134, rfl⟩
abbrev main_call3_v15 : Ref sig .tc := ⟨.hbm, 135, rfl⟩
abbrev main_v28 : Ref sig .tc := ⟨.hbm, 136, rfl⟩
abbrev main_call4_c : Ref sig .tc := ⟨.hbm, 137, rfl⟩
abbrev main_call4_v0 : Ref sig .tc := ⟨.hbm, 138, rfl⟩
abbrev main_call4_v1 : Ref sig .tc := ⟨.hbm, 139, rfl⟩
abbrev main_call4_c_0 : Ref sig .tc := ⟨.hbm, 140, rfl⟩
abbrev main_call4_v2 : Ref sig .tc := ⟨.hbm, 141, rfl⟩
abbrev main_call4_v3 : Ref sig .tc := ⟨.hbm, 142, rfl⟩
abbrev main_call4_v4 : Ref sig .tc := ⟨.hbm, 143, rfl⟩
abbrev main_call4_v5 : Ref sig .tc := ⟨.hbm, 144, rfl⟩
abbrev main_call4_c_1 : Ref sig .tc := ⟨.hbm, 145, rfl⟩
abbrev main_call4_c_2 : Ref sig .tc := ⟨.hbm, 146, rfl⟩
abbrev main_call4_v6 : Ref sig .tc := ⟨.hbm, 147, rfl⟩
abbrev main_call4_v7 : Ref sig .tc := ⟨.hbm, 148, rfl⟩
abbrev main_call4_v8 : Ref sig .tc := ⟨.hbm, 149, rfl⟩
abbrev main_call4_v9 : Ref sig .tc := ⟨.hbm, 150, rfl⟩
abbrev main_call4_v10 : Ref sig .tc := ⟨.hbm, 151, rfl⟩
abbrev main_call4_v11 : Ref sig .tc := ⟨.hbm, 152, rfl⟩
abbrev main_call4_c_3 : Ref sig .tc := ⟨.hbm, 153, rfl⟩
abbrev main_call4_v12 : Ref sig .tc := ⟨.hbm, 154, rfl⟩
abbrev main_call4_v13 : Ref sig .tc := ⟨.hbm, 155, rfl⟩
abbrev main_call4_v14 : Ref sig .tc := ⟨.hbm, 156, rfl⟩
abbrev main_call4_cst : Ref sig .tc := ⟨.hbm, 157, rfl⟩
abbrev main_call4_v15 : Ref sig .tc := ⟨.hbm, 158, rfl⟩
abbrev main_v29 : Ref sig .tc := ⟨.hbm, 159, rfl⟩
abbrev main_v30 : Ref sig .tc := ⟨.hbm, 160, rfl⟩
abbrev main_v31 : Ref sig .tc := ⟨.hbm, 161, rfl⟩
abbrev main_v32 : Ref sig .tc := ⟨.hbm, 162, rfl⟩
abbrev main_v33 : Ref sig .tc := ⟨.hbm, 163, rfl⟩
abbrev main_v34 : Ref sig .tc := ⟨.hbm, 164, rfl⟩
abbrev main_v35 : Ref sig .tc := ⟨.hbm, 165, rfl⟩
abbrev main_v36 : Ref sig .tc := ⟨.hbm, 166, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg9_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg1_1 : Ref sig .tc := ⟨.vmem, 29, rfl⟩
abbrev cc2_stg2_0 : Ref sig .tc := ⟨.vmem, 30, rfl⟩
abbrev cc2_stg2_1 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg6_0 : Ref sig .tc := ⟨.vmem, 35, rfl⟩
abbrev cc2_stg7_0 : Ref sig .tc := ⟨.vmem, 36, rfl⟩
abbrev cc2_stg8_0 : Ref sig .tc := ⟨.vmem, 37, rfl⟩
abbrev cc2_stg9_0 : Ref sig .tc := ⟨.vmem, 38, rfl⟩
abbrev cc2_stg9_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem9_0 : DmaSem sig := 24
abbrev cc1_sem9_1 : DmaSem sig := 25
abbrev cc2_sem0_0 : DmaSem sig := 26
abbrev cc2_sem0_1 : DmaSem sig := 27
abbrev cc2_sem1_0 : DmaSem sig := 28
abbrev cc2_sem1_1 : DmaSem sig := 29
abbrev cc2_sem2_0 : DmaSem sig := 30
abbrev cc2_sem2_1 : DmaSem sig := 31
abbrev cc2_sem3_0 : DmaSem sig := 32
abbrev cc2_sem4_0 : DmaSem sig := 33
abbrev cc2_sem5_0 : DmaSem sig := 34
abbrev cc2_sem6_0 : DmaSem sig := 35
abbrev cc2_sem7_0 : DmaSem sig := 36
abbrev cc2_sem8_0 : DmaSem sig := 37
abbrev cc2_sem9_0 : DmaSem sig := 38
abbrev cc2_sem9_1 : DmaSem sig := 39

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S20000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S20000x35 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S12800x35 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S12800x35 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S12800x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S35x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S35x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S12800x32 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![250], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S12800x35 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S12800x35 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S12800x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S35x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S35x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S12800x1 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  reducesTo_S100000x3_S3_d0 : S100000x3.ReducesTo [0] S3
  h_S_ : 0 < S_.numel
  bcast_S_S3 : S_.BroadcastsInDim S3 (![] : Fin 0 → Fin S3.rank)
  shapeCasts_S3_S1x3 : S3.ShapeCasts S1x3
  bcast_S3_S1x3_1 : S3.BroadcastsInDim S1x3 (![1] : Fin 1 → Fin S1x3.rank)
  bcast_S_S1x3 : S_.BroadcastsInDim S1x3 (![] : Fin 0 → Fin S1x3.rank)
  bcast_S1x3_S100000x3_0_1 : S1x3.BroadcastsInDim S100000x3 (![0, 1] : Fin 2 → Fin S100000x3.rank)
  shapeCasts_S32_S1x32 : S32.ShapeCasts S1x32
  inb_S20000x3_S20000x3_0_0 : ∀ a, (![0, 0] : Fin 2 → Nat) a + S20000x3.size a ≤ S20000x3.size a
  h_S20000x3 : 0 < S20000x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S20000x3 : S1x3.Broadcasts S20000x3
  inb_S3x32_S3x32_0_0 : ∀ a, (![0, 0] : Fin 2 → Nat) a + S3x32.size a ≤ S3x32.size a
  h_S3x32 : 0 < S3x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S20000x32 : S1x32.Broadcasts S20000x32
  inb_S32x32_S32x32_0_0 : ∀ a, (![0, 0] : Fin 2 → Nat) a + S32x32.size a ≤ S32x32.size a
  h_S32x32 : 0 < S32x32.numel
  concatenates_S20000x32_S20000x3_S20000x35_d1 : Shape.Concatenates [S20000x32, S20000x3] S20000x35 1
  inb_S20000x35_S20000x35_0_0 : ∀ a, (![0, 0] : Fin 2 → Nat) a + S20000x35.size a ≤ S20000x35.size a
  h_S20000x35 : 0 < S20000x35.numel
  slices_S100000x35_S100000x3_0_32 : S100000x35.Slices ![0, 32] S100000x3
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  bcast_S3200000_S3200000x35_0 : S3200000.BroadcastsInDim S3200000x35 (![0] : Fin 1 → Fin S3200000x35.rank)
  bcast_S_S3200000x35 : S_.BroadcastsInDim S3200000x35 (![] : Fin 0 → Fin S3200000x35.rank)
  slices_S71x64_S35x64_0_0 : S71x64.Slices ![0, 0] S35x64
  slices_S71x64_S35x64_35_0 : S71x64.Slices ![35, 0] S35x64
  slices_S71x64_S1x64_70_0 : S71x64.Slices ![70, 0] S1x64
  shapeCasts_S64_S1x64 : S64.ShapeCasts S1x64
  inb_S12800x35_S12800x35_0_0 : ∀ a, (![0, 0] : Fin 2 → Nat) a + S12800x35.size a ≤ S12800x35.size a
  h_S12800x35 : 0 < S12800x35.numel
  shapeCasts_S12800x35_S12800x35 : S12800x35.ShapeCasts S12800x35
  inb_S12800x1_S12800x1_0_0 : ∀ a, (![0, 0] : Fin 2 → Nat) a + S12800x1.size a ≤ S12800x1.size a
  h_S12800x1 : 0 < S12800x1.numel
  inb_S35x64_S35x64_0_0 : ∀ a, (![0, 0] : Fin 2 → Nat) a + S35x64.size a ≤ S35x64.size a
  h_S35x64 : 0 < S35x64.numel
  shapeCasts_S35x64_S35x64 : S35x64.ShapeCasts S35x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S12800x64 : S1x64.Broadcasts S12800x64
  inb_S64x32_S64x32_0_0 : ∀ a, (![0, 0] : Fin 2 → Nat) a + S64x32.size a ≤ S64x32.size a
  h_S64x32 : 0 < S64x32.numel
  broadcasts_S1x32_S12800x32 : S1x32.Broadcasts S12800x32
  inb_S12800x32_S12800x32_0_0 : ∀ a, (![0, 0] : Fin 2 → Nat) a + S12800x32.size a ≤ S12800x32.size a
  h_S12800x32 : 0 < S12800x32.numel
  bcast_S_S100000x32 : S_.BroadcastsInDim S100000x32 (![] : Fin 0 → Fin S100000x32.rank)
  concatenates_S100000x32_S100000x3_S100000x35_d1 : Shape.Concatenates [S100000x32, S100000x3] S100000x35 1
  shapeCasts_S1_S1x1 : S1.ShapeCasts S1x1
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S12800x1 : S1x1.Broadcasts S12800x1
  shapeCasts_S3200000x1_S3200000 : S3200000x1.ShapeCasts S3200000
  dot_S20000x3_S3x32_S20000x32_1_0_0_1_n_n_wf : DotDims.WF S20000x3 S3x32 S20000x32 [1] [0] [0] [1] [] []
  dot_S20000x32_S32x32_S20000x32_1_0_0_1_n_n_wf : DotDims.WF S20000x32 S32x32 S20000x32 [1] [0] [0] [1] [] []
  gather_S100000x35_S3200000x1_S3200000x35_1_0_n_n_0_1_135_wf : GatherDims.WF S100000x35 S3200000x1 S3200000x35 [1] [0] [] [0] [] 1 ![1, 35]
  dot_S12800x35_S35x64_S12800x64_1_0_0_1_n_n_wf : DotDims.WF S12800x35 S35x64 S12800x64 [1] [0] [0] [1] [] []
  dot_S12800x1_S1x64_S12800x64_1_0_0_1_n_n_wf : DotDims.WF S12800x1 S1x64 S12800x64 [1] [0] [0] [1] [] []
  dot_S12800x64_S64x32_S12800x32_1_0_0_1_n_n_wf : DotDims.WF S12800x64 S64x32 S12800x32 [1] [0] [0] [1] [] []
  scatter_S100000x32_S3200000x1_S3200000x32_1_0_0_1_wf : ScatterDims.WF S100000x32 S3200000x1 S3200000x32 [1] [0] [0] 1
  dot_S12800x64_S64x1_S12800x1_1_0_0_1_n_n_wf : DotDims.WF S12800x64 S64x1 S12800x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S20000x3.size a ≤ S100000x3.size a
  hwx0_0 : ∀ i : grid0.Coords, EltTy.bits .f32 = 32 ∨ (Rect.block (s := S100000x3) S20000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x3.size a ≤ S1x3.size a
  hwx0_1 : ∀ i : grid0.Coords, EltTy.bits .f32 = 32 ∨ (Rect.block (s := S1x3) S1x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x3.size a ≤ S1x3.size a
  hwx0_2 : ∀ i : grid0.Coords, EltTy.bits .f32 = 32 ∨ (Rect.block (s := S1x3) S1x3.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x3.size a ≤ S1x3.size a
  hwx0_3 : ∀ i : grid0.Coords, EltTy.bits .f32 = 32 ∨ (Rect.block (s := S1x3) S1x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x3.size a ≤ S1x3.size a
  hwx0_4 : ∀ i : grid0.Coords, EltTy.bits .f32 = 32 ∨ (Rect.block (s := S1x3) S1x3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x32.size a ≤ S3x32.size a
  hwx0_5 : ∀ i : grid0.Coords, EltTy.bits .f32 = 32 ∨ (Rect.block (s := S3x32) S3x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x32.size a ≤ S32x32.size a
  hwx0_7 : ∀ i : grid0.Coords, EltTy.bits .f32 = 32 ∨ (Rect.block (s := S32x32) S32x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S20000x35.size a ≤ S100000x35.size a
  hwx0_9 : ∀ i : grid0.Coords, EltTy.bits .f32 = 32 ∨ (Rect.block (s := S100000x35) S20000x35.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S12800x35.size a ≤ S3200000x35.size a
  hwx1_0 : ∀ i : grid1.Coords, EltTy.bits .f32 = 32 ∨ (Rect.block (s := S3200000x35) S12800x35.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S12800x35.size a ≤ S3200000x35.size a
  hwx1_1 : ∀ i : grid1.Coords, EltTy.bits .f32 = 32 ∨ (Rect.block (s := S3200000x35) S12800x35.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S12800x1.size a ≤ S3200000x1.size a
  hwx1_2 : ∀ i : grid1.Coords, EltTy.bits .f32 = 32 ∨ (Rect.block (s := S3200000x1) S12800x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S35x64.size a ≤ S35x64.size a
  hwx1_3 : ∀ i : grid1.Coords, EltTy.bits .f32 = 32 ∨ (Rect.block (s := S35x64) S35x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S35x64.size a ≤ S35x64.size a
  hwx1_4 : ∀ i : grid1.Coords, EltTy.bits .f32 = 32 ∨ (Rect.block (s := S35x64) S35x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x32.size a ≤ S64x32.size a
  hwx1_7 : ∀ i : grid1.Coords, EltTy.bits .f32 = 32 ∨ (Rect.block (s := S64x32) S64x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S12800x32.size a ≤ S3200000x32.size a
  hwx1_9 : ∀ i : grid1.Coords, EltTy.bits .f32 = 32 ∨ (Rect.block (s := S3200000x32) S12800x32.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S12800x35.size a ≤ S3200000x35.size a
  hwx2_0 : ∀ i : grid2.Coords, EltTy.bits .f32 = 32 ∨ (Rect.block (s := S3200000x35) S12800x35.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S12800x35.size a ≤ S3200000x35.size a
  hwx2_1 : ∀ i : grid2.Coords, EltTy.bits .f32 = 32 ∨ (Rect.block (s := S3200000x35) S12800x35.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S12800x1.size a ≤ S3200000x1.size a
  hwx2_2 : ∀ i : grid2.Coords, EltTy.bits .f32 = 32 ∨ (Rect.block (s := S3200000x1) S12800x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S35x64.size a ≤ S35x64.size a
  hwx2_3 : ∀ i : grid2.Coords, EltTy.bits .f32 = 32 ∨ (Rect.block (s := S35x64) S35x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S35x64.size a ≤ S35x64.size a
  hwx2_4 : ∀ i : grid2.Coords, EltTy.bits .f32 = 32 ∨ (Rect.block (s := S35x64) S35x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x1.size a ≤ S64x1.size a
  hwx2_7 : ∀ i : grid2.Coords, EltTy.bits .f32 = 32 ∨ (Rect.block (s := S64x1) S64x1.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x1.size a ≤ S1x1.size a
  hwx2_8 : ∀ i : grid2.Coords, EltTy.bits .f32 = 32 ∨ (Rect.block (s := S1x1) S1x1.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S12800x1.size a ≤ S3200000x1.size a
  hwx2_9 : ∀ i : grid2.Coords, EltTy.bits .f32 = 32 ∨ (Rect.block (s := S3200000x1) S12800x1.size (cc2_transform_9 i) (hinb2_9 i)).WholeWords (EltTy.packing .f32)

variable [Facts₀]

def dot_S20000x3_S3x32_S20000x32_1_0_0_1_n_n : DotDims S20000x3 S3x32 S20000x32 where
  lhsContracting := [1]
  rhsContracting := [0]
  lhsNonContracting := [0]
  rhsNonContracting := [1]
  lhsBatch := []
  rhsBatch := []
  wf := dot_S20000x3_S3x32_S20000x32_1_0_0_1_n_n_wf
def dot_S20000x32_S32x32_S20000x32_1_0_0_1_n_n : DotDims S20000x32 S32x32 S20000x32 where
  lhsContracting := [1]
  rhsContracting := [0]
  lhsNonContracting := [0]
  rhsNonContracting := [1]
  lhsBatch := []
  rhsBatch := []
  wf := dot_S20000x32_S32x32_S20000x32_1_0_0_1_n_n_wf
def gather_S100000x35_S3200000x1_S3200000x35_1_0_n_n_0_1_135 : GatherDims S100000x35 S3200000x1 S3200000x35 where
  offsetDims := [1]
  collapsedSliceDims := [0]
  operandBatchingDims := []
  startIndicesBatchingDims := []
  startIndexMap := [0]
  indexVectorDim := 1
  sliceSizes := ![1, 35]
  wf := gather_S100000x35_S3200000x1_S3200000x35_1_0_n_n_0_1_135_wf
def dot_S12800x35_S35x64_S12800x64_1_0_0_1_n_n : DotDims S12800x35 S35x64 S12800x64 where
  lhsContracting := [1]
  rhsContracting := [0]
  lhsNonContracting := [0]
  rhsNonContracting := [1]
  lhsBatch := []
  rhsBatch := []
  wf := dot_S12800x35_S35x64_S12800x64_1_0_0_1_n_n_wf
def dot_S12800x1_S1x64_S12800x64_1_0_0_1_n_n : DotDims S12800x1 S1x64 S12800x64 where
  lhsContracting := [1]
  rhsContracting := [0]
  lhsNonContracting := [0]
  rhsNonContracting := [1]
  lhsBatch := []
  rhsBatch := []
  wf := dot_S12800x1_S1x64_S12800x64_1_0_0_1_n_n_wf
def dot_S12800x64_S64x32_S12800x32_1_0_0_1_n_n : DotDims S12800x64 S64x32 S12800x32 where
  lhsContracting := [1]
  rhsContracting := [0]
  lhsNonContracting := [0]
  rhsNonContracting := [1]
  lhsBatch := []
  rhsBatch := []
  wf := dot_S12800x64_S64x32_S12800x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S12800x64_S64x1_S12800x1_1_0_0_1_n_n : DotDims S12800x64 S64x1 S12800x1 where
  lhsContracting := [1]
  rhsContracting := [0]
  lhsNonContracting := [0]
  rhsNonContracting := [1]
  lhsBatch := []
  rhsBatch := []
  wf := dot_S12800x64_S64x1_S12800x1_1_0_0_1_n_n_wf

abbrev win0_0 : Pipeline.Window sig grid0 :=
  Pipeline.Window.ofSpec (Memref.whole main_arg0) S20000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x3.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S32x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S20000x35.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v16) S12800x35.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v17) S12800x35.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S12800x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v18) S35x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S35x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v20) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v21) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg11) S64x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v22) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v23) S12800x32.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v28) S12800x35.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S12800x35.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg2) S12800x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S35x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v31) S35x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v32) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v33) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg15) S64x1.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v34) S1x1.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v35) S12800x1.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3200000x1 : Shape := ⟨2, ![3200000, 1]⟩
abbrev S3 : Shape := ⟨1, ![3]⟩
abbrev S3x32 : Shape := ⟨2, ![3, 32]⟩
abbrev S32 : Shape := ⟨1, ![32]⟩
abbrev S32x32 : Shape := ⟨2, ![32, 32]⟩
abbrev S71x64 : Shape := ⟨2, ![71, 64]⟩
abbrev S64 : Shape := ⟨1, ![64]⟩
abbrev S64x32 : Shape := ⟨2, ![64, 32]⟩
abbrev S64x1 : Shape := ⟨2, ![64, 1]⟩
abbrev S1 : Shape := ⟨1, ![1]⟩
abbrev S_ : Shape := ⟨0, ![]⟩
abbrev S1x3 : Shape := ⟨2, ![1, 3]⟩
abbrev S100000x32 : Shape := ⟨2, ![100000, 32]⟩
abbrev S1x32 : Shape := ⟨2, ![1, 32]⟩
abbrev S100000x35 : Shape := ⟨2, ![100000, 35]⟩
abbrev S1x3200000 : Shape := ⟨2, ![1, 3200000]⟩
abbrev S3200000 : Shape := ⟨1, ![3200000]⟩
abbrev S3200000x35 : Shape := ⟨2, ![3200000, 35]⟩
abbrev S3200000x71 : Shape := ⟨2, ![3200000, 71]⟩
abbrev S3200000x64 : Shape := ⟨2, ![3200000, 64]⟩
abbrev S1x64 : Shape := ⟨2, ![1, 64]⟩
abbrev S3200000x32 : Shape := ⟨2, ![3200000, 32]⟩
abbrev S1x1 : Shape := ⟨2, ![1, 1]⟩

abbrev nBuf : Space → Nat
  | .hbm => 154
  | .vmem => 0
  | .smem => 0
  | _ => 0

abbrev hbmTy0_0 (i : Nat) : BufTy := match i % 128 with
  | 0 => ⟨S100000x3, .f32⟩
  | 1 => ⟨S2x3200000, .i32⟩
  | 2 => ⟨S3200000x1, .f32⟩
  | 3 => ⟨S3, .f32⟩
  | 4 => ⟨S3, .f32⟩
  | 5 => ⟨S3x32, .f32⟩
  | 6 => ⟨S32, .f32⟩
  | 7 => ⟨S32x32, .f32⟩
  | 8 => ⟨S32, .f32⟩
  | 9 => ⟨S71x64, .f32⟩
  | 10 => ⟨S64, .f32⟩
  | 11 => ⟨S64x32, .f32⟩
  | 12 => ⟨S32, .f32⟩
  | 13 => ⟨S71x64, .f32⟩
  | 14 => ⟨S64, .f32⟩
  | 15 => ⟨S64x1, .f32⟩
  | 16 => ⟨S1, .f32⟩
  | 17 => ⟨S_, .f32⟩
  | 18 => ⟨S3, .f32⟩
  | 19 => ⟨S_, .f32⟩
  | 20 => ⟨S3, .f32⟩
  | 21 => ⟨S3, .f32⟩
  | 22 => ⟨S_, .i32⟩
  | 23 => ⟨S_, .f32⟩
  | 24 => ⟨S3, .f32⟩
  | 25 => ⟨S1x3, .f32⟩
  | 26 => ⟨S_, .f32⟩
  | 27 => ⟨S1x3, .f32⟩
  | 28 => ⟨S1x3, .f32⟩
  | 29 => ⟨S100000x3, .f32⟩
  | 30 => ⟨S100000x3, .f32⟩
  | 31 => ⟨S100000x3, .f32⟩
  | 32 => ⟨S_, .f32⟩
  | 33 => ⟨S_, .f32⟩
  | 34 => ⟨S_, .f32⟩
  | 35 => ⟨S_, .f32⟩
  | 36 => ⟨S3, .f32⟩
  | 37 => ⟨S3, .f32⟩
  | 38 => ⟨S3, .f32⟩
  | 39 => ⟨S_, .f32⟩
  | 40 => ⟨S_, .i1⟩
  | 41 => ⟨S_, .f32⟩
  | 42 => ⟨S_, .f32⟩
  | 43 => ⟨S3, .f32⟩
  | 44 => ⟨S3, .f32⟩
  | 45 => ⟨S1x3, .f32⟩
  | 46 => ⟨S100000x3, .f32⟩
  | 47 => ⟨S100000x3, .f32⟩
  | 48 => ⟨S_, .f32⟩
  | 49 => ⟨S3, .f32⟩
  | 50 => ⟨S3, .f32⟩
  | 51 => ⟨S3, .f32⟩
  | 52 => ⟨S1x3, .f32⟩
  | 53 => ⟨S100000x3, .f32⟩
  | 54 => ⟨S100000x3, .f32⟩
  | 55 => ⟨S1x3, .f32⟩
  | 56 => ⟨S100000x3, .f32⟩
  | 57 => ⟨S100000x3, .f32⟩
  | 58 => ⟨S1x3, .f32⟩
  | 59 => ⟨S100000x3, .f32⟩
  | 60 => ⟨S100000x3, .f32⟩
  | 61 => ⟨S100000x32, .f32⟩
  | 62 => ⟨S1x32, .f32⟩
  | 63 => ⟨S100000x32, .f32⟩
  | 64 => ⟨S100000x32, .f32⟩
  | 65 => ⟨S_, .f32⟩
  | 66 => ⟨S100000x32, .f32⟩
  | 67 => ⟨S100000x32, .f32⟩
  | 68 => ⟨S100000x32, .f32⟩
  | 69 => ⟨S1x32, .f32⟩
  | 70 => ⟨S100000x32, .f32⟩
  | 71 => ⟨S100000x32, .f32⟩
  | 72 => ⟨S100000x32, .f32⟩
  | 73 => ⟨S100000x35, .f32⟩
  | 74 => ⟨S1x3200000, .i32⟩
  | 75 => ⟨S3200000, .i32⟩
  | 76 => ⟨S1x3200000, .i32⟩
  | 77 => ⟨S3200000, .i32⟩
  | 78 => ⟨S_, .i32⟩
  | 79 => ⟨S3200000, .i32⟩
  | 80 => ⟨S3200000, .i1⟩
  | 81 => ⟨S_, .i32⟩
  | 82 => ⟨S3200000, .i32⟩
  | 83 => ⟨S3200000, .i32⟩
  | 84 => ⟨S3200000, .i32⟩
  | 85 => ⟨S3200000x1, .i32⟩
  | 86 => ⟨S3200000x35, .f32⟩
  | 87 => ⟨S_, .i32⟩
  | 88 => ⟨S3200000, .i32⟩
  | 89 => ⟨S3200000, .i1⟩
  | 90 => ⟨S_, .i32⟩
  | 91 => ⟨S3200000, .i32⟩
  | 92 => ⟨S3200000, .i32⟩
  | 93 => ⟨S3200000, .i32⟩
  | 94 => ⟨S3200000x1, .i32⟩
  | 95 => ⟨S3200000x35, .f32⟩
  | 96 => ⟨S3200000x35, .f32⟩
  | 97 => ⟨S3200000x71, .f32⟩
  | 98 => ⟨S3200000x64, .f32⟩
  | 99 => ⟨S1x64, .f32⟩
  | 100 => ⟨S3200000x64, .f32⟩
  | 101 => ⟨S3200000x64, .f32⟩
  | 102 => ⟨S_, .f32⟩
  | 103 => ⟨S3200000x64, .f32⟩
  | 104 => ⟨S3200000x64, .f32⟩
  | 105 => ⟨S3200000x32, .f32⟩
  | 106 => ⟨S1x32, .f32⟩
  | 107 => ⟨S3200000x32, .f32⟩
  | 108 => ⟨S3200000x32, .f32⟩
  | 109 => ⟨S3200000x32, .f32⟩
  | 110 => ⟨S_, .f32⟩
  | 111 => ⟨S100000x32, .f32⟩
  | 112 => ⟨S3200000x1, .i32⟩
  | 113 => ⟨S100000x32, .f32⟩
  | 114 => ⟨S100000x35, .f32⟩
  | 115 => ⟨S_, .i32⟩
  | 116 => ⟨S3200000, .i32⟩
  | 117 => ⟨S3200000, .i1⟩
  | 118 => ⟨S_, .i32⟩
  | 119 => ⟨S3200000, .i32⟩
  | 120 => ⟨S3200000, .i32⟩
  | 121 => ⟨S3200000, .i32⟩
  | 122 => ⟨S3200000x1, .i32⟩
  | 123 => ⟨S3200000x35, .f32⟩
  | 124 => ⟨S_, .i32⟩
  | 125 => ⟨S3200000, .i32⟩
  | 126 => ⟨S3200000, .i1⟩
  | 127 => ⟨S_, .i32⟩
  | _ => ⟨S100000x3, .f32⟩

abbrev hbmTy0_1 (i : Nat) : BufTy := match i % 128 with
  | 0 => ⟨S3200000, .i32⟩
  | 1 => ⟨S3200000, .i32⟩
  | 2 => ⟨S3200000, .i32⟩
  | 3 => ⟨S3200000x1, .i32⟩
  | 4 => ⟨S3200000x35, .f32⟩
  | 5 => ⟨S3200000x71, .f32⟩
  | 6 => ⟨S3200000x64, .f32⟩
  | 7 => ⟨S1x64, .f32⟩
  | 8 => ⟨S3200000x64, .f32⟩
  | 9 => ⟨S3200000x64, .f32⟩
  | 10 => ⟨S_, .f32⟩
  | 11 => ⟨S3200000x64, .f32⟩
  | 12 => ⟨S3200000x64, .f32⟩
  | 13 => ⟨S3200000x1, .f32⟩
  | 14 => ⟨S1x1, .f32⟩
  | 15 => ⟨S3200000x1, .f32⟩
  | 16 => ⟨S3200000x1, .f32⟩
  | 17 => ⟨S3200000x1, .f32⟩
  | 18 => ⟨S3200000x1, .f32⟩
  | 19 => ⟨S_, .f32⟩
  | 20 => ⟨S3200000x1, .f32⟩
  | 21 => ⟨S3200000x1, .f32⟩
  | 22 => ⟨S_, .f32⟩
  | 23 => ⟨S3200000x1, .f32⟩
  | 24 => ⟨S3200000x1, .f32⟩
  | 25 => ⟨S3200000, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_cst : Ref sig .tc := ⟨.hbm, 17, rfl⟩
abbrev main_v0 : Ref sig .tc := ⟨.hbm, 18, rfl⟩
abbrev main_cst_0 : Ref sig .tc := ⟨.hbm, 19, rfl⟩
abbrev main_v1 : Ref sig .tc := ⟨.hbm, 20, rfl⟩
abbrev main_v2 : Ref sig .tc := ⟨.hbm, 21, rfl⟩
abbrev main_c : Ref sig .tc := ⟨.hbm, 22, rfl⟩
abbrev main_call0_cst : Ref sig .tc := ⟨.hbm, 23, rfl⟩
abbrev main_call0_v0 : Ref sig .tc := ⟨.hbm, 24, rfl⟩
abbrev main_call0_v1 : Ref sig .tc := ⟨.hbm, 25, rfl⟩
abbrev main_call0_cst_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_v6 : Ref sig .tc := ⟨.hbm, 31, rfl⟩
abbrev main_call0_v7 : Ref sig .tc := ⟨.hbm, 32, rfl⟩
abbrev main_call0_cst_1 : Ref sig .tc := ⟨.hbm, 33, rfl⟩
abbrev main_call0_v8 : Ref sig .tc := ⟨.hbm, 34, rfl⟩
abbrev main_call0_cst_2 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_cst_3 : Ref sig .tc := ⟨.hbm, 39, rfl⟩
abbrev main_call0_v12 : Ref sig .tc := ⟨.hbm, 40, rfl⟩
abbrev main_call0_cst_4 : Ref sig .tc := ⟨.hbm, 41, rfl⟩
abbrev main_call0_call0_v0 : Ref sig .tc := ⟨.hbm, 42, rfl⟩
abbrev main_call0_call0_v1 : Ref sig .tc := ⟨.hbm, 43, rfl⟩
abbrev main_v3 : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_cst_1 : Ref sig .tc := ⟨.hbm, 48, rfl⟩
abbrev main_v7 : Ref sig .tc := ⟨.hbm, 49, rfl⟩
abbrev main_v8 : Ref sig .tc := ⟨.hbm, 50, rfl⟩
abbrev main_v9 : Ref sig .tc := ⟨.hbm, 51, rfl⟩
abbrev main_v10 : Ref sig .tc := ⟨.hbm, 52, rfl⟩
abbrev main_v11 : Ref sig .tc := ⟨.hbm, 53, rfl⟩
abbrev main_v12 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_call1_cst : Ref sig .tc := ⟨.hbm, 65, rfl⟩
abbrev main_call1_v0 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_v33 : Ref sig .tc := ⟨.hbm, 77, rfl⟩
abbrev main_c_2 : Ref sig .tc := ⟨.hbm, 78, rfl⟩
abbrev main_v34 : Ref sig .tc := ⟨.hbm, 79, rfl⟩
abbrev main_v35 : Ref sig .tc := ⟨.hbm, 80, rfl⟩
abbrev main_c_3 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_c_4 : Ref sig .tc := ⟨.hbm, 87, rfl⟩
abbrev main_v41 : Ref sig .tc := ⟨.hbm, 88, rfl⟩
abbrev main_v42 : Ref sig .tc := ⟨.hbm, 89, rfl⟩
abbrev main_c_5 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49 : Ref sig .tc := ⟨.hbm, 97, rfl⟩
abbrev main_v50 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_call2_cst : Ref sig .tc := ⟨.hbm, 102, rfl⟩
abbrev main_call2_v0 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_v59 : Ref sig .tc := ⟨.hbm, 109, rfl⟩
abbrev main_cst_6 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_c_7 : Ref sig .tc := ⟨.hbm, 115, rfl⟩
abbrev main_v64 : Ref sig .tc := ⟨.hbm, 116, rfl⟩
abbrev main_v65 : Ref sig .tc := ⟨.hbm, 117, rfl⟩
abbrev main_c_8 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_c_9 : Ref sig .tc := ⟨.hbm, 124, rfl⟩
abbrev main_v71 : Ref sig .tc := ⟨.hbm, 125, rfl⟩
abbrev main_v72 : Ref sig .tc := ⟨.hbm, 126, rfl⟩
abbrev main_c_10 : Ref sig .tc := ⟨.hbm, 127, rfl⟩
abbrev main_v73 : Ref sig .tc := ⟨.hbm, 128, rfl⟩
abbrev main_v74 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_call3_cst : Ref sig .tc := ⟨.hbm, 138, rfl⟩
abbrev main_call3_v0 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_cst_11 : Ref sig .tc := ⟨.hbm, 147, rfl⟩
abbrev main_v90 : Ref sig .tc := ⟨.hbm, 148, rfl⟩
abbrev main_v91 : Ref sig .tc := ⟨.hbm, 149, rfl⟩
abbrev main_cst_12 : Ref sig .tc := ⟨.hbm, 150, rfl⟩
abbrev main_v92 : Ref sig .tc := ⟨.hbm, 151, rfl⟩
abbrev main_v93 : Ref sig .tc := ⟨.hbm, 152, rfl⟩
abbrev main_v94 : Ref sig .tc := ⟨.hbm, 153, rfl⟩

abbrev nD : Nat := 1
abbrev τ : Topo := Topo.v7x

variable {F : FTy → Type} [FloatOps F]

class Facts₀ : Prop where
  reducesTo_S100000x3_S3_d0 : S100000x3.ReducesTo [0] S3
  h_S_ : 0 < S_.numel
  bcast_S_S3 : S_.BroadcastsInDim S3 (![] : Fin 0 → Fin S3.rank)
  bcast_S3_S1x3_1 : S3.BroadcastsInDim S1x3 (![1] : Fin 1 → Fin S1x3.rank)
  bcast_S_S1x3 : S_.BroadcastsInDim S1x3 (![] : Fin 0 → Fin S1x3.rank)
  bcast_S1x3_S100000x3_0_1 : S1x3.BroadcastsInDim S100000x3 (![0, 1] : Fin 2 → Fin S100000x3.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  concatenates_S100000x32_S100000x3_S100000x35_d1 : Shape.Concatenates [S100000x32, S100000x3] S100000x35 1
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x35_S3200000x35_S3200000x1_S3200000x71_d1 : Shape.Concatenates [S3200000x35, S3200000x35, S3200000x1] S3200000x71 1
  bcast_S64_S1x64_1 : S64.BroadcastsInDim S1x64 (![1] : Fin 1 → Fin S1x64.rank)
  bcast_S1x64_S3200000x64_0_1 : S1x64.BroadcastsInDim S3200000x64 (![0, 1] : Fin 2 → Fin S3200000x64.rank)
  bcast_S_S3200000x64 : S_.BroadcastsInDim S3200000x64 (![] : Fin 0 → Fin S3200000x64.rank)
  bcast_S1x32_S3200000x32_0_1 : S1x32.BroadcastsInDim S3200000x32 (![0, 1] : Fin 2 → Fin S3200000x32.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  bcast_S_S3200000x1 : S_.BroadcastsInDim S3200000x1 (![] : Fin 0 → Fin S3200000x1.rank)
  shapeCasts_S3200000x1_S3200000 : S3200000x1.ShapeCasts S3200000
  dot_S100000x3_S3x32_S100000x32_1_0_0_1_n_n_wf : DotDims.WF S100000x3 S3x32 S100000x32 [1] [0] [0] [1] [] []
  dot_S100000x32_S32x32_S100000x32_1_0_0_1_n_n_wf : DotDims.WF S100000x32 S32x32 S100000x32 [1] [0] [0] [1] [] []
  gather_S100000x35_S3200000x1_S3200000x35_1_0_n_n_0_1_135_wf : GatherDims.WF S100000x35 S3200000x1 S3200000x35 [1] [0] [] [0] [] 1 ![1, 35]
  dot_S3200000x71_S71x64_S3200000x64_1_0_0_1_n_n_wf : DotDims.WF S3200000x71 S71x64 S3200000x64 [1] [0] [0] [1] [] []
  dot_S3200000x64_S64x32_S3200000x32_1_0_0_1_n_n_wf : DotDims.WF S3200000x64 S64x32 S3200000x32 [1] [0] [0] [1] [] []
  scatter_S100000x32_S3200000x1_S3200000x32_1_0_0_1_wf : ScatterDims.WF S100000x32 S3200000x1 S3200000x32 [1] [0] [0] 1
  dot_S3200000x64_S64x1_S3200000x1_1_0_0_1_n_n_wf : DotDims.WF S3200000x64 S64x1 S3200000x1 [1] [0] [0] [1] [] []

variable [Facts₀]

def dot_S100000x3_S3x32_S100000x32_1_0_0_1_n_n : DotDims S100000x3 S3x32 S100000x32 where
  lhsContracting := [1]
  rhsContracting := [0]
  lhsNonContracting := [0]
  rhsNonContracting := [1]
  lhsBatch := []
  rhsBatch := []
  wf := dot_S100000x3_S3x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x35_S3200000x1_S3200000x35_1_0_n_n_0_1_135 : GatherDims S100000x35 S3200000x1 S3200000x35 where
  offsetDims := [1]
  collapsedSliceDims := [0]
  operandBatchingDims := []
  startIndicesBatchingDims := []
  startIndexMap := [0]
  indexVectorDim := 1
  sliceSizes := ![1, 35]
  wf := gather_S100000x35_S3200000x1_S3200000x35_1_0_n_n_0_1_135_wf
def dot_S3200000x71_S71x64_S3200000x64_1_0_0_1_n_n : DotDims S3200000x71 S71x64 S3200000x64 where
  lhsContracting := [1]
  rhsContracting := [0]
  lhsNonContracting := [0]
  rhsNonContracting := [1]
  lhsBatch := []
  rhsBatch := []
  wf := dot_S3200000x71_S71x64_S3200000x64_1_0_0_1_n_n_wf
def dot_S3200000x64_S64x32_S3200000x32_1_0_0_1_n_n : DotDims S3200000x64 S64x32 S3200000x32 where
  lhsContracting := [1]
  rhsContracting := [0]
  lhsNonContracting := [0]
  rhsNonContracting := [1]
  lhsBatch := []
  rhsBatch := []
  wf := dot_S3200000x64_S64x32_S3200000x32_1_0_0_1_n_n_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S3200000x64_S64x1_S3200000x1_1_0_0_1_n_n : DotDims S3200000x64 S64x1 S3200000x1 where
  lhsContracting := [1]
  rhsContracting := [0]
  lhsNonContracting := [0]
  rhsNonContracting := [1]
  lhsBatch := []
  rhsBatch := []
  wf := dot_S3200000x64_S64x1_S3200000x1_1_0_0_1_n_n_wf

class Facts : Prop extends Facts₀ where

variable [Facts]
-- ==== Proof.Spec.lean ====
/-
  The specification: what each of the three dense stages computes, as ONE function of whole arrays, index by index,
  over the extended reals.  A node's row is its three batch-normalised inputs `xn` (centred, scaled by the inverse
  root of variance plus epsilon, then the affine pair) behind the 32 outputs of a two-layer perceptron (a rectified
  hidden layer, a hyperbolic tangent).  An edge's hidden layer `hidE` is the rectified sum of three inner products —
  the first 35 rows of the 71-row weight with the first feature row, the next 35 with the second, the last with the
  edge attribute — plus the bias; the message stage feeds it the difference of the two gathered rows and closes
  with a hyperbolic tangent, the output stage feeds it the second row itself and closes with the logistic function.
-/
import Idealize.ShloMosaic.PureOps.Ideal
import Idealize.ShloMosaic.Lib.ValueIdx

noncomputable section

namespace Cert.Spec

open Idealize.ShloMosaic Idealize.ShloMosaic.ValueIdx

abbrev Nx3 : Shape := ⟨2, ![100000, 3]⟩
abbrev Nx32 : Shape := ⟨2, ![100000, 32]⟩
abbrev Nx35 : Shape := ⟨2, ![100000, 35]⟩
abbrev Ex35 : Shape := ⟨2, ![3200000, 35]⟩
abbrev Ex32 : Shape := ⟨2, ![3200000, 32]⟩
abbrev Ex1 : Shape := ⟨2, ![3200000, 1]⟩
abbrev V3 : Shape := ⟨1, ![3]⟩
abbrev V32 : Shape := ⟨1, ![32]⟩
abbrev V64 : Shape := ⟨1, ![64]⟩
abbrev V1 : Shape := ⟨1, ![1]⟩
abbrev M3x32 : Shape := ⟨2, ![3, 32]⟩
abbrev M32x32 : Shape := ⟨2, ![32, 32]⟩
abbrev M71x64 : Shape := ⟨2, ![71, 64]⟩
abbrev M64x32 : Shape := ⟨2, ![64, 32]⟩
abbrev M64x1 : Shape := ⟨2, ![64, 1]⟩

/-- The batch-norm epsilon, the f32 nearest 1e-5, as the real it denotes. -/
def eps : EReal := Ideal.ofBits .f32 0x3727C5AC#32

/-- Normalised input feature `k` of node `p`. -/
def xn (X : Nx3.Idx → EReal) (MU VAR G B : V3.Idx → EReal) (p : Fin 100000) (k : Fin 3) : EReal :=
  (X (ix2 p k) - MU (ix1 k)) * Ideal.rsqrt (VAR (ix1 k) + eps) * G (ix1 k) + B (ix1 k)

/-- Hidden unit `k` of node `p`'s input perceptron. -/
def hid0 (X : Nx3.Idx → EReal) (MU VAR G B : V3.Idx → EReal) (W1 : M3x32.Idx → EReal) (B1 : V32.Idx → EReal)
    (p : Fin 100000) (k : Fin 32) : EReal :=
  max ((∑ i : Fin 3, xn X MU VAR G B p i * W1 (ix2 i k)) + B1 (ix1 k)) 0

/-- Entry `q` of node `p`'s 35-wide row: the perceptron's 32 outputs, then the 3 normalised inputs. -/
def g0 (X : Nx3.Idx → EReal) (MU VAR G B : V3.Idx → EReal) (W1 : M3x32.Idx → EReal) (B1 : V32.Idx → EReal)
    (W2 : M32x32.Idx → EReal) (B2 : V32.Idx → EReal) (p : Fin 100000) (q : Fin 35) : EReal :=
  if h : q.val < 32 then
    Ideal.tanh ((∑ k : Fin 32, hid0 X MU VAR G B W1 B1 p k * W2 (ix2 k ⟨q.val, h⟩)) + B2 (ix1 ⟨q.val, h⟩))
  else xn X MU VAR G B p ⟨q.val - 32, by omega⟩

/-- The node table. -/
def G0 (X : Nx3.Idx → EReal) (MU VAR G B : V3.Idx → EReal) (W1 : M3x32.Idx → EReal) (B1 : V32.Idx → EReal)
    (W2 : M32x32.Idx → EReal) (B2 : V32.Idx → EReal) : Nx35.Idx → EReal :=
  fun i => g0 X MU VAR G B W1 B1 W2 B2 (i 0) (i 1)

/-- Hidden unit `k` of edge `e`: rows 0–34 of the weight meet `A`'s row, rows 35–69 meet `D`'s, row 70 the attribute. -/
def hidE (A D : Ex35.Idx → EReal) (EA : Ex1.Idx → EReal) (W1 : M71x64.Idx → EReal) (B1 : V64.Idx → EReal)
    (e : Fin 3200000) (k : Fin 64) : EReal :=
  max (((((∑ i : Fin 35, A (ix2 e i) * W1 (ix2 (⟨i.val, by omega⟩ : Fin 71) k))
        + (∑ i : Fin 35, D (ix2 e i) * W1 (ix2 (⟨35 + i.val, by omega⟩ : Fin 71) k)))
        + (∑ i : Fin 1, EA (ix2 e i) * W1 (ix2 (⟨70 + i.val, by omega⟩ : Fin 71) k)))
        + B1 (ix1 k))) 0

/-- Message entry `j` of edge `e`. -/
def g1 (A Bm : Ex35.Idx → EReal) (EA : Ex1.Idx → EReal) (W1 : M71x64.Idx → EReal) (B1 : V64.Idx → EReal)
    (W2 : M64x32.Idx → EReal) (B2 : V32.Idx → EReal) (e : Fin 3200000) (j : Fin 32) : EReal :=
  Ideal.tanh ((∑ k : Fin 64, hidE A (fun i => Bm i - A i) EA W1 B1 e k * W2 (ix2 k j)) + B2 (ix1 j))

/-- The message table. -/
def G1 (A Bm : Ex35.Idx → EReal) (EA : Ex1.Idx → EReal) (W1 : M71x64.Idx → EReal) (B1 : V64.Idx → EReal)
    (W2 : M64x32.Idx → EReal) (B2 : V32.Idx → EReal) : Ex32.Idx → EReal :=
  fun i => g1 A Bm EA W1 B1 W2 B2 (i 0) (i 1)

/-- Output entry of edge `e` (`j` ranges over the one column). -/
def g2 (A Bm : Ex35.Idx → EReal) (EA : Ex1.Idx → EReal) (W1 : M71x64.Idx → EReal) (B1 : V64.Idx → EReal)
    (W2 : M64x1.Idx → EReal) (B2 : V1.Idx → EReal) (e : Fin 3200000) (j : Fin 1) : EReal :=
  Ideal.logistic ((∑ k : Fin 64, hidE A Bm EA W1 B1 e k * W2 (ix2 k j)) + B2 (ix1 j))

/-- The output column. -/
def G2 (A Bm : Ex35.Idx → EReal) (EA : Ex1.Idx → EReal) (W1 : M71x64.Idx → EReal) (B1 : V64.Idx → EReal)
    (W2 : M64x1.Idx → EReal) (B2 : V1.Idx → EReal) : Ex1.Idx → EReal :=
  fun i => g2 A Bm EA W1 B1 W2 B2 (i 0) (i 1)

theorem G0_ix2 (X MU VAR G B W1 B1 W2 B2) (p : Fin 100000) (q : Fin 35) :
    G0 X MU VAR G B W1 B1 W2 B2 (ix2 p q) = g0 X MU VAR G B W1 B1 W2 B2 p q := rfl
theorem G1_ix2 (A Bm EA W1 B1 W2 B2) (e : Fin 3200000) (j : Fin 32) :
    G1 A Bm EA W1 B1 W2 B2 (ix2 e j) = g1 A Bm EA W1 B1 W2 B2 e j := rfl
theorem G2_ix2 (A Bm EA W1 B1 W2 B2) (e : Fin 3200000) (j : Fin 1) :
    G2 A Bm EA W1 B1 W2 B2 (ix2 e j) = g2 A Bm EA W1 B1 W2 B2 e j := rfl

end Cert.Spec

end
-- ==== Proof.KTerms.lean ====
/-
  The kernel program's row gather: indices wrapped once from below, the rows of the table read at them, and every
  row whose wrapped index falls outside [0, 99999] replaced by the not-a-number pattern.
-/
import proofs.«411465_j83708912599063_2_alg».proof.Proof.Gen.KernelIdeal

noncomputable section

namespace Cert.KernelIdeal.Terms

open Idealize.ShloMosaic Idealize.SL.Sem
open Cert.KernelIdeal Cert.KernelIdeal.Gen

variable {F : FTy → Type} [FloatOps F]

/-- Indices wrapped once from below, as a column. -/
def wrap (I : IVec S3200000 32) : IVec S3200000x1 32 :=
  broadcastInDim S3200000x1 ![0] bcast_S3200000_S3200000x1_0
    (select (cmpi .slt I (broadcastInDim S3200000 ![] bcast_S_S3200000 (constantI S_ 32 0#32)))
      (addi I (broadcastInDim S3200000 ![] bcast_S_S3200000 (constantI S_ 32 100000#32))) I)

/-- Per row: is the wrapped index within [0, 99999]? -/
def inRange (I : IVec S3200000 32) : IVec S3200000 1 :=
  Host.reduce IntOp.andi
    (andi (cmpi .sge (wrap I) (broadcastInDim S3200000x1 ![] bcast_S_S3200000x1 (constantI S_ 32 0#32)))
      (cmpi .sle (wrap I) (broadcastInDim S3200000x1 ![0, 1] bcast_S1x1_S3200000x1_0_1
        (broadcastInDim S1x1 ![1] bcast_S1_S1x1_1 (constantI S1 32 99999#32)))))
    (constantI S_ 1 1#1) reducesTo_S3200000x1_S3200000_d1 h_S_

/-- Rows gathered at wrapped indices, out-of-range rows filled with the not-a-number pattern. -/
def takeFill (T : FVec F S100000x35 .f32) (I : IVec S3200000 32) : FVec F S3200000x35 .f32 :=
  select (broadcastInDim S3200000x35 ![0] bcast_S3200000_S3200000x35_0 (inRange I))
    (Host.gather gather_S100000x35_S3200000x1_S3200000x35_1_0_n_n_0_1_135 T (wrap I))
    (broadcastInDim S3200000x35 ![] bcast_S_S3200000x35 (constant S_ .f32 0x7FC00000#32))

end Cert.KernelIdeal.Terms

end
-- ==== Proof.RTerms.lean ====
/-
  The reference's stages as whole-array functions: the column mean and the (biased) column variance of the node
  inputs, the normalised inputs, the node table (perceptron outputs beside the normalised inputs), a row gather at
  indices wrapped once from below, the message table (the perceptron of the concatenated gathered row, row
  difference and attribute), the scatter-add of messages onto their target nodes, and the output column.  Each is
  spelt with the very operations the reference program applies, so that the program's fold over its operations is
  these functions composed.
-/
import proofs.«411465_j83708912599063_2_alg».proof.Proof.Gen.ReferenceIdeal

noncomputable section

namespace Cert.ReferenceIdeal.Terms

open Idealize.ShloMosaic Idealize.SL.Sem
open Cert.ReferenceIdeal Cert.ReferenceIdeal.Gen

variable {F : FTy → Type} [FloatOps F]

/-- Column means: the column sums over 100000. -/
def mean (X : FVec F S100000x3 .f32) : FVec F S3 .f32 :=
  Host.divf (Host.reduceAdd X (constant S_ .f32 0x00000000#32) reducesTo_S100000x3_S3_d0 h_S_)
    (broadcastInDim S3 ![] bcast_S_S3 (constant S_ .f32 0x47C35000#32))

/-- The centred inputs of the variance: each entry less its column's mean (the mean kept as a [1, 3] row). -/
def centred (X : FVec F S100000x3 .f32) : FVec F S100000x3 .f32 :=
  subf X (broadcastInDim S100000x3 ![0, 1] bcast_S1x3_S100000x3_0_1
    (Host.divf (broadcastInDim S1x3 ![1] bcast_S3_S1x3_1 (Host.reduceAdd X (constant S_ .f32 0x00000000#32) reducesTo_S100000x3_S3_d0 h_S_))
      (broadcastInDim S1x3 ![] bcast_S_S1x3 (constant S_ .f32 0x47C35000#32))))

/-- The divisor of the variance: 100000 less the zero degrees of freedom removed. -/
def dof : FVec F S_ .f32 :=
  subf (constant S_ .f32 0x47C35000#32) (sitofp .f32 (constantI S_ 32 0#32))

/-- Column variances: the column sums of the squared centred inputs over the divisor, where the divisor is positive. -/
def var (X : FVec F S100000x3 .f32) : FVec F S3 .f32 :=
  select (broadcastInDim S3 ![] bcast_S_S3 (cmpf .ogt (dof (F := F)) (constant S_ .f32 0x00000000#32)))
    (Host.divf (Host.reduceAdd (mulf (centred X) (centred X)) (constant S_ .f32 0x00000000#32) reducesTo_S100000x3_S3_d0 h_S_)
      (broadcastInDim S3 ![] bcast_S_S3 (dof (F := F))))
    (broadcastInDim S3 ![] bcast_S_S3 (id (constant S_ .f32 0x7FC00000#32)))

/-- A length-3 vector laid along every row of a [100000, 3] array. -/
def rows3 (v : FVec F S3 .f32) : FVec F S100000x3 .f32 :=
  broadcastInDim S100000x3 ![0, 1] bcast_S1x3_S100000x3_0_1 (broadcastInDim S1x3 ![1] bcast_S3_S1x3_1 v)

/-- The normalised inputs. -/
def xnorm (X : FVec F S100000x3 .f32) (MU VAR G B : FVec F S3 .f32) : FVec F S100000x3 .f32 :=
  addf (mulf (Host.divf (subf X (rows3 MU))
      (rows3 (Host.sqrt (addf VAR (broadcastInDim S3 ![] bcast_S_S3 (constant S_ .f32 0x3727C5AC#32))))))
    (rows3 G)) (rows3 B)

/-- The node table: the two-layer perceptron of the normalised inputs beside the normalised inputs. -/
def xc (XN : FVec F S100000x3 .f32) (W1 : FVec F S3x32 .f32) (B1 : FVec F S32 .f32) (W2 : FVec F S32x32 .f32) (B2 : FVec F S32 .f32) :
    FVec F S100000x35 .f32 :=
  concatenate S100000x35 1
    [⟨S100000x32, Host.tanh (addf (Host.dotGeneral dot_S100000x32_S32x32_S100000x32_1_0_0_1_n_n none
        (maximumf (addf (Host.dotGeneral dot_S100000x3_S3x32_S100000x32_1_0_0_1_n_n none XN W1)
            (broadcastInDim S100000x32 ![0, 1] bcast_S1x32_S100000x32_0_1 (broadcastInDim S1x32 ![1] bcast_S32_S1x32_1 B1)))
          (broadcastInDim S100000x32 ![] bcast_S_S100000x32 (constant S_ .f32 0x00000000#32))) W2)
        (broadcastInDim S100000x32 ![0, 1] bcast_S1x32_S100000x32_0_1 (broadcastInDim S1x32 ![1] bcast_S32_S1x32_1 B2)))⟩,
     ⟨S100000x3, XN⟩] concatenates_S100000x32_S100000x3_S100000x35_d1

/-- One row of the edge-index pair. -/
def idxRow0 (I : IVec S2x3200000 32) : IVec S3200000 32 :=
  fun i => shapeCast S3200000 (extractStridedSlice S1x3200000 ![0, 0] I slices_S2x3200000_S1x3200000_0_0) shapeCasts_S1x3200000_S3200000 i
def idxRow1 (I : IVec S2x3200000 32) : IVec S3200000 32 :=
  fun i => shapeCast S3200000 (extractStridedSlice S1x3200000 ![1, 0] I slices_S2x3200000_S1x3200000_1_0) shapeCasts_S1x3200000_S3200000 i

/-- Indices wrapped once from below (a negative index counts from the end), as a column. -/
def wrap (I : IVec S3200000 32) : IVec S3200000x1 32 :=
  broadcastInDim S3200000x1 ![0] bcast_S3200000_S3200000x1_0
    (select (cmpi .slt I (broadcastInDim S3200000 ![] bcast_S_S3200000 (constantI S_ 32 0#32)))
      (addi I (broadcastInDim S3200000 ![] bcast_S_S3200000 (constantI S_ 32 100000#32))) I)

/-- Rows of a node table gathered at wrapped indices. -/
def gat (T : FVec F S100000x35 .f32) (I : IVec S3200000 32) : FVec F S3200000x35 .f32 :=
  Host.gather gather_S100000x35_S3200000x1_S3200000x35_1_0_n_n_0_1_135 T (wrap I)

/-- The hidden layer of an edge perceptron over the 71-wide concatenation. -/
def hidden (M : FVec F S3200000x71 .f32) (W1 : FVec F S71x64 .f32) (B1 : FVec F S64 .f32) : FVec F S3200000x64 .f32 :=
  maximumf (addf (Host.dotGeneral dot_S3200000x71_S71x64_S3200000x64_1_0_0_1_n_n none M W1)
      (broadcastInDim S3200000x64 ![0, 1] bcast_S1x64_S3200000x64_0_1 (broadcastInDim S1x64 ![1] bcast_S64_S1x64_1 B1)))
    (broadcastInDim S3200000x64 ![] bcast_S_S3200000x64 (constant S_ .f32 0x00000000#32))

/-- The message table. -/
def msg (XI XJ : FVec F S3200000x35 .f32) (EA : FVec F S3200000x1 .f32) (W1 : FVec F S71x64 .f32) (B1 : FVec F S64 .f32)
    (W2 : FVec F S64x32 .f32) (B2 : FVec F S32 .f32) : FVec F S3200000x32 .f32 :=
  Host.tanh (addf (Host.dotGeneral dot_S3200000x64_S64x32_S3200000x32_1_0_0_1_n_n none
      (hidden (concatenate S3200000x71 1 [⟨S3200000x35, XI⟩, ⟨S3200000x35, subf XJ XI⟩, ⟨S3200000x1, EA⟩]
        concatenates_S3200000x35_S3200000x35_S3200000x1_S3200000x71_d1) W1 B1) W2)
    (broadcastInDim S3200000x32 ![0, 1] bcast_S1x32_S3200000x32_0_1 (broadcastInDim S1x32 ![1] bcast_S32_S1x32_1 B2)))

/-- Messages summed onto their target nodes. -/
def agg (M : FVec F S3200000x32 .f32) (I : IVec S3200000 32) : FVec F S100000x32 .f32 :=
  Host.scatterAdd scatter_S100000x32_S3200000x1_S3200000x32_1_0_0_1
    (broadcastInDim S100000x32 ![] bcast_S_S100000x32 (constant S_ .f32 0x00000000#32))
    (broadcastInDim S3200000x1 ![0] bcast_S3200000_S3200000x1_0 I) M

/-- The second node table: aggregated messages beside the normalised inputs. -/
def xc2 (H : FVec F S100000x32 .f32) (XN : FVec F S100000x3 .f32) : FVec F S100000x35 .f32 :=
  concatenate S100000x35 1 [⟨S100000x32, H⟩, ⟨S100000x3, XN⟩] concatenates_S100000x32_S100000x3_S100000x35_d1

/-- The pre-activation of the output perceptron. -/
def logit (EI EJ : FVec F S3200000x35 .f32) (EA : FVec F S3200000x1 .f32) (W1 : FVec F S71x64 .f32) (B1 : FVec F S64 .f32)
    (W2 : FVec F S64x1 .f32) (B2 : FVec F S1 .f32) : FVec F S3200000x1 .f32 :=
  addf (Host.dotGeneral dot_S3200000x64_S64x1_S3200000x1_1_0_0_1_n_n none
      (hidden (concatenate S3200000x71 1 [⟨S3200000x35, EI⟩, ⟨S3200000x35, EJ⟩, ⟨S3200000x1, EA⟩]
        concatenates_S3200000x35_S3200000x35_S3200000x1_S3200000x71_d1) W1 B1) W2)
    (broadcastInDim S3200000x1 ![0, 1] bcast_S1x1_S3200000x1_0_1 (broadcastInDim S1x1 ![1] bcast_S1_S1x1_1 B2))

/-- The logistic function spelt as the reference spells it: one over one plus the exponential of the negation. -/
def sigm (Z : FVec F S3200000x1 .f32) : FVec F S3200000x1 .f32 :=
  Host.divf (broadcastInDim S3200000x1 ![] bcast_S_S3200000x1 (constant S_ .f32 0x3F800000#32))
    (addf (broadcastInDim S3200000x1 ![] bcast_S_S3200000x1 (constant S_ .f32 0x3F800000#32)) (Host.exp (Host.negf Z)))

/-- The whole reference: the output column of the second-round edge perceptron, flattened. -/
def result (X : FVec F S100000x3 .f32) (I : IVec S2x3200000 32) (EA : FVec F S3200000x1 .f32) (G B : FVec F S3 .f32)
    (Wi1 : FVec F S3x32 .f32) (Bi1 : FVec F S32 .f32) (Wi2 : FVec F S32x32 .f32) (Bi2 : FVec F S32 .f32)
    (Wc1 : FVec F S71x64 .f32) (Bc1 : FVec F S64 .f32) (Wc2 : FVec F S64x32 .f32) (Bc2 : FVec F S32 .f32)
    (We1 : FVec F S71x64 .f32) (Be1 : FVec F S64 .f32) (We2 : FVec F S64x1 .f32) (Be2 : FVec F S1 .f32) : FVec F S3200000 .f32 :=
  let XN := xnorm X (mean X) (var X) G B
  let T1 := xc XN Wi1 Bi1 Wi2 Bi2
  let M := msg (gat T1 (idxRow1 I)) (gat T1 (idxRow0 I)) EA Wc1 Bc1 Wc2 Bc2
  let T2 := xc2 (agg M (idxRow1 I)) XN
  fun i => shapeCast S3200000 (sigm (logit (gat T2 (idxRow0 I)) (gat T2 (idxRow1 I)) EA We1 Be1 We2 Be2)) shapeCasts_S3200000x1_S3200000 i

end Cert.ReferenceIdeal.Terms

end
-- ==== Proof.KRegion0.lean ====
/-
  The node stage on the chip: the array its five grid points leave in the 35-wide node table is the specification's
  `G0` of the whole input arrays.  Each point reads rows [20000 t, 20000 (t + 1)) of the inputs and the whole of every
  small operand, and stores its block of rows back; the blocks tile the table.
-/
import proofs.«411465_j83708912599063_2_alg».proof.Proof.Gen.KernelIdeal.Frame
import proofs.«411465_j83708912599063_2_alg».proof.Proof.Spec
import Idealize.ShloMosaic.Lib.Pipeline.Value
import Idealize.ShloMosaic.Lib.ValueLayout
import Idealize.ShloMosaic.PureOps.Ideal.Laws

set_option maxRecDepth 16384

noncomputable section

namespace Cert.KernelIdeal.Region0

open Idealize.ShloMosaic Idealize.ShloMosaic.TcCoe Idealize.ShloMosaic.ValueIdx Idealize.SL.Sem
open Cert.KernelIdeal Cert.KernelIdeal.Gen

/-! ## The two products' operand indices -/

theorem lhs_mm1_0 (i : S20000x32.Idx) (q : dot_S20000x3_S3x32_S20000x32_1_0_0_1_n_n.contr.Idx) :
    (dot_S20000x3_S3x32_S20000x32_1_0_0_1_n_n.lhsIdx i q 0).val = (i 0).val := by
  unfold DotDims.lhsIdx
  rw [dif_neg (show ¬(0 : Fin S20000x3.rank) ∈ dot_S20000x3_S3x32_S20000x32_1_0_0_1_n_n.lhsBatch by decide),
    dif_pos (show (0 : Fin S20000x3.rank) ∈ dot_S20000x3_S3x32_S20000x32_1_0_0_1_n_n.lhsNonContracting by decide)]
  rfl
theorem lhs_mm1_1 (i : S20000x32.Idx) (q : dot_S20000x3_S3x32_S20000x32_1_0_0_1_n_n.contr.Idx) :
    (dot_S20000x3_S3x32_S20000x32_1_0_0_1_n_n.lhsIdx i q 1).val = (q ⟨0, by decide⟩).val :=
  dot_S20000x3_S3x32_S20000x32_1_0_0_1_n_n.lhsIdx_val_of_single rfl i q
theorem rhs_mm1_0 (i : S20000x32.Idx) (q : dot_S20000x3_S3x32_S20000x32_1_0_0_1_n_n.contr.Idx) :
    (dot_S20000x3_S3x32_S20000x32_1_0_0_1_n_n.rhsIdx i q 0).val = (q ⟨0, by decide⟩).val :=
  dot_S20000x3_S3x32_S20000x32_1_0_0_1_n_n.rhsIdx_val_of_single rfl i q
theorem rhs_mm1_1 (i : S20000x32.Idx) (q : dot_S20000x3_S3x32_S20000x32_1_0_0_1_n_n.contr.Idx) :
    (dot_S20000x3_S3x32_S20000x32_1_0_0_1_n_n.rhsIdx i q 1).val = (i 1).val := by
  unfold DotDims.rhsIdx
  rw [dif_neg (show ¬(1 : Fin S3x32.rank) ∈ dot_S20000x3_S3x32_S20000x32_1_0_0_1_n_n.rhsBatch by decide),
    dif_pos (show (1 : Fin S3x32.rank) ∈ dot_S20000x3_S3x32_S20000x32_1_0_0_1_n_n.rhsNonContracting by decide)]
  rfl

/-- The first product at an entry: row `r` of the left operand against column `k` of the weight. -/
theorem mm1_apply (A : FVec Ideal S20000x3 .f32) (W : FVec Ideal S3x32 .f32) (r : Fin 20000) (k : Fin 32) :
    matmul dot_S20000x3_S3x32_S20000x32_1_0_0_1_n_n none A W (constant (F := Ideal) S20000x32 .f32 0x00000000#32) (ix2 r k)
      = ∑ i : Fin 3, A (ix2 r i) * W (ix2 i k) := by
  simp only [matmul]
  rw [Ideal.matmul_constant_zero_apply,
    ← Equiv.sum_comp (contrEquiv1 dot_S20000x3_S3x32_S20000x32_1_0_0_1_n_n 3 rfl rfl).symm]
  refine Finset.sum_congr rfl fun i _ => ?_
  have hk := contrEquiv1_symm_val dot_S20000x3_S3x32_S20000x32_1_0_0_1_n_n 3 rfl rfl i
  have el : dot_S20000x3_S3x32_S20000x32_1_0_0_1_n_n.lhsIdx (ix2 r k)
      ((contrEquiv1 dot_S20000x3_S3x32_S20000x32_1_0_0_1_n_n 3 rfl rfl).symm i) = ix2 r i := funext fun a => Fin.ext (by
    match a with
    | ⟨0, _⟩ => exact lhs_mm1_0 _ _
    | ⟨1, _⟩ => exact (lhs_mm1_1 _ _).trans hk)
  have er : dot_S20000x3_S3x32_S20000x32_1_0_0_1_n_n.rhsIdx (ix2 r k)
      ((contrEquiv1 dot_S20000x3_S3x32_S20000x32_1_0_0_1_n_n 3 rfl rfl).symm i) = ix2 i k := funext fun a => Fin.ext (by
    match a with
    | ⟨0, _⟩ => exact (rhs_mm1_0 _ _).trans hk
    | ⟨1, _⟩ => exact rhs_mm1_1 _ _)
  rw [el, er]

/-! The same for the second product. -/

theorem lhs_mm2_0 (i : S20000x32.Idx) (q : dot_S20000x32_S32x32_S20000x32_1_0_0_1_n_n.contr.Idx) :
    (dot_S20000x32_S32x32_S20000x32_1_0_0_1_n_n.lhsIdx i q 0).val = (i 0).val := by
  unfold DotDims.lhsIdx
  rw [dif_neg (show ¬(0 : Fin S20000x32.rank) ∈ dot_S20000x32_S32x32_S20000x32_1_0_0_1_n_n.lhsBatch by decide),
    dif_pos (show (0 : Fin S20000x32.rank) ∈ dot_S20000x32_S32x32_S20000x32_1_0_0_1_n_n.lhsNonContracting by decide)]
  rfl
theorem lhs_mm2_1 (i : S20000x32.Idx) (q : dot_S20000x32_S32x32_S20000x32_1_0_0_1_n_n.contr.Idx) :
    (dot_S20000x32_S32x32_S20000x32_1_0_0_1_n_n.lhsIdx i q 1).val = (q ⟨0, by decide⟩).val :=
  dot_S20000x32_S32x32_S20000x32_1_0_0_1_n_n.lhsIdx_val_of_single rfl i q
theorem rhs_mm2_0 (i : S20000x32.Idx) (q : dot_S20000x32_S32x32_S20000x32_1_0_0_1_n_n.contr.Idx) :
    (dot_S20000x32_S32x32_S20000x32_1_0_0_1_n_n.rhsIdx i q 0).val = (q ⟨0, by decide⟩).val :=
  dot_S20000x32_S32x32_S20000x32_1_0_0_1_n_n.rhsIdx_val_of_single rfl i q
theorem rhs_mm2_1 (i : S20000x32.Idx) (q : dot_S20000x32_S32x32_S20000x32_1_0_0_1_n_n.contr.Idx) :
    (dot_S20000x32_S32x32_S20000x32_1_0_0_1_n_n.rhsIdx i q 1).val = (i 1).val := by
  unfold DotDims.rhsIdx
  rw [dif_neg (show ¬(1 : Fin S32x32.rank) ∈ dot_S20000x32_S32x32_S20000x32_1_0_0_1_n_n.rhsBatch by decide),
    dif_pos (show (1 : Fin S32x32.rank) ∈ dot_S20000x32_S32x32_S20000x32_1_0_0_1_n_n.rhsNonContracting by decide)]
  rfl

/-- The second product at an entry: row `r` of the left operand against column `k` of the weight. -/
theorem mm2_apply (A : FVec Ideal S20000x32 .f32) (W : FVec Ideal S32x32 .f32) (r : Fin 20000) (k : Fin 32) :
    matmul dot_S20000x32_S32x32_S20000x32_1_0_0_1_n_n none A W (constant (F := Ideal) S20000x32 .f32 0x00000000#32) (ix2 r k)
      = ∑ i : Fin 32, A (ix2 r i) * W (ix2 i k) := by
  simp only [matmul]
  rw [Ideal.matmul_constant_zero_apply,
    ← Equiv.sum_comp (contrEquiv1 dot_S20000x32_S32x32_S20000x32_1_0_0_1_n_n 32 rfl rfl).symm]
  refine Finset.sum_congr rfl fun i _ => ?_
  have hk := contrEquiv1_symm_val dot_S20000x32_S32x32_S20000x32_1_0_0_1_n_n 32 rfl rfl i
  have el : dot_S20000x32_S32x32_S20000x32_1_0_0_1_n_n.lhsIdx (ix2 r k)
      ((contrEquiv1 dot_S20000x32_S32x32_S20000x32_1_0_0_1_n_n 32 rfl rfl).symm i) = ix2 r i := funext fun a => Fin.ext (by
    match a with
    | ⟨0, _⟩ => exact lhs_mm2_0 _ _
    | ⟨1, _⟩ => exact (lhs_mm2_1 _ _).trans hk)
  have er : dot_S20000x32_S32x32_S20000x32_1_0_0_1_n_n.rhsIdx (ix2 r k)
      ((contrEquiv1 dot_S20000x32_S32x32_S20000x32_1_0_0_1_n_n 32 rfl rfl).symm i) = ix2 i k := funext fun a => Fin.ext (by
    match a with
    | ⟨0, _⟩ => exact (rhs_mm2_0 _ _).trans hk
    | ⟨1, _⟩ => exact rhs_mm2_1 _ _)
  rw [el, er]

/-! ## The body's value at an entry of its block -/

/-- The normalised inputs as the body computes them on its block: centred, scaled by the inverse root of the variance
    plus epsilon, then the affine pair, the four `[1, 3]` operands spread down the rows. -/
def xnVec (x0 : FVec Ideal S20000x3 .f32) (x1 x2 x3 x4 : FVec Ideal S1x3 .f32) : FVec Ideal S20000x3 .f32 :=
  addf (mulf (mulf (subf x0 (broadcastTo S20000x3 (shapeCast S1x3 x1 shapeCasts_S1x3_S1x3) broadcasts_S1x3_S20000x3))
      (broadcastTo S20000x3 (rsqrt (addf (shapeCast S1x3 x2 shapeCasts_S1x3_S1x3)
        (broadcast S1x3 (Scalar.ofBits (F := Ideal) .f32 0x3727C5AC#32)))) broadcasts_S1x3_S20000x3))
      (broadcastTo S20000x3 (shapeCast S1x3 x3 shapeCasts_S1x3_S1x3) broadcasts_S1x3_S20000x3))
    (broadcastTo S20000x3 (shapeCast S1x3 x4 shapeCasts_S1x3_S1x3) broadcasts_S1x3_S20000x3)

/-- The hidden layer on the block: the first product plus its bias row, rectified. -/
def hidVec (A : FVec Ideal S20000x3 .f32) (x5 : FVec Ideal S3x32 .f32) (x6 : FVec Ideal S1x32 .f32) : FVec Ideal S20000x32 .f32 :=
  maximumf (addf (matmul dot_S20000x3_S3x32_S20000x32_1_0_0_1_n_n none A x5 (constant (F := Ideal) S20000x32 .f32 0x00000000#32))
      (broadcastTo S20000x32 (shapeCast S1x32 x6 shapeCasts_S1x32_S1x32) broadcasts_S1x32_S20000x32))
    (broadcast S20000x32 (Scalar.ofBits (F := Ideal) .f32 0x00000000#32))

/-- The output layer on the block: the second product plus its bias row, through the hyperbolic tangent. -/
def outVec (Hd : FVec Ideal S20000x32 .f32) (x7 : FVec Ideal S32x32 .f32) (x8 : FVec Ideal S1x32 .f32) : FVec Ideal S20000x32 .f32 :=
  tanh (addf (matmul dot_S20000x32_S32x32_S20000x32_1_0_0_1_n_n none Hd x7 (constant (F := Ideal) S20000x32 .f32 0x00000000#32))
      (broadcastTo S20000x32 (shapeCast S1x32 x8 shapeCasts_S1x32_S1x32) broadcasts_S1x32_S20000x32))

/-- The payload is the two layers' 32 columns set beside the 3 normalised inputs. -/
theorem pay_eq (x0 : FVec Ideal S20000x3 .f32) (x1 x2 x3 x4 : FVec Ideal S1x3 .f32) (x5 : FVec Ideal S3x32 .f32)
    (x6 : FVec Ideal S1x32 .f32) (x7 : FVec Ideal S32x32 .f32) (x8 : FVec Ideal S1x32 .f32) :
    k0_pay1 (F := Ideal) x0 x1 x2 x3 x4 x5 x6 x7 x8
      = concatenate S20000x35 1 [⟨S20000x32, outVec (hidVec (xnVec x0 x1 x2 x3 x4) x5 x6) x7 x8⟩, ⟨S20000x3, xnVec x0 x1 x2 x3 x4⟩]
          concatenates_S20000x32_S20000x3_S20000x35_d1 := rfl

/-- A normalised input at row `r`, feature `k` of the block. -/
theorem xnVec_apply (x0 : FVec Ideal S20000x3 .f32) (x1 x2 x3 x4 : FVec Ideal S1x3 .f32) (r : Fin 20000) (k : Fin 3) :
    xnVec x0 x1 x2 x3 x4 (ix2 r k)
      = (x0 (ix2 r k) - x1 (ix2 (0 : Fin 1) k)) * Ideal.rsqrt (x2 (ix2 (0 : Fin 1) k) + Spec.eps) * x3 (ix2 (0 : Fin 1) k)
          + x4 (ix2 (0 : Fin 1) k) := by
  unfold xnVec
  simp only [addf_apply, mulf_apply, subf_apply, broadcastTo_1b_ab_apply, shapeCast_self]
  rfl

/-- A hidden unit at row `r`, unit `k` of the block. -/
theorem hidVec_apply (A : FVec Ideal S20000x3 .f32) (x5 : FVec Ideal S3x32 .f32) (x6 : FVec Ideal S1x32 .f32) (r : Fin 20000) (k : Fin 32) :
    hidVec A x5 x6 (ix2 r k) = max ((∑ i : Fin 3, A (ix2 r i) * x5 (ix2 i k)) + x6 (ix2 (0 : Fin 1) k)) 0 := by
  unfold hidVec
  rw [maximumf_apply, addf_apply, mm1_apply, broadcastTo_1b_ab_apply, shapeCast_self]
  show max _ (Ideal.ofBits .f32 0x00000000#32) = _
  rw [Ideal.ofBits_zero_f32]

/-- An output unit at row `r`, unit `q` of the block. -/
theorem outVec_apply (Hd : FVec Ideal S20000x32 .f32) (x7 : FVec Ideal S32x32 .f32) (x8 : FVec Ideal S1x32 .f32) (r : Fin 20000) (q : Fin 32) :
    outVec Hd x7 x8 (ix2 r q) = Ideal.tanh ((∑ k : Fin 32, Hd (ix2 r k) * x7 (ix2 k q)) + x8 (ix2 (0 : Fin 1) q)) := by
  unfold outVec
  show Ideal.tanh (addf (F := Ideal) (φ := .f32) _ _ (ix2 r q)) = _
  rw [addf_apply, mm2_apply, broadcastTo_1b_ab_apply, shapeCast_self]

/-- The body's value at row `r`, column `q` of its block, when the block's operands hold rows and entries of the natural
    arrays: the specification's entry `q` of node `p`. -/
theorem pay_apply (x0 : FVec Ideal S20000x3 .f32) (x1 x2 x3 x4 : FVec Ideal S1x3 .f32) (x5 : FVec Ideal S3x32 .f32)
    (x6 : FVec Ideal S1x32 .f32) (x7 : FVec Ideal S32x32 .f32) (x8 : FVec Ideal S1x32 .f32)
    (X : Spec.Nx3.Idx → EReal) (MU VAR G B : Spec.V3.Idx → EReal) (W1 : Spec.M3x32.Idx → EReal) (B1 : Spec.V32.Idx → EReal)
    (W2 : Spec.M32x32.Idx → EReal) (B2 : Spec.V32.Idx → EReal)
    (r : Fin 20000) (p : Fin 100000) (q : Fin 35)
    (e0 : ∀ k : Fin 3, x0 (ix2 r k) = X (ix2 p k))
    (e1 : ∀ k : Fin 3, x1 (ix2 (0 : Fin 1) k) = MU (ix1 k))
    (e2 : ∀ k : Fin 3, x2 (ix2 (0 : Fin 1) k) = VAR (ix1 k))
    (e3 : ∀ k : Fin 3, x3 (ix2 (0 : Fin 1) k) = G (ix1 k))
    (e4 : ∀ k : Fin 3, x4 (ix2 (0 : Fin 1) k) = B (ix1 k))
    (e5 : ∀ (i : Fin 3) (k : Fin 32), x5 (ix2 i k) = W1 (ix2 i k))
    (e6 : ∀ k : Fin 32, x6 (ix2 (0 : Fin 1) k) = B1 (ix1 k))
    (e7 : ∀ (k j : Fin 32), x7 (ix2 k j) = W2 (ix2 k j))
    (e8 : ∀ k : Fin 32, x8 (ix2 (0 : Fin 1) k) = B2 (ix1 k)) :
    k0_pay1 (F := Ideal) x0 x1 x2 x3 x4 x5 x6 x7 x8 (ix2 r q) = Spec.g0 X MU VAR G B W1 B1 W2 B2 p q := by
  have hxn : ∀ k : Fin 3, xnVec x0 x1 x2 x3 x4 (ix2 r k) = Spec.xn X MU VAR G B p k := fun k => by
    rw [xnVec_apply, e0, e1, e2, e3, e4]; rfl
  rw [pay_eq]
  unfold Spec.g0
  by_cases h : q.val < 32
  · rw [dif_pos h]
    refine (concatenate_pair_apply_left (t := S20000x35) (s₁ := S20000x32) (s₂ := S20000x3) (1 : Fin S20000x35.rank) _ _ _ (ix2 r q) rfl
      (ix2 r (⟨q.val, h⟩ : Fin 32)) (fun b => ?_)).trans ?_
    · match b with
      | ⟨0, _⟩ => rfl
      | ⟨1, _⟩ => rfl
    · simp only [outVec_apply, hidVec_apply, hxn, e5, e6, e7, e8, Spec.hid0]
  · rw [dif_neg h]
    have hq : q.val < 35 := q.isLt
    refine (concatenate_pair_apply_right (t := S20000x35) (s₁ := S20000x32) (s₂ := S20000x3) (1 : Fin S20000x35.rank) _ _ _ (ix2 r q) rfl rfl
      (ix2 r (⟨q.val - 32, by omega⟩ : Fin 3))
      (fun b hb => ?_) ?_).trans (hxn _)
    · match b with
      | ⟨0, _⟩ => rfl
      | ⟨1, _⟩ => exact absurd rfl hb
    · show q.val - 32 + 32 = q.val
      omega

/-! ## From blocks to the array -/

theorem hz : (![0, 0] : Fin 2 → Nat) = fun _ => 0 := funext fun a => by fin_cases a <;> rfl

/-- The printed index maps, decided over the five points: the input rows and the output rows move with the point, every
    other operand stays at its one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

variable (V : (c : Dev nD) → (b : Ref sig .tc) → Buf (Elt Ideal) ((c : Thread nD τ).loc b))

/-- The input window's block at point `t` holds rows `20000 t … 20000 t + 19999` of the input array. -/
theorem blk0_apply (c : Dev nD) (t : Fin cfg0.N) (X : Spec.Nx3.Idx → EReal) (h0 : V c main_arg0 = X)
    (r : Fin 20000) (k : Fin 3) (p : Fin 100000) (hp : p.val = 20000 * t.val + r.val) :
    (iblk0 (F := Ideal) V c 0 t : FVec Ideal S20000x3 .f32) (ix2 r k) = X (ix2 p k) := by
  obtain ⟨e0, e1, -⟩ := idx_facts t
  unfold iblk0
  rw [View.read_apply]
  show V c main_arg0 _ = X _
  rw [h0]
  congr 1
  funext a
  apply Fin.ext
  match a with
  | ⟨0, _⟩ => show win0_0.index t (0 : Fin 2) * 20000 + 1 * r.val = p.val; rw [e0, hp]; omega
  | ⟨1, _⟩ => show win0_0.index t (1 : Fin 2) * 3 + 1 * k.val = k.val; rw [e1]; omega

/-- Window 1 (the mean) holds its whole array at every point. -/
theorem blk1_apply (c : Dev nD) (t : Fin cfg0.N) (u : Fin 1) (k : Fin 3) :
    (iblk0 (F := Ideal) V c 1 t : FVec Ideal S1x3 .f32) (ix2 u k) = (V c main_v7 : S1x3.Idx → EReal) (ix2 u k) := by
  obtain ⟨-, -, e0, e1, -⟩ := idx_facts t
  unfold iblk0
  rw [View.read_apply]
  show V c main_v7 _ = V c main_v7 _
  congr 1
  funext a
  apply Fin.ext
  match a with
  | ⟨0, _⟩ => show win0_1.index t (0 : Fin 2) * 1 + 1 * u.val = u.val; rw [e0]; omega
  | ⟨1, _⟩ => show win0_1.index t (1 : Fin 2) * 3 + 1 * k.val = k.val; rw [e1]; omega

/-- Window 2 (the variance) holds its whole array at every point. -/
theorem blk2_apply (c : Dev nD) (t : Fin cfg0.N) (u : Fin 1) (k : Fin 3) :
    (iblk0 (F := Ideal) V c 2 t : FVec Ideal S1x3 .f32) (ix2 u k) = (V c main_v9 : S1x3.Idx → EReal) (ix2 u k) := by
  obtain ⟨-, -, -, -, e0, e1, -⟩ := idx_facts t
  unfold iblk0
  rw [View.read_apply]
  show V c main_v9 _ = V c main_v9 _
  congr 1
  funext a
  apply Fin.ext
  match a with
  | ⟨0, _⟩ => show win0_2.index t (0 : Fin 2) * 1 + 1 * u.val = u.val; rw [e0]; omega
  | ⟨1, _⟩ => show win0_2.index t (1 : Fin 2) * 3 + 1 * k.val = k.val; rw [e1]; omega

/-- Window 3 (the scale) holds its whole array at every point. -/
theorem blk3_apply (c : Dev nD) (t : Fin cfg0.N) (u : Fin 1) (k : Fin 3) :
    (iblk0 (F := Ideal) V c 3 t : FVec Ideal S1x3 .f32) (ix2 u k) = (V c main_v10 : S1x3.Idx → EReal) (ix2 u k) := by
  obtain ⟨-, -, -, -, -, -, e0, e1, -⟩ := idx_facts t
  unfold iblk0
  rw [View.read_apply]
  show V c main_v10 _ = V c main_v10 _
  congr 1
  funext a
  apply Fin.ext
  match a with
  | ⟨0, _⟩ => show win0_3.index t (0 : Fin 2) * 1 + 1 * u.val = u.val; rw [e0]; omega
  | ⟨1, _⟩ => show win0_3.index t (1 : Fin 2) * 3 + 1 * k.val = k.val; rw [e1]; omega

/-- Window 4 (the shift) holds its whole array at every point. -/
theorem blk4_apply (c : Dev nD) (t : Fin cfg0.N) (u : Fin 1) (k : Fin 3) :
    (iblk0 (F := Ideal) V c 4 t : FVec Ideal S1x3 .f32) (ix2 u k) = (V c main_v11 : S1x3.Idx → EReal) (ix2 u k) := by
  obtain ⟨-, -, -, -, -, -, -, -, e0, e1, -⟩ := idx_facts t
  unfold iblk0
  rw [View.read_apply]
  show V c main_v11 _ = V c main_v11 _
  congr 1
  funext a
  apply Fin.ext
  match a with
  | ⟨0, _⟩ => show win0_4.index t (0 : Fin 2) * 1 + 1 * u.val = u.val; rw [e0]; omega
  | ⟨1, _⟩ => show win0_4.index t (1 : Fin 2) * 3 + 1 * k.val = k.val; rw [e1]; omega

/-- Window 5 (the first weight) holds its whole array at every point. -/
theorem blk5_apply (c : Dev nD) (t : Fin cfg0.N) (u : Fin 3) (k : Fin 32) :
    (iblk0 (F := Ideal) V c 5 t : FVec Ideal S3x32 .f32) (ix2 u k) = (V c main_arg5 : S3x32.Idx → EReal) (ix2 u k) := by
  obtain ⟨-, -, -, -, -, -, -, -, -, -, e0, e1, -⟩ := idx_facts t
  unfold iblk0
  rw [View.read_apply]
  show V c main_arg5 _ = V c main_arg5 _
  congr 1
  funext a
  apply Fin.ext
  match a with
  | ⟨0, _⟩ => show win0_5.index t (0 : Fin 2) * 3 + 1 * u.val = u.val; rw [e0]; omega
  | ⟨1, _⟩ => show win0_5.index t (1 : Fin 2) * 32 + 1 * k.val = k.val; rw [e1]; omega

/-- Window 6 (the first bias) holds its whole array at every point. -/
theorem blk6_apply (c : Dev nD) (t : Fin cfg0.N) (u : Fin 1) (k : Fin 32) :
    (iblk0 (F := Ideal) V c 6 t : FVec Ideal S1x32 .f32) (ix2 u k) = (V c main_v12 : S1x32.Idx → EReal) (ix2 u k) := by
  obtain ⟨-, -, -, -, -, -, -, -, -, -, -, -, e0, e1, -⟩ := idx_facts t
  unfold iblk0
  rw [View.read_apply]
  show V c main_v12 _ = V c main_v12 _
  congr 1
  funext a
  apply Fin.ext
  match a with
  | ⟨0, _⟩ => show win0_6.index t (0 : Fin 2) * 1 + 1 * u.val = u.val; rw [e0]; omega
  | ⟨1, _⟩ => show win0_6.index t (1 : Fin 2) * 32 + 1 * k.val = k.val; rw [e1]; omega

/-- Window 7 (the second weight) holds its whole array at every point. -/
theorem blk7_apply (c : Dev nD) (t : Fin cfg0.N) (u : Fin 32) (k : Fin 32) :
    (iblk0 (F := Ideal) V c 7 t : FVec Ideal S32x32 .f32) (ix2 u k) = (V c main_arg7 : S32x32.Idx → EReal) (ix2 u k) := by
  obtain ⟨-, -, -, -, -, -, -, -, -, -, -, -, -, -, e0, e1, -⟩ := idx_facts t
  unfold iblk0
  rw [View.read_apply]
  show V c main_arg7 _ = V c main_arg7 _
  congr 1
  funext a
  apply Fin.ext
  match a with
  | ⟨0, _⟩ => show win0_7.index t (0 : Fin 2) * 32 + 1 * u.val = u.val; rw [e0]; omega
  | ⟨1, _⟩ => show win0_7.index t (1 : Fin 2) * 32 + 1 * k.val = k.val; rw [e1]; omega

/-- Window 8 (the second bias) holds its whole array at every point. -/
theorem blk8_apply (c : Dev nD) (t : Fin cfg0.N) (u : Fin 1) (k : Fin 32) :
    (iblk0 (F := Ideal) V c 8 t : FVec Ideal S1x32 .f32) (ix2 u k) = (V c main_v13 : S1x32.Idx → EReal) (ix2 u k) := by
  obtain ⟨-, -, -, -, -, -, -, -, -, -, -, -, -, -, -, -, e0, e1, -⟩ := idx_facts t
  unfold iblk0
  rw [View.read_apply]
  show V c main_v13 _ = V c main_v13 _
  congr 1
  funext a
  apply Fin.ext
  match a with
  | ⟨0, _⟩ => show win0_8.index t (0 : Fin 2) * 1 + 1 * u.val = u.val; rw [e0]; omega
  | ⟨1, _⟩ => show win0_8.index t (1 : Fin 2) * 32 + 1 * k.val = k.val; rw [e1]; omega

/-- A `[1, n]` array that is a reshaped vector reads the vector's entry. -/
theorem row3_apply (A : S1x3.Idx → EReal) (M : Spec.V3.Idx → EReal) (h : A = shapeCast S1x3 M shapeCasts_S3_S1x3) (k : Fin 3) :
    A (ix2 (0 : Fin 1) k) = M (ix1 k) := by
  rw [h]; exact shapeCast_a_1a_apply M _ 0 k
theorem row32_apply (A : S1x32.Idx → EReal) (M : Spec.V32.Idx → EReal) (h : A = shapeCast S1x32 M shapeCasts_S32_S1x32) (k : Fin 32) :
    A (ix2 (0 : Fin 1) k) = M (ix1 k) := by
  rw [h]; exact shapeCast_a_1a_apply M _ 0 k

/-- Two contents of the output block are equal when they agree at every row and column. -/
theorem block_ext (f g : S20000x35.Idx → EReal) (h : ∀ (r : Fin 20000) (q : Fin 35), f (ix2 r q) = g (ix2 r q)) : f = g :=
  funext fun j => by rw [eq_ix2 j]; exact h _ _

/-- What point `t` writes back is block `t` of the specification's node table. -/
theorem flushed_eq (c : Dev nD)
    (X : Spec.Nx3.Idx → EReal) (MU VAR G B : Spec.V3.Idx → EReal) (W1 : Spec.M3x32.Idx → EReal) (B1 : Spec.V32.Idx → EReal)
    (W2 : Spec.M32x32.Idx → EReal) (B2 : Spec.V32.Idx → EReal)
    (h0 : V c main_arg0 = X)
    (h1 : V c main_v7 = shapeCast S1x3 MU shapeCasts_S3_S1x3)
    (h2 : V c main_v9 = shapeCast S1x3 VAR shapeCasts_S3_S1x3)
    (h3 : V c main_v10 = shapeCast S1x3 G shapeCasts_S3_S1x3)
    (h4 : V c main_v11 = shapeCast S1x3 B shapeCasts_S3_S1x3)
    (h5 : V c main_arg5 = W1)
    (h6 : V c main_v12 = shapeCast S1x32 B1 shapeCasts_S32_S1x32)
    (h7 : V c main_arg7 = W2)
    (h8 : V c main_v13 = shapeCast S1x32 B2 shapeCasts_S32_S1x32) (t : Fin cfg0.N) :
    (dat0 (F := Ideal) V c).flushed 9 t
      = ((cfg0.win 9).blk t).view.read (Elt Ideal) (Spec.G0 X MU VAR G B W1 B1 W2 B2) := by
  show (cfg0.win 9).cut (grid0.coords t) ((dat0 V c).after 9 t) = _
  rw [after0_9]
  unfold out0_9
  rw [View.canon_unit_zero hz]
  simp only [View.ld_unit_zero (S := S20000x3) hz, View.ld_unit_zero (S := S1x3) hz, View.ld_unit_zero (S := S3x32) hz,
    View.ld_unit_zero (S := S1x32) hz, View.ld_unit_zero (S := S32x32) hz]
  obtain ⟨-, -, -, -, -, -, -, -, -, -, -, -, -, -, -, -, -, -, e90, e91⟩ := idx_facts t
  have ht : t.val < 5 := lt_of_lt_of_eq t.isLt N_0
  refine block_ext _ _ fun r q => ?_
  show k0_pay1 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (ix2 r q)
    = Spec.G0 X MU VAR G B W1 B1 W2 B2 (((cfg0.win 9).blk t).view.emb (ix2 r q))
  have hemb : ((cfg0.win 9).blk t).view.emb (ix2 r q)
      = (ix2 (⟨20000 * t.val + r.val, by have := r.isLt; omega⟩ : Fin 100000) q : Spec.Nx35.Idx) := by
    funext a
    apply Fin.ext
    match a with
    | ⟨0, _⟩ => show win0_9.index t (0 : Fin 2) * 20000 + 1 * r.val = 20000 * t.val + r.val; rw [e90]; omega
    | ⟨1, _⟩ => show win0_9.index t (1 : Fin 2) * 35 + 1 * q.val = q.val; rw [e91]; omega
  rw [hemb, Spec.G0_ix2]
  exact pay_apply _ _ _ _ _ _ _ _ _ X MU VAR G B W1 B1 W2 B2 r _ q
    (fun k => blk0_apply V c t X h0 r k _ rfl)
    (fun k => (blk1_apply V c t 0 k).trans (row3_apply _ MU h1 k))
    (fun k => (blk2_apply V c t 0 k).trans (row3_apply _ VAR h2 k))
    (fun k => (blk3_apply V c t 0 k).trans (row3_apply _ G h3 k))
    (fun k => (blk4_apply V c t 0 k).trans (row3_apply _ B h4 k))
    (fun i k => (blk5_apply V c t i k).trans (congrFun h5 _))
    (fun k => (blk6_apply V c t 0 k).trans (row32_apply _ B1 h6 k))
    (fun k j => (blk7_apply V c t k j).trans (congrFun h7 _))
    (fun k => (blk8_apply V c t 0 k).trans (row32_apply _ B2 h8 k))

/-- An index of the node table is in point `t`'s block iff its row is among the block's 20000 and its column among the 35. -/
theorem mem_blk (t : Fin cfg0.N) (i : S100000x35.Idx) :
    i ∈ ((cfg0.win 9).blk t).view.set
      ↔ ∀ a : Fin 2, win0_9.index t a * S20000x35.size a ≤ (i a).val ∧ (i a).val < win0_9.index t a * S20000x35.size a + S20000x35.size a := by
  show i ∈ ((View.whole main_v14).slice (win0_9.rect t)).set ↔ _
  rw [View.set_slice_whole, Rect.mem_set_unit]
  exact Iff.rfl

/-- Every row of the node table lies in the block of the point its row number divided by 20000 names. -/
theorem cover (i : S100000x35.Idx) :
    ∃ t : Fin cfg0.N, (cfg0.win 9).flush t = true ∧ i ∈ ((cfg0.win 9).blk t).view.set := by
  have hi0 : (i 0).val < 100000 := (i 0).isLt
  have hi1 : (i 1).val < 35 := (i 1).isLt
  have hN : grid0.N = 5 := N_0
  let t : Fin cfg0.N := ⟨(i 0).val / 20000, by show (i 0).val / 20000 < grid0.N; rw [hN]; omega⟩
  obtain ⟨-, -, -, -, -, -, -, -, -, -, -, -, -, -, -, -, -, -, e90, e91⟩ := idx_facts t
  have e90' : win0_9.index t (0 : Fin 2) = (i 0).val / 20000 := e90
  refine ⟨t, flush0_9 t, ?_⟩
  rw [mem_blk]
  intro a
  match a with
  | ⟨0, _⟩ =>
    show win0_9.index t (0 : Fin 2) * 20000 ≤ (i 0).val ∧ (i 0).val < win0_9.index t (0 : Fin 2) * 20000 + 20000
    rw [e90']; omega
  | ⟨1, _⟩ =>
    show win0_9.index t (1 : Fin 2) * 35 ≤ (i 1).val ∧ (i 1).val < win0_9.index t (1 : Fin 2) * 35 + 35
    rw [e91]; omega

/-- Region 0's output array after its five points, when the region's operand arrays are the natural inputs (the
    [1, k] operands reshaped vectors): the node table of the specification. -/
theorem arr (c : Dev nD)
    (X : Spec.Nx3.Idx → EReal) (MU VAR G B : Spec.V3.Idx → EReal) (W1 : Spec.M3x32.Idx → EReal) (B1 : Spec.V32.Idx → EReal)
    (W2 : Spec.M32x32.Idx → EReal) (B2 : Spec.V32.Idx → EReal)
    (h0 : V c main_arg0 = X)
    (h1 : V c main_v7 = shapeCast S1x3 MU shapeCasts_S3_S1x3)
    (h2 : V c main_v9 = shapeCast S1x3 VAR shapeCasts_S3_S1x3)
    (h3 : V c main_v10 = shapeCast S1x3 G shapeCasts_S3_S1x3)
    (h4 : V c main_v11 = shapeCast S1x3 B shapeCasts_S3_S1x3)
    (h5 : V c main_arg5 = W1)
    (h6 : V c main_v12 = shapeCast S1x32 B1 shapeCasts_S32_S1x32)
    (h7 : V c main_arg7 = W2)
    (h8 : V c main_v13 = shapeCast S1x32 B2 shapeCasts_S32_S1x32) :
    (dat0 (F := Ideal) V c).arrAt 9 cfg0.N = Spec.G0 X MU VAR G B W1 B1 W2 B2 :=
  (dat0 (F := Ideal) V c).arrAt_eq_of_cover 9 (Spec.G0 X MU VAR G B W1 B1 W2 B2)
    (fun t _ => flushed_eq V c X MU VAR G B W1 B1 W2 B2 h0 h1 h2 h3 h4 h5 h6 h7 h8 t) cover

end Cert.KernelIdeal.Region0

end
-- ==== Proof.KRegion1.lean ====
/-
  The message stage on the chip: the array its 250 grid points leave in the message table is the specification's `G1`
  of the two gathered row tables, the edge attributes and the whole weights.  Each point reads rows
  [12800 t, 12800 (t + 1)) of the three edge arrays and the whole of every weight piece; the three pieces of the first
  weight are rows 0–34, 35–69 and 70 of the 71-row matrix.
-/
import proofs.«411465_j83708912599063_2_alg».proof.Proof.Gen.KernelIdeal.Frame
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region1

open Idealize.ShloMosaic Idealize.ShloMosaic.TcCoe Idealize.ShloMosaic.ValueIdx Idealize.SL.Sem
open Cert.KernelIdeal Cert.KernelIdeal.Gen

/-! ### A 12800 × 35 block times a 35 × 64 weight piece

The four coordinate facts of the product's dimension numbers (rows of the left operand are the result's rows, columns
of the right operand the result's columns, the one contracted axis of extent 35 on both), then the product into a
zero accumulator read at an entry. -/

theorem lhsA_0 (i : S12800x64.Idx) (q : dot_S12800x35_S35x64_S12800x64_1_0_0_1_n_n.contr.Idx) :
    (dot_S12800x35_S35x64_S12800x64_1_0_0_1_n_n.lhsIdx i q 0).val = (i 0).val := by
  unfold DotDims.lhsIdx
  rw [dif_neg (show ¬(0 : Fin S12800x35.rank) ∈ dot_S12800x35_S35x64_S12800x64_1_0_0_1_n_n.lhsBatch by decide), dif_pos (show (0 : Fin S12800x35.rank) ∈ dot_S12800x35_S35x64_S12800x64_1_0_0_1_n_n.lhsNonContracting by decide)]
  rfl
theorem lhsA_1 (i : S12800x64.Idx) (q : dot_S12800x35_S35x64_S12800x64_1_0_0_1_n_n.contr.Idx) :
    (dot_S12800x35_S35x64_S12800x64_1_0_0_1_n_n.lhsIdx i q 1).val = (q ⟨0, by decide⟩).val :=
  dot_S12800x35_S35x64_S12800x64_1_0_0_1_n_n.lhsIdx_val_of_single rfl i q
theorem rhsA_0 (i : S12800x64.Idx) (q : dot_S12800x35_S35x64_S12800x64_1_0_0_1_n_n.contr.Idx) :
    (dot_S12800x35_S35x64_S12800x64_1_0_0_1_n_n.rhsIdx i q 0).val = (q ⟨0, by decide⟩).val :=
  dot_S12800x35_S35x64_S12800x64_1_0_0_1_n_n.rhsIdx_val_of_single rfl i q
theorem rhsA_1 (i : S12800x64.Idx) (q : dot_S12800x35_S35x64_S12800x64_1_0_0_1_n_n.contr.Idx) :
    (dot_S12800x35_S35x64_S12800x64_1_0_0_1_n_n.rhsIdx i q 1).val = (i 1).val := by
  unfold DotDims.rhsIdx
  rw [dif_neg (show ¬(1 : Fin S35x64.rank) ∈ dot_S12800x35_S35x64_S12800x64_1_0_0_1_n_n.rhsBatch by decide), dif_pos (show (1 : Fin S35x64.rank) ∈ dot_S12800x35_S35x64_S12800x64_1_0_0_1_n_n.rhsNonContracting by decide)]
  rfl

/-- Entry (r, k) of the product into a zero accumulator is the inner product of row r and column k. -/
theorem mmA_apply (l : FVec Ideal S12800x35 .f32) (w : FVec Ideal S35x64 .f32) (r : Fin 12800) (k : Fin 64) :
    matmul dot_S12800x35_S35x64_S12800x64_1_0_0_1_n_n none l w (constant (F := Ideal) S12800x64 .f32 0x00000000#32) (ix2 r k)
      = ∑ i : Fin 35, l (ix2 r i) * w (ix2 i k) := by
  refine (Ideal.matmul_constant_zero_apply dot_S12800x35_S35x64_S12800x64_1_0_0_1_n_n none l w (ix2 r k)).trans ?_
  rw [← Equiv.sum_comp (ValueIdx.contrEquiv1 dot_S12800x35_S35x64_S12800x64_1_0_0_1_n_n 35 rfl rfl).symm]
  refine Finset.sum_congr rfl fun i _ => ?_
  have hk := ValueIdx.contrEquiv1_symm_val dot_S12800x35_S35x64_S12800x64_1_0_0_1_n_n 35 rfl rfl i
  have el : dot_S12800x35_S35x64_S12800x64_1_0_0_1_n_n.lhsIdx (ix2 r k) ((ValueIdx.contrEquiv1 dot_S12800x35_S35x64_S12800x64_1_0_0_1_n_n 35 rfl rfl).symm i) = ix2 r i := funext fun a => Fin.ext (by
    match a with
    | ⟨0, _⟩ => exact lhsA_0 _ _
    | ⟨1, _⟩ => exact (lhsA_1 _ _).trans hk)
  have er : dot_S12800x35_S35x64_S12800x64_1_0_0_1_n_n.rhsIdx (ix2 r k) ((ValueIdx.contrEquiv1 dot_S12800x35_S35x64_S12800x64_1_0_0_1_n_n 35 rfl rfl).symm i) = ix2 i k := funext fun a => Fin.ext (by
    match a with
    | ⟨0, _⟩ => exact (rhsA_0 _ _).trans hk
    | ⟨1, _⟩ => exact rhsA_1 _ _)
  rw [el, er]

/-! ### The 12800 × 1 attribute column times the 1 × 64 weight row

The four coordinate facts of the product's dimension numbers (rows of the left operand are the result's rows, columns
of the right operand the result's columns, the one contracted axis of extent 1 on both), then the product into a
zero accumulator read at an entry. -/

theorem lhsE_0 (i : S12800x64.Idx) (q : dot_S12800x1_S1x64_S12800x64_1_0_0_1_n_n.contr.Idx) :
    (dot_S12800x1_S1x64_S12800x64_1_0_0_1_n_n.lhsIdx i q 0).val = (i 0).val := by
  unfold DotDims.lhsIdx
  rw [dif_neg (show ¬(0 : Fin S12800x1.rank) ∈ dot_S12800x1_S1x64_S12800x64_1_0_0_1_n_n.lhsBatch by decide), dif_pos (show (0 : Fin S12800x1.rank) ∈ dot_S12800x1_S1x64_S12800x64_1_0_0_1_n_n.lhsNonContracting by decide)]
  rfl
theorem lhsE_1 (i : S12800x64.Idx) (q : dot_S12800x1_S1x64_S12800x64_1_0_0_1_n_n.contr.Idx) :
    (dot_S12800x1_S1x64_S12800x64_1_0_0_1_n_n.lhsIdx i q 1).val = (q ⟨0, by decide⟩).val :=
  dot_S12800x1_S1x64_S12800x64_1_0_0_1_n_n.lhsIdx_val_of_single rfl i q
theorem rhsE_0 (i : S12800x64.Idx) (q : dot_S12800x1_S1x64_S12800x64_1_0_0_1_n_n.contr.Idx) :
    (dot_S12800x1_S1x64_S12800x64_1_0_0_1_n_n.rhsIdx i q 0).val = (q ⟨0, by decide⟩).val :=
  dot_S12800x1_S1x64_S12800x64_1_0_0_1_n_n.rhsIdx_val_of_single rfl i q
theorem rhsE_1 (i : S12800x64.Idx) (q : dot_S12800x1_S1x64_S12800x64_1_0_0_1_n_n.contr.Idx) :
    (dot_S12800x1_S1x64_S12800x64_1_0_0_1_n_n.rhsIdx i q 1).val = (i 1).val := by
  unfold DotDims.rhsIdx
  rw [dif_neg (show ¬(1 : Fin S1x64.rank) ∈ dot_S12800x1_S1x64_S12800x64_1_0_0_1_n_n.rhsBatch by decide), dif_pos (show (1 : Fin S1x64.rank) ∈ dot_S12800x1_S1x64_S12800x64_1_0_0_1_n_n.rhsNonContracting by decide)]
  rfl

/-- Entry (r, k) of the product into a zero accumulator is the inner product of row r and column k. -/
theorem mmE_apply (l : FVec Ideal S12800x1 .f32) (w : FVec Ideal S1x64 .f32) (r : Fin 12800) (k : Fin 64) :
    matmul dot_S12800x1_S1x64_S12800x64_1_0_0_1_n_n none l w (constant (F := Ideal) S12800x64 .f32 0x00000000#32) (ix2 r k)
      = ∑ i : Fin 1, l (ix2 r i) * w (ix2 i k) := by
  refine (Ideal.matmul_constant_zero_apply dot_S12800x1_S1x64_S12800x64_1_0_0_1_n_n none l w (ix2 r k)).trans ?_
  rw [← Equiv.sum_comp (ValueIdx.contrEquiv1 dot_S12800x1_S1x64_S12800x64_1_0_0_1_n_n 1 rfl rfl).symm]
  refine Finset.sum_congr rfl fun i _ => ?_
  have hk := ValueIdx.contrEquiv1_symm_val dot_S12800x1_S1x64_S12800x64_1_0_0_1_n_n 1 rfl rfl i
  have el : dot_S12800x1_S1x64_S12800x64_1_0_0_1_n_n.lhsIdx (ix2 r k) ((ValueIdx.contrEquiv1 dot_S12800x1_S1x64_S12800x64_1_0_0_1_n_n 1 rfl rfl).symm i) = ix2 r i := funext fun a => Fin.ext (by
    match a with
    | ⟨0, _⟩ => exact lhsE_0 _ _
    | ⟨1, _⟩ => exact (lhsE_1 _ _).trans hk)
  have er : dot_S12800x1_S1x64_S12800x64_1_0_0_1_n_n.rhsIdx (ix2 r k) ((ValueIdx.contrEquiv1 dot_S12800x1_S1x64_S12800x64_1_0_0_1_n_n 1 rfl rfl).symm i) = ix2 i k := funext fun a => Fin.ext (by
    match a with
    | ⟨0, _⟩ => exact (rhsE_0 _ _).trans hk
    | ⟨1, _⟩ => exact rhsE_1 _ _)
  rw [el, er]

/-! ### The 12800 × 64 hidden layer times the 64 × 32 second weight

The four coordinate facts of the product's dimension numbers (rows of the left operand are the result's rows, columns
of the right operand the result's columns, the one contracted axis of extent 64 on both), then the product into a
zero accumulator read at an entry. -/

theorem lhsC_0 (i : S12800x32.Idx) (q : dot_S12800x64_S64x32_S12800x32_1_0_0_1_n_n.contr.Idx) :
    (dot_S12800x64_S64x32_S12800x32_1_0_0_1_n_n.lhsIdx i q 0).val = (i 0).val := by
  unfold DotDims.lhsIdx
  rw [dif_neg (show ¬(0 : Fin S12800x64.rank) ∈ dot_S12800x64_S64x32_S12800x32_1_0_0_1_n_n.lhsBatch by decide), dif_pos (show (0 : Fin S12800x64.rank) ∈ dot_S12800x64_S64x32_S12800x32_1_0_0_1_n_n.lhsNonContracting by decide)]
  rfl
theorem lhsC_1 (i : S12800x32.Idx) (q : dot_S12800x64_S64x32_S12800x32_1_0_0_1_n_n.contr.Idx) :
    (dot_S12800x64_S64x32_S12800x32_1_0_0_1_n_n.lhsIdx i q 1).val = (q ⟨0, by decide⟩).val :=
  dot_S12800x64_S64x32_S12800x32_1_0_0_1_n_n.lhsIdx_val_of_single rfl i q
theorem rhsC_0 (i : S12800x32.Idx) (q : dot_S12800x64_S64x32_S12800x32_1_0_0_1_n_n.contr.Idx) :
    (dot_S12800x64_S64x32_S12800x32_1_0_0_1_n_n.rhsIdx i q 0).val = (q ⟨0, by decide⟩).val :=
  dot_S12800x64_S64x32_S12800x32_1_0_0_1_n_n.rhsIdx_val_of_single rfl i q
theorem rhsC_1 (i : S12800x32.Idx) (q : dot_S12800x64_S64x32_S12800x32_1_0_0_1_n_n.contr.Idx) :
    (dot_S12800x64_S64x32_S12800x32_1_0_0_1_n_n.rhsIdx i q 1).val = (i 1).val := by
  unfold DotDims.rhsIdx
  rw [dif_neg (show ¬(1 : Fin S64x32.rank) ∈ dot_S12800x64_S64x32_S12800x32_1_0_0_1_n_n.rhsBatch by decide), dif_pos (show (1 : Fin S64x32.rank) ∈ dot_S12800x64_S64x32_S12800x32_1_0_0_1_n_n.rhsNonContracting by decide)]
  rfl

/-- Entry (r, k) of the product into a zero accumulator is the inner product of row r and column k. -/
theorem mmC_apply (l : FVec Ideal S12800x64 .f32) (w : FVec Ideal S64x32 .f32) (r : Fin 12800) (k : Fin 32) :
    matmul dot_S12800x64_S64x32_S12800x32_1_0_0_1_n_n none l w (constant (F := Ideal) S12800x32 .f32 0x00000000#32) (ix2 r k)
      = ∑ i : Fin 64, l (ix2 r i) * w (ix2 i k) := by
  refine (Ideal.matmul_constant_zero_apply dot_S12800x64_S64x32_S12800x32_1_0_0_1_n_n none l w (ix2 r k)).trans ?_
  rw [← Equiv.sum_comp (ValueIdx.contrEquiv1 dot_S12800x64_S64x32_S12800x32_1_0_0_1_n_n 64 rfl rfl).symm]
  refine Finset.sum_congr rfl fun i _ => ?_
  have hk := ValueIdx.contrEquiv1_symm_val dot_S12800x64_S64x32_S12800x32_1_0_0_1_n_n 64 rfl rfl i
  have el : dot_S12800x64_S64x32_S12800x32_1_0_0_1_n_n.lhsIdx (ix2 r k) ((ValueIdx.contrEquiv1 dot_S12800x64_S64x32_S12800x32_1_0_0_1_n_n 64 rfl rfl).symm i) = ix2 r i := funext fun a => Fin.ext (by
    match a with
    | ⟨0, _⟩ => exact lhsC_0 _ _
    | ⟨1, _⟩ => exact (lhsC_1 _ _).trans hk)
  have er : dot_S12800x64_S64x32_S12800x32_1_0_0_1_n_n.rhsIdx (ix2 r k) ((ValueIdx.contrEquiv1 dot_S12800x64_S64x32_S12800x32_1_0_0_1_n_n 64 rfl rfl).symm i) = ix2 i k := funext fun a => Fin.ext (by
    match a with
    | ⟨0, _⟩ => exact (rhsC_0 _ _).trans hk
    | ⟨1, _⟩ => exact rhsC_1 _ _)
  rw [el, er]

/-! ### The body's value at an entry -/

/-- Hidden unit `k` of local row `r`, from the nine blocks: the rectified sum of the three inner products and the bias. -/
def hidRow (x0 x1 : Vec Ideal S12800x35 .f32) (x2 : Vec Ideal S12800x1 .f32) (x3 x4 : Vec Ideal S35x64 .f32)
    (x5 x6 : Vec Ideal S1x64 .f32) (r : Fin 12800) (k : Fin 64) : EReal :=
  max (((((∑ i : Fin 35, x0 (ix2 r i) * x3 (ix2 i k))
        + (∑ i : Fin 35, (x1 (ix2 r i) - x0 (ix2 r i)) * x4 (ix2 i k)))
        + (∑ i : Fin 1, x2 (ix2 r i) * x5 (ix2 i k)))
        + x6 (ix2 (0 : Fin 1) k))) 0

/-- Entry `(r, j)` of what the body stores: the hyperbolic tangent of the hidden row against column `j` of the second
    weight, plus the second bias. -/
theorem pay_apply (x0 x1 : Vec Ideal S12800x35 .f32) (x2 : Vec Ideal S12800x1 .f32) (x3 x4 : Vec Ideal S35x64 .f32)
    (x5 x6 : Vec Ideal S1x64 .f32) (x7 : Vec Ideal S64x32 .f32) (x8 : Vec Ideal S1x32 .f32) (r : Fin 12800) (j : Fin 32) :
    k1_pay1 x0 x1 x2 x3 x4 x5 x6 x7 x8 (ix2 r j)
      = Ideal.tanh ((∑ k : Fin 64, hidRow x0 x1 x2 x3 x4 x5 x6 r k * x7 (ix2 k j)) + x8 (ix2 (0 : Fin 1) j)) := by
  unfold k1_pay1
  simp only [shapeCast_self]
  show Ideal.tanh (matmul dot_S12800x64_S64x32_S12800x32_1_0_0_1_n_n none _ x7 (constant (F := Ideal) S12800x32 .f32 0x00000000#32) (ix2 r j)
    + broadcastTo S12800x32 x8 broadcasts_S1x32_S12800x32 (ix2 r j)) = _
  rw [mmC_apply, broadcastTo_1b_ab_apply]
  refine congrArg (fun z => Ideal.tanh (z + _)) (Finset.sum_congr rfl fun k _ => ?_)
  refine congrArg (· * _) ?_
  show max (((matmul dot_S12800x35_S35x64_S12800x64_1_0_0_1_n_n none x0 x3 (constant (F := Ideal) S12800x64 .f32 0x00000000#32) (ix2 r k)
      + matmul dot_S12800x35_S35x64_S12800x64_1_0_0_1_n_n none (subf x1 x0) x4 (constant (F := Ideal) S12800x64 .f32 0x00000000#32) (ix2 r k))
      + matmul dot_S12800x1_S1x64_S12800x64_1_0_0_1_n_n none x2 x5 (constant (F := Ideal) S12800x64 .f32 0x00000000#32) (ix2 r k))
      + broadcastTo S12800x64 x6 broadcasts_S1x64_S12800x64 (ix2 r k)) (Ideal.ofBits .f32 0x00000000#32) = _
  rw [mmA_apply, mmA_apply, mmE_apply, broadcastTo_1b_ab_apply, Ideal.ofBits_zero_f32]
  rfl

/-- Entry j of a local row is the specification's message entry of the global row, once each block's entries are the
    natural arrays' entries there. -/
theorem row_eq (x0 x1 : Vec Ideal S12800x35 .f32) (x2 : Vec Ideal S12800x1 .f32) (x3 x4 : Vec Ideal S35x64 .f32)
    (x5 x6 : Vec Ideal S1x64 .f32) (x7 : Vec Ideal S64x32 .f32) (x8 : Vec Ideal S1x32 .f32)
    (A Bm : Spec.Ex35.Idx → EReal) (EA : Spec.Ex1.Idx → EReal) (W1 : Spec.M71x64.Idx → EReal) (B1 : Spec.V64.Idx → EReal)
    (W2 : Spec.M64x32.Idx → EReal) (B2 : Spec.V32.Idx → EReal) (r : Fin 12800) (j : Fin 32) (e : Fin 3200000)
    (e0 : ∀ i : Fin 35, x0 (ix2 r i) = A (ix2 e i)) (e1 : ∀ i : Fin 35, x1 (ix2 r i) = Bm (ix2 e i))
    (e2 : ∀ i : Fin 1, x2 (ix2 r i) = EA (ix2 e i))
    (e3 : ∀ (i : Fin 35) (k : Fin 64), x3 (ix2 i k) = W1 (ix2 (⟨i.val, by omega⟩ : Fin 71) k))
    (e4 : ∀ (i : Fin 35) (k : Fin 64), x4 (ix2 i k) = W1 (ix2 (⟨35 + i.val, by omega⟩ : Fin 71) k))
    (e5 : ∀ (i : Fin 1) (k : Fin 64), x5 (ix2 i k) = W1 (ix2 (⟨70 + i.val, by omega⟩ : Fin 71) k))
    (e6 : ∀ k : Fin 64, x6 (ix2 (0 : Fin 1) k) = B1 (ix1 k))
    (e7 : ∀ (k : Fin 64) (j : Fin 32), x7 (ix2 k j) = W2 (ix2 k j))
    (e8 : ∀ j : Fin 32, x8 (ix2 (0 : Fin 1) j) = B2 (ix1 j)) :
    k1_pay1 x0 x1 x2 x3 x4 x5 x6 x7 x8 (ix2 r j) = Spec.g1 A Bm EA W1 B1 W2 B2 e j := by
  rw [pay_apply]
  unfold hidRow Spec.g1 Spec.hidE
  simp only [e0, e1, e2, e3, e4, e5, e6, e7, e8]

/-! ### From blocks to the table -/

theorem hz : (![0, 0] : Fin 2 → Nat) = fun _ => 0 := funext fun a => by fin_cases a <;> rfl

/-- The printed index maps over the 250 points: the three edge windows and the output move with the point along
    the rows, the six weight windows stay at block (0, 0). -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = t.val ∧ win1_9.index t (1 : Fin 2) = 0) :=
  (by decide +kernel : ∀ t : Fin grid1.N, _)

variable (V : (c : Dev nD) → (b : Ref sig .tc) → Buf (Elt Ideal) ((c : Thread nD τ).loc b))

/-! Each window's block at a point, read off the array the region finds: the three edge windows hold rows
    12800 t … 12800 t + 12799 of their arrays, the six weight windows their whole arrays. -/

theorem blk0_apply (c : Dev nD) (t : Fin cfg1.N) (r : Fin 12800) (i : Fin 35) (e : Fin 3200000)
    (he : e.val = 12800 * t.val + r.val) :
    (iblk1 V c 0 t : Vec Ideal S12800x35 .f32) (ix2 r i) = (V c main_v16 : S3200000x35.Idx → EReal) (ix2 e i) := by
  obtain ⟨f0, f1⟩ := (idx_facts t).1
  unfold iblk1
  rw [View.read_apply]
  show V c main_v16 _ = V c main_v16 _
  congr 1
  funext a
  apply Fin.ext
  match a with
  | ⟨0, _⟩ => show win1_0.index t 0 * 12800 + 1 * r.val = e.val; rw [f0, he]; omega
  | ⟨1, _⟩ => show win1_0.index t 1 * 35 + 1 * i.val = i.val; rw [f1]; omega

theorem blk1_apply (c : Dev nD) (t : Fin cfg1.N) (r : Fin 12800) (i : Fin 35) (e : Fin 3200000)
    (he : e.val = 12800 * t.val + r.val) :
    (iblk1 V c 1 t : Vec Ideal S12800x35 .f32) (ix2 r i) = (V c main_v17 : S3200000x35.Idx → EReal) (ix2 e i) := by
  obtain ⟨f0, f1⟩ := (idx_facts t).2.1
  unfold iblk1
  rw [View.read_apply]
  show V c main_v17 _ = V c main_v17 _
  congr 1
  funext a
  apply Fin.ext
  match a with
  | ⟨0, _⟩ => show win1_1.index t 0 * 12800 + 1 * r.val = e.val; rw [f0, he]; omega
  | ⟨1, _⟩ => show win1_1.index t 1 * 35 + 1 * i.val = i.val; rw [f1]; omega

theorem blk2_apply (c : Dev nD) (t : Fin cfg1.N) (r : Fin 12800) (i : Fin 1) (e : Fin 3200000)
    (he : e.val = 12800 * t.val + r.val) :
    (iblk1 V c 2 t : Vec Ideal S12800x1 .f32) (ix2 r i) = (V c main_arg2 : S3200000x1.Idx → EReal) (ix2 e i) := by
  obtain ⟨f0, f1⟩ := (idx_facts t).2.2.1
  unfold iblk1
  rw [View.read_apply]
  show V c main_arg2 _ = V c main_arg2 _
  congr 1
  funext a
  apply Fin.ext
  match a with
  | ⟨0, _⟩ => show win1_2.index t 0 * 12800 + 1 * r.val = e.val; rw [f0, he]; omega
  | ⟨1, _⟩ => show win1_2.index t 1 * 1 + 1 * i.val = i.val; rw [f1]; omega

theorem blk3_eq (c : Dev nD) (t : Fin cfg1.N) :
    (iblk1 V c 3 t : Vec Ideal S35x64 .f32) = (V c main_v18 : S35x64.Idx → EReal) := by
  obtain ⟨f0, f1⟩ := (idx_facts t).2.2.2.1
  funext y
  unfold iblk1
  rw [View.read_apply]
  show V c main_v18 _ = V c main_v18 _
  congr 1
  funext a
  apply Fin.ext
  match a with
  | ⟨0, _⟩ => show win1_3.index t 0 * 35 + 1 * (y 0).val = (y 0).val; rw [f0]; omega
  | ⟨1, _⟩ => show win1_3.index t 1 * 64 + 1 * (y 1).val = (y 1).val; rw [f1]; omega

theorem blk4_eq (c : Dev nD) (t : Fin cfg1.N) :
    (iblk1 V c 4 t : Vec Ideal S35x64 .f32) = (V c main_v19 : S35x64.Idx → EReal) := by
  obtain ⟨f0, f1⟩ := (idx_facts t).2.2.2.2.1
  funext y
  unfold iblk1
  rw [View.read_apply]
  show V c main_v19 _ = V c main_v19 _
  congr 1
  funext a
  apply Fin.ext
  match a with
  | ⟨0, _⟩ => show win1_4.index t 0 * 35 + 1 * (y 0).val = (y 0).val; rw [f0]; omega
  | ⟨1, _⟩ => show win1_4.index t 1 * 64 + 1 * (y 1).val = (y 1).val; rw [f1]; omega

theorem blk5_eq (c : Dev nD) (t : Fin cfg1.N) :
    (iblk1 V c 5 t : Vec Ideal S1x64 .f32) = (V c main_v20 : S1x64.Idx → EReal) := by
  obtain ⟨f0, f1⟩ := (idx_facts t).2.2.2.2.2.1
  funext y
  unfold iblk1
  rw [View.read_apply]
  show V c main_v20 _ = V c main_v20 _
  congr 1
  funext a
  apply Fin.ext
  match a with
  | ⟨0, _⟩ => show win1_5.index t 0 * 1 + 1 * (y 0).val = (y 0).val; rw [f0]; omega
  | ⟨1, _⟩ => show win1_5.index t 1 * 64 + 1 * (y 1).val = (y 1).val; rw [f1]; omega

theorem blk6_eq (c : Dev nD) (t : Fin cfg1.N) :
    (iblk1 V c 6 t : Vec Ideal S1x64 .f32) = (V c main_v21 : S1x64.Idx → EReal) := by
  obtain ⟨f0, f1⟩ := (idx_facts t).2.2.2.2.2.2.1
  funext y
  unfold iblk1
  rw [View.read_apply]
  show V c main_v21 _ = V c main_v21 _
  congr 1
  funext a
  apply Fin.ext
  match a with
  | ⟨0, _⟩ => show win1_6.index t 0 * 1 + 1 * (y 0).val = (y 0).val; rw [f0]; omega
  | ⟨1, _⟩ => show win1_6.index t 1 * 64 + 1 * (y 1).val = (y 1).val; rw [f1]; omega

theorem blk7_eq (c : Dev nD) (t : Fin cfg1.N) :
    (iblk1 V c 7 t : Vec Ideal S64x32 .f32) = (V c main_arg11 : S64x32.Idx → EReal) := by
  obtain ⟨f0, f1⟩ := (idx_facts t).2.2.2.2.2.2.2.1
  funext y
  unfold iblk1
  rw [View.read_apply]
  show V c main_arg11 _ = V c main_arg11 _
  congr 1
  funext a
  apply Fin.ext
  match a with
  | ⟨0, _⟩ => show win1_7.index t 0 * 64 + 1 * (y 0).val = (y 0).val; rw [f0]; omega
  | ⟨1, _⟩ => show win1_7.index t 1 * 32 + 1 * (y 1).val = (y 1).val; rw [f1]; omega

theorem blk8_eq (c : Dev nD) (t : Fin cfg1.N) :
    (iblk1 V c 8 t : Vec Ideal S1x32 .f32) = (V c main_v22 : S1x32.Idx → EReal) := by
  obtain ⟨f0, f1⟩ := (idx_facts t).2.2.2.2.2.2.2.2.1
  funext y
  unfold iblk1
  rw [View.read_apply]
  show V c main_v22 _ = V c main_v22 _
  congr 1
  funext a
  apply Fin.ext
  match a with
  | ⟨0, _⟩ => show win1_8.index t 0 * 1 + 1 * (y 0).val = (y 0).val; rw [f0]; omega
  | ⟨1, _⟩ => show win1_8.index t 1 * 32 + 1 * (y 1).val = (y 1).val; rw [f1]; omega

/-- What point t writes back is block t of the specification's message table. -/
theorem flushed_eq (c : Dev nD)
    (A Bm : Spec.Ex35.Idx → EReal) (EA : Spec.Ex1.Idx → EReal) (W1 : Spec.M71x64.Idx → EReal) (B1 : Spec.V64.Idx → EReal)
    (W2 : Spec.M64x32.Idx → EReal) (B2 : Spec.V32.Idx → EReal)
    (h0 : V c main_v16 = A) (h1 : V c main_v17 = Bm) (h2 : V c main_arg2 = EA)
    (h3 : V c main_v18 = extractStridedSlice S35x64 ![0, 0] W1 slices_S71x64_S35x64_0_0)
    (h4 : V c main_v19 = extractStridedSlice S35x64 ![35, 0] W1 slices_S71x64_S35x64_35_0)
    (h5 : V c main_v20 = extractStridedSlice S1x64 ![70, 0] W1 slices_S71x64_S1x64_70_0)
    (h6 : V c main_v21 = shapeCast S1x64 B1 shapeCasts_S64_S1x64)
    (h7 : V c main_arg11 = W2)
    (h8 : V c main_v22 = shapeCast S1x32 B2 shapeCasts_S32_S1x32) (t : Fin cfg1.N) :
    (dat1 (F := Ideal) V c).flushed 9 t
      = ((cfg1.win 9).blk t).view.read (Elt Ideal) (Spec.G1 A Bm EA W1 B1 W2 B2) := by
  show (cfg1.win 9).cut (grid1.coords t) ((dat1 V c).after 9 t) = _
  rw [after1_9]
  unfold out1_9
  rw [View.canon_unit_zero hz]
  simp only [View.ld_unit_zero (S := S12800x35) hz, View.ld_unit_zero (S := S12800x1) hz, View.ld_unit_zero (S := S35x64) hz,
    View.ld_unit_zero (S := S1x64) hz, View.ld_unit_zero (S := S64x32) hz, View.ld_unit_zero (S := S1x32) hz]
  obtain ⟨f0, f1⟩ := (idx_facts t).2.2.2.2.2.2.2.2.2
  have hN : cfg1.N = 250 := N_1
  have ht : t.val < 250 := hN ▸ t.isLt
  funext y
  obtain ⟨r, j, rfl⟩ : ∃ (r : Fin 12800) (j : Fin 32), y = ix2 r j := ⟨y 0, y 1, eq_ix2 y⟩
  have hlt : 12800 * t.val + r.val < 3200000 := by omega
  have hemb : ((cfg1.win 9).blk t).view.emb (ix2 r j)
      = (ix2 (⟨12800 * t.val + r.val, hlt⟩ : Fin 3200000) j : S3200000x32.Idx) := by
    funext a
    apply Fin.ext
    match a with
    | ⟨0, _⟩ => show win1_9.index t 0 * 12800 + 1 * r.val = 12800 * t.val + r.val; rw [f0]; omega
    | ⟨1, _⟩ => show win1_9.index t 1 * 32 + 1 * j.val = j.val; rw [f1]; omega
  show k1_pay1 (iblk1 V c 0 t) (iblk1 V c 1 t) (iblk1 V c 2 t) (iblk1 V c 3 t) (iblk1 V c 4 t) (iblk1 V c 5 t)
      (iblk1 V c 6 t) (iblk1 V c 7 t) (iblk1 V c 8 t) (ix2 r j)
    = Spec.G1 A Bm EA W1 B1 W2 B2 (((cfg1.win 9).blk t).view.emb (ix2 r j))
  refine Eq.trans ?_ (congrArg (Spec.G1 A Bm EA W1 B1 W2 B2) hemb).symm
  refine (row_eq (iblk1 V c 0 t) (iblk1 V c 1 t) (iblk1 V c 2 t) (iblk1 V c 3 t) (iblk1 V c 4 t) (iblk1 V c 5 t)
      (iblk1 V c 6 t) (iblk1 V c 7 t) (iblk1 V c 8 t) A Bm EA W1 B1 W2 B2 r j ⟨12800 * t.val + r.val, hlt⟩
      ?_ ?_ ?_ ?_ ?_ ?_ ?_ ?_ ?_).trans (Spec.G1_ix2 A Bm EA W1 B1 W2 B2 _ j).symm
  · intro i; rw [blk0_apply V c t r i ⟨12800 * t.val + r.val, hlt⟩ rfl, h0]
  · intro i; rw [blk1_apply V c t r i ⟨12800 * t.val + r.val, hlt⟩ rfl, h1]
  · intro i; rw [blk2_apply V c t r i ⟨12800 * t.val + r.val, hlt⟩ rfl, h2]
  · intro i k; rw [blk3_eq V c t, h3]; exact slice2_axis0_apply 0 W1 _ i k _ (Nat.zero_add _).symm
  · intro i k; rw [blk4_eq V c t, h4]; exact slice2_axis0_eq 35 W1 _ i k
  · intro i k; rw [blk5_eq V c t, h5]; exact slice2_axis0_eq 70 W1 _ i k
  · intro k; rw [blk6_eq V c t, h6]; exact shapeCast_a_1a_apply B1 _ 0 k
  · intro k j'; rw [blk7_eq V c t, h7]
  · intro j'; rw [blk8_eq V c t, h8]; exact shapeCast_a_1a_apply B2 _ 0 j'

/-- An index of the message table is in point t's block iff each coordinate is in the block's range. -/
theorem mem_blk (t : Fin cfg1.N) (i : S3200000x32.Idx) :
    i ∈ ((cfg1.win 9).blk t).view.set ↔ ∀ a : Fin 2, win1_9.index t a * S12800x32.size a ≤ (i a).val
      ∧ (i a).val < win1_9.index t a * S12800x32.size a + S12800x32.size a := by
  show i ∈ ((View.whole main_v23).slice (win1_9.rect t)).set ↔ _
  rw [View.set_slice_whole, Rect.mem_set_unit]
  exact Iff.rfl

/-- Row e of the table is written by point e / 12800. -/
theorem cover (i : S3200000x32.Idx) :
    ∃ t : Fin cfg1.N, (cfg1.win 9).flush t = true ∧ i ∈ ((cfg1.win 9).blk t).view.set := by
  have hi0 : (i 0).val < 3200000 := (i 0).isLt
  have hi1 : (i 1).val < 32 := (i 1).isLt
  have hN : cfg1.N = 250 := N_1
  refine ⟨⟨(i 0).val / 12800, by rw [hN]; omega⟩, flush1_9 _, ?_⟩
  obtain ⟨f0, f1⟩ := (idx_facts ⟨(i 0).val / 12800, by rw [hN]; omega⟩).2.2.2.2.2.2.2.2.2
  rw [mem_blk]
  intro a
  match a with
  | ⟨0, _⟩ =>
    show win1_9.index _ (0 : Fin 2) * 12800 ≤ (i 0).val ∧ (i 0).val < win1_9.index _ (0 : Fin 2) * 12800 + 12800
    rw [f0]
    show (i 0).val / 12800 * 12800 ≤ (i 0).val ∧ (i 0).val < (i 0).val / 12800 * 12800 + 12800
    omega
  | ⟨1, _⟩ =>
    show win1_9.index _ (1 : Fin 2) * 32 ≤ (i 1).val ∧ (i 1).val < win1_9.index _ (1 : Fin 2) * 32 + 32
    rw [f1]
    omega

theorem arr (c : Dev nD)
    (A Bm : Spec.Ex35.Idx → EReal) (EA : Spec.Ex1.Idx → EReal) (W1 : Spec.M71x64.Idx → EReal) (B1 : Spec.V64.Idx → EReal)
    (W2 : Spec.M64x32.Idx → EReal) (B2 : Spec.V32.Idx → EReal)
    (h0 : V c main_v16 = A) (h1 : V c main_v17 = Bm) (h2 : V c main_arg2 = EA)
    (h3 : V c main_v18 = extractStridedSlice S35x64 ![0, 0] W1 slices_S71x64_S35x64_0_0)
    (h4 : V c main_v19 = extractStridedSlice S35x64 ![35, 0] W1 slices_S71x64_S35x64_35_0)
    (h5 : V c main_v20 = extractStridedSlice S1x64 ![70, 0] W1 slices_S71x64_S1x64_70_0)
    (h6 : V c main_v21 = shapeCast S1x64 B1 shapeCasts_S64_S1x64)
    (h7 : V c main_arg11 = W2)
    (h8 : V c main_v22 = shapeCast S1x32 B2 shapeCasts_S32_S1x32) :
    (dat1 (F := Ideal) V c).arrAt 9 cfg1.N = Spec.G1 A Bm EA W1 B1 W2 B2 :=
  (dat1 (F := Ideal) V c).arrAt_eq_of_cover 9 (Spec.G1 A Bm EA W1 B1 W2 B2)
    (fun t _ => flushed_eq V c A Bm EA W1 B1 W2 B2 h0 h1 h2 h3 h4 h5 h6 h7 h8 t) cover

end Cert.KernelIdeal.Region1

end
-- ==== Proof.KRegion2.lean ====
/-
  The output stage on the chip: the array its 250 grid points leave in the one-column result is the specification's
  `G2` of the two gathered row tables, the edge attributes and the whole weights.  Each point reads rows
  [12800 t, 12800 (t + 1)) of the three edge arrays and the whole of every weight piece; the three pieces of the first
  weight are rows 0–34, 35–69 and 70 of the 71-row matrix.
-/
import proofs.«411465_j83708912599063_2_alg».proof.Proof.Gen.KernelIdeal.Frame
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Region2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ### A 35-wide feature block against a 35-row weight piece -/

theorem lhs_feat_0 (i : S12800x64.Idx) (q : dot_S12800x35_S35x64_S12800x64_1_0_0_1_n_n.contr.Idx) :
    (dot_S12800x35_S35x64_S12800x64_1_0_0_1_n_n.lhsIdx i q 0).val = (i 0).val := by
  unfold DotDims.lhsIdx
  rw [dif_neg (show ¬(0 : Fin S12800x35.rank) ∈ dot_S12800x35_S35x64_S12800x64_1_0_0_1_n_n.lhsBatch by decide), dif_pos (show (0 : Fin S12800x35.rank) ∈ dot_S12800x35_S35x64_S12800x64_1_0_0_1_n_n.lhsNonContracting by decide)]
  rfl
theorem lhs_feat_1 (i : S12800x64.Idx) (q : dot_S12800x35_S35x64_S12800x64_1_0_0_1_n_n.contr.Idx) :
    (dot_S12800x35_S35x64_S12800x64_1_0_0_1_n_n.lhsIdx i q 1).val = (q ⟨0, by decide⟩).val :=
  dot_S12800x35_S35x64_S12800x64_1_0_0_1_n_n.lhsIdx_val_of_single rfl i q
theorem rhs_feat_0 (i : S12800x64.Idx) (q : dot_S12800x35_S35x64_S12800x64_1_0_0_1_n_n.contr.Idx) :
    (dot_S12800x35_S35x64_S12800x64_1_0_0_1_n_n.rhsIdx i q 0).val = (q ⟨0, by decide⟩).val :=
  dot_S12800x35_S35x64_S12800x64_1_0_0_1_n_n.rhsIdx_val_of_single rfl i q
theorem rhs_feat_1 (i : S12800x64.Idx) (q : dot_S12800x35_S35x64_S12800x64_1_0_0_1_n_n.contr.Idx) :
    (dot_S12800x35_S35x64_S12800x64_1_0_0_1_n_n.rhsIdx i q 1).val = (i 1).val := by
  unfold DotDims.rhsIdx
  rw [dif_neg (show ¬(1 : Fin S35x64.rank) ∈ dot_S12800x35_S35x64_S12800x64_1_0_0_1_n_n.rhsBatch by decide), dif_pos (show (1 : Fin S35x64.rank) ∈ dot_S12800x35_S35x64_S12800x64_1_0_0_1_n_n.rhsNonContracting by decide)]
  rfl

/-- The product into the zero accumulator, read at row `p`, column `k`: the inner product of the left operand's row
    with the right operand's column. -/
theorem matmul_feat_apply (l : FVec Ideal S12800x35 .f32) (r : FVec Ideal S35x64 .f32) (p : Fin 12800) (k : Fin 64) :
    matmul dot_S12800x35_S35x64_S12800x64_1_0_0_1_n_n none l r (constant (F := Ideal) S12800x64 .f32 0x00000000#32) (ix2 p k)
      = ∑ i : Fin 35, l (ix2 p i) * r (ix2 i k) := by
  refine (Ideal.matmul_constant_zero_apply dot_S12800x35_S35x64_S12800x64_1_0_0_1_n_n none l r (ix2 p k)).trans ?_
  rw [← Equiv.sum_comp (contrEquiv1 dot_S12800x35_S35x64_S12800x64_1_0_0_1_n_n 35 rfl rfl).symm]
  refine Finset.sum_congr rfl fun i _ => ?_
  have hk := contrEquiv1_symm_val dot_S12800x35_S35x64_S12800x64_1_0_0_1_n_n 35 rfl rfl i
  have el : dot_S12800x35_S35x64_S12800x64_1_0_0_1_n_n.lhsIdx (ix2 p k) ((contrEquiv1 dot_S12800x35_S35x64_S12800x64_1_0_0_1_n_n 35 rfl rfl).symm i) = ix2 p i := funext fun a => Fin.ext (by
    match a with
    | ⟨0, _⟩ => exact lhs_feat_0 _ _
    | ⟨1, _⟩ => exact (lhs_feat_1 _ _).trans hk)
  have er : dot_S12800x35_S35x64_S12800x64_1_0_0_1_n_n.rhsIdx (ix2 p k) ((contrEquiv1 dot_S12800x35_S35x64_S12800x64_1_0_0_1_n_n 35 rfl rfl).symm i) = ix2 i k := funext fun a => Fin.ext (by
    match a with
    | ⟨0, _⟩ => exact (rhs_feat_0 _ _).trans hk
    | ⟨1, _⟩ => exact rhs_feat_1 _ _)
  rw [el, er]

/-! ### The attribute column against the weight's last row (contraction extent one) -/

theorem lhs_attr_0 (i : S12800x64.Idx) (q : dot_S12800x1_S1x64_S12800x64_1_0_0_1_n_n.contr.Idx) :
    (dot_S12800x1_S1x64_S12800x64_1_0_0_1_n_n.lhsIdx i q 0).val = (i 0).val := by
  unfold DotDims.lhsIdx
  rw [dif_neg (show ¬(0 : Fin S12800x1.rank) ∈ dot_S12800x1_S1x64_S12800x64_1_0_0_1_n_n.lhsBatch by decide), dif_pos (show (0 : Fin S12800x1.rank) ∈ dot_S12800x1_S1x64_S12800x64_1_0_0_1_n_n.lhsNonContracting by decide)]
  rfl
theorem lhs_attr_1 (i : S12800x64.Idx) (q : dot_S12800x1_S1x64_S12800x64_1_0_0_1_n_n.contr.Idx) :
    (dot_S12800x1_S1x64_S12800x64_1_0_0_1_n_n.lhsIdx i q 1).val = (q ⟨0, by decide⟩).val :=
  dot_S12800x1_S1x64_S12800x64_1_0_0_1_n_n.lhsIdx_val_of_single rfl i q
theorem rhs_attr_0 (i : S12800x64.Idx) (q : dot_S12800x1_S1x64_S12800x64_1_0_0_1_n_n.contr.Idx) :
    (dot_S12800x1_S1x64_S12800x64_1_0_0_1_n_n.rhsIdx i q 0).val = (q ⟨0, by decide⟩).val :=
  dot_S12800x1_S1x64_S12800x64_1_0_0_1_n_n.rhsIdx_val_of_single rfl i q
theorem rhs_attr_1 (i : S12800x64.Idx) (q : dot_S12800x1_S1x64_S12800x64_1_0_0_1_n_n.contr.Idx) :
    (dot_S12800x1_S1x64_S12800x64_1_0_0_1_n_n.rhsIdx i q 1).val = (i 1).val := by
  unfold DotDims.rhsIdx
  rw [dif_neg (show ¬(1 : Fin S1x64.rank) ∈ dot_S12800x1_S1x64_S12800x64_1_0_0_1_n_n.rhsBatch by decide), dif_pos (show (1 : Fin S1x64.rank) ∈ dot_S12800x1_S1x64_S12800x64_1_0_0_1_n_n.rhsNonContracting by decide)]
  rfl

/-- The product into the zero accumulator, read at row `p`, column `k`: the inner product of the left operand's row
    with the right operand's column. -/
theorem matmul_attr_apply (l : FVec Ideal S12800x1 .f32) (r : FVec Ideal S1x64 .f32) (p : Fin 12800) (k : Fin 64) :
    matmul dot_S12800x1_S1x64_S12800x64_1_0_0_1_n_n none l r (constant (F := Ideal) S12800x64 .f32 0x00000000#32) (ix2 p k)
      = ∑ i : Fin 1, l (ix2 p i) * r (ix2 i k) := by
  refine (Ideal.matmul_constant_zero_apply dot_S12800x1_S1x64_S12800x64_1_0_0_1_n_n none l r (ix2 p k)).trans ?_
  rw [← Equiv.sum_comp (contrEquiv1 dot_S12800x1_S1x64_S12800x64_1_0_0_1_n_n 1 rfl rfl).symm]
  refine Finset.sum_congr rfl fun i _ => ?_
  have hk := contrEquiv1_symm_val dot_S12800x1_S1x64_S12800x64_1_0_0_1_n_n 1 rfl rfl i
  have el : dot_S12800x1_S1x64_S12800x64_1_0_0_1_n_n.lhsIdx (ix2 p k) ((contrEquiv1 dot_S12800x1_S1x64_S12800x64_1_0_0_1_n_n 1 rfl rfl).symm i) = ix2 p i := funext fun a => Fin.ext (by
    match a with
    | ⟨0, _⟩ => exact lhs_attr_0 _ _
    | ⟨1, _⟩ => exact (lhs_attr_1 _ _).trans hk)
  have er : dot_S12800x1_S1x64_S12800x64_1_0_0_1_n_n.rhsIdx (ix2 p k) ((contrEquiv1 dot_S12800x1_S1x64_S12800x64_1_0_0_1_n_n 1 rfl rfl).symm i) = ix2 i k := funext fun a => Fin.ext (by
    match a with
    | ⟨0, _⟩ => exact (rhs_attr_0 _ _).trans hk
    | ⟨1, _⟩ => exact rhs_attr_1 _ _)
  rw [el, er]

/-! ### The hidden layer against the one-column output weight -/

theorem lhs_out_0 (i : S12800x1.Idx) (q : dot_S12800x64_S64x1_S12800x1_1_0_0_1_n_n.contr.Idx) :
    (dot_S12800x64_S64x1_S12800x1_1_0_0_1_n_n.lhsIdx i q 0).val = (i 0).val := by
  unfold DotDims.lhsIdx
  rw [dif_neg (show ¬(0 : Fin S12800x64.rank) ∈ dot_S12800x64_S64x1_S12800x1_1_0_0_1_n_n.lhsBatch by decide), dif_pos (show (0 : Fin S12800x64.rank) ∈ dot_S12800x64_S64x1_S12800x1_1_0_0_1_n_n.lhsNonContracting by decide)]
  rfl
theorem lhs_out_1 (i : S12800x1.Idx) (q : dot_S12800x64_S64x1_S12800x1_1_0_0_1_n_n.contr.Idx) :
    (dot_S12800x64_S64x1_S12800x1_1_0_0_1_n_n.lhsIdx i q 1).val = (q ⟨0, by decide⟩).val :=
  dot_S12800x64_S64x1_S12800x1_1_0_0_1_n_n.lhsIdx_val_of_single rfl i q
theorem rhs_out_0 (i : S12800x1.Idx) (q : dot_S12800x64_S64x1_S12800x1_1_0_0_1_n_n.contr.Idx) :
    (dot_S12800x64_S64x1_S12800x1_1_0_0_1_n_n.rhsIdx i q 0).val = (q ⟨0, by decide⟩).val :=
  dot_S12800x64_S64x1_S12800x1_1_0_0_1_n_n.rhsIdx_val_of_single rfl i q
theorem rhs_out_1 (i : S12800x1.Idx) (q : dot_S12800x64_S64x1_S12800x1_1_0_0_1_n_n.contr.Idx) :
    (dot_S12800x64_S64x1_S12800x1_1_0_0_1_n_n.rhsIdx i q 1).val = (i 1).val := by
  unfold DotDims.rhsIdx
  rw [dif_neg (show ¬(1 : Fin S64x1.rank) ∈ dot_S12800x64_S64x1_S12800x1_1_0_0_1_n_n.rhsBatch by decide), dif_pos (show (1 : Fin S64x1.rank) ∈ dot_S12800x64_S64x1_S12800x1_1_0_0_1_n_n.rhsNonContracting by decide)]
  rfl

/-- The product into the zero accumulator, read at row `p`, column `k`: the inner product of the left operand's row
    with the right operand's column. -/
theorem matmul_out_apply (l : FVec Ideal S12800x64 .f32) (r : FVec Ideal S64x1 .f32) (p : Fin 12800) (k : Fin 1) :
    matmul dot_S12800x64_S64x1_S12800x1_1_0_0_1_n_n none l r (constant (F := Ideal) S12800x1 .f32 0x00000000#32) (ix2 p k)
      = ∑ i : Fin 64, l (ix2 p i) * r (ix2 i k) := by
  refine (Ideal.matmul_constant_zero_apply dot_S12800x64_S64x1_S12800x1_1_0_0_1_n_n none l r (ix2 p k)).trans ?_
  rw [← Equiv.sum_comp (contrEquiv1 dot_S12800x64_S64x1_S12800x1_1_0_0_1_n_n 64 rfl rfl).symm]
  refine Finset.sum_congr rfl fun i _ => ?_
  have hk := contrEquiv1_symm_val dot_S12800x64_S64x1_S12800x1_1_0_0_1_n_n 64 rfl rfl i
  have el : dot_S12800x64_S64x1_S12800x1_1_0_0_1_n_n.lhsIdx (ix2 p k) ((contrEquiv1 dot_S12800x64_S64x1_S12800x1_1_0_0_1_n_n 64 rfl rfl).symm i) = ix2 p i := funext fun a => Fin.ext (by
    match a with
    | ⟨0, _⟩ => exact lhs_out_0 _ _
    | ⟨1, _⟩ => exact (lhs_out_1 _ _).trans hk)
  have er : dot_S12800x64_S64x1_S12800x1_1_0_0_1_n_n.rhsIdx (ix2 p k) ((contrEquiv1 dot_S12800x64_S64x1_S12800x1_1_0_0_1_n_n 64 rfl rfl).symm i) = ix2 i k := funext fun a => Fin.ext (by
    match a with
    | ⟨0, _⟩ => exact (rhs_out_0 _ _).trans hk
    | ⟨1, _⟩ => exact rhs_out_1 _ _)
  rw [el, er]

/-! ### The body's payload at a row -/

/-- Hidden unit `k` of local row `p`, from the blocks the body loads: the two feature rows against their weight pieces,
    the attribute against the weight's last row, the bias, rectified. -/
def hidBlk (x0 x1 : Vec Ideal S12800x35 .f32) (x2 : Vec Ideal S12800x1 .f32) (x3 x4 : Vec Ideal S35x64 .f32)
    (x5 x6 : Vec Ideal S1x64 .f32) (p : Fin 12800) (k : Fin 64) : EReal :=
  max (((((∑ i : Fin 35, x0 (ix2 p i) * x3 (ix2 i k)) + (∑ i : Fin 35, x1 (ix2 p i) * x4 (ix2 i k)))
    + (∑ i : Fin 1, x2 (ix2 p i) * x5 (ix2 i k))) + x6 (ix2 (0 : Fin 1) k))) 0

/-- The stored value at local row `p` (column `j` of the one column): the logistic function of the hidden layer's inner
    product with the output weight plus the output bias. -/
theorem pay_apply (x0 x1 : Vec Ideal S12800x35 .f32) (x2 : Vec Ideal S12800x1 .f32) (x3 x4 : Vec Ideal S35x64 .f32)
    (x5 x6 : Vec Ideal S1x64 .f32) (x7 : Vec Ideal S64x1 .f32) (x8 : Vec Ideal S1x1 .f32) (p : Fin 12800) (j : Fin 1) :
    k2_pay1 x0 x1 x2 x3 x4 x5 x6 x7 x8 (ix2 p j)
      = Ideal.logistic ((∑ k : Fin 64, hidBlk x0 x1 x2 x3 x4 x5 x6 p k * x7 (ix2 k j)) + x8 (ix2 (0 : Fin 1) j)) := by
  unfold k2_pay1 hidBlk
  simp only [shapeCast_self]
  show FloatOps.logistic _ = _
  rw [Ideal.logistic_def, addf_apply, matmul_out_apply, broadcastTo_1b_ab_apply]
  congr 2
  refine Finset.sum_congr rfl fun k _ => ?_
  rw [maximumf_apply, addf_apply, addf_apply, addf_apply, matmul_feat_apply, matmul_feat_apply, matmul_attr_apply,
    broadcastTo_1b_ab_apply, broadcast_apply]
  show max _ (Ideal.ofBits .f32 0x00000000#32) * _ = _
  rw [Ideal.ofBits_zero_f32]

/-! ### A stored row is the specification's row -/

/-- If the loaded blocks are the rows of edge `e` and the whole weight pieces (rows 0–34, 35–69 and 70 of the first
    weight), the value stored at local row `p` is the specification's output entry of edge `e`. -/
theorem row_eq (x0 x1 : Vec Ideal S12800x35 .f32) (x2 : Vec Ideal S12800x1 .f32) (x3 x4 : Vec Ideal S35x64 .f32)
    (x5 x6 : Vec Ideal S1x64 .f32) (x7 : Vec Ideal S64x1 .f32) (x8 : Vec Ideal S1x1 .f32)
    (A Bm : Spec.Ex35.Idx → EReal) (EA : Spec.Ex1.Idx → EReal) (W1 : Spec.M71x64.Idx → EReal) (B1 : Spec.V64.Idx → EReal)
    (W2 : Spec.M64x1.Idx → EReal) (B2 : Spec.V1.Idx → EReal) (e : Fin 3200000) (p : Fin 12800) (j : Fin 1)
    (H0 : ∀ i : Fin 35, x0 (ix2 p i) = A (ix2 e i))
    (H1 : ∀ i : Fin 35, x1 (ix2 p i) = Bm (ix2 e i))
    (H2 : ∀ i : Fin 1, x2 (ix2 p i) = EA (ix2 e i))
    (H3 : ∀ (i : Fin 35) (k : Fin 64), x3 (ix2 i k) = W1 (ix2 (⟨i.val, by omega⟩ : Fin 71) k))
    (H4 : ∀ (i : Fin 35) (k : Fin 64), x4 (ix2 i k) = W1 (ix2 (⟨35 + i.val, by omega⟩ : Fin 71) k))
    (H5 : ∀ (i : Fin 1) (k : Fin 64), x5 (ix2 i k) = W1 (ix2 (⟨70 + i.val, by omega⟩ : Fin 71) k))
    (H6 : ∀ k : Fin 64, x6 (ix2 (0 : Fin 1) k) = B1 (ix1 k))
    (H7 : ∀ (k : Fin 64) (j : Fin 1), x7 (ix2 k j) = W2 (ix2 k j))
    (H8 : ∀ j : Fin 1, x8 (ix2 (0 : Fin 1) j) = B2 (ix1 j)) :
    k2_pay1 x0 x1 x2 x3 x4 x5 x6 x7 x8 (ix2 p j) = Spec.g2 A Bm EA W1 B1 W2 B2 e j := by
  rw [pay_apply]
  unfold Spec.g2 Spec.hidE hidBlk
  simp only [H0, H1, H2, H3, H4, H5, H6, H7, H8]

/-! ### The blocks are rows of the arrays -/

theorem hz : (![0, 0] : Fin 2 → Nat) = fun _ => 0 := funext fun a => by fin_cases a <;> rfl

/-- The printed index maps, decided over the grid: the three edge windows and the output window sit at row block `t`,
    the six weight windows stay at the origin. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = 0 ∧ win2_3.index t (1 : Fin 2) = 0)
    ∧ (win2_4.index t (0 : Fin 2) = 0 ∧ win2_4.index t (1 : Fin 2) = 0)
    ∧ (win2_5.index t (0 : Fin 2) = 0 ∧ win2_5.index t (1 : Fin 2) = 0)
    ∧ (win2_6.index t (0 : Fin 2) = 0 ∧ win2_6.index t (1 : Fin 2) = 0)
    ∧ (win2_7.index t (0 : Fin 2) = 0 ∧ win2_7.index t (1 : Fin 2) = 0)
    ∧ (win2_8.index t (0 : Fin 2) = 0 ∧ win2_8.index t (1 : Fin 2) = 0)
    ∧ (win2_9.index t (0 : Fin 2) = t.val ∧ win2_9.index t (1 : Fin 2) = 0) :=
  (by decide +kernel : ∀ t : Fin grid2.N, _)

/-- Window 0's block at point `t` holds rows `12800 t + p` of its array. -/
theorem blk0_apply (c : Dev nD) (t : Fin cfg2.N) (p : Fin 12800) (i : Fin 35) (hb : 12800 * t.val + p.val < 3200000) :
    (iblk2 V c 0 t : Vec Ideal S12800x35 .f32) (ix2 p i)
      = (V c main_v28 : S3200000x35.Idx → EReal) (ix2 (⟨12800 * t.val + p.val, hb⟩ : Fin 3200000) i) := by
  obtain ⟨⟨e0, e1⟩, -, -, -, -, -, -, -, -, -⟩ := idx_facts t
  unfold iblk2
  rw [View.read_apply]
  show V c main_v28 _ = V c main_v28 _
  congr 1
  funext a; apply Fin.ext
  match a with
  | ⟨0, _⟩ => show win2_0.index t (0 : Fin 2) * 12800 + 1 * p.val = 12800 * t.val + p.val; rw [e0]; omega
  | ⟨1, _⟩ => show win2_0.index t (1 : Fin 2) * 35 + 1 * i.val = i.val; rw [e1]; omega

/-- Window 1's block at point `t` holds rows `12800 t + p` of its array. -/
theorem blk1_apply (c : Dev nD) (t : Fin cfg2.N) (p : Fin 12800) (i : Fin 35) (hb : 12800 * t.val + p.val < 3200000) :
    (iblk2 V c 1 t : Vec Ideal S12800x35 .f32) (ix2 p i)
      = (V c main_v29 : S3200000x35.Idx → EReal) (ix2 (⟨12800 * t.val + p.val, hb⟩ : Fin 3200000) i) := by
  obtain ⟨-, ⟨e0, e1⟩, -, -, -, -, -, -, -, -⟩ := idx_facts t
  unfold iblk2
  rw [View.read_apply]
  show V c main_v29 _ = V c main_v29 _
  congr 1
  funext a; apply Fin.ext
  match a with
  | ⟨0, _⟩ => show win2_1.index t (0 : Fin 2) * 12800 + 1 * p.val = 12800 * t.val + p.val; rw [e0]; omega
  | ⟨1, _⟩ => show win2_1.index t (1 : Fin 2) * 35 + 1 * i.val = i.val; rw [e1]; omega

/-- Window 2's block at point `t` holds rows `12800 t + p` of its array. -/
theorem blk2_apply (c : Dev nD) (t : Fin cfg2.N) (p : Fin 12800) (i : Fin 1) (hb : 12800 * t.val + p.val < 3200000) :
    (iblk2 V c 2 t : Vec Ideal S12800x1 .f32) (ix2 p i)
      = (V c main_arg2 : S3200000x1.Idx → EReal) (ix2 (⟨12800 * t.val + p.val, hb⟩ : Fin 3200000) i) := by
  obtain ⟨-, -, ⟨e0, e1⟩, -, -, -, -, -, -, -⟩ := idx_facts t
  unfold iblk2
  rw [View.read_apply]
  show V c main_arg2 _ = V c main_arg2 _
  congr 1
  funext a; apply Fin.ext
  match a with
  | ⟨0, _⟩ => show win2_2.index t (0 : Fin 2) * 12800 + 1 * p.val = 12800 * t.val + p.val; rw [e0]; omega
  | ⟨1, _⟩ => show win2_2.index t (1 : Fin 2) * 1 + 1 * i.val = i.val; rw [e1]; omega

/-- Window 3's block is its whole array at every point. -/
theorem blk3_apply (c : Dev nD) (t : Fin cfg2.N) (p : Fin 35) (i : Fin 64) :
    (iblk2 V c 3 t : Vec Ideal S35x64 .f32) (ix2 p i) = (V c main_v30 : S35x64.Idx → EReal) (ix2 p i) := by
  obtain ⟨-, -, -, ⟨e0, e1⟩, -, -, -, -, -, -⟩ := idx_facts t
  unfold iblk2
  rw [View.read_apply]
  show V c main_v30 _ = V c main_v30 _
  congr 1
  funext a; apply Fin.ext
  match a with
  | ⟨0, _⟩ => show win2_3.index t (0 : Fin 2) * 35 + 1 * p.val = p.val; rw [e0]; omega
  | ⟨1, _⟩ => show win2_3.index t (1 : Fin 2) * 64 + 1 * i.val = i.val; rw [e1]; omega

/-- Window 4's block is its whole array at every point. -/
theorem blk4_apply (c : Dev nD) (t : Fin cfg2.N) (p : Fin 35) (i : Fin 64) :
    (iblk2 V c 4 t : Vec Ideal S35x64 .f32) (ix2 p i) = (V c main_v31 : S35x64.Idx → EReal) (ix2 p i) := by
  obtain ⟨-, -, -, -, ⟨e0, e1⟩, -, -, -, -, -⟩ := idx_facts t
  unfold iblk2
  rw [View.read_apply]
  show V c main_v31 _ = V c main_v31 _
  congr 1
  funext a; apply Fin.ext
  match a with
  | ⟨0, _⟩ => show win2_4.index t (0 : Fin 2) * 35 + 1 * p.val = p.val; rw [e0]; omega
  | ⟨1, _⟩ => show win2_4.index t (1 : Fin 2) * 64 + 1 * i.val = i.val; rw [e1]; omega

/-- Window 5's block is its whole array at every point. -/
theorem blk5_apply (c : Dev nD) (t : Fin cfg2.N) (p : Fin 1) (i : Fin 64) :
    (iblk2 V c 5 t : Vec Ideal S1x64 .f32) (ix2 p i) = (V c main_v32 : S1x64.Idx → EReal) (ix2 p i) := by
  obtain ⟨-, -, -, -, -, ⟨e0, e1⟩, -, -, -, -⟩ := idx_facts t
  unfold iblk2
  rw [View.read_apply]
  show V c main_v32 _ = V c main_v32 _
  congr 1
  funext a; apply Fin.ext
  match a with
  | ⟨0, _⟩ => show win2_5.index t (0 : Fin 2) * 1 + 1 * p.val = p.val; rw [e0]; omega
  | ⟨1, _⟩ => show win2_5.index t (1 : Fin 2) * 64 + 1 * i.val = i.val; rw [e1]; omega

/-- Window 6's block is its whole array at every point. -/
theorem blk6_apply (c : Dev nD) (t : Fin cfg2.N) (p : Fin 1) (i : Fin 64) :
    (iblk2 V c 6 t : Vec Ideal S1x64 .f32) (ix2 p i) = (V c main_v33 : S1x64.Idx → EReal) (ix2 p i) := by
  obtain ⟨-, -, -, -, -, -, ⟨e0, e1⟩, -, -, -⟩ := idx_facts t
  unfold iblk2
  rw [View.read_apply]
  show V c main_v33 _ = V c main_v33 _
  congr 1
  funext a; apply Fin.ext
  match a with
  | ⟨0, _⟩ => show win2_6.index t (0 : Fin 2) * 1 + 1 * p.val = p.val; rw [e0]; omega
  | ⟨1, _⟩ => show win2_6.index t (1 : Fin 2) * 64 + 1 * i.val = i.val; rw [e1]; omega

/-- Window 7's block is its whole array at every point. -/
theorem blk7_apply (c : Dev nD) (t : Fin cfg2.N) (p : Fin 64) (i : Fin 1) :
    (iblk2 V c 7 t : Vec Ideal S64x1 .f32) (ix2 p i) = (V c main_arg15 : S64x1.Idx → EReal) (ix2 p i) := by
  obtain ⟨-, -, -, -, -, -, -, ⟨e0, e1⟩, -, -⟩ := idx_facts t
  unfold iblk2
  rw [View.read_apply]
  show V c main_arg15 _ = V c main_arg15 _
  congr 1
  funext a; apply Fin.ext
  match a with
  | ⟨0, _⟩ => show win2_7.index t (0 : Fin 2) * 64 + 1 * p.val = p.val; rw [e0]; omega
  | ⟨1, _⟩ => show win2_7.index t (1 : Fin 2) * 1 + 1 * i.val = i.val; rw [e1]; omega

/-- Window 8's block is its whole array at every point. -/
theorem blk8_apply (c : Dev nD) (t : Fin cfg2.N) (p : Fin 1) (i : Fin 1) :
    (iblk2 V c 8 t : Vec Ideal S1x1 .f32) (ix2 p i) = (V c main_v34 : S1x1.Idx → EReal) (ix2 p i) := by
  obtain ⟨-, -, -, -, -, -, -, -, ⟨e0, e1⟩, -⟩ := idx_facts t
  unfold iblk2
  rw [View.read_apply]
  show V c main_v34 _ = V c main_v34 _
  congr 1
  funext a; apply Fin.ext
  match a with
  | ⟨0, _⟩ => show win2_8.index t (0 : Fin 2) * 1 + 1 * p.val = p.val; rw [e0]; omega
  | ⟨1, _⟩ => show win2_8.index t (1 : Fin 2) * 1 + 1 * i.val = i.val; rw [e1]; omega

/-! ### From blocks to the array -/

/-- Where the output window's block at point `t` puts local row `p`: row `12800 t + p` of the result. -/
theorem emb_out (t : Fin cfg2.N) (p : Fin 12800) (j : Fin 1) (hb : 12800 * t.val + p.val < 3200000) :
    ((cfg2.win 9).blk t).view.emb (ix2 p j) = (ix2 (⟨12800 * t.val + p.val, hb⟩ : Fin 3200000) j : S3200000x1.Idx) := by
  obtain ⟨-, -, -, -, -, -, -, -, -, ⟨e0, e1⟩⟩ := idx_facts t
  funext a; apply Fin.ext
  match a with
  | ⟨0, _⟩ => show win2_9.index t (0 : Fin 2) * 12800 + 1 * p.val = 12800 * t.val + p.val; rw [e0]; omega
  | ⟨1, _⟩ => show win2_9.index t (1 : Fin 2) * 1 + 1 * j.val = j.val; rw [e1]; omega

/-- WHAT POINT `t` WRITES BACK is block `t` of the specification's column. -/
theorem flushed_eq (c : Dev nD)
    (A Bm : Spec.Ex35.Idx → EReal) (EA : Spec.Ex1.Idx → EReal) (W1 : Spec.M71x64.Idx → EReal) (B1 : Spec.V64.Idx → EReal)
    (W2 : Spec.M64x1.Idx → EReal) (B2 : Spec.V1.Idx → EReal)
    (h0 : V c main_v28 = A) (h1 : V c main_v29 = Bm) (h2 : V c main_arg2 = EA)
    (h3 : V c main_v30 = extractStridedSlice S35x64 ![0, 0] W1 slices_S71x64_S35x64_0_0)
    (h4 : V c main_v31 = extractStridedSlice S35x64 ![35, 0] W1 slices_S71x64_S35x64_35_0)
    (h5 : V c main_v32 = extractStridedSlice S1x64 ![70, 0] W1 slices_S71x64_S1x64_70_0)
    (h6 : V c main_v33 = shapeCast S1x64 B1 shapeCasts_S64_S1x64)
    (h7 : V c main_arg15 = W2)
    (h8 : V c main_v34 = shapeCast S1x1 B2 shapeCasts_S1_S1x1)
    (t : Fin cfg2.N) :
    (dat2 (F := Ideal) V c).flushed 9 t
      = ((cfg2.win 9).blk t).view.read (Elt Ideal) (Spec.G2 A Bm EA W1 B1 W2 B2) := by
  have ht : t.val < 250 := lt_of_lt_of_eq t.isLt N_2
  show (cfg2.win 9).cut (grid2.coords t) ((dat2 V c).after 9 t) = _
  rw [after2_9]
  unfold out2_9
  rw [View.canon_unit_zero hz]
  simp only [View.ld_unit_zero (S := S12800x35) hz, View.ld_unit_zero (S := S12800x1) hz, View.ld_unit_zero (S := S35x64) hz,
    View.ld_unit_zero (S := S1x64) hz, View.ld_unit_zero (S := S64x1) hz, View.ld_unit_zero (S := S1x1) hz]
  funext y
  obtain ⟨p, j, rfl⟩ : ∃ (p : Fin 12800) (j : Fin 1), y = ix2 p j := ⟨y 0, y 1, eq_ix2 (n0 := 12800) (n1 := 1) y⟩
  have hb : 12800 * t.val + p.val < 3200000 := by omega
  show k2_pay1 (iblk2 V c 0 t) (iblk2 V c 1 t) (iblk2 V c 2 t) (iblk2 V c 3 t) (iblk2 V c 4 t) (iblk2 V c 5 t)
      (iblk2 V c 6 t) (iblk2 V c 7 t) (iblk2 V c 8 t) (ix2 p j)
    = Spec.G2 A Bm EA W1 B1 W2 B2 (((cfg2.win 9).blk t).view.emb (ix2 p j))
  rw [emb_out t p j hb, Spec.G2_ix2]
  refine row_eq _ _ _ _ _ _ _ _ _ A Bm EA W1 B1 W2 B2 ⟨12800 * t.val + p.val, hb⟩ p j ?_ ?_ ?_ ?_ ?_ ?_ ?_ ?_ ?_
  · exact fun i => (blk0_apply V c t p i hb).trans (congrFun h0 _)
  · exact fun i => (blk1_apply V c t p i hb).trans (congrFun h1 _)
  · exact fun i => (blk2_apply V c t p i hb).trans (congrFun h2 _)
  · exact fun i k => (blk3_apply V c t i k).trans ((congrFun h3 _).trans
      (slice2_axis0_apply 0 W1 slices_S71x64_S35x64_0_0 i k _ (Nat.zero_add _).symm))
  · exact fun i k => (blk4_apply V c t i k).trans ((congrFun h4 _).trans
      (slice2_axis0_apply 35 W1 slices_S71x64_S35x64_35_0 i k _ rfl))
  · exact fun i k => (blk5_apply V c t i k).trans ((congrFun h5 _).trans
      (slice2_axis0_apply 70 W1 slices_S71x64_S1x64_70_0 i k _ rfl))
  · exact fun k => (blk6_apply V c t 0 k).trans ((congrFun h6 _).trans
      (shapeCast_a_1a_apply B1 shapeCasts_S64_S1x64 0 k))
  · exact fun k j => (blk7_apply V c t k j).trans (congrFun h7 _)
  · exact fun j => (blk8_apply V c t 0 j).trans ((congrFun h8 _).trans
      (shapeCast_a_1a_apply B2 shapeCasts_S1_S1x1 0 j))

/-- An index of the result is in point `t`'s block iff each coordinate is in the block's range on its axis. -/
theorem mem_blk (t : Fin cfg2.N) (i : S3200000x1.Idx) :
    i ∈ ((cfg2.win 9).blk t).view.set ↔ ∀ a : Fin 2, win2_9.index t a * S12800x1.size a ≤ (i a).val
      ∧ (i a).val < win2_9.index t a * S12800x1.size a + S12800x1.size a := by
  show i ∈ ((View.whole main_v35).slice (win2_9.rect t)).set ↔ _
  rw [View.set_slice_whole, Rect.mem_set_unit]
  exact Iff.rfl

/-- Every row of the result lies in the block of the point numbered by its quotient by 12800, and every point writes back. -/
theorem cover (i : S3200000x1.Idx) :
    ∃ t : Fin cfg2.N, (cfg2.win 9).flush t = true ∧ i ∈ ((cfg2.win 9).blk t).view.set := by
  have hi0 : (i 0).val < 3200000 := (i 0).isLt
  have hi1 : (i 1).val < 1 := (i 1).isLt
  have hN : grid2.N = 250 := N_2
  have hq : (i 0).val / 12800 < cfg2.N := by show _ < grid2.N; rw [hN]; omega
  obtain ⟨-, -, -, -, -, -, -, -, -, ⟨e0, e1⟩⟩ := idx_facts ⟨(i 0).val / 12800, hq⟩
  refine ⟨⟨(i 0).val / 12800, hq⟩, flush2_9 _, ?_⟩
  rw [mem_blk]
  intro a
  match a with
  | ⟨0, _⟩ =>
    show win2_9.index ⟨(i 0).val / 12800, hq⟩ (0 : Fin 2) * 12800 ≤ (i 0).val
      ∧ (i 0).val < win2_9.index ⟨(i 0).val / 12800, hq⟩ (0 : Fin 2) * 12800 + 12800
    rw [e0]
    show (i 0).val / 12800 * 12800 ≤ (i 0).val ∧ (i 0).val < (i 0).val / 12800 * 12800 + 12800
    omega
  | ⟨1, _⟩ =>
    show win2_9.index ⟨(i 0).val / 12800, hq⟩ (1 : Fin 2) * 1 ≤ (i 1).val
      ∧ (i 1).val < win2_9.index ⟨(i 0).val / 12800, hq⟩ (1 : Fin 2) * 1 + 1
    rw [e1]
    omega

theorem arr (c : Dev nD)
    (A Bm : Spec.Ex35.Idx → EReal) (EA : Spec.Ex1.Idx → EReal) (W1 : Spec.M71x64.Idx → EReal) (B1 : Spec.V64.Idx → EReal)
    (W2 : Spec.M64x1.Idx → EReal) (B2 : Spec.V1.Idx → EReal)
    (h0 : V c main_v28 = A) (h1 : V c main_v29 = Bm) (h2 : V c main_arg2 = EA)
    (h3 : V c main_v30 = extractStridedSlice S35x64 ![0, 0] W1 slices_S71x64_S35x64_0_0)
    (h4 : V c main_v31 = extractStridedSlice S35x64 ![35, 0] W1 slices_S71x64_S35x64_35_0)
    (h5 : V c main_v32 = extractStridedSlice S1x64 ![70, 0] W1 slices_S71x64_S1x64_70_0)
    (h6 : V c main_v33 = shapeCast S1x64 B1 shapeCasts_S64_S1x64)
    (h7 : V c main_arg15 = W2)
    (h8 : V c main_v34 = shapeCast S1x1 B2 shapeCasts_S1_S1x1) :
    (dat2 (F := Ideal) V c).arrAt 9 cfg2.N = Spec.G2 A Bm EA W1 B1 W2 B2 := by
  exact (dat2 (F := Ideal) V c).arrAt_eq_of_cover 9 (Spec.G2 A Bm EA W1 B1 W2 B2)
    (fun t _ => flushed_eq V c A Bm EA W1 B1 W2 B2 h0 h1 h2 h3 h4 h5 h6 h7 h8 t) cover

end Cert.KernelIdeal.Region2

end
-- ==== Proof.KTake.lean ====
import proofs.«411465_j83708912599063_2_alg».proof.Proof.Gen.KernelIdeal.Frame
import proofs.«411465_j83708912599063_2_alg».proof.Proof.KTerms
import Idealize.ShloMosaic.Lib.StableHlo.Run

set_option maxRecDepth 16384

noncomputable section

namespace Cert.KernelIdeal.Gathers

open Idealize.ShloMosaic Idealize.ShloMosaic.TcCoe Idealize.SL.Sem
open Cert.KernelIdeal Cert.KernelIdeal.Gen

variable {F : FTy → Type} [FloatOps F]

/-! The kernel program gathers rows four times, each time by the same twenty-three operations over that call's own
    buffers: the indices wrapped once from below and laid out as a column, the column tested against [0, 99999] row by
    row, the rows gathered, the test spread over the columns, the selection against the not-a-number pattern.  Each
    list is first restated with every operation acting on its buffers' contents directly (the typed references'
    transports along a buffer's own type are identities); read at its result buffer from ANY contents `V` of the
    buffers, the fold over the list is then the filling gather of `V`'s table at `V`'s indices. -/

/-! ## Gather 1: table main_v14, indices main_v3, result main_v16 -/

/-- The operations of gather 1, each on its buffers' contents directly. -/
abbrev take1P : List (HloOp τ sig (Elt F)) :=
  [ StableHlo.nullary main_call1_c (((constantI S_ 32 0#32)) : (⟨S_, .i32⟩ : BufTy).Contents (Elt F)),
    StableHlo.unary main_call1_c main_call1_v0 (((broadcastInDim S3200000 ![] bcast_S_S3200000)) : (⟨S_, .i32⟩ : BufTy).Contents (Elt F) → (⟨S3200000, .i32⟩ : BufTy).Contents (Elt F)),
    StableHlo.binary main_v3 main_call1_v0 main_call1_v1 (((cmpi .slt)) : (⟨S3200000, .i32⟩ : BufTy).Contents (Elt F) → (⟨S3200000, .i32⟩ : BufTy).Contents (Elt F) → (⟨S3200000, .i1⟩ : BufTy).Contents (Elt F)),
    StableHlo.nullary main_call1_c_0 (((constantI S_ 32 100000#32)) : (⟨S_, .i32⟩ : BufTy).Contents (Elt F)),
    StableHlo.unary main_call1_c_0 main_call1_v2 (((broadcastInDim S3200000 ![] bcast_S_S3200000)) : (⟨S_, .i32⟩ : BufTy).Contents (Elt F) → (⟨S3200000, .i32⟩ : BufTy).Contents (Elt F)),
    StableHlo.binary main_v3 main_call1_v2 main_call1_v3 ((addi) : (⟨S3200000, .i32⟩ : BufTy).Contents (Elt F) → (⟨S3200000, .i32⟩ : BufTy).Contents (Elt F) → (⟨S3200000, .i32⟩ : BufTy).Contents (Elt F)),
    StableHlo.ternary main_call1_v1 main_call1_v3 main_v3 main_call1_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call1_v4 main_call1_v5 (((broadcastInDim S3200000x1 ![0] bcast_S3200000_S3200000x1_0)) : (⟨S3200000, .i32⟩ : BufTy).Contents (Elt F) → (⟨S3200000x1, .i32⟩ : BufTy).Contents (Elt F)),
    StableHlo.nullary main_call1_c_1 (((constantI S1 32 99999#32)) : (⟨S1, .i32⟩ : BufTy).Contents (Elt F)),
    StableHlo.nullary main_call1_c_2 (((constantI S_ 32 0#32)) : (⟨S_, .i32⟩ : BufTy).Contents (Elt F)),
    StableHlo.unary main_call1_c_2 main_call1_v6 (((broadcastInDim S3200000x1 ![] bcast_S_S3200000x1)) : (⟨S_, .i32⟩ : BufTy).Contents (Elt F) → (⟨S3200000x1, .i32⟩ : BufTy).Contents (Elt F)),
    StableHlo.binary main_call1_v5 main_call1_v6 main_call1_v7 (((cmpi .sge)) : (⟨S3200000x1, .i32⟩ : BufTy).Contents (Elt F) → (⟨S3200000x1, .i32⟩ : BufTy).Contents (Elt F) → (⟨S3200000x1, .i1⟩ : BufTy).Contents (Elt F)),
    StableHlo.unary main_call1_c_1 main_call1_v8 (((broadcastInDim S1x1 ![1] bcast_S1_S1x1_1)) : (⟨S1, .i32⟩ : BufTy).Contents (Elt F) → (⟨S1x1, .i32⟩ : BufTy).Contents (Elt F)),
    StableHlo.unary main_call1_v8 main_call1_v9 (((broadcastInDim S3200000x1 ![0, 1] bcast_S1x1_S3200000x1_0_1)) : (⟨S1x1, .i32⟩ : BufTy).Contents (Elt F) → (⟨S3200000x1, .i32⟩ : BufTy).Contents (Elt F)),
    StableHlo.binary main_call1_v5 main_call1_v9 main_call1_v10 (((cmpi .sle)) : (⟨S3200000x1, .i32⟩ : BufTy).Contents (Elt F) → (⟨S3200000x1, .i32⟩ : BufTy).Contents (Elt F) → (⟨S3200000x1, .i1⟩ : BufTy).Contents (Elt F)),
    StableHlo.binary main_call1_v7 main_call1_v10 main_call1_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call1_c_3 (((constantI S_ 1 1#1)) : (⟨S_, .i1⟩ : BufTy).Contents (Elt F)),
    StableHlo.binary main_call1_v11 main_call1_c_3 main_call1_v12 (((fun x v => Host.reduce IntOp.andi x v reducesTo_S3200000x1_S3200000_d1 h_S_)) : (⟨S3200000x1, .i1⟩ : BufTy).Contents (Elt F) → (⟨S_, .i1⟩ : BufTy).Contents (Elt F) → (⟨S3200000, .i1⟩ : BufTy).Contents (Elt F)),
    StableHlo.binary main_v14 main_call1_v5 main_call1_v13 (((fun x i => Host.gather gather_S100000x35_S3200000x1_S3200000x35_1_0_n_n_0_1_135 x i)) : (⟨S100000x35, .f32⟩ : BufTy).Contents (Elt F) → (⟨S3200000x1, .i32⟩ : BufTy).Contents (Elt F) → (⟨S3200000x35, .f32⟩ : BufTy).Contents (Elt F)),
    StableHlo.unary main_call1_v12 main_call1_v14 (((broadcastInDim S3200000x35 ![0] bcast_S3200000_S3200000x35_0)) : (⟨S3200000, .i1⟩ : BufTy).Contents (Elt F) → (⟨S3200000x35, .i1⟩ : BufTy).Contents (Elt F)),
    StableHlo.nullary main_call1_cst (((constant S_ .f32 0x7FC00000#32)) : (⟨S_, .f32⟩ : BufTy).Contents (Elt F)),
    StableHlo.unary main_call1_cst main_call1_v15 (((broadcastInDim S3200000x35 ![] bcast_S_S3200000x35)) : (⟨S_, .f32⟩ : BufTy).Contents (Elt F) → (⟨S3200000x35, .f32⟩ : BufTy).Contents (Elt F)),
    StableHlo.ternary main_call1_v14 main_call1_v13 main_call1_v15 main_v16 ((select) : (⟨S3200000x35, .i1⟩ : BufTy).Contents (Elt F) → (⟨S3200000x35, .f32⟩ : BufTy).Contents (Elt F) → (⟨S3200000x35, .f32⟩ : BufTy).Contents (Elt F) → (⟨S3200000x35, .f32⟩ : BufTy).Contents (Elt F)) ]

theorem take1_plain : (hostOps1_1 : List (HloOp τ sig (Elt F))) = take1P := by chain_rfl

/-- From any contents, gather 1 leaves the filling gather of the table at the indices. -/
theorem take1_out (V : Valuation τ sig (Elt F)) :
    StableHlo.after hostOps1_1 V (Proc.devRef .tc main_v16)
      = Cert.KernelIdeal.Terms.takeFill (V (Proc.devRef .tc main_v14)) (V (Proc.devRef .tc main_v3)) := by
  rw [take1_plain]
  simp only [take1P]
  after_results_simp
  rfl

/-! ## Gather 2: table main_v14, indices main_v1, result main_v17 -/

/-- The operations of gather 2, each on its buffers' contents directly. -/
abbrev take2P : List (HloOp τ sig (Elt F)) :=
  [ StableHlo.nullary main_call2_c (((constantI S_ 32 0#32)) : (⟨S_, .i32⟩ : BufTy).Contents (Elt F)),
    StableHlo.unary main_call2_c main_call2_v0 (((broadcastInDim S3200000 ![] bcast_S_S3200000)) : (⟨S_, .i32⟩ : BufTy).Contents (Elt F) → (⟨S3200000, .i32⟩ : BufTy).Contents (Elt F)),
    StableHlo.binary main_v1 main_call2_v0 main_call2_v1 (((cmpi .slt)) : (⟨S3200000, .i32⟩ : BufTy).Contents (Elt F) → (⟨S3200000, .i32⟩ : BufTy).Contents (Elt F) → (⟨S3200000, .i1⟩ : BufTy).Contents (Elt F)),
    StableHlo.nullary main_call2_c_0 (((constantI S_ 32 100000#32)) : (⟨S_, .i32⟩ : BufTy).Contents (Elt F)),
    StableHlo.unary main_call2_c_0 main_call2_v2 (((broadcastInDim S3200000 ![] bcast_S_S3200000)) : (⟨S_, .i32⟩ : BufTy).Contents (Elt F) → (⟨S3200000, .i32⟩ : BufTy).Contents (Elt F)),
    StableHlo.binary main_v1 main_call2_v2 main_call2_v3 ((addi) : (⟨S3200000, .i32⟩ : BufTy).Contents (Elt F) → (⟨S3200000, .i32⟩ : BufTy).Contents (Elt F) → (⟨S3200000, .i32⟩ : BufTy).Contents (Elt F)),
    StableHlo.ternary main_call2_v1 main_call2_v3 main_v1 main_call2_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call2_v4 main_call2_v5 (((broadcastInDim S3200000x1 ![0] bcast_S3200000_S3200000x1_0)) : (⟨S3200000, .i32⟩ : BufTy).Contents (Elt F) → (⟨S3200000x1, .i32⟩ : BufTy).Contents (Elt F)),
    StableHlo.nullary main_call2_c_1 (((constantI S1 32 99999#32)) : (⟨S1, .i32⟩ : BufTy).Contents (Elt F)),
    StableHlo.nullary main_call2_c_2 (((constantI S_ 32 0#32)) : (⟨S_, .i32⟩ : BufTy).Contents (Elt F)),
    StableHlo.unary main_call2_c_2 main_call2_v6 (((broadcastInDim S3200000x1 ![] bcast_S_S3200000x1)) : (⟨S_, .i32⟩ : BufTy).Contents (Elt F) → (⟨S3200000x1, .i32⟩ : BufTy).Contents (Elt F)),
    StableHlo.binary main_call2_v5 main_call2_v6 main_call2_v7 (((cmpi .sge)) : (⟨S3200000x1, .i32⟩ : BufTy).Contents (Elt F) → (⟨S3200000x1, .i32⟩ : BufTy).Contents (Elt F) → (⟨S3200000x1, .i1⟩ : BufTy).Contents (Elt F)),
    StableHlo.unary main_call2_c_1 main_call2_v8 (((broadcastInDim S1x1 ![1] bcast_S1_S1x1_1)) : (⟨S1, .i32⟩ : BufTy).Contents (Elt F) → (⟨S1x1, .i32⟩ : BufTy).Contents (Elt F)),
    StableHlo.unary main_call2_v8 main_call2_v9 (((broadcastInDim S3200000x1 ![0, 1] bcast_S1x1_S3200000x1_0_1)) : (⟨S1x1, .i32⟩ : BufTy).Contents (Elt F) → (⟨S3200000x1, .i32⟩ : BufTy).Contents (Elt F)),
    StableHlo.binary main_call2_v5 main_call2_v9 main_call2_v10 (((cmpi .sle)) : (⟨S3200000x1, .i32⟩ : BufTy).Contents (Elt F) → (⟨S3200000x1, .i32⟩ : BufTy).Contents (Elt F) → (⟨S3200000x1, .i1⟩ : BufTy).Contents (Elt F)),
    StableHlo.binary main_call2_v7 main_call2_v10 main_call2_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call2_c_3 (((constantI S_ 1 1#1)) : (⟨S_, .i1⟩ : BufTy).Contents (Elt F)),
    StableHlo.binary main_call2_v11 main_call2_c_3 main_call2_v12 (((fun x v => Host.reduce IntOp.andi x v reducesTo_S3200000x1_S3200000_d1 h_S_)) : (⟨S3200000x1, .i1⟩ : BufTy).Contents (Elt F) → (⟨S_, .i1⟩ : BufTy).Contents (Elt F) → (⟨S3200000, .i1⟩ : BufTy).Contents (Elt F)),
    StableHlo.binary main_v14 main_call2_v5 main_call2_v13 (((fun x i => Host.gather gather_S100000x35_S3200000x1_S3200000x35_1_0_n_n_0_1_135 x i)) : (⟨S100000x35, .f32⟩ : BufTy).Contents (Elt F) → (⟨S3200000x1, .i32⟩ : BufTy).Contents (Elt F) → (⟨S3200000x35, .f32⟩ : BufTy).Contents (Elt F)),
    StableHlo.unary main_call2_v12 main_call2_v14 (((broadcastInDim S3200000x35 ![0] bcast_S3200000_S3200000x35_0)) : (⟨S3200000, .i1⟩ : BufTy).Contents (Elt F) → (⟨S3200000x35, .i1⟩ : BufTy).Contents (Elt F)),
    StableHlo.nullary main_call2_cst (((constant S_ .f32 0x7FC00000#32)) : (⟨S_, .f32⟩ : BufTy).Contents (Elt F)),
    StableHlo.unary main_call2_cst main_call2_v15 (((broadcastInDim S3200000x35 ![] bcast_S_S3200000x35)) : (⟨S_, .f32⟩ : BufTy).Contents (Elt F) → (⟨S3200000x35, .f32⟩ : BufTy).Contents (Elt F)),
    StableHlo.ternary main_call2_v14 main_call2_v13 main_call2_v15 main_v17 ((select) : (⟨S3200000x35, .i1⟩ : BufTy).Contents (Elt F) → (⟨S3200000x35, .f32⟩ : BufTy).Contents (Elt F) → (⟨S3200000x35, .f32⟩ : BufTy).Contents (Elt F) → (⟨S3200000x35, .f32⟩ : BufTy).Contents (Elt F)) ]

theorem take2_plain : (hostOps1_2 : List (HloOp τ sig (Elt F))) = take2P := by chain_rfl

/-- From any contents, gather 2 leaves the filling gather of the table at the indices. -/
theorem take2_out (V : Valuation τ sig (Elt F)) :
    StableHlo.after hostOps1_2 V (Proc.devRef .tc main_v17)
      = Cert.KernelIdeal.Terms.takeFill (V (Proc.devRef .tc main_v14)) (V (Proc.devRef .tc main_v1)) := by
  rw [take2_plain]
  simp only [take2P]
  after_results_simp
  rfl

/-! ## Gather 3: table main_v27, indices main_v1, result main_v28 -/

/-- The operations of gather 3, each on its buffers' contents directly. -/
abbrev take3P : List (HloOp τ sig (Elt F)) :=
  [ StableHlo.nullary main_call3_c (((constantI S_ 32 0#32)) : (⟨S_, .i32⟩ : BufTy).Contents (Elt F)),
    StableHlo.unary main_call3_c main_call3_v0 (((broadcastInDim S3200000 ![] bcast_S_S3200000)) : (⟨S_, .i32⟩ : BufTy).Contents (Elt F) → (⟨S3200000, .i32⟩ : BufTy).Contents (Elt F)),
    StableHlo.binary main_v1 main_call3_v0 main_call3_v1 (((cmpi .slt)) : (⟨S3200000, .i32⟩ : BufTy).Contents (Elt F) → (⟨S3200000, .i32⟩ : BufTy).Contents (Elt F) → (⟨S3200000, .i1⟩ : BufTy).Contents (Elt F)),
    StableHlo.nullary main_call3_c_0 (((constantI S_ 32 100000#32)) : (⟨S_, .i32⟩ : BufTy).Contents (Elt F)),
    StableHlo.unary main_call3_c_0 main_call3_v2 (((broadcastInDim S3200000 ![] bcast_S_S3200000)) : (⟨S_, .i32⟩ : BufTy).Contents (Elt F) → (⟨S3200000, .i32⟩ : BufTy).Contents (Elt F)),
    StableHlo.binary main_v1 main_call3_v2 main_call3_v3 ((addi) : (⟨S3200000, .i32⟩ : BufTy).Contents (Elt F) → (⟨S3200000, .i32⟩ : BufTy).Contents (Elt F) → (⟨S3200000, .i32⟩ : BufTy).Contents (Elt F)),
    StableHlo.ternary main_call3_v1 main_call3_v3 main_v1 main_call3_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call3_v4 main_call3_v5 (((broadcastInDim S3200000x1 ![0] bcast_S3200000_S3200000x1_0)) : (⟨S3200000, .i32⟩ : BufTy).Contents (Elt F) → (⟨S3200000x1, .i32⟩ : BufTy).Contents (Elt F)),
    StableHlo.nullary main_call3_c_1 (((constantI S1 32 99999#32)) : (⟨S1, .i32⟩ : BufTy).Contents (Elt F)),
    StableHlo.nullary main_call3_c_2 (((constantI S_ 32 0#32)) : (⟨S_, .i32⟩ : BufTy).Contents (Elt F)),
    StableHlo.unary main_call3_c_2 main_call3_v6 (((broadcastInDim S3200000x1 ![] bcast_S_S3200000x1)) : (⟨S_, .i32⟩ : BufTy).Contents (Elt F) → (⟨S3200000x1, .i32⟩ : BufTy).Contents (Elt F)),
    StableHlo.binary main_call3_v5 main_call3_v6 main_call3_v7 (((cmpi .sge)) : (⟨S3200000x1, .i32⟩ : BufTy).Contents (Elt F) → (⟨S3200000x1, .i32⟩ : BufTy).Contents (Elt F) → (⟨S3200000x1, .i1⟩ : BufTy).Contents (Elt F)),
    StableHlo.unary main_call3_c_1 main_call3_v8 (((broadcastInDim S1x1 ![1] bcast_S1_S1x1_1)) : (⟨S1, .i32⟩ : BufTy).Contents (Elt F) → (⟨S1x1, .i32⟩ : BufTy).Contents (Elt F)),
    StableHlo.unary main_call3_v8 main_call3_v9 (((broadcastInDim S3200000x1 ![0, 1] bcast_S1x1_S3200000x1_0_1)) : (⟨S1x1, .i32⟩ : BufTy).Contents (Elt F) → (⟨S3200000x1, .i32⟩ : BufTy).Contents (Elt F)),
    StableHlo.binary main_call3_v5 main_call3_v9 main_call3_v10 (((cmpi .sle)) : (⟨S3200000x1, .i32⟩ : BufTy).Contents (Elt F) → (⟨S3200000x1, .i32⟩ : BufTy).Contents (Elt F) → (⟨S3200000x1, .i1⟩ : BufTy).Contents (Elt F)),
    StableHlo.binary main_call3_v7 main_call3_v10 main_call3_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call3_c_3 (((constantI S_ 1 1#1)) : (⟨S_, .i1⟩ : BufTy).Contents (Elt F)),
    StableHlo.binary main_call3_v11 main_call3_c_3 main_call3_v12 (((fun x v => Host.reduce IntOp.andi x v reducesTo_S3200000x1_S3200000_d1 h_S_)) : (⟨S3200000x1, .i1⟩ : BufTy).Contents (Elt F) → (⟨S_, .i1⟩ : BufTy).Contents (Elt F) → (⟨S3200000, .i1⟩ : BufTy).Contents (Elt F)),
    StableHlo.binary main_v27 main_call3_v5 main_call3_v13 (((fun x i => Host.gather gather_S100000x35_S3200000x1_S3200000x35_1_0_n_n_0_1_135 x i)) : (⟨S100000x35, .f32⟩ : BufTy).Contents (Elt F) → (⟨S3200000x1, .i32⟩ : BufTy).Contents (Elt F) → (⟨S3200000x35, .f32⟩ : BufTy).Contents (Elt F)),
    StableHlo.unary main_call3_v12 main_call3_v14 (((broadcastInDim S3200000x35 ![0] bcast_S3200000_S3200000x35_0)) : (⟨S3200000, .i1⟩ : BufTy).Contents (Elt F) → (⟨S3200000x35, .i1⟩ : BufTy).Contents (Elt F)),
    StableHlo.nullary main_call3_cst (((constant S_ .f32 0x7FC00000#32)) : (⟨S_, .f32⟩ : BufTy).Contents (Elt F)),
    StableHlo.unary main_call3_cst main_call3_v15 (((broadcastInDim S3200000x35 ![] bcast_S_S3200000x35)) : (⟨S_, .f32⟩ : BufTy).Contents (Elt F) → (⟨S3200000x35, .f32⟩ : BufTy).Contents (Elt F)),
    StableHlo.ternary main_call3_v14 main_call3_v13 main_call3_v15 main_v28 ((select) : (⟨S3200000x35, .i1⟩ : BufTy).Contents (Elt F) → (⟨S3200000x35, .f32⟩ : BufTy).Contents (Elt F) → (⟨S3200000x35, .f32⟩ : BufTy).Contents (Elt F) → (⟨S3200000x35, .f32⟩ : BufTy).Contents (Elt F)) ]

theorem take3_plain : (hostOps2_1 : List (HloOp τ sig (Elt F))) = take3P := by chain_rfl

/-- From any contents, gather 3 leaves the filling gather of the table at the indices. -/
theorem take3_out (V : Valuation τ sig (Elt F)) :
    StableHlo.after hostOps2_1 V (Proc.devRef .tc main_v28)
      = Cert.KernelIdeal.Terms.takeFill (V (Proc.devRef .tc main_v27)) (V (Proc.devRef .tc main_v1)) := by
  rw [take3_plain]
  simp only [take3P]
  after_results_simp
  rfl

/-! ## Gather 4: table main_v27, indices main_v3, result main_v29 -/

/-- The operations of gather 4, each on its buffers' contents directly. -/
abbrev take4P : List (HloOp τ sig (Elt F)) :=
  [ StableHlo.nullary main_call4_c (((constantI S_ 32 0#32)) : (⟨S_, .i32⟩ : BufTy).Contents (Elt F)),
    StableHlo.unary main_call4_c main_call4_v0 (((broadcastInDim S3200000 ![] bcast_S_S3200000)) : (⟨S_, .i32⟩ : BufTy).Contents (Elt F) → (⟨S3200000, .i32⟩ : BufTy).Contents (Elt F)),
    StableHlo.binary main_v3 main_call4_v0 main_call4_v1 (((cmpi .slt)) : (⟨S3200000, .i32⟩ : BufTy).Contents (Elt F) → (⟨S3200000, .i32⟩ : BufTy).Contents (Elt F) → (⟨S3200000, .i1⟩ : BufTy).Contents (Elt F)),
    StableHlo.nullary main_call4_c_0 (((constantI S_ 32 100000#32)) : (⟨S_, .i32⟩ : BufTy).Contents (Elt F)),
    StableHlo.unary main_call4_c_0 main_call4_v2 (((broadcastInDim S3200000 ![] bcast_S_S3200000)) : (⟨S_, .i32⟩ : BufTy).Contents (Elt F) → (⟨S3200000, .i32⟩ : BufTy).Contents (Elt F)),
    StableHlo.binary main_v3 main_call4_v2 main_call4_v3 ((addi) : (⟨S3200000, .i32⟩ : BufTy).Contents (Elt F) → (⟨S3200000, .i32⟩ : BufTy).Contents (Elt F) → (⟨S3200000, .i32⟩ : BufTy).Contents (Elt F)),
    StableHlo.ternary main_call4_v1 main_call4_v3 main_v3 main_call4_v4 ((select) : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_call4_v4 main_call4_v5 (((broadcastInDim S3200000x1 ![0] bcast_S3200000_S3200000x1_0)) : (⟨S3200000, .i32⟩ : BufTy).Contents (Elt F) → (⟨S3200000x1, .i32⟩ : BufTy).Contents (Elt F)),
    StableHlo.nullary main_call4_c_1 (((constantI S1 32 99999#32)) : (⟨S1, .i32⟩ : BufTy).Contents (Elt F)),
    StableHlo.nullary main_call4_c_2 (((constantI S_ 32 0#32)) : (⟨S_, .i32⟩ : BufTy).Contents (Elt F)),
    StableHlo.unary main_call4_c_2 main_call4_v6 (((broadcastInDim S3200000x1 ![] bcast_S_S3200000x1)) : (⟨S_, .i32⟩ : BufTy).Contents (Elt F) → (⟨S3200000x1, .i32⟩ : BufTy).Contents (Elt F)),
    StableHlo.binary main_call4_v5 main_call4_v6 main_call4_v7 (((cmpi .sge)) : (⟨S3200000x1, .i32⟩ : BufTy).Contents (Elt F) → (⟨S3200000x1, .i32⟩ : BufTy).Contents (Elt F) → (⟨S3200000x1, .i1⟩ : BufTy).Contents (Elt F)),
    StableHlo.unary main_call4_c_1 main_call4_v8 (((broadcastInDim S1x1 ![1] bcast_S1_S1x1_1)) : (⟨S1, .i32⟩ : BufTy).Contents (Elt F) → (⟨S1x1, .i32⟩ : BufTy).Contents (Elt F)),
    StableHlo.unary main_call4_v8 main_call4_v9 (((broadcastInDim S3200000x1 ![0, 1] bcast_S1x1_S3200000x1_0_1)) : (⟨S1x1, .i32⟩ : BufTy).Contents (Elt F) → (⟨S3200000x1, .i32⟩ : BufTy).Contents (Elt F)),
    StableHlo.binary main_call4_v5 main_call4_v9 main_call4_v10 (((cmpi .sle)) : (⟨S3200000x1, .i32⟩ : BufTy).Contents (Elt F) → (⟨S3200000x1, .i32⟩ : BufTy).Contents (Elt F) → (⟨S3200000x1, .i1⟩ : BufTy).Contents (Elt F)),
    StableHlo.binary main_call4_v7 main_call4_v10 main_call4_v11 ((andi) : (⟨S3200000x1, .i1⟩ : BufTy).Contents (Elt F) → (⟨S3200000x1, .i1⟩ : BufTy).Contents (Elt F) → (⟨S3200000x1, .i1⟩ : BufTy).Contents (Elt F)),
    StableHlo.nullary main_call4_c_3 (((constantI S_ 1 1#1)) : (⟨S_, .i1⟩ : BufTy).Contents (Elt F)),
    StableHlo.binary main_call4_v11 main_call4_c_3 main_call4_v12 (((fun x v => Host.reduce IntOp.andi x v reducesTo_S3200000x1_S3200000_d1 h_S_)) : (⟨S3200000x1, .i1⟩ : BufTy).Contents (Elt F) → (⟨S_, .i1⟩ : BufTy).Contents (Elt F) → (⟨S3200000, .i1⟩ : BufTy).Contents (Elt F)),
    StableHlo.binary main_v27 main_call4_v5 main_call4_v13 (((fun x i => Host.gather gather_S100000x35_S3200000x1_S3200000x35_1_0_n_n_0_1_135 x i)) : (⟨S100000x35, .f32⟩ : BufTy).Contents (Elt F) → (⟨S3200000x1, .i32⟩ : BufTy).Contents (Elt F) → (⟨S3200000x35, .f32⟩ : BufTy).Contents (Elt F)),
    StableHlo.unary main_call4_v12 main_call4_v14 (((broadcastInDim S3200000x35 ![0] bcast_S3200000_S3200000x35_0)) : (⟨S3200000, .i1⟩ : BufTy).Contents (Elt F) → (⟨S3200000x35, .i1⟩ : BufTy).Contents (Elt F)),
    StableHlo.nullary main_call4_cst (((constant S_ .f32 0x7FC00000#32)) : (⟨S_, .f32⟩ : BufTy).Contents (Elt F)),
    StableHlo.unary main_call4_cst main_call4_v15 (((broadcastInDim S3200000x35 ![] bcast_S_S3200000x35)) : (⟨S_, .f32⟩ : BufTy).Contents (Elt F) → (⟨S3200000x35, .f32⟩ : BufTy).Contents (Elt F)),
    StableHlo.ternary main_call4_v14 main_call4_v13 main_call4_v15 main_v29 ((select) : (⟨S3200000x35, .i1⟩ : BufTy).Contents (Elt F) → (⟨S3200000x35, .f32⟩ : BufTy).Contents (Elt F) → (⟨S3200000x35, .f32⟩ : BufTy).Contents (Elt F) → (⟨S3200000x35, .f32⟩ : BufTy).Contents (Elt F)) ]

theorem take4_plain : (hostOps2_2 : List (HloOp τ sig (Elt F))) = take4P := by chain_rfl

/-- From any contents, gather 4 leaves the filling gather of the table at the indices. -/
theorem take4_out (V : Valuation τ sig (Elt F)) :
    StableHlo.after hostOps2_2 V (Proc.devRef .tc main_v29)
      = Cert.KernelIdeal.Terms.takeFill (V (Proc.devRef .tc main_v27)) (V (Proc.devRef .tc main_v3)) := by
  rw [take4_plain]
  simp only [take4P]
  after_results_simp
  rfl

end Cert.KernelIdeal.Gathers

end
-- ==== Proof.RStage0.lean ====
/-
  The reference's node table is the specification's `G0`.  Entry by entry: a `dot_general` with one contracted axis is
  the sum of products over that axis; a quotient by the root of a positive number is the product with its inverse
  root (which is where the variance's sign is used: variance plus epsilon is positive); the concatenation along the
  columns reads its first piece in columns 0–31 and its second in 32–34.
-/
import proofs.«411465_j83708912599063_2_alg».proof.Proof.RTerms
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.KernelVsHost
import Idealize.ShloMosaic.Lib.StackMember

noncomputable section

namespace Cert.ReferenceIdeal.Stage0

open Idealize.ShloMosaic Idealize.ShloMosaic.ValueIdx Idealize.SL.Sem
open Cert.ReferenceIdeal Cert.ReferenceIdeal.Gen

/-! ## Epsilon, and the quotient by a root as the product with the inverse root -/

/-- The pattern `0x3727C5AC` denotes 10995116 · 2⁻⁴⁰, a positive real. -/
theorem eps_real : ∃ e : ℝ, 0 < e ∧ Spec.eps = (e : EReal) := by
  refine ⟨10995116 * (2 : ℝ) ^ (-40 : ℤ), by positivity, ?_⟩
  simp [Spec.eps, Ideal.ofBits, Ideal.ieee, -EReal.coe_mul]

/-- For `x` not negative, `x + eps` is a positive real or `⊤`.  At a positive real `r` the root `√r` is a real that is not
    zero, so the quotient by it is the product with `(√r)⁻¹`, which is the inverse root of `r`.  At `⊤` the root is `⊤`,
    whose inverse is `0`, and the inverse root is `0` too. -/
theorem div_sqrt_add_eps (a x : EReal) (hx : 0 ≤ x) :
    Ideal.div a (Ideal.sqrt (x + Spec.eps)) = a * Ideal.rsqrt (x + Spec.eps) := by
  obtain ⟨e, he0, he⟩ := eps_real
  rw [he]
  induction x using EReal.rec with
  | bot => exact absurd hx (by simp)
  | coe r =>
    have hr : 0 ≤ r := EReal.coe_nonneg.mp hx
    have hpos : 0 < r + e := by linarith
    have hs : Real.sqrt (r + e) ≠ 0 := (Real.sqrt_pos.mpr hpos).ne'
    rw [← EReal.coe_add, Ideal.sqrt_coe, Ideal.rsqrt_coe, if_neg (not_lt.mpr hpos.le), if_neg (not_lt.mpr hpos.le),
      if_neg hpos.ne', Ideal.div_coe hs, one_div]
  | top =>
    rw [EReal.top_add_coe, Ideal.sqrt_top, Ideal.rsqrt_top]
    unfold Ideal.div
    rw [if_neg (by simp), EReal.inv_top]

/-! ## A vector laid along the rows -/

/-- A length-`n` vector laid along every row of an `[m, n]` array reads, at `(p, q)`, the vector at `q`. -/
theorem rowvec_apply {α : Type} {m n : Nat} (h₁ : (⟨1, ![n]⟩ : Shape).BroadcastsInDim ⟨2, ![1, n]⟩ ![1])
    (h₂ : (⟨2, ![1, n]⟩ : Shape).BroadcastsInDim ⟨2, ![m, n]⟩ ![0, 1]) (v : (⟨1, ![n]⟩ : Shape).Idx → α) (p : Fin m) (q : Fin n) :
    broadcastInDim ⟨2, ![m, n]⟩ ![0, 1] h₂ (broadcastInDim ⟨2, ![1, n]⟩ ![1] h₁ v) (ix2 p q) = v (ix1 q) := by
  rw [broadcastInDim_oneRow_apply]
  refine broadcastInDim_apply ![1] h₁ v (ix2 (0 : Fin 1) q) (ix1 q) ?_
  intro a
  match a with
  | ⟨0, _⟩ =>
    show q.val = if n = 1 then 0 else q.val
    split_ifs with hn
    · have := q.isLt; omega
    · rfl

theorem rows3_apply (v : FVec Ideal S3 .f32) (p : Fin 100000) (k : Fin 3) :
    Terms.rows3 (F := Ideal) v (ix2 p k) = v (ix1 k) :=
  rowvec_apply _ _ v p k

/-! ## The normalised inputs -/

/-- The normalised inputs as the reference spells them: the centred entry over the root, times the scale, plus the shift. -/
theorem xnorm_read (X : FVec Ideal S100000x3 .f32) (MU VAR G B : FVec Ideal S3 .f32) (p : Fin 100000) (k : Fin 3) :
    Terms.xnorm (F := Ideal) X MU VAR G B (ix2 p k)
      = Ideal.div (X (ix2 p k) - MU (ix1 k)) (Ideal.sqrt (VAR (ix1 k) + Spec.eps)) * G (ix1 k) + B (ix1 k) := by
  unfold Terms.xnorm
  rw [addf_apply, mulf_apply, hostDivf_apply, subf_apply, rows3_apply, rows3_apply, rows3_apply, rows3_apply]
  rfl

/-- The normalised inputs, entry by entry (the quotient by the root turned into the product with the inverse root). -/
theorem xnorm_apply (X : FVec Ideal S100000x3 .f32) (MU VAR G B : FVec Ideal S3 .f32) (hvar : ∀ k : Fin 3, 0 ≤ VAR (ix1 k))
    (p : Fin 100000) (k : Fin 3) :
    Terms.xnorm (F := Ideal) X MU VAR G B (ix2 p k) = Spec.xn X MU VAR G B p k := by
  rw [xnorm_read, div_sqrt_add_eps _ _ (hvar k)]
  rfl

/-! ## The two products -/

/-- Both contractions are plain matrix products: rows times columns over the shared axis. -/
theorem dot_3_eq : dot_S100000x3_S3x32_S100000x32_1_0_0_1_n_n = DotDims.plain 100000 3 32 := rfl
theorem dot_32_eq : dot_S100000x32_S32x32_S100000x32_1_0_0_1_n_n = DotDims.plain 100000 32 32 := rfl

theorem dot_3_apply (A : FVec Ideal S100000x3 .f32) (W : FVec Ideal S3x32 .f32) (p : Fin 100000) (j : Fin 32) :
    Host.dotGeneral (F := Ideal) dot_S100000x3_S3x32_S100000x32_1_0_0_1_n_n none A W (ix2 p j)
      = ∑ i : Fin 3, A (ix2 p i) * W (ix2 i j) := by
  rw [dot_3_eq]
  exact StackMember.dotGeneral_plain_apply none A W p j

theorem dot_32_apply (A : FVec Ideal S100000x32 .f32) (W : FVec Ideal S32x32 .f32) (p : Fin 100000) (j : Fin 32) :
    Host.dotGeneral (F := Ideal) dot_S100000x32_S32x32_S100000x32_1_0_0_1_n_n none A W (ix2 p j)
      = ∑ i : Fin 32, A (ix2 p i) * W (ix2 i j) := by
  rw [dot_32_eq]
  exact StackMember.dotGeneral_plain_apply none A W p j

/-! ## The perceptron -/

/-- The rectified hidden layer: the larger of the affine image and zero. -/
def hidden (XN : FVec Ideal S100000x3 .f32) (W1 : FVec Ideal S3x32 .f32) (B1 : FVec Ideal S32 .f32) : FVec Ideal S100000x32 .f32 :=
  maximumf (addf (Host.dotGeneral (F := Ideal) dot_S100000x3_S3x32_S100000x32_1_0_0_1_n_n none XN W1)
      (broadcastInDim S100000x32 ![0, 1] bcast_S1x32_S100000x32_0_1 (broadcastInDim S1x32 ![1] bcast_S32_S1x32_1 B1)))
    (broadcastInDim S100000x32 ![] bcast_S_S100000x32 (constant (F := Ideal) S_ .f32 0x00000000#32))

theorem hidden_apply (XN : FVec Ideal S100000x3 .f32) (W1 : FVec Ideal S3x32 .f32) (B1 : FVec Ideal S32 .f32)
    (p : Fin 100000) (k : Fin 32) :
    hidden XN W1 B1 (ix2 p k) = max ((∑ i : Fin 3, XN (ix2 p i) * W1 (ix2 i k)) + B1 (ix1 k)) 0 := by
  unfold hidden
  rw [maximumf_apply, addf_apply, dot_3_apply, rowvec_apply, broadcastInDim_scalar_apply, constant_apply, Ideal.ofBits_zero_f32]

/-- The host's hyperbolic tangent at an index is the extended reals' at the element. -/
theorem hostTanh_apply {s : Shape} {φ : FTy} (a : FVec Ideal s φ) (i : s.Idx) : Host.tanh a i = Ideal.tanh (a i) := rfl

/-- The output layer: the hyperbolic tangent of the affine image of the hidden layer. -/
def outer (H : FVec Ideal S100000x32 .f32) (W2 : FVec Ideal S32x32 .f32) (B2 : FVec Ideal S32 .f32) : FVec Ideal S100000x32 .f32 :=
  Host.tanh (addf (Host.dotGeneral (F := Ideal) dot_S100000x32_S32x32_S100000x32_1_0_0_1_n_n none H W2)
    (broadcastInDim S100000x32 ![0, 1] bcast_S1x32_S100000x32_0_1 (broadcastInDim S1x32 ![1] bcast_S32_S1x32_1 B2)))

theorem outer_apply (H : FVec Ideal S100000x32 .f32) (W2 : FVec Ideal S32x32 .f32) (B2 : FVec Ideal S32 .f32)
    (p : Fin 100000) (j : Fin 32) :
    outer H W2 B2 (ix2 p j) = Ideal.tanh ((∑ k : Fin 32, H (ix2 p k) * W2 (ix2 k j)) + B2 (ix1 j)) := by
  unfold outer
  rw [hostTanh_apply, addf_apply, dot_32_apply, rowvec_apply]

/-- The node table is the perceptron's outputs beside the normalised inputs. -/
theorem xc_unfold (XN : FVec Ideal S100000x3 .f32) (W1 : FVec Ideal S3x32 .f32) (B1 : FVec Ideal S32 .f32)
    (W2 : FVec Ideal S32x32 .f32) (B2 : FVec Ideal S32 .f32) :
    Terms.xc (F := Ideal) XN W1 B1 W2 B2
      = concatenate S100000x35 1 [⟨S100000x32, outer (hidden XN W1 B1) W2 B2⟩, ⟨S100000x3, XN⟩]
          concatenates_S100000x32_S100000x3_S100000x35_d1 := rfl

/-! ## The concatenation along the columns -/

/-- Columns 0–31 read the first piece at the same column. -/
theorem cat_left (Y : FVec Ideal S100000x32 .f32) (Z : FVec Ideal S100000x3 .f32) (p : Fin 100000) (q : Fin 35) (h : q.val < 32) :
    concatenate S100000x35 1 [⟨S100000x32, Y⟩, ⟨S100000x3, Z⟩] concatenates_S100000x32_S100000x3_S100000x35_d1 (ix2 p q)
      = Y (ix2 p ⟨q.val, h⟩) :=
  concatenate_pair_apply_left (t := S100000x35) (s₁ := S100000x32) (s₂ := S100000x3) (1 : Fin 2) Y Z
    concatenates_S100000x32_S100000x3_S100000x35_d1 (ix2 p q) rfl (ix2 p ⟨q.val, h⟩) (fun b => by
      match b with
      | ⟨0, _⟩ => rfl
      | ⟨1, _⟩ => rfl)

/-- Columns 32–34 read the second piece at the column less 32. -/
theorem cat_right (Y : FVec Ideal S100000x32 .f32) (Z : FVec Ideal S100000x3 .f32) (p : Fin 100000) (q : Fin 35) (h : ¬q.val < 32) :
    concatenate S100000x35 1 [⟨S100000x32, Y⟩, ⟨S100000x3, Z⟩] concatenates_S100000x32_S100000x3_S100000x35_d1 (ix2 p q)
      = Z (ix2 p ⟨q.val - 32, by have := q.isLt; omega⟩) :=
  concatenate_pair_apply_right (t := S100000x35) (s₁ := S100000x32) (s₂ := S100000x3) (1 : Fin 2) Y Z
    concatenates_S100000x32_S100000x3_S100000x35_d1 (ix2 p q) rfl rfl (ix2 p ⟨q.val - 32, by have := q.isLt; omega⟩)
    (fun b hb => by
      match b, hb with
      | ⟨0, _⟩, _ => rfl
      | ⟨1, _⟩, hb => exact absurd rfl hb)
    (by show q.val - 32 + 32 = q.val; omega)

/-! ## The node table -/

/-- The node table is the specification's. -/
theorem xc_eq (X : FVec Ideal S100000x3 .f32) (MU VAR G B : FVec Ideal S3 .f32) (hvar : ∀ k : Fin 3, 0 ≤ VAR (ix1 k))
    (W1 : FVec Ideal S3x32 .f32) (B1 : FVec Ideal S32 .f32) (W2 : FVec Ideal S32x32 .f32) (B2 : FVec Ideal S32 .f32) :
    Terms.xc (F := Ideal) (Terms.xnorm X MU VAR G B) W1 B1 W2 B2 = Spec.G0 X MU VAR G B W1 B1 W2 B2 := by
  funext i
  obtain ⟨p, q, rfl⟩ : ∃ (p : Fin 100000) (q : Fin 35), i = ix2 p q := ⟨i 0, i 1, eq_ix2 i⟩
  rw [xc_unfold, Spec.G0_ix2]
  unfold Spec.g0
  by_cases h : q.val < 32
  · rw [dif_pos h, cat_left _ _ p q h, outer_apply]
    congr 2
    refine Finset.sum_congr rfl fun k _ => ?_
    rw [hidden_apply]
    unfold Spec.hid0
    simp only [xnorm_apply X MU VAR G B hvar]
  · rw [dif_neg h, cat_right _ _ p q h, xnorm_apply X MU VAR G B hvar]

/-- Columns 32–34 of the specification's node table are the normalised inputs. -/
theorem slice_G0 (X : FVec Ideal S100000x3 .f32) (MU VAR G B : FVec Ideal S3 .f32) (hvar : ∀ k : Fin 3, 0 ≤ VAR (ix1 k))
    (W1 : FVec Ideal S3x32 .f32) (B1 : FVec Ideal S32 .f32) (W2 : FVec Ideal S32x32 .f32) (B2 : FVec Ideal S32 .f32)
    (hs : S100000x35.Slices ![0, 32] S100000x3) :
    extractStridedSlice S100000x3 ![0, 32] (Spec.G0 X MU VAR G B W1 B1 W2 B2) hs = Terms.xnorm (F := Ideal) X MU VAR G B := by
  funext j
  obtain ⟨p, k, rfl⟩ : ∃ (p : Fin 100000) (k : Fin 3), j = ix2 p k := ⟨j 0, j 1, eq_ix2 j⟩
  have hk : 32 + k.val < 35 := by have := k.isLt; omega
  rw [slice2_axis1_apply 32 _ hs p k ⟨32 + k.val, hk⟩ rfl, Spec.G0_ix2, xnorm_apply X MU VAR G B hvar p k]
  unfold Spec.g0
  rw [dif_neg (show ¬(32 + k.val < 32) by omega)]
  congr 1
  exact Fin.ext (show 32 + k.val - 32 = k.val by omega)

end Cert.ReferenceIdeal.Stage0

end
-- ==== Proof.RStage1.lean ====
/-
  The reference's message table is the specification's `G1`.  Entry by entry: the 71-term inner product of the
  concatenated row with a weight column splits, by the three pieces of the concatenation, into the sums over rows
  0–34, 35–69 and 70 of the weight (a finite sum in a commutative monoid regroups freely, infinities included).
-/
import proofs.«411465_j83708912599063_2_alg».proof.Proof.RTerms
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stage1

open Idealize.ShloMosaic Idealize.ShloMosaic.ValueIdx Idealize.SL.Sem
open Cert.ReferenceIdeal Cert.ReferenceIdeal.Gen

/-! ## The first product: operand indices axis by axis, then the entry as a 71-term sum -/

theorem lhs_hid_0 (i : S3200000x64.Idx) (q : Cert.ReferenceIdeal.dot_S3200000x71_S71x64_S3200000x64_1_0_0_1_n_n.contr.Idx) :
    (Cert.ReferenceIdeal.dot_S3200000x71_S71x64_S3200000x64_1_0_0_1_n_n.lhsIdx i q 0).val = (i 0).val := by
  unfold DotDims.lhsIdx
  rw [dif_neg (show ¬(0 : Fin S3200000x71.rank) ∈ Cert.ReferenceIdeal.dot_S3200000x71_S71x64_S3200000x64_1_0_0_1_n_n.lhsBatch by decide),
    dif_pos (show (0 : Fin S3200000x71.rank) ∈ Cert.ReferenceIdeal.dot_S3200000x71_S71x64_S3200000x64_1_0_0_1_n_n.lhsNonContracting by decide)]
  rfl
theorem lhs_hid_1 (i : S3200000x64.Idx) (q : Cert.ReferenceIdeal.dot_S3200000x71_S71x64_S3200000x64_1_0_0_1_n_n.contr.Idx) :
    (Cert.ReferenceIdeal.dot_S3200000x71_S71x64_S3200000x64_1_0_0_1_n_n.lhsIdx i q 1).val = (q ⟨0, by decide⟩).val :=
  Cert.ReferenceIdeal.dot_S3200000x71_S71x64_S3200000x64_1_0_0_1_n_n.lhsIdx_val_of_single rfl i q
theorem rhs_hid_0 (i : S3200000x64.Idx) (q : Cert.ReferenceIdeal.dot_S3200000x71_S71x64_S3200000x64_1_0_0_1_n_n.contr.Idx) :
    (Cert.ReferenceIdeal.dot_S3200000x71_S71x64_S3200000x64_1_0_0_1_n_n.rhsIdx i q 0).val = (q ⟨0, by decide⟩).val :=
  Cert.ReferenceIdeal.dot_S3200000x71_S71x64_S3200000x64_1_0_0_1_n_n.rhsIdx_val_of_single rfl i q
theorem rhs_hid_1 (i : S3200000x64.Idx) (q : Cert.ReferenceIdeal.dot_S3200000x71_S71x64_S3200000x64_1_0_0_1_n_n.contr.Idx) :
    (Cert.ReferenceIdeal.dot_S3200000x71_S71x64_S3200000x64_1_0_0_1_n_n.rhsIdx i q 1).val = (i 1).val := by
  unfold DotDims.rhsIdx
  rw [dif_neg (show ¬(1 : Fin S71x64.rank) ∈ Cert.ReferenceIdeal.dot_S3200000x71_S71x64_S3200000x64_1_0_0_1_n_n.rhsBatch by decide),
    dif_pos (show (1 : Fin S71x64.rank) ∈ Cert.ReferenceIdeal.dot_S3200000x71_S71x64_S3200000x64_1_0_0_1_n_n.rhsNonContracting by decide)]
  rfl

/-- The first product at an entry: the 71-term inner product of a row with a weight column. -/
theorem dot_hid_apply (M : FVec Ideal S3200000x71 .f32) (W1 : FVec Ideal S71x64 .f32) (e : Fin 3200000) (k : Fin 64) :
    Host.dotGeneral (F := Ideal) Cert.ReferenceIdeal.dot_S3200000x71_S71x64_S3200000x64_1_0_0_1_n_n none M W1 (ix2 e k)
      = ∑ l : Fin 71, M (ix2 e l) * W1 (ix2 l k) := by
  simp only [Host.dotGeneral]
  rw [Ideal.dotGeneral_apply,
    ← Equiv.sum_comp (ValueIdx.contrEquiv1 Cert.ReferenceIdeal.dot_S3200000x71_S71x64_S3200000x64_1_0_0_1_n_n 71 rfl rfl).symm]
  refine Finset.sum_congr rfl fun l _ => ?_
  have hk := ValueIdx.contrEquiv1_symm_val Cert.ReferenceIdeal.dot_S3200000x71_S71x64_S3200000x64_1_0_0_1_n_n 71 rfl rfl l
  have el : Cert.ReferenceIdeal.dot_S3200000x71_S71x64_S3200000x64_1_0_0_1_n_n.lhsIdx (ix2 e k)
      ((ValueIdx.contrEquiv1 Cert.ReferenceIdeal.dot_S3200000x71_S71x64_S3200000x64_1_0_0_1_n_n 71 rfl rfl).symm l) = ix2 e l :=
    funext fun a => Fin.ext (by
      match a with
      | ⟨0, _⟩ => exact lhs_hid_0 _ _
      | ⟨1, _⟩ => exact (lhs_hid_1 _ _).trans hk)
  have er : Cert.ReferenceIdeal.dot_S3200000x71_S71x64_S3200000x64_1_0_0_1_n_n.rhsIdx (ix2 e k)
      ((ValueIdx.contrEquiv1 Cert.ReferenceIdeal.dot_S3200000x71_S71x64_S3200000x64_1_0_0_1_n_n 71 rfl rfl).symm l) = ix2 l k :=
    funext fun a => Fin.ext (by
      match a with
      | ⟨0, _⟩ => exact (rhs_hid_0 _ _).trans hk
      | ⟨1, _⟩ => exact rhs_hid_1 _ _)
  rw [el, er]

/-! ## The second product: operand indices axis by axis, then the entry as a 64-term sum -/

theorem lhs_msg_0 (i : S3200000x32.Idx) (q : Cert.ReferenceIdeal.dot_S3200000x64_S64x32_S3200000x32_1_0_0_1_n_n.contr.Idx) :
    (Cert.ReferenceIdeal.dot_S3200000x64_S64x32_S3200000x32_1_0_0_1_n_n.lhsIdx i q 0).val = (i 0).val := by
  unfold DotDims.lhsIdx
  rw [dif_neg (show ¬(0 : Fin S3200000x64.rank) ∈ Cert.ReferenceIdeal.dot_S3200000x64_S64x32_S3200000x32_1_0_0_1_n_n.lhsBatch by decide),
    dif_pos (show (0 : Fin S3200000x64.rank) ∈ Cert.ReferenceIdeal.dot_S3200000x64_S64x32_S3200000x32_1_0_0_1_n_n.lhsNonContracting by decide)]
  rfl
theorem lhs_msg_1 (i : S3200000x32.Idx) (q : Cert.ReferenceIdeal.dot_S3200000x64_S64x32_S3200000x32_1_0_0_1_n_n.contr.Idx) :
    (Cert.ReferenceIdeal.dot_S3200000x64_S64x32_S3200000x32_1_0_0_1_n_n.lhsIdx i q 1).val = (q ⟨0, by decide⟩).val :=
  Cert.ReferenceIdeal.dot_S3200000x64_S64x32_S3200000x32_1_0_0_1_n_n.lhsIdx_val_of_single rfl i q
theorem rhs_msg_0 (i : S3200000x32.Idx) (q : Cert.ReferenceIdeal.dot_S3200000x64_S64x32_S3200000x32_1_0_0_1_n_n.contr.Idx) :
    (Cert.ReferenceIdeal.dot_S3200000x64_S64x32_S3200000x32_1_0_0_1_n_n.rhsIdx i q 0).val = (q ⟨0, by decide⟩).val :=
  Cert.ReferenceIdeal.dot_S3200000x64_S64x32_S3200000x32_1_0_0_1_n_n.rhsIdx_val_of_single rfl i q
theorem rhs_msg_1 (i : S3200000x32.Idx) (q : Cert.ReferenceIdeal.dot_S3200000x64_S64x32_S3200000x32_1_0_0_1_n_n.contr.Idx) :
    (Cert.ReferenceIdeal.dot_S3200000x64_S64x32_S3200000x32_1_0_0_1_n_n.rhsIdx i q 1).val = (i 1).val := by
  unfold DotDims.rhsIdx
  rw [dif_neg (show ¬(1 : Fin S64x32.rank) ∈ Cert.ReferenceIdeal.dot_S3200000x64_S64x32_S3200000x32_1_0_0_1_n_n.rhsBatch by decide),
    dif_pos (show (1 : Fin S64x32.rank) ∈ Cert.ReferenceIdeal.dot_S3200000x64_S64x32_S3200000x32_1_0_0_1_n_n.rhsNonContracting by decide)]
  rfl

/-- The second product at an entry: the 64-term inner product of a hidden row with a weight column. -/
theorem dot_msg_apply (H : FVec Ideal S3200000x64 .f32) (W2 : FVec Ideal S64x32 .f32) (e : Fin 3200000) (j : Fin 32) :
    Host.dotGeneral (F := Ideal) Cert.ReferenceIdeal.dot_S3200000x64_S64x32_S3200000x32_1_0_0_1_n_n none H W2 (ix2 e j)
      = ∑ k : Fin 64, H (ix2 e k) * W2 (ix2 k j) := by
  simp only [Host.dotGeneral]
  rw [Ideal.dotGeneral_apply, ← Equiv.sum_comp (ValueIdx.contrEquiv1 Cert.ReferenceIdeal.dot_S3200000x64_S64x32_S3200000x32_1_0_0_1_n_n 64 rfl rfl).symm]
  refine Finset.sum_congr rfl fun k _ => ?_
  have hk := ValueIdx.contrEquiv1_symm_val Cert.ReferenceIdeal.dot_S3200000x64_S64x32_S3200000x32_1_0_0_1_n_n 64 rfl rfl k
  have el : Cert.ReferenceIdeal.dot_S3200000x64_S64x32_S3200000x32_1_0_0_1_n_n.lhsIdx (ix2 e j) ((ValueIdx.contrEquiv1 Cert.ReferenceIdeal.dot_S3200000x64_S64x32_S3200000x32_1_0_0_1_n_n 64 rfl rfl).symm k) = ix2 e k :=
    funext fun a => Fin.ext (by
      match a with
      | ⟨0, _⟩ => exact lhs_msg_0 _ _
      | ⟨1, _⟩ => exact (lhs_msg_1 _ _).trans hk)
  have er : Cert.ReferenceIdeal.dot_S3200000x64_S64x32_S3200000x32_1_0_0_1_n_n.rhsIdx (ix2 e j) ((ValueIdx.contrEquiv1 Cert.ReferenceIdeal.dot_S3200000x64_S64x32_S3200000x32_1_0_0_1_n_n 64 rfl rfl).symm k) = ix2 k j :=
    funext fun a => Fin.ext (by
      match a with
      | ⟨0, _⟩ => exact (rhs_msg_0 _ _).trans hk
      | ⟨1, _⟩ => exact rhs_msg_1 _ _)
  rw [el, er]

/-! ## The bias rows and the zero splat at an entry -/

/-- The bias row laid along every row of the [3200000, 64] array. -/
theorem bias64_apply (B1 : FVec Ideal S64 .f32) (e : Fin 3200000) (k : Fin 64) :
    broadcastInDim S3200000x64 ![0, 1] bcast_S1x64_S3200000x64_0_1 (broadcastInDim S1x64 ![1] bcast_S64_S1x64_1 B1) (ix2 e k)
      = B1 (ix1 k) := by
  rw [broadcastInDim_apply ![0, 1] bcast_S1x64_S3200000x64_0_1 _ (ix2 e k) (ix2 (0 : Fin 1) k) (fun a => by
      match a with
      | ⟨0, _⟩ => rfl
      | ⟨1, _⟩ => rfl)]
  rw [broadcastInDim_apply ![1] bcast_S64_S1x64_1 B1 (ix2 (0 : Fin 1) k) (ix1 k) (fun a => by
      match a with
      | ⟨0, _⟩ => rfl)]

/-- The bias row laid along every row of the [3200000, 32] array. -/
theorem bias32_apply (B2 : FVec Ideal S32 .f32) (e : Fin 3200000) (j : Fin 32) :
    broadcastInDim S3200000x32 ![0, 1] bcast_S1x32_S3200000x32_0_1 (broadcastInDim S1x32 ![1] bcast_S32_S1x32_1 B2) (ix2 e j)
      = B2 (ix1 j) := by
  rw [broadcastInDim_apply ![0, 1] bcast_S1x32_S3200000x32_0_1 _ (ix2 e j) (ix2 (0 : Fin 1) j) (fun a => by
      match a with
      | ⟨0, _⟩ => rfl
      | ⟨1, _⟩ => rfl)]
  rw [broadcastInDim_apply ![1] bcast_S32_S1x32_1 B2 (ix2 (0 : Fin 1) j) (ix1 j) (fun a => by
      match a with
      | ⟨0, _⟩ => rfl)]

/-- The zero splat reads the extended real zero everywhere. -/
theorem zero64_apply (i : S3200000x64.Idx) :
    broadcastInDim S3200000x64 ![] bcast_S_S3200000x64 (constant (F := Ideal) S_ .f32 0x00000000#32) i = 0 := by
  show Ideal.ofBits .f32 0x00000000#32 = 0
  exact Ideal.ofBits_zero_f32

/-! ## The concatenated row, piece by piece -/

/-- Columns 0–34 of the concatenation are the first piece. -/
theorem cat_left (A D : FVec Ideal S3200000x35 .f32) (EA : FVec Ideal S3200000x1 .f32) (e : Fin 3200000) (l : Fin 35) :
    concatenate S3200000x71 1 [⟨S3200000x35, A⟩, ⟨S3200000x35, D⟩, ⟨S3200000x1, EA⟩]
        concatenates_S3200000x35_S3200000x35_S3200000x1_S3200000x71_d1 (ix2 e (⟨l.val, by omega⟩ : Fin 71)) = A (ix2 e l) := by
  refine concatenate_apply_piece (1 : Fin S3200000x71.rank) _ _ _ 0 (by simp) S3200000x35 A rfl rfl 0 rfl (ix2 e l) ?_ ?_
  · intro b hb
    match b with
    | ⟨0, _⟩ => rfl
    | ⟨1, _⟩ => exact absurd rfl hb
  · show 0 + l.val = l.val
    omega

/-- Columns 35–69 are the second piece. -/
theorem cat_mid (A D : FVec Ideal S3200000x35 .f32) (EA : FVec Ideal S3200000x1 .f32) (e : Fin 3200000) (l : Fin 35) :
    concatenate S3200000x71 1 [⟨S3200000x35, A⟩, ⟨S3200000x35, D⟩, ⟨S3200000x1, EA⟩]
        concatenates_S3200000x35_S3200000x35_S3200000x1_S3200000x71_d1 (ix2 e (⟨35 + l.val, by omega⟩ : Fin 71)) = D (ix2 e l) := by
  refine concatenate_apply_piece (1 : Fin S3200000x71.rank) _ _ _ 1 (by simp) S3200000x35 D rfl rfl 35 rfl (ix2 e l) ?_ ?_
  · intro b hb
    match b with
    | ⟨0, _⟩ => rfl
    | ⟨1, _⟩ => exact absurd rfl hb
  · rfl

/-- Column 70 is the third piece's one column. -/
theorem cat_right (A D : FVec Ideal S3200000x35 .f32) (EA : FVec Ideal S3200000x1 .f32) (e : Fin 3200000) (l : Fin 1) :
    concatenate S3200000x71 1 [⟨S3200000x35, A⟩, ⟨S3200000x35, D⟩, ⟨S3200000x1, EA⟩]
        concatenates_S3200000x35_S3200000x35_S3200000x1_S3200000x71_d1 (ix2 e (⟨70 + l.val, by omega⟩ : Fin 71)) = EA (ix2 e l) := by
  refine concatenate_apply_piece (1 : Fin S3200000x71.rank) _ _ _ 2 (by simp) S3200000x1 EA rfl rfl 70 rfl (ix2 e l) ?_ ?_
  · intro b hb
    match b with
    | ⟨0, _⟩ => rfl
    | ⟨1, _⟩ => exact absurd rfl hb
  · rfl

/-! ## The 71-term sum cut where the pieces meet -/

/-- A 71-term sum in a commutative monoid, cut at 35 and at 70. -/
theorem sum_fin71 {M : Type*} [AddCommMonoid M] (f : Fin 71 → M) :
    ∑ l : Fin 71, f l = ((∑ i : Fin 35, f (⟨i.val, by omega⟩ : Fin 71)) + ∑ i : Fin 35, f (⟨35 + i.val, by omega⟩ : Fin 71))
      + ∑ i : Fin 1, f (⟨70 + i.val, by omega⟩ : Fin 71) := by
  show ∑ l : Fin (35 + 35 + 1), f l = _
  rw [Fin.sum_univ_add, Fin.sum_univ_add]
  rfl

/-! ## The two stages -/

/-- The hidden layer over the 71-wide concatenation of three pieces, entry by entry. -/
theorem hidden_apply (A D : FVec Ideal S3200000x35 .f32) (EA : FVec Ideal S3200000x1 .f32) (W1 : FVec Ideal S71x64 .f32)
    (B1 : FVec Ideal S64 .f32) (e : Fin 3200000) (k : Fin 64) :
    Terms.hidden (F := Ideal) (concatenate S3200000x71 1 [⟨S3200000x35, A⟩, ⟨S3200000x35, D⟩, ⟨S3200000x1, EA⟩]
        concatenates_S3200000x35_S3200000x35_S3200000x1_S3200000x71_d1) W1 B1 (ix2 e k)
      = Spec.hidE A D EA W1 B1 e k := by
  unfold Terms.hidden Spec.hidE
  rw [maximumf_apply, addf_apply, zero64_apply, bias64_apply, dot_hid_apply, sum_fin71]
  simp only [cat_left, cat_mid, cat_right]

/-- The message table, entry by entry. -/
theorem msg_apply (XI XJ : FVec Ideal S3200000x35 .f32) (EA : FVec Ideal S3200000x1 .f32) (W1 : FVec Ideal S71x64 .f32)
    (B1 : FVec Ideal S64 .f32) (W2 : FVec Ideal S64x32 .f32) (B2 : FVec Ideal S32 .f32) (e : Fin 3200000) (j : Fin 32) :
    Terms.msg (F := Ideal) XI XJ EA W1 B1 W2 B2 (ix2 e j) = Spec.g1 XI XJ EA W1 B1 W2 B2 e j := by
  unfold Terms.msg Spec.g1 Host.tanh
  rw [Ideal.hostUnary_tanh_def, addf_apply, bias32_apply, dot_msg_apply]
  simp only [hidden_apply]
  rfl

/-- The message table is the specification's. -/
theorem msg_eq (XI XJ : FVec Ideal S3200000x35 .f32) (EA : FVec Ideal S3200000x1 .f32) (W1 : FVec Ideal S71x64 .f32)
    (B1 : FVec Ideal S64 .f32) (W2 : FVec Ideal S64x32 .f32) (B2 : FVec Ideal S32 .f32) :
    Terms.msg (F := Ideal) XI XJ EA W1 B1 W2 B2 = Spec.G1 XI XJ EA W1 B1 W2 B2 := by
  funext i
  obtain ⟨e, j, rfl⟩ : ∃ (e : Fin 3200000) (j : Fin 32), i = ix2 e j := ⟨i 0, i 1, eq_ix2 i⟩
  rw [msg_apply, Spec.G1_ix2]

end Cert.ReferenceIdeal.Stage1

end
-- ==== Proof.RStage2.lean ====
/-
  The reference's output column is the specification's `G2`: the logistic function spelt as one over one plus the
  exponential of the negation is the extended reals' logistic function, and the hidden layer is the message stage's
  with the second gathered row in place of the row difference.
-/
import proofs.«411465_j83708912599063_2_alg».proof.Proof.RTerms
import proofs.«411465_j83708912599063_2_alg».proof.Proof.RStage1
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

namespace Cert.ReferenceIdeal.Stage2

open Idealize.ShloMosaic Idealize.ShloMosaic.ValueIdx Idealize.SL.Sem
open Cert.ReferenceIdeal Cert.ReferenceIdeal.Gen

/-! ## The output product's operand indices, axis by axis

The product contracts axis 1 of the hidden layer with axis 0 of the weight column: at output index `(e, j)` and
contraction position `q` the left operand is read at `(e, q)` and the right at `(q, j)`. -/

/-- The left operand's row is the output's row. -/
theorem lhs_0 (i : S3200000x1.Idx) (q : Cert.ReferenceIdeal.dot_S3200000x64_S64x1_S3200000x1_1_0_0_1_n_n.contr.Idx) :
    (Cert.ReferenceIdeal.dot_S3200000x64_S64x1_S3200000x1_1_0_0_1_n_n.lhsIdx i q 0).val = (i 0).val := by
  unfold DotDims.lhsIdx
  rw [dif_neg (show ¬(0 : Fin S3200000x64.rank) ∈ Cert.ReferenceIdeal.dot_S3200000x64_S64x1_S3200000x1_1_0_0_1_n_n.lhsBatch by decide),
    dif_pos (show (0 : Fin S3200000x64.rank) ∈ Cert.ReferenceIdeal.dot_S3200000x64_S64x1_S3200000x1_1_0_0_1_n_n.lhsNonContracting by decide)]
  rfl

/-- The left operand's column is the contraction position. -/
theorem lhs_1 (i : S3200000x1.Idx) (q : Cert.ReferenceIdeal.dot_S3200000x64_S64x1_S3200000x1_1_0_0_1_n_n.contr.Idx) :
    (Cert.ReferenceIdeal.dot_S3200000x64_S64x1_S3200000x1_1_0_0_1_n_n.lhsIdx i q 1).val = (q ⟨0, by decide⟩).val :=
  Cert.ReferenceIdeal.dot_S3200000x64_S64x1_S3200000x1_1_0_0_1_n_n.lhsIdx_val_of_single rfl i q

/-- The right operand's row is the contraction position. -/
theorem rhs_0 (i : S3200000x1.Idx) (q : Cert.ReferenceIdeal.dot_S3200000x64_S64x1_S3200000x1_1_0_0_1_n_n.contr.Idx) :
    (Cert.ReferenceIdeal.dot_S3200000x64_S64x1_S3200000x1_1_0_0_1_n_n.rhsIdx i q 0).val = (q ⟨0, by decide⟩).val :=
  Cert.ReferenceIdeal.dot_S3200000x64_S64x1_S3200000x1_1_0_0_1_n_n.rhsIdx_val_of_single rfl i q

/-- The right operand's column is the output's column. -/
theorem rhs_1 (i : S3200000x1.Idx) (q : Cert.ReferenceIdeal.dot_S3200000x64_S64x1_S3200000x1_1_0_0_1_n_n.contr.Idx) :
    (Cert.ReferenceIdeal.dot_S3200000x64_S64x1_S3200000x1_1_0_0_1_n_n.rhsIdx i q 1).val = (i 1).val := by
  unfold DotDims.rhsIdx
  rw [dif_neg (show ¬(1 : Fin S64x1.rank) ∈ Cert.ReferenceIdeal.dot_S3200000x64_S64x1_S3200000x1_1_0_0_1_n_n.rhsBatch by decide),
    dif_pos (show (1 : Fin S64x1.rank) ∈ Cert.ReferenceIdeal.dot_S3200000x64_S64x1_S3200000x1_1_0_0_1_n_n.rhsNonContracting by decide)]
  rfl

/-! ## The operations read at an index -/

/-- The output product at `(e, j)` is the sum over the 64 hidden units of hidden unit times weight. -/
theorem dot_apply (H : FVec Ideal S3200000x64 .f32) (W2 : FVec Ideal S64x1 .f32) (e : Fin 3200000) (j : Fin 1) :
    Host.dotGeneral (F := Ideal) Cert.ReferenceIdeal.dot_S3200000x64_S64x1_S3200000x1_1_0_0_1_n_n none H W2 (ix2 e j)
      = ∑ k : Fin 64, H (ix2 e k) * W2 (ix2 k j) := by
  simp only [Host.dotGeneral]
  rw [Ideal.dotGeneral_apply, ← Equiv.sum_comp (contrEquiv1 Cert.ReferenceIdeal.dot_S3200000x64_S64x1_S3200000x1_1_0_0_1_n_n 64 rfl rfl).symm]
  refine Finset.sum_congr rfl fun k _ => ?_
  have hk := contrEquiv1_symm_val Cert.ReferenceIdeal.dot_S3200000x64_S64x1_S3200000x1_1_0_0_1_n_n 64 rfl rfl k
  have el : Cert.ReferenceIdeal.dot_S3200000x64_S64x1_S3200000x1_1_0_0_1_n_n.lhsIdx (ix2 e j) ((contrEquiv1 Cert.ReferenceIdeal.dot_S3200000x64_S64x1_S3200000x1_1_0_0_1_n_n 64 rfl rfl).symm k)
      = ix2 e k := funext fun a => Fin.ext (by
    match a with
    | ⟨0, _⟩ => exact lhs_0 _ _
    | ⟨1, _⟩ => exact (lhs_1 _ _).trans hk)
  have er : Cert.ReferenceIdeal.dot_S3200000x64_S64x1_S3200000x1_1_0_0_1_n_n.rhsIdx (ix2 e j) ((contrEquiv1 Cert.ReferenceIdeal.dot_S3200000x64_S64x1_S3200000x1_1_0_0_1_n_n 64 rfl rfl).symm k)
      = ix2 k j := funext fun a => Fin.ext (by
    match a with
    | ⟨0, _⟩ => exact (rhs_0 _ _).trans hk
    | ⟨1, _⟩ => exact rhs_1 _ _)
  rw [el, er]

/-- The bias, a length-1 vector laid first as a [1, 1] row and then down every row, reads its one entry. -/
theorem bias_apply (B2 : FVec Ideal S1 .f32) (e : Fin 3200000) (j : Fin 1) :
    broadcastInDim S3200000x1 ![0, 1] bcast_S1x1_S3200000x1_0_1 (broadcastInDim S1x1 ![1] bcast_S1_S1x1_1 B2) (ix2 e j)
      = B2 (ix1 j) := by
  refine (broadcastInDim_apply ![0, 1] bcast_S1x1_S3200000x1_0_1 _ (ix2 e j) (ix2 (0 : Fin 1) j) ?_).trans ?_
  · intro a
    match a with
    | ⟨0, _⟩ => rfl
    | ⟨1, _⟩ =>
      show j.val = if (1 : ℕ) = 1 then 0 else j.val
      have := j.isLt
      rw [if_pos rfl]; omega
  · refine broadcastInDim_apply ![1] bcast_S1_S1x1_1 B2 (ix2 (0 : Fin 1) j) (ix1 j) ?_
    intro a
    match a with
    | ⟨0, _⟩ =>
      show j.val = if (1 : ℕ) = 1 then 0 else j.val
      have := j.isLt
      rw [if_pos rfl]; omega

/-- The f32 word `0x3F800000` denotes one. -/
theorem ofBits_one : Ideal.ofBits .f32 0x3F800000#32 = 1 := by
  simp [Ideal.ofBits, Ideal.ieee, -EReal.coe_mul]; norm_num

/-- The constant one, broadcast from a scalar, reads one everywhere. -/
theorem one_apply (i : S3200000x1.Idx) :
    broadcastInDim S3200000x1 ![] bcast_S_S3200000x1 (constant (F := Ideal) S_ .f32 0x3F800000#32) i = 1 := by
  refine (broadcastInDim_apply ![] bcast_S_S3200000x1 _ i ix0 (fun a => a.elim0)).trans ?_
  exact (constant_apply _ _).trans ofBits_one

/-- One over one plus the exponential of the negation, at an index, is the logistic function of the entry. -/
theorem sigm_apply (Z : FVec Ideal S3200000x1 .f32) (i : S3200000x1.Idx) :
    Terms.sigm (F := Ideal) Z i = Ideal.logistic (Z i) := by
  unfold Terms.sigm
  show Ideal.div (broadcastInDim S3200000x1 ![] bcast_S_S3200000x1 (constant (F := Ideal) S_ .f32 0x3F800000#32) i)
      (broadcastInDim S3200000x1 ![] bcast_S_S3200000x1 (constant (F := Ideal) S_ .f32 0x3F800000#32) i + Ideal.exp (-(Z i)))
    = Ideal.logistic (Z i)
  rw [one_apply]
  rfl

/-- The pre-activation at `(e, j)`: the 64 hidden units against the weight column, plus the bias. -/
theorem logit_apply (EI EJ : FVec Ideal S3200000x35 .f32) (EA : FVec Ideal S3200000x1 .f32) (W1 : FVec Ideal S71x64 .f32)
    (B1 : FVec Ideal S64 .f32) (W2 : FVec Ideal S64x1 .f32) (B2 : FVec Ideal S1 .f32) (e : Fin 3200000) (j : Fin 1) :
    Terms.logit (F := Ideal) EI EJ EA W1 B1 W2 B2 (ix2 e j)
      = (∑ k : Fin 64, Spec.hidE EI EJ EA W1 B1 e k * W2 (ix2 k j)) + B2 (ix1 j) := by
  unfold Terms.logit
  rw [addf_apply, dot_apply, bias_apply]
  congr 1
  exact Finset.sum_congr rfl fun k _ => by rw [Stage1.hidden_apply]

/-- The output column is the specification's. -/
theorem out_eq (EI EJ : FVec Ideal S3200000x35 .f32) (EA : FVec Ideal S3200000x1 .f32) (W1 : FVec Ideal S71x64 .f32)
    (B1 : FVec Ideal S64 .f32) (W2 : FVec Ideal S64x1 .f32) (B2 : FVec Ideal S1 .f32) :
    Terms.sigm (F := Ideal) (Terms.logit EI EJ EA W1 B1 W2 B2) = Spec.G2 EI EJ EA W1 B1 W2 B2 := by
  funext i
  obtain ⟨e, j, rfl⟩ : ∃ (e : Fin 3200000) (j : Fin 1), i = ix2 e j := ⟨i 0, i 1, eq_ix2 i⟩
  rw [sigm_apply, logit_apply, Spec.G2_ix2]
  rfl

end Cert.ReferenceIdeal.Stage2

end
-- ==== Proof.VarNonneg.lean ====
/-
  The column variance is never negative: where the divisor 100000 − 0 is positive (it is) the variance is a sum of
  squares — each square of an extended real is non-negative, infinities included — over a positive real.
-/
import proofs.«411465_j83708912599063_2_alg».proof.Proof.RTerms
import proofs.«411465_j83708912599063_2_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.VarNonneg

open Idealize.ShloMosaic Idealize.ShloMosaic.ValueIdx Idealize.SL.Sem
open Cert.ReferenceIdeal Cert.ReferenceIdeal.Gen

/-- The square of an extended real is never negative: (−∞)·(−∞) = (+∞)·(+∞) = +∞, and a real square is non-negative. -/
theorem mul_self_nonneg_ereal (c : EReal) : 0 ≤ c * c := by
  induction c using EReal.rec with
  | bot => rw [EReal.bot_mul_bot]; exact le_top
  | coe r => exact_mod_cast mul_self_nonneg r
  | top => rw [EReal.top_mul_top]; exact le_top

/-- A host sum from a non-negative initial value of non-negative entries is non-negative, at every result index and
    for every shape: the initial value plus a finite sum of non-negative terms. -/
theorem hostReduceAdd_nonneg {s t : Shape} {axes : List (Fin s.rank)} (h : s.ReducesTo axes t) (x : s.Idx → EReal)
    (init : EReal) (hi : 0 ≤ init) (hx : ∀ i, 0 ≤ x i) (j : t.Idx) : 0 ≤ Ideal.hostReduceAdd h x init j := by
  unfold Ideal.hostReduceAdd
  exact add_nonneg hi (Finset.sum_nonneg fun i _ => hx i)

/-- The pattern 0x47C35000 is 2¹⁶ · (2²³ + 4411392) · 2⁻²³ = 100000. -/
theorem ofBits_100000 : Ideal.ofBits .f32 0x47C35000#32 = ((100000 : ℝ) : EReal) := by
  simp [Ideal.ofBits, Ideal.ieee, -EReal.coe_mul]; norm_num

/-- The divisor is 100000: the integer zero converts to the real zero, and 100000 − 0 = 100000. -/
theorem dof_apply (i : S_.Idx) : Terms.dof (F := Ideal) i = ((100000 : ℝ) : EReal) := by
  show Ideal.ofBits .f32 0x47C35000#32 - ((((0#32 : BitVec 32).toInt : ℤ) : ℝ) : EReal) = _
  rw [ofBits_100000]
  simp

/-- The divisor is positive, so the comparison word is one. -/
theorem dof_pos_word (i : S_.Idx) :
    cmpf .ogt (Terms.dof (F := Ideal)) (constant (F := Ideal) S_ .f32 0x00000000#32) i = 1#1 := by
  rw [cmpf_apply, Ideal.cmpf_def, dof_apply, constant_apply, Ideal.ofBits_zero_f32]
  have h : (0 : EReal) < ((100000 : ℝ) : EReal) := by exact_mod_cast (by norm_num : (0 : ℝ) < 100000)
  simp [Ideal.cmp, h]

/-- The sum of squares over the divisor, at a column: non-negative. -/
theorem quot_nonneg (C : FVec Ideal S100000x3 .f32) (j : S3.Idx) :
    0 ≤ Host.divf (Host.reduceAdd (mulf C C) (constant (F := Ideal) S_ .f32 0x00000000#32) reducesTo_S100000x3_S3_d0 h_S_)
      (broadcastInDim S3 ![] bcast_S_S3 (Terms.dof (F := Ideal))) j := by
  rw [hostDivf_apply, hostReduceAdd_apply, broadcastInDim_scalar_apply, dof_apply, constant_apply, Ideal.ofBits_zero_f32,
    Ideal.div_coe (by norm_num : (100000 : ℝ) ≠ 0)]
  refine mul_nonneg (hostReduceAdd_nonneg _ _ _ le_rfl (fun i => ?_) _) (by exact_mod_cast (by norm_num : (0 : ℝ) ≤ 1 / 100000))
  exact mul_self_nonneg_ereal (C i)

theorem var_nonneg (X : FVec Ideal S100000x3 .f32) (k : Fin 3) : 0 ≤ Terms.var (F := Ideal) X (ix1 k) := by
  unfold Terms.var
  rw [select_apply, broadcastInDim_scalar_apply, dof_pos_word, select_one]
  exact quot_nonneg (Terms.centred (F := Ideal) X) (ix1 k)

end Cert.ReferenceIdeal.VarNonneg

end
-- ==== Proof.Take.lean ====
/-
  Where every edge index lies in [0, 100000) the kernel program's filling gather is the reference's plain gather: the
  wrap from below leaves such an index alone, the range test passes on every row, and the selection keeps the
  gathered row.  The precondition says exactly that of both rows of the edge-index pair.
-/
import proofs.«411465_j83708912599063_2_alg».proof.Proof.RTerms
import proofs.«411465_j83708912599063_2_alg».proof.Proof.KTerms
import proofs.«411465_j83708912599063_2_alg».proof.Proof.Gen.Pre_finite_inputs
import Idealize.ShloMosaic.Lib.ValueIdx
import Idealize.ShloMosaic.Lib.ValueLayout
import Idealize.ShloMosaic.Lib.ReduceAll
import Idealize.ShloMosaic.Lib.StableHlo.Predicate

noncomputable section

namespace Cert.Take

open Idealize.ShloMosaic Idealize.ShloMosaic.ValueIdx Idealize.SL.Sem

/-- An index vector all of whose entries lie in [0, 100000), read as signed words. -/
def InRange (I : IVec Cert.ReferenceIdeal.S3200000 32) : Prop := ∀ e, 0 ≤ (I e).toInt ∧ (I e).toInt < 100000

/-! ## A conjunction over a list of ones -/

/-- A left fold by `and` from 1 over a list whose every entry is 1 comes out 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a (List.mem_cons_self ..), show IntOp.andi (1#1 : BitVec 1) 1#1 = 1#1 from rfl]
    exact foldl_andi_ones f l (fun n hn => h n (List.mem_cons_of_mem _ hn))

/-- A reduce by `and` from 1 of an array of ones is 1 at every result index. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun i _ => hx i)

/-! ## Words in [0, 100000) -/

/-- A non-negative word is not below zero: the wrap's test fails on it. -/
theorem slt_zero_of_nonneg (w : BitVec 32) (h : 0 ≤ w.toInt) : IntOp.cmpi .slt w 0#32 = 0#1 := by
  have h0 : (0#32 : BitVec 32).toInt = 0 := by decide
  have : w.slt 0#32 = false := by
    rw [BitVec.slt, h0]; exact decide_eq_false (by omega)
  show BitVec.ofBool (w.slt 0#32) = 0#1
  rw [this]; rfl

/-- A non-negative word passes the test from below. -/
theorem sge_zero_of_nonneg (w : BitVec 32) (h : 0 ≤ w.toInt) : IntOp.cmpi .sge w 0#32 = 1#1 := by
  have h0 : (0#32 : BitVec 32).toInt = 0 := by decide
  have : (0#32 : BitVec 32).sle w = true := by
    rw [BitVec.sle, h0]; exact decide_eq_true h
  show BitVec.ofBool ((0#32 : BitVec 32).sle w) = 1#1
  rw [this]; rfl

/-- A word below 100000 passes the test from above. -/
theorem sle_top_of_lt (w : BitVec 32) (h : w.toInt < 100000) : IntOp.cmpi .sle w 99999#32 = 1#1 := by
  have h0 : (99999#32 : BitVec 32).toInt = 99999 := by decide
  have : w.sle 99999#32 = true := by
    rw [BitVec.sle, h0]; exact decide_eq_true (by omega)
  show BitVec.ofBool (w.sle 99999#32) = 1#1
  rw [this]; rfl

/-! ## The wrap at in-range indices, and the range test -/

/-- Where every word is non-negative the wrap from below selects the word itself. -/
theorem wrapSel_eq {s : Shape} (I Z C : IVec s 32) (hZ : ∀ e, Z e = 0#32) (hI : ∀ e, 0 ≤ (I e).toInt) :
    select (cmpi .slt I Z) (addi I C) I = I := by
  funext e
  rw [select_apply]
  have hc : cmpi .slt I Z e = 0#1 := by
    show IntOp.cmpi .slt (I e) (Z e) = 0#1
    rw [hZ e]; exact slt_zero_of_nonneg (I e) (hI e)
  rw [hc, select_zero]

/-- The wrapped column of an in-range index vector is the vector laid as a column. -/
theorem wrap_eq_bcast (I : IVec Cert.ReferenceIdeal.S3200000 32) (hI : InRange I) :
    Cert.KernelIdeal.Terms.wrap I
      = broadcastInDim Cert.KernelIdeal.S3200000x1 ![0] Cert.KernelIdeal.Gen.bcast_S3200000_S3200000x1_0 I := by
  unfold Cert.KernelIdeal.Terms.wrap
  exact congrArg _ (wrapSel_eq I _ _ (fun _ => rfl) (fun e => (hI e).1))

/-- Every entry of the wrapped column is an entry of the vector. -/
theorem wrap_apply (I : IVec Cert.ReferenceIdeal.S3200000 32) (hI : InRange I) (k : Cert.KernelIdeal.S3200000x1.Idx) :
    ∃ e, Cert.KernelIdeal.Terms.wrap I k = I e := by
  rw [wrap_eq_bcast I hI]
  exact ⟨_, rfl⟩

/-- The range test passes on every row. -/
theorem inRange_eq_one (I : IVec Cert.ReferenceIdeal.S3200000 32) (hI : InRange I) (j : Cert.KernelIdeal.S3200000.Idx) :
    Cert.KernelIdeal.Terms.inRange I j = 1#1 := by
  unfold Cert.KernelIdeal.Terms.inRange
  refine reduce_andi_of_all _ _ _ _ rfl (fun k => ?_) j
  obtain ⟨e, he⟩ := wrap_apply I hI k
  show IntOp.andi (IntOp.cmpi .sge (Cert.KernelIdeal.Terms.wrap I k) 0#32)
      (IntOp.cmpi .sle (Cert.KernelIdeal.Terms.wrap I k) 99999#32) = 1#1
  rw [he, sge_zero_of_nonneg _ (hI e).1, sle_top_of_lt _ (hI e).2]
  rfl

/-- The filling gather is the plain gather at in-range indices. -/
theorem takeFill_eq_gat (T : FVec Ideal Cert.ReferenceIdeal.S100000x35 .f32) (I : IVec Cert.ReferenceIdeal.S3200000 32)
    (hI : InRange I) :
    Cert.KernelIdeal.Terms.takeFill (F := Ideal) T I = Cert.ReferenceIdeal.Terms.gat (F := Ideal) T I := by
  funext i
  unfold Cert.KernelIdeal.Terms.takeFill
  rw [select_apply]
  have hm : broadcastInDim Cert.KernelIdeal.S3200000x35 ![0] Cert.KernelIdeal.Gen.bcast_S3200000_S3200000x35_0
      (Cert.KernelIdeal.Terms.inRange I) i = 1#1 := inRange_eq_one I hI _
  rw [hm, select_one]
  rfl

/-! ## The precondition's last conjunct: every entry of the index pair is in range -/

/-- A word on which both of the precondition's comparisons come out 1 lies in [0, 100000). -/
theorem range_of_test (w : BitVec 32)
    (h : IntOp.andi (IntOp.cmpi .sge w 0#32) (IntOp.cmpi .slt w 100000#32) = 1#1) :
    0 ≤ w.toInt ∧ w.toInt < 100000 := by
  obtain ⟨h1, h2⟩ := IntOp.andi_eq_one.1 h
  have a := IntOp.cmpi_sge.1 h1
  have b := IntOp.cmpi_slt.1 h2
  have h0 : (0#32 : BitVec 32).toInt = 0 := by decide
  have hc : (100000#32 : BitVec 32).toInt = 100000 := by decide
  omega

/-- The tail of the printed chain is a conjunction whose last operand is the `and` over all entries of the pair of the
    two comparisons: where the tail is 1, every entry of the pair lies in [0, 100000). -/
theorem all_of_tail (a1 : IVec Cert.Pre_finite_inputs.S2x3200000 32) (a15 : FVec Ideal Cert.Pre_finite_inputs.S64x1 .f32)
    (a16 : FVec Ideal Cert.Pre_finite_inputs.S1 .f32) (p q : IVec Cert.Pre_finite_inputs.S_ 1)
    (h : Cert.Pre_finite_inputs.fn_part4 (F := Ideal) a1 a15 a16 p q ix0 = 1#1) (i : Cert.Pre_finite_inputs.S2x3200000.Idx) :
    0 ≤ (a1 i).toInt ∧ (a1 i).toInt < 100000 := by
  unfold Cert.Pre_finite_inputs.fn_part4 Cert.Pre_finite_inputs.fn_part5 at h
  obtain ⟨-, h84⟩ := IntOp.andi_eq_one.1 h
  -- the scalar shape has one index, so the `and` runs over every entry of the pair
  haveI : Subsingleton Cert.Pre_finite_inputs.S_.Idx := ⟨fun a b => funext fun d => d.elim0⟩
  exact range_of_test (a1 i) (Host.reduce_andi_all _ _ _ _ ix0 h84 i)

/-- The precondition puts both rows of the edge-index pair in range. -/
theorem inRange_of_pre
    (a0 : FVec Ideal Cert.Pre_finite_inputs.S100000x3 .f32) (a1 : IVec Cert.Pre_finite_inputs.S2x3200000 32)
    (a2 : FVec Ideal Cert.Pre_finite_inputs.S3200000x1 .f32) (a3 a4 : FVec Ideal Cert.Pre_finite_inputs.S3 .f32)
    (a5 : FVec Ideal Cert.Pre_finite_inputs.S3x32 .f32) (a6 : FVec Ideal Cert.Pre_finite_inputs.S32 .f32)
    (a7 : FVec Ideal Cert.Pre_finite_inputs.S32x32 .f32) (a8 : FVec Ideal Cert.Pre_finite_inputs.S32 .f32)
    (a9 : FVec Ideal Cert.Pre_finite_inputs.S71x64 .f32) (a10 : FVec Ideal Cert.Pre_finite_inputs.S64 .f32)
    (a11 : FVec Ideal Cert.Pre_finite_inputs.S64x32 .f32) (a12 : FVec Ideal Cert.Pre_finite_inputs.S32 .f32)
    (a13 : FVec Ideal Cert.Pre_finite_inputs.S71x64 .f32) (a14 : FVec Ideal Cert.Pre_finite_inputs.S64 .f32)
    (a15 : FVec Ideal Cert.Pre_finite_inputs.S64x1 .f32) (a16 : FVec Ideal Cert.Pre_finite_inputs.S1 .f32)
    (h : Cert.Pre_finite_inputs.fn (F := Ideal) a0 a1 a2 a3 a4 a5 a6 a7 a8 a9 a10 a11 a12 a13 a14 a15 a16 = fun _ => 1#1) :
    InRange (Cert.ReferenceIdeal.Terms.idxRow0 a1) ∧ InRange (Cert.ReferenceIdeal.Terms.idxRow1 a1) := by
  have h0 := congrFun h ix0
  have hall : ∀ i, 0 ≤ (a1 i).toInt ∧ (a1 i).toInt < 100000 := fun i => all_of_tail a1 a15 a16 _ _ h0 i
  exact ⟨fun e => hall _, fun e => hall _⟩

end Cert.Take

end
-- ==== Proof.KChain.lean ====
/-
  The kernel program's result buffer as one function of the argument arrays: the buffer contents at each boundary
  between host stretches and pallas_call regions are a fold through @main; read at the buffers a later item uses,
  each stretch gives its operations applied to what it was entered with, each region its output array as the
  specification's function of its operand arrays, and a buffer no item in between writes keeps what it held.
-/
import proofs.«411465_j83708912599063_2_alg».proof.Proof.Gen.KernelIdeal.Frame
import proofs.«411465_j83708912599063_2_alg».proof.Proof.Spec
import proofs.«411465_j83708912599063_2_alg».proof.Proof.KTerms
import proofs.«411465_j83708912599063_2_alg».proof.Proof.RTerms
import proofs.«411465_j83708912599063_2_alg».proof.Proof.KRegion0
import proofs.«411465_j83708912599063_2_alg».proof.Proof.KRegion1
import proofs.«411465_j83708912599063_2_alg».proof.Proof.KRegion2
import proofs.«411465_j83708912599063_2_alg».proof.Proof.KTake
import proofs.«411465_j83708912599063_2_alg».proof.Proof.RStage0
import proofs.«411465_j83708912599063_2_alg».proof.Proof.RStage1
import proofs.«411465_j83708912599063_2_alg».proof.Proof.RStage2
import proofs.«411465_j83708912599063_2_alg».proof.Proof.VarNonneg
import proofs.«411465_j83708912599063_2_alg».proof.Proof.Take
import Idealize.ShloMosaic.Lib.StableHlo.Run

set_option maxRecDepth 16384

noncomputable section

namespace Cert.KernelIdeal.Chain

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg) (c : Dev nD)

/-- A buffer none of a stretch's operations writes keeps its contents through the stretch. -/
macro "kept_through" : tactic =>
  `(tactic| exact StableHlo.after_of_forall_not_mem _ _ (List.forall_iff_forall_mem.mp (by
      simp only [hostOps0, hostOps0_1, hostOps0_2, hostOps1, hostOps1_1, hostOps1_2, hostOps1_3, hostOps2, hostOps2_1, hostOps2_2,
        hostOps2_3, hostOps3, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

/-! ## Up to the node stage: the launch contents through the first three stretches -/

theorem W3_arg0 : W3 m ρ c (Proc.devRef .tc main_arg0) = (m ((c : Thread nD τ).loc main_arg0)) := by
  show StableHlo.after hostOps0_2 (StableHlo.after hostOps0_1 (StableHlo.after hostOps0 (W0 m ρ c))) (Proc.devRef .tc main_arg0) = _
  simp only [hostOps0_2, hostOps0_1, hostOps0]
  after_results_simp <;> chain_rfl

theorem W3_arg5 : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  simp only [hostOps0_2, hostOps0_1, hostOps0]
  after_results_simp <;> chain_rfl

theorem W3_arg7 : W3 m ρ c (Proc.devRef .tc main_arg7) = (m ((c : Thread nD τ).loc main_arg7)) := by
  show StableHlo.after hostOps0_2 (StableHlo.after hostOps0_1 (StableHlo.after hostOps0 (W0 m ρ c))) (Proc.devRef .tc main_arg7) = _
  simp only [hostOps0_2, hostOps0_1, hostOps0]
  after_results_simp <;> chain_rfl

theorem W3_v7 : W3 m ρ c (Proc.devRef .tc main_v7) = fun i => shapeCast S1x3 (Cert.ReferenceIdeal.Terms.mean (F := Ideal) (m ((c : Thread nD τ).loc main_arg0))) shapeCasts_S3_S1x3 i := by
  show StableHlo.after hostOps0_2 (StableHlo.after hostOps0_1 (StableHlo.after hostOps0 (W0 m ρ c))) (Proc.devRef .tc main_v7) = _
  simp only [hostOps0_2, hostOps0_1, hostOps0]
  after_results_simp <;> chain_rfl
theorem W3_v9 : W3 m ρ c (Proc.devRef .tc main_v9) = fun i => shapeCast S1x3 (Cert.ReferenceIdeal.Terms.var (F := Ideal) (m ((c : Thread nD τ).loc main_arg0))) shapeCasts_S3_S1x3 i := by
  show StableHlo.after hostOps0_2 (StableHlo.after hostOps0_1 (StableHlo.after hostOps0 (W0 m ρ c))) (Proc.devRef .tc main_v9) = _
  simp only [hostOps0_2, hostOps0_1, hostOps0]
  after_results_simp <;> chain_rfl
theorem W3_v10 : W3 m ρ c (Proc.devRef .tc main_v10) = fun i => shapeCast S1x3 (m ((c : Thread nD τ).loc main_arg3)) shapeCasts_S3_S1x3 i := by
  show StableHlo.after hostOps0_2 (StableHlo.after hostOps0_1 (StableHlo.after hostOps0 (W0 m ρ c))) (Proc.devRef .tc main_v10) = _
  simp only [hostOps0_2, hostOps0_1, hostOps0]
  after_results_simp <;> chain_rfl
theorem W3_v11 : W3 m ρ c (Proc.devRef .tc main_v11) = fun i => shapeCast S1x3 (m ((c : Thread nD τ).loc main_arg4)) shapeCasts_S3_S1x3 i := by
  show StableHlo.after hostOps0_2 (StableHlo.after hostOps0_1 (StableHlo.after hostOps0 (W0 m ρ c))) (Proc.devRef .tc main_v11) = _
  simp only [hostOps0_2, hostOps0_1, hostOps0]
  after_results_simp <;> chain_rfl
theorem W3_v12 : W3 m ρ c (Proc.devRef .tc main_v12) = fun i => shapeCast S1x32 (m ((c : Thread nD τ).loc main_arg6)) shapeCasts_S32_S1x32 i := by
  show StableHlo.after hostOps0_2 (StableHlo.after hostOps0_1 (StableHlo.after hostOps0 (W0 m ρ c))) (Proc.devRef .tc main_v12) = _
  simp only [hostOps0_2, hostOps0_1, hostOps0]
  after_results_simp <;> chain_rfl
theorem W3_v13 : W3 m ρ c (Proc.devRef .tc main_v13) = fun i => shapeCast S1x32 (m ((c : Thread nD τ).loc main_arg8)) shapeCasts_S32_S1x32 i := by
  show StableHlo.after hostOps0_2 (StableHlo.after hostOps0_1 (StableHlo.after hostOps0 (W0 m ρ c))) (Proc.devRef .tc main_v13) = _
  simp only [hostOps0_2, hostOps0_1, hostOps0]
  after_results_simp <;> chain_rfl
theorem W3_v1 : W3 m ρ c (Proc.devRef .tc main_v1) = Cert.ReferenceIdeal.Terms.idxRow0 (m ((c : Thread nD τ).loc main_arg1)) := by
  show StableHlo.after hostOps0_2 (StableHlo.after hostOps0_1 (StableHlo.after hostOps0 (W0 m ρ c))) (Proc.devRef .tc main_v1) = _
  simp only [hostOps0_2, hostOps0_1, hostOps0]
  after_results_simp <;> chain_rfl
theorem W3_v3 : W3 m ρ c (Proc.devRef .tc main_v3) = Cert.ReferenceIdeal.Terms.idxRow1 (m ((c : Thread nD τ).loc main_arg1)) := by
  show StableHlo.after hostOps0_2 (StableHlo.after hostOps0_1 (StableHlo.after hostOps0 (W0 m ρ c))) (Proc.devRef .tc main_v3) = _
  simp only [hostOps0_2, hostOps0_1, hostOps0]
  after_results_simp <;> chain_rfl

theorem W3_arg2 : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  simp only [hostOps0_2, hostOps0_1, hostOps0]
  after_results_simp <;> chain_rfl
theorem W4_arg2 : W4 m ρ c (Proc.devRef .tc main_arg2) = (m ((c : Thread nD τ).loc main_arg2)) :=
  (W4_of_ne m ρ c main_arg2 (by decide)).trans (W3_arg2 m ρ c)

theorem W3_arg9 : W3 m ρ c (Proc.devRef .tc main_arg9) = (m ((c : Thread nD τ).loc main_arg9)) := by
  show StableHlo.after hostOps0_2 (StableHlo.after hostOps0_1 (StableHlo.after hostOps0 (W0 m ρ c))) (Proc.devRef .tc main_arg9) = _
  simp only [hostOps0_2, hostOps0_1, hostOps0]
  after_results_simp <;> chain_rfl
theorem W4_arg9 : W4 m ρ c (Proc.devRef .tc main_arg9) = (m ((c : Thread nD τ).loc main_arg9)) :=
  (W4_of_ne m ρ c main_arg9 (by decide)).trans (W3_arg9 m ρ c)

theorem W3_arg10 : W3 m ρ c (Proc.devRef .tc main_arg10) = (m ((c : Thread nD τ).loc main_arg10)) := by
  show StableHlo.after hostOps0_2 (StableHlo.after hostOps0_1 (StableHlo.after hostOps0 (W0 m ρ c))) (Proc.devRef .tc main_arg10) = _
  simp only [hostOps0_2, hostOps0_1, hostOps0]
  after_results_simp <;> chain_rfl
theorem W4_arg10 : W4 m ρ c (Proc.devRef .tc main_arg10) = (m ((c : Thread nD τ).loc main_arg10)) :=
  (W4_of_ne m ρ c main_arg10 (by decide)).trans (W3_arg10 m ρ c)

theorem W3_arg11 : W3 m ρ c (Proc.devRef .tc main_arg11) = (m ((c : Thread nD τ).loc main_arg11)) := by
  show StableHlo.after hostOps0_2 (StableHlo.after hostOps0_1 (StableHlo.after hostOps0 (W0 m ρ c))) (Proc.devRef .tc main_arg11) = _
  simp only [hostOps0_2, hostOps0_1, hostOps0]
  after_results_simp <;> chain_rfl
theorem W4_arg11 : W4 m ρ c (Proc.devRef .tc main_arg11) = (m ((c : Thread nD τ).loc main_arg11)) :=
  (W4_of_ne m ρ c main_arg11 (by decide)).trans (W3_arg11 m ρ c)

theorem W3_arg12 : W3 m ρ c (Proc.devRef .tc main_arg12) = (m ((c : Thread nD τ).loc main_arg12)) := by
  show StableHlo.after hostOps0_2 (StableHlo.after hostOps0_1 (StableHlo.after hostOps0 (W0 m ρ c))) (Proc.devRef .tc main_arg12) = _
  simp only [hostOps0_2, hostOps0_1, hostOps0]
  after_results_simp <;> chain_rfl
theorem W4_arg12 : W4 m ρ c (Proc.devRef .tc main_arg12) = (m ((c : Thread nD τ).loc main_arg12)) :=
  (W4_of_ne m ρ c main_arg12 (by decide)).trans (W3_arg12 m ρ c)

theorem W3_arg13 : W3 m ρ c (Proc.devRef .tc main_arg13) = (m ((c : Thread nD τ).loc main_arg13)) := by
  show StableHlo.after hostOps0_2 (StableHlo.after hostOps0_1 (StableHlo.after hostOps0 (W0 m ρ c))) (Proc.devRef .tc main_arg13) = _
  simp only [hostOps0_2, hostOps0_1, hostOps0]
  after_results_simp <;> chain_rfl
theorem W4_arg13 : W4 m ρ c (Proc.devRef .tc main_arg13) = (m ((c : Thread nD τ).loc main_arg13)) :=
  (W4_of_ne m ρ c main_arg13 (by decide)).trans (W3_arg13 m ρ c)

theorem W3_arg14 : W3 m ρ c (Proc.devRef .tc main_arg14) = (m ((c : Thread nD τ).loc main_arg14)) := by
  show StableHlo.after hostOps0_2 (StableHlo.after hostOps0_1 (StableHlo.after hostOps0 (W0 m ρ c))) (Proc.devRef .tc main_arg14) = _
  simp only [hostOps0_2, hostOps0_1, hostOps0]
  after_results_simp <;> chain_rfl
theorem W4_arg14 : W4 m ρ c (Proc.devRef .tc main_arg14) = (m ((c : Thread nD τ).loc main_arg14)) :=
  (W4_of_ne m ρ c main_arg14 (by decide)).trans (W3_arg14 m ρ c)

theorem W3_arg15 : W3 m ρ c (Proc.devRef .tc main_arg15) = (m ((c : Thread nD τ).loc main_arg15)) := by
  show StableHlo.after hostOps0_2 (StableHlo.after hostOps0_1 (StableHlo.after hostOps0 (W0 m ρ c))) (Proc.devRef .tc main_arg15) = _
  simp only [hostOps0_2, hostOps0_1, hostOps0]
  after_results_simp <;> chain_rfl
theorem W4_arg15 : W4 m ρ c (Proc.devRef .tc main_arg15) = (m ((c : Thread nD τ).loc main_arg15)) :=
  (W4_of_ne m ρ c main_arg15 (by decide)).trans (W3_arg15 m ρ c)

theorem W3_arg16 : W3 m ρ c (Proc.devRef .tc main_arg16) = (m ((c : Thread nD τ).loc main_arg16)) := by
  show StableHlo.after hostOps0_2 (StableHlo.after hostOps0_1 (StableHlo.after hostOps0 (W0 m ρ c))) (Proc.devRef .tc main_arg16) = _
  simp only [hostOps0_2, hostOps0_1, hostOps0]
  after_results_simp <;> chain_rfl
theorem W4_arg16 : W4 m ρ c (Proc.devRef .tc main_arg16) = (m ((c : Thread nD τ).loc main_arg16)) :=
  (W4_of_ne m ρ c main_arg16 (by decide)).trans (W3_arg16 m ρ c)

theorem W4_v1 : W4 m ρ c (Proc.devRef .tc main_v1) = Cert.ReferenceIdeal.Terms.idxRow0 (m ((c : Thread nD τ).loc main_arg1)) :=
  (W4_of_ne m ρ c main_v1 (by decide)).trans (W3_v1 m ρ c)
theorem W4_v3 : W4 m ρ c (Proc.devRef .tc main_v3) = Cert.ReferenceIdeal.Terms.idxRow1 (m ((c : Thread nD τ).loc main_arg1)) :=
  (W4_of_ne m ρ c main_v3 (by decide)).trans (W3_v3 m ρ c)

/-! ## The node stage -/

/-- The node table of the launch arrays. -/
abbrev T1 : Spec.Nx35.Idx → EReal :=
  Spec.G0 (m ((c : Thread nD τ).loc main_arg0)) (Cert.ReferenceIdeal.Terms.mean (F := Ideal) (m ((c : Thread nD τ).loc main_arg0))) (Cert.ReferenceIdeal.Terms.var (F := Ideal) (m ((c : Thread nD τ).loc main_arg0))) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

theorem W4_v14 : W4 m ρ c (Proc.devRef .tc main_v14) = T1 m c :=
  (W4_arr m ρ c 9).trans (Region0.arr (V3 m ρ) c _ _ _ _ _ _ _ _ _ (W3_arg0 m ρ c) (W3_v7 m ρ c) (W3_v9 m ρ c) (W3_v10 m ρ c)
    (W3_v11 m ρ c) (W3_arg5 m ρ c) (W3_v12 m ρ c) (W3_arg7 m ρ c) (W3_v13 m ρ c))

/-! ## From the node stage to the message stage -/

theorem W8_v16 : W8 m ρ c (Proc.devRef .tc main_v16) = Cert.KernelIdeal.Terms.takeFill (F := Ideal) (T1 m c) (Cert.ReferenceIdeal.Terms.idxRow1 (m ((c : Thread nD τ).loc main_arg1))) :=
  calc W8 m ρ c (Proc.devRef .tc main_v16)
    _ = W7 m ρ c (Proc.devRef .tc main_v16) := by kept_through
    _ = W6 m ρ c (Proc.devRef .tc main_v16) := by kept_through
    _ = Cert.KernelIdeal.Terms.takeFill (F := Ideal) (W5 m ρ c (Proc.devRef .tc main_v14)) (W5 m ρ c (Proc.devRef .tc main_v3)) := Cert.KernelIdeal.Gathers.take1_out (W5 m ρ c)
    _ = Cert.KernelIdeal.Terms.takeFill (F := Ideal) (W4 m ρ c (Proc.devRef .tc main_v14)) (W4 m ρ c (Proc.devRef .tc main_v3)) := by
        rw [show W5 m ρ c (Proc.devRef .tc main_v14) = W4 m ρ c (Proc.devRef .tc main_v14) from by kept_through,
          show W5 m ρ c (Proc.devRef .tc main_v3) = W4 m ρ c (Proc.devRef .tc main_v3) from by kept_through]
    _ = _ := by rw [W4_v14, W4_v3]

theorem W8_v17 : W8 m ρ c (Proc.devRef .tc main_v17) = Cert.KernelIdeal.Terms.takeFill (F := Ideal) (T1 m c) (Cert.ReferenceIdeal.Terms.idxRow0 (m ((c : Thread nD τ).loc main_arg1))) :=
  calc W8 m ρ c (Proc.devRef .tc main_v17)
    _ = W7 m ρ c (Proc.devRef .tc main_v17) := by kept_through
    _ = Cert.KernelIdeal.Terms.takeFill (F := Ideal) (W6 m ρ c (Proc.devRef .tc main_v14)) (W6 m ρ c (Proc.devRef .tc main_v1)) := Cert.KernelIdeal.Gathers.take2_out (W6 m ρ c)
    _ = Cert.KernelIdeal.Terms.takeFill (F := Ideal) (W4 m ρ c (Proc.devRef .tc main_v14)) (W4 m ρ c (Proc.devRef .tc main_v1)) := by
        rw [show W6 m ρ c (Proc.devRef .tc main_v14) = W5 m ρ c (Proc.devRef .tc main_v14) from by kept_through,
          show W5 m ρ c (Proc.devRef .tc main_v14) = W4 m ρ c (Proc.devRef .tc main_v14) from by kept_through,
          show W6 m ρ c (Proc.devRef .tc main_v1) = W5 m ρ c (Proc.devRef .tc main_v1) from by kept_through,
          show W5 m ρ c (Proc.devRef .tc main_v1) = W4 m ρ c (Proc.devRef .tc main_v1) from by kept_through]
    _ = _ := by rw [W4_v14, W4_v1]

theorem W8_v15 : W8 m ρ c (Proc.devRef .tc main_v15) = extractStridedSlice S100000x3 ![0, 32] (T1 m c) slices_S100000x35_S100000x3_0_32 := by
  have e : W8 m ρ c (Proc.devRef .tc main_v15)
      = extractStridedSlice S100000x3 ![0, 32] (W4 m ρ c (Proc.devRef .tc main_v14)) slices_S100000x35_S100000x3_0_32 := by
    show StableHlo.after hostOps1_3 (StableHlo.after hostOps1_2 (StableHlo.after hostOps1_1 (StableHlo.after hostOps1 (W4 m ρ c)))) (Proc.devRef .tc main_v15) = _
    simp only [hostOps1_3, hostOps1_2, hostOps1_1, hostOps1]
    after_results_simp <;> chain_rfl
  rw [e, W4_v14]

theorem W8_v1 : W8 m ρ c (Proc.devRef .tc main_v1) = Cert.ReferenceIdeal.Terms.idxRow0 (m ((c : Thread nD τ).loc main_arg1)) := by
  have e : W8 m ρ c (Proc.devRef .tc main_v1) = W4 m ρ c (Proc.devRef .tc main_v1) := by
    show StableHlo.after hostOps1_3 (StableHlo.after hostOps1_2 (StableHlo.after hostOps1_1 (StableHlo.after hostOps1 (W4 m ρ c)))) (Proc.devRef .tc main_v1) = _
    simp only [hostOps1_3, hostOps1_2, hostOps1_1, hostOps1]
    after_results_simp <;> chain_rfl
  rw [e, W4_v1]
theorem W8_v3 : W8 m ρ c (Proc.devRef .tc main_v3) = Cert.ReferenceIdeal.Terms.idxRow1 (m ((c : Thread nD τ).loc main_arg1)) := by
  have e : W8 m ρ c (Proc.devRef .tc main_v3) = W4 m ρ c (Proc.devRef .tc main_v3) := by
    show StableHlo.after hostOps1_3 (StableHlo.after hostOps1_2 (StableHlo.after hostOps1_1 (StableHlo.after hostOps1 (W4 m ρ c)))) (Proc.devRef .tc main_v3) = _
    simp only [hostOps1_3, hostOps1_2, hostOps1_1, hostOps1]
    after_results_simp <;> chain_rfl
  rw [e, W4_v3]

theorem W8_arg2 : W8 m ρ c (Proc.devRef .tc main_arg2) = (m ((c : Thread nD τ).loc main_arg2)) := by
  have e : W8 m ρ c (Proc.devRef .tc main_arg2) = W4 m ρ c (Proc.devRef .tc main_arg2) := by
    show StableHlo.after hostOps1_3 (StableHlo.after hostOps1_2 (StableHlo.after hostOps1_1 (StableHlo.after hostOps1 (W4 m ρ c)))) (Proc.devRef .tc main_arg2) = _
    simp only [hostOps1_3, hostOps1_2, hostOps1_1, hostOps1]
    after_results_simp <;> chain_rfl
  rw [e, W4_arg2]

theorem W8_arg11 : W8 m ρ c (Proc.devRef .tc main_arg11) = (m ((c : Thread nD τ).loc main_arg11)) := by
  have e : W8 m ρ c (Proc.devRef .tc main_arg11) = W4 m ρ c (Proc.devRef .tc main_arg11) := by
    show StableHlo.after hostOps1_3 (StableHlo.after hostOps1_2 (StableHlo.after hostOps1_1 (StableHlo.after hostOps1 (W4 m ρ c)))) (Proc.devRef .tc main_arg11) = _
    simp only [hostOps1_3, hostOps1_2, hostOps1_1, hostOps1]
    after_results_simp <;> chain_rfl
  rw [e, W4_arg11]

theorem W8_arg13 : W8 m ρ c (Proc.devRef .tc main_arg13) = (m ((c : Thread nD τ).loc main_arg13)) := by
  have e : W8 m ρ c (Proc.devRef .tc main_arg13) = W4 m ρ c (Proc.devRef .tc main_arg13) := by
    show StableHlo.after hostOps1_3 (StableHlo.after hostOps1_2 (StableHlo.after hostOps1_1 (StableHlo.after hostOps1 (W4 m ρ c)))) (Proc.devRef .tc main_arg13) = _
    simp only [hostOps1_3, hostOps1_2, hostOps1_1, hostOps1]
    after_results_simp <;> chain_rfl
  rw [e, W4_arg13]

theorem W8_arg14 : W8 m ρ c (Proc.devRef .tc main_arg14) = (m ((c : Thread nD τ).loc main_arg14)) := by
  have e : W8 m ρ c (Proc.devRef .tc main_arg14) = W4 m ρ c (Proc.devRef .tc main_arg14) := by
    show StableHlo.after hostOps1_3 (StableHlo.after hostOps1_2 (StableHlo.after hostOps1_1 (StableHlo.after hostOps1 (W4 m ρ c)))) (Proc.devRef .tc main_arg14) = _
    simp only [hostOps1_3, hostOps1_2, hostOps1_1, hostOps1]
    after_results_simp <;> chain_rfl
  rw [e, W4_arg14]

theorem W8_arg15 : W8 m ρ c (Proc.devRef .tc main_arg15) = (m ((c : Thread nD τ).loc main_arg15)) := by
  have e : W8 m ρ c (Proc.devRef .tc main_arg15) = W4 m ρ c (Proc.devRef .tc main_arg15) := by
    show StableHlo.after hostOps1_3 (StableHlo.after hostOps1_2 (StableHlo.after hostOps1_1 (StableHlo.after hostOps1 (W4 m ρ c)))) (Proc.devRef .tc main_arg15) = _
    simp only [hostOps1_3, hostOps1_2, hostOps1_1, hostOps1]
    after_results_simp <;> chain_rfl
  rw [e, W4_arg15]

theorem W8_arg16 : W8 m ρ c (Proc.devRef .tc main_arg16) = (m ((c : Thread nD τ).loc main_arg16)) := by
  have e : W8 m ρ c (Proc.devRef .tc main_arg16) = W4 m ρ c (Proc.devRef .tc main_arg16) := by
    show StableHlo.after hostOps1_3 (StableHlo.after hostOps1_2 (StableHlo.after hostOps1_1 (StableHlo.after hostOps1 (W4 m ρ c)))) (Proc.devRef .tc main_arg16) = _
    simp only [hostOps1_3, hostOps1_2, hostOps1_1, hostOps1]
    after_results_simp <;> chain_rfl
  rw [e, W4_arg16]

theorem W8_v18 : W8 m ρ c (Proc.devRef .tc main_v18) = extractStridedSlice S35x64 ![0, 0] (m ((c : Thread nD τ).loc main_arg9)) slices_S71x64_S35x64_0_0 := by
  have e : W8 m ρ c (Proc.devRef .tc main_v18) = extractStridedSlice S35x64 ![0, 0] (W4 m ρ c (Proc.devRef .tc main_arg9)) slices_S71x64_S35x64_0_0 := by
    show StableHlo.after hostOps1_3 (StableHlo.after hostOps1_2 (StableHlo.after hostOps1_1 (StableHlo.after hostOps1 (W4 m ρ c)))) (Proc.devRef .tc main_v18) = _
    simp only [hostOps1_3, hostOps1_2, hostOps1_1, hostOps1]
    after_results_simp <;> chain_rfl
  rw [e, W4_arg9]
theorem W8_v19 : W8 m ρ c (Proc.devRef .tc main_v19) = extractStridedSlice S35x64 ![35, 0] (m ((c : Thread nD τ).loc main_arg9)) slices_S71x64_S35x64_35_0 := by
  have e : W8 m ρ c (Proc.devRef .tc main_v19) = extractStridedSlice S35x64 ![35, 0] (W4 m ρ c (Proc.devRef .tc main_arg9)) slices_S71x64_S35x64_35_0 := by
    show StableHlo.after hostOps1_3 (StableHlo.after hostOps1_2 (StableHlo.after hostOps1_1 (StableHlo.after hostOps1 (W4 m ρ c)))) (Proc.devRef .tc main_v19) = _
    simp only [hostOps1_3, hostOps1_2, hostOps1_1, hostOps1]
    after_results_simp <;> chain_rfl
  rw [e, W4_arg9]
theorem W8_v20 : W8 m ρ c (Proc.devRef .tc main_v20) = extractStridedSlice S1x64 ![70, 0] (m ((c : Thread nD τ).loc main_arg9)) slices_S71x64_S1x64_70_0 := by
  have e : W8 m ρ c (Proc.devRef .tc main_v20) = extractStridedSlice S1x64 ![70, 0] (W4 m ρ c (Proc.devRef .tc main_arg9)) slices_S71x64_S1x64_70_0 := by
    show StableHlo.after hostOps1_3 (StableHlo.after hostOps1_2 (StableHlo.after hostOps1_1 (StableHlo.after hostOps1 (W4 m ρ c)))) (Proc.devRef .tc main_v20) = _
    simp only [hostOps1_3, hostOps1_2, hostOps1_1, hostOps1]
    after_results_simp <;> chain_rfl
  rw [e, W4_arg9]
theorem W8_v21 : W8 m ρ c (Proc.devRef .tc main_v21) = fun i => shapeCast S1x64 (m ((c : Thread nD τ).loc main_arg10)) shapeCasts_S64_S1x64 i := by
  have e : W8 m ρ c (Proc.devRef .tc main_v21) = fun i => shapeCast S1x64 (W4 m ρ c (Proc.devRef .tc main_arg10)) shapeCasts_S64_S1x64 i := by
    show StableHlo.after hostOps1_3 (StableHlo.after hostOps1_2 (StableHlo.after hostOps1_1 (StableHlo.after hostOps1 (W4 m ρ c)))) (Proc.devRef .tc main_v21) = _
    simp only [hostOps1_3, hostOps1_2, hostOps1_1, hostOps1]
    after_results_simp <;> chain_rfl
  rw [e, W4_arg10]
theorem W8_v22 : W8 m ρ c (Proc.devRef .tc main_v22) = fun i => shapeCast S1x32 (m ((c : Thread nD τ).loc main_arg12)) shapeCasts_S32_S1x32 i := by
  have e : W8 m ρ c (Proc.devRef .tc main_v22) = fun i => shapeCast S1x32 (W4 m ρ c (Proc.devRef .tc main_arg12)) shapeCasts_S32_S1x32 i := by
    show StableHlo.after hostOps1_3 (StableHlo.after hostOps1_2 (StableHlo.after hostOps1_1 (StableHlo.after hostOps1 (W4 m ρ c)))) (Proc.devRef .tc main_v22) = _
    simp only [hostOps1_3, hostOps1_2, hostOps1_1, hostOps1]
    after_results_simp <;> chain_rfl
  rw [e, W4_arg12]

/-! ## The message stage -/

/-- The message table of the launch arrays. -/
abbrev Msg : Spec.Ex32.Idx → EReal :=
  Spec.G1 (Cert.KernelIdeal.Terms.takeFill (F := Ideal) (T1 m c) (Cert.ReferenceIdeal.Terms.idxRow1 (m ((c : Thread nD τ).loc main_arg1)))) (Cert.KernelIdeal.Terms.takeFill (F := Ideal) (T1 m c) (Cert.ReferenceIdeal.Terms.idxRow0 (m ((c : Thread nD τ).loc main_arg1))))
    (m ((c : Thread nD τ).loc main_arg2)) (m ((c : Thread nD τ).loc main_arg9)) (m ((c : Thread nD τ).loc main_arg10)) (m ((c : Thread nD τ).loc main_arg11)) (m ((c : Thread nD τ).loc main_arg12))

theorem W9_v23 : W9 m ρ c (Proc.devRef .tc main_v23) = Msg m c :=
  (W9_arr m ρ c 9).trans (Region1.arr (V8 m ρ) c _ _ _ _ _ _ _ (W8_v16 m ρ c) (W8_v17 m ρ c) (W8_arg2 m ρ c) (W8_v18 m ρ c)
    (W8_v19 m ρ c) (W8_v20 m ρ c) (W8_v21 m ρ c) (W8_arg11 m ρ c) (W8_v22 m ρ c))

theorem W9_v15 : W9 m ρ c (Proc.devRef .tc main_v15) = extractStridedSlice S100000x3 ![0, 32] (T1 m c) slices_S100000x35_S100000x3_0_32 :=
  (W9_of_ne m ρ c main_v15 (by decide)).trans (W8_v15 m ρ c)
theorem W9_v1 : W9 m ρ c (Proc.devRef .tc main_v1) = Cert.ReferenceIdeal.Terms.idxRow0 (m ((c : Thread nD τ).loc main_arg1)) :=
  (W9_of_ne m ρ c main_v1 (by decide)).trans (W8_v1 m ρ c)
theorem W9_v3 : W9 m ρ c (Proc.devRef .tc main_v3) = Cert.ReferenceIdeal.Terms.idxRow1 (m ((c : Thread nD τ).loc main_arg1)) :=
  (W9_of_ne m ρ c main_v3 (by decide)).trans (W8_v3 m ρ c)

theorem W9_arg2 : W9 m ρ c (Proc.devRef .tc main_arg2) = (m ((c : Thread nD τ).loc main_arg2)) :=
  ((W9_arr m ρ c 2).trans (((dat1 (V8 m ρ) c).arrAt_in 2 rfl _).trans (A_eq1 (V8 m ρ) c 2))).trans (W8_arg2 m ρ c)

theorem W9_arg13 : W9 m ρ c (Proc.devRef .tc main_arg13) = (m ((c : Thread nD τ).loc main_arg13)) :=
  (W9_of_ne m ρ c main_arg13 (by decide)).trans (W8_arg13 m ρ c)

theorem W9_arg14 : W9 m ρ c (Proc.devRef .tc main_arg14) = (m ((c : Thread nD τ).loc main_arg14)) :=
  (W9_of_ne m ρ c main_arg14 (by decide)).trans (W8_arg14 m ρ c)

theorem W9_arg15 : W9 m ρ c (Proc.devRef .tc main_arg15) = (m ((c : Thread nD τ).loc main_arg15)) :=
  (W9_of_ne m ρ c main_arg15 (by decide)).trans (W8_arg15 m ρ c)

theorem W9_arg16 : W9 m ρ c (Proc.devRef .tc main_arg16) = (m ((c : Thread nD τ).loc main_arg16)) :=
  (W9_of_ne m ρ c main_arg16 (by decide)).trans (W8_arg16 m ρ c)

/-! ## From the message stage to the output stage -/

/-- The second node table: the messages summed onto their targets beside the normalised inputs (columns 32–34 of the first). -/
abbrev T2 : Spec.Nx35.Idx → EReal :=
  Cert.ReferenceIdeal.Terms.xc2 (F := Ideal) (Cert.ReferenceIdeal.Terms.agg (F := Ideal) (Msg m c) (Cert.ReferenceIdeal.Terms.idxRow1 (m ((c : Thread nD τ).loc main_arg1))))
    (extractStridedSlice S100000x3 ![0, 32] (T1 m c) slices_S100000x35_S100000x3_0_32)

theorem W10_v27 : W10 m ρ c (Proc.devRef .tc main_v27) = T2 m c := by
  have e : W10 m ρ c (Proc.devRef .tc main_v27)
      = Cert.ReferenceIdeal.Terms.xc2 (F := Ideal) (Cert.ReferenceIdeal.Terms.agg (F := Ideal) (W9 m ρ c (Proc.devRef .tc main_v23)) (W9 m ρ c (Proc.devRef .tc main_v3))) (W9 m ρ c (Proc.devRef .tc main_v15)) := by
    show StableHlo.after hostOps2 (W9 m ρ c) (Proc.devRef .tc main_v27) = _
    simp only [hostOps2]
    after_results_simp <;> chain_rfl
  rw [e, W9_v23, W9_v3, W9_v15]

theorem W13_v28 : W13 m ρ c (Proc.devRef .tc main_v28) = Cert.KernelIdeal.Terms.takeFill (F := Ideal) (T2 m c) (Cert.ReferenceIdeal.Terms.idxRow0 (m ((c : Thread nD τ).loc main_arg1))) :=
  calc W13 m ρ c (Proc.devRef .tc main_v28)
    _ = W12 m ρ c (Proc.devRef .tc main_v28) := by kept_through
    _ = W11 m ρ c (Proc.devRef .tc main_v28) := by kept_through
    _ = Cert.KernelIdeal.Terms.takeFill (F := Ideal) (W10 m ρ c (Proc.devRef .tc main_v27)) (W10 m ρ c (Proc.devRef .tc main_v1)) := Cert.KernelIdeal.Gathers.take3_out (W10 m ρ c)
    _ = _ := by
        rw [W10_v27, show W10 m ρ c (Proc.devRef .tc main_v1) = W9 m ρ c (Proc.devRef .tc main_v1) from by kept_through, W9_v1]

theorem W13_v29 : W13 m ρ c (Proc.devRef .tc main_v29) = Cert.KernelIdeal.Terms.takeFill (F := Ideal) (T2 m c) (Cert.ReferenceIdeal.Terms.idxRow1 (m ((c : Thread nD τ).loc main_arg1))) :=
  calc W13 m ρ c (Proc.devRef .tc main_v29)
    _ = W12 m ρ c (Proc.devRef .tc main_v29) := by kept_through
    _ = Cert.KernelIdeal.Terms.takeFill (F := Ideal) (W11 m ρ c (Proc.devRef .tc main_v27)) (W11 m ρ c (Proc.devRef .tc main_v3)) := Cert.KernelIdeal.Gathers.take4_out (W11 m ρ c)
    _ = _ := by
        rw [show W11 m ρ c (Proc.devRef .tc main_v27) = W10 m ρ c (Proc.devRef .tc main_v27) from by kept_through, W10_v27,
          show W11 m ρ c (Proc.devRef .tc main_v3) = W10 m ρ c (Proc.devRef .tc main_v3) from by kept_through,
          show W10 m ρ c (Proc.devRef .tc main_v3) = W9 m ρ c (Proc.devRef .tc main_v3) from by kept_through, W9_v3]

theorem W13_arg2 : W13 m ρ c (Proc.devRef .tc main_arg2) = (m ((c : Thread nD τ).loc main_arg2)) := by
  have e : W13 m ρ c (Proc.devRef .tc main_arg2) = W9 m ρ c (Proc.devRef .tc main_arg2) := by
    show StableHlo.after hostOps2_3 (StableHlo.after hostOps2_2 (StableHlo.after hostOps2_1 (StableHlo.after hostOps2 (W9 m ρ c)))) (Proc.devRef .tc main_arg2) = _
    simp only [hostOps2_3, hostOps2_2, hostOps2_1, hostOps2]
    after_results_simp <;> chain_rfl
  rw [e, W9_arg2]

theorem W13_arg15 : W13 m ρ c (Proc.devRef .tc main_arg15) = (m ((c : Thread nD τ).loc main_arg15)) := by
  have e : W13 m ρ c (Proc.devRef .tc main_arg15) = W9 m ρ c (Proc.devRef .tc main_arg15) := by
    show StableHlo.after hostOps2_3 (StableHlo.after hostOps2_2 (StableHlo.after hostOps2_1 (StableHlo.after hostOps2 (W9 m ρ c)))) (Proc.devRef .tc main_arg15) = _
    simp only [hostOps2_3, hostOps2_2, hostOps2_1, hostOps2]
    after_results_simp <;> chain_rfl
  rw [e, W9_arg15]

theorem W13_v30 : W13 m ρ c (Proc.devRef .tc main_v30) = extractStridedSlice S35x64 ![0, 0] (m ((c : Thread nD τ).loc main_arg13)) slices_S71x64_S35x64_0_0 := by
  have e : W13 m ρ c (Proc.devRef .tc main_v30) = extractStridedSlice S35x64 ![0, 0] (W9 m ρ c (Proc.devRef .tc main_arg13)) slices_S71x64_S35x64_0_0 := by
    show StableHlo.after hostOps2_3 (StableHlo.after hostOps2_2 (StableHlo.after hostOps2_1 (StableHlo.after hostOps2 (W9 m ρ c)))) (Proc.devRef .tc main_v30) = _
    simp only [hostOps2_3, hostOps2_2, hostOps2_1, hostOps2]
    after_results_simp <;> chain_rfl
  rw [e, W9_arg13]
theorem W13_v31 : W13 m ρ c (Proc.devRef .tc main_v31) = extractStridedSlice S35x64 ![35, 0] (m ((c : Thread nD τ).loc main_arg13)) slices_S71x64_S35x64_35_0 := by
  have e : W13 m ρ c (Proc.devRef .tc main_v31) = extractStridedSlice S35x64 ![35, 0] (W9 m ρ c (Proc.devRef .tc main_arg13)) slices_S71x64_S35x64_35_0 := by
    show StableHlo.after hostOps2_3 (StableHlo.after hostOps2_2 (StableHlo.after hostOps2_1 (StableHlo.after hostOps2 (W9 m ρ c)))) (Proc.devRef .tc main_v31) = _
    simp only [hostOps2_3, hostOps2_2, hostOps2_1, hostOps2]
    after_results_simp <;> chain_rfl
  rw [e, W9_arg13]
theorem W13_v32 : W13 m ρ c (Proc.devRef .tc main_v32) = extractStridedSlice S1x64 ![70, 0] (m ((c : Thread nD τ).loc main_arg13)) slices_S71x64_S1x64_70_0 := by
  have e : W13 m ρ c (Proc.devRef .tc main_v32) = extractStridedSlice S1x64 ![70, 0] (W9 m ρ c (Proc.devRef .tc main_arg13)) slices_S71x64_S1x64_70_0 := by
    show StableHlo.after hostOps2_3 (StableHlo.after hostOps2_2 (StableHlo.after hostOps2_1 (StableHlo.after hostOps2 (W9 m ρ c)))) (Proc.devRef .tc main_v32) = _
    simp only [hostOps2_3, hostOps2_2, hostOps2_1, hostOps2]
    after_results_simp <;> chain_rfl
  rw [e, W9_arg13]
theorem W13_v33 : W13 m ρ c (Proc.devRef .tc main_v33) = fun i => shapeCast S1x64 (m ((c : Thread nD τ).loc main_arg14)) shapeCasts_S64_S1x64 i := by
  have e : W13 m ρ c (Proc.devRef .tc main_v33) = fun i => shapeCast S1x64 (W9 m ρ c (Proc.devRef .tc main_arg14)) shapeCasts_S64_S1x64 i := by
    show StableHlo.after hostOps2_3 (StableHlo.after hostOps2_2 (StableHlo.after hostOps2_1 (StableHlo.after hostOps2 (W9 m ρ c)))) (Proc.devRef .tc main_v33) = _
    simp only [hostOps2_3, hostOps2_2, hostOps2_1, hostOps2]
    after_results_simp <;> chain_rfl
  rw [e, W9_arg14]
theorem W13_v34 : W13 m ρ c (Proc.devRef .tc main_v34) = fun i => shapeCast S1x1 (m ((c : Thread nD τ).loc main_arg16)) shapeCasts_S1_S1x1 i := by
  have e : W13 m ρ c (Proc.devRef .tc main_v34) = fun i => shapeCast S1x1 (W9 m ρ c (Proc.devRef .tc main_arg16)) shapeCasts_S1_S1x1 i := by
    show StableHlo.after hostOps2_3 (StableHlo.after hostOps2_2 (StableHlo.after hostOps2_1 (StableHlo.after hostOps2 (W9 m ρ c)))) (Proc.devRef .tc main_v34) = _
    simp only [hostOps2_3, hostOps2_2, hostOps2_1, hostOps2]
    after_results_simp <;> chain_rfl
  rw [e, W9_arg16]

/-! ## The output stage, and the result buffer -/

/-- The output column of the launch arrays. -/
abbrev Out : Spec.Ex1.Idx → EReal :=
  Spec.G2 (Cert.KernelIdeal.Terms.takeFill (F := Ideal) (T2 m c) (Cert.ReferenceIdeal.Terms.idxRow0 (m ((c : Thread nD τ).loc main_arg1)))) (Cert.KernelIdeal.Terms.takeFill (F := Ideal) (T2 m c) (Cert.ReferenceIdeal.Terms.idxRow1 (m ((c : Thread nD τ).loc main_arg1))))
    (m ((c : Thread nD τ).loc main_arg2)) (m ((c : Thread nD τ).loc main_arg13)) (m ((c : Thread nD τ).loc main_arg14)) (m ((c : Thread nD τ).loc main_arg15)) (m ((c : Thread nD τ).loc main_arg16))

theorem W14_v35 : W14 m ρ c (Proc.devRef .tc main_v35) = Out m c :=
  (W14_arr m ρ c 9).trans (Region2.arr (V13 m ρ) c _ _ _ _ _ _ _ (W13_v28 m ρ c) (W13_v29 m ρ c) (W13_arg2 m ρ c) (W13_v30 m ρ c)
    (W13_v31 m ρ c) (W13_v32 m ρ c) (W13_v33 m ρ c) (W13_arg15 m ρ c) (W13_v34 m ρ c))

/-- The kernel program's result buffer at the last boundary: the output column, flattened. -/
theorem out_eq : W15 m ρ c (Proc.devRef .tc main_v36)
    = fun i => shapeCast S3200000 (Out m c) shapeCasts_S3200000x1_S3200000 i := by
  have e : W15 m ρ c (Proc.devRef .tc main_v36)
      = fun i => shapeCast S3200000 (W14 m ρ c (Proc.devRef .tc main_v35)) shapeCasts_S3200000x1_S3200000 i := by
    show StableHlo.after hostOps3 (W14 m ρ c) (Proc.devRef .tc main_v36) = _
    simp only [hostOps3]
    after_results_simp <;> chain_rfl
  rw [e, W14_v35]

/-! ## The kernel program's result is the reference's -/

/-- Where both rows of the edge-index pair lie in [0, 100000) and the variances are non-negative, the kernel
    program's result buffer holds the reference's result: the node tables agree (the specification's), the filling
    gathers are plain gathers, the message tables agree, the same scatter-add and concatenation are applied to
    equal arrays, and the output columns agree. -/
theorem result_eq
    (hrow : Cert.Take.InRange (Cert.ReferenceIdeal.Terms.idxRow0 (m ((c : Thread nD τ).loc main_arg1)))) (hcol : Cert.Take.InRange (Cert.ReferenceIdeal.Terms.idxRow1 (m ((c : Thread nD τ).loc main_arg1)))) :
    (fun i => shapeCast S3200000 (Out m c) shapeCasts_S3200000x1_S3200000 i)
      = Cert.ReferenceIdeal.Terms.result (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  have hvar : ∀ k : Fin 3, 0 ≤ Cert.ReferenceIdeal.Terms.var (F := Ideal) (m ((c : Thread nD τ).loc main_arg0)) (ix1 k) := fun k => Cert.ReferenceIdeal.VarNonneg.var_nonneg _ k
  have hT1 : Cert.ReferenceIdeal.Terms.xc (F := Ideal) (Cert.ReferenceIdeal.Terms.xnorm (m ((c : Thread nD τ).loc main_arg0)) (Cert.ReferenceIdeal.Terms.mean (m ((c : Thread nD τ).loc main_arg0))) (Cert.ReferenceIdeal.Terms.var (m ((c : Thread nD τ).loc main_arg0))) (m ((c : Thread nD τ).loc main_arg3)) (m ((c : Thread nD τ).loc main_arg4))) (m ((c : Thread nD τ).loc main_arg5)) (m ((c : Thread nD τ).loc main_arg6)) (m ((c : Thread nD τ).loc main_arg7)) (m ((c : Thread nD τ).loc main_arg8))
      = T1 m c := Cert.ReferenceIdeal.Stage0.xc_eq _ _ _ _ _ hvar _ _ _ _
  have hXN : extractStridedSlice S100000x3 ![0, 32] (T1 m c) slices_S100000x35_S100000x3_0_32
      = Cert.ReferenceIdeal.Terms.xnorm (F := Ideal) (m ((c : Thread nD τ).loc main_arg0)) (Cert.ReferenceIdeal.Terms.mean (m ((c : Thread nD τ).loc main_arg0))) (Cert.ReferenceIdeal.Terms.var (m ((c : Thread nD τ).loc main_arg0))) (m ((c : Thread nD τ).loc main_arg3)) (m ((c : Thread nD τ).loc main_arg4)) :=
    Cert.ReferenceIdeal.Stage0.slice_G0 _ _ _ _ _ hvar _ _ _ _ _
  have hM : Cert.ReferenceIdeal.Terms.msg (F := Ideal) (Cert.ReferenceIdeal.Terms.gat (T1 m c) (Cert.ReferenceIdeal.Terms.idxRow1 (m ((c : Thread nD τ).loc main_arg1)))) (Cert.ReferenceIdeal.Terms.gat (T1 m c) (Cert.ReferenceIdeal.Terms.idxRow0 (m ((c : Thread nD τ).loc main_arg1))))
      (m ((c : Thread nD τ).loc main_arg2)) (m ((c : Thread nD τ).loc main_arg9)) (m ((c : Thread nD τ).loc main_arg10)) (m ((c : Thread nD τ).loc main_arg11)) (m ((c : Thread nD τ).loc main_arg12)) = Msg m c := by
    rw [Cert.ReferenceIdeal.Stage1.msg_eq, ← Cert.Take.takeFill_eq_gat _ _ hcol, ← Cert.Take.takeFill_eq_gat _ _ hrow]
  have hOut : Cert.ReferenceIdeal.Terms.sigm (F := Ideal) (Cert.ReferenceIdeal.Terms.logit (Cert.ReferenceIdeal.Terms.gat (T2 m c) (Cert.ReferenceIdeal.Terms.idxRow0 (m ((c : Thread nD τ).loc main_arg1)))) (Cert.ReferenceIdeal.Terms.gat (T2 m c) (Cert.ReferenceIdeal.Terms.idxRow1 (m ((c : Thread nD τ).loc main_arg1))))
      (m ((c : Thread nD τ).loc main_arg2)) (m ((c : Thread nD τ).loc main_arg13)) (m ((c : Thread nD τ).loc main_arg14)) (m ((c : Thread nD τ).loc main_arg15)) (m ((c : Thread nD τ).loc main_arg16))) = Out m c := by
    rw [Cert.ReferenceIdeal.Stage2.out_eq, ← Cert.Take.takeFill_eq_gat _ _ hrow, ← Cert.Take.takeFill_eq_gat _ _ hcol]
  dsimp only [Cert.ReferenceIdeal.Terms.result]
  rw [hT1, hM, ← hXN, hOut]

end Cert.KernelIdeal.Chain

end
-- ==== Proof.RRun.lean ====
/-
  The reference program run: its @main is a straight line of host operations (the functions it calls laid out at
  their call sites), so every weakly fair execution terminates with each buffer at the fold of those operations over
  the launch contents; read at the result buffer the fold is the stages of `Terms` composed, and at an argument
  buffer it is the launch contents, no operation writing an argument.
-/
import proofs.«411465_j83708912599063_2_alg».proof.Proof.RTerms
import Idealize.ShloMosaic.Lib.StableHlo.Run

noncomputable section

namespace Cert.ReferenceIdeal.Run

open Idealize.ShloMosaic Idealize.ShloMosaic.TcCoe Idealize.SL.Sem Idealize.ShloMosaic.StableHlo
open Cert.ReferenceIdeal Cert.ReferenceIdeal.Gen

variable {F : FTy → Type} [FloatOps F]

/-! ## The fold over stretches

The program's operations are listed in thirteen consecutive stretches, one per stage of `Terms` (a stretch ends
where its stage's array is complete, and a three-piece concatenation opens the stretch that holds it). For each
stretch, from ANY contents `W` of the buffers: the stage's buffer ends at the stage's function of `W` at the
buffers the stretch reads from before it, and a buffer the stretch does not write keeps what `W` gave it. The fold
over the whole list is the folds over the stretches in turn (`after_app`), so the result buffer's contents are read
off by rewriting with these equations from the last stretch back to the first; no stretch is opened twice. -/

/-- The fold over two lists in a row is the fold over the second, from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Each operation of a literal list writes one buffer, its result, and that result is in the given list: the
    written set is a singleton, and membership in a literal list of references is decided. -/
local macro "writes_in" : tactic =>
  `(tactic| (simp only [List.Forall, nullary_writes, unary_writes, binary_writes, ternary_writes, reshape_writes, nary_writes,
      Finset.singleton_subset_iff, List.mem_toFinset]
             repeat' apply And.intro
             all_goals exact List.mem_map_of_mem (by decide)))

/-- The fold of a literal list read at one buffer: each operation's result at its own buffer is its function of
    the contents before it, and at any other buffer what was there. A concatenation of three operands reads them
    through a family indexed by `Fin 3`; at the literal indices the family's entries are the three references, after
    which the operands' own contents are read the same way. What is left differs from the stage's function by
    unfolding alone. -/
local macro "read_fold" : tactic =>
  `(tactic| (after_results_simp
             try dsimp only [Matrix.cons_val]
             try after_results_simp
             all_goals rfl))

/-- The column means: the column sums of the inputs over their count. -/
def opsMean : List (HloOp τ sig (Elt F)) :=
  [ StableHlo.nullary main_cst (constant S_ .f32 0x00000000#32),
    StableHlo.binary main_arg0 main_cst main_v0 ((fun x v => Host.reduceAdd x v reducesTo_S100000x3_S3_d0 h_S_) : (⟨S100000x3, .f32⟩ : BufTy).Contents (Elt F) → (⟨S_, .f32⟩ : BufTy).Contents (Elt F) → (⟨S3, .f32⟩ : BufTy).Contents (Elt F)),
    StableHlo.nullary main_cst_0 (constant S_ .f32 0x47C35000#32),
    StableHlo.unary main_cst_0 main_v1 (broadcastInDim S3 ![] bcast_S_S3 : (⟨S_, .f32⟩ : BufTy).Contents (Elt F) → (⟨S3, .f32⟩ : BufTy).Contents (Elt F)),
    StableHlo.binary main_v0 main_v1 main_v2 (Host.divf : (⟨S3, .f32⟩ : BufTy).Contents (Elt F) → (⟨S3, .f32⟩ : BufTy).Contents (Elt F) → (⟨S3, .f32⟩ : BufTy).Contents (Elt F)) ]
/-- Every buffer the stretch touches is one of the core's. -/
theorem opsMean_sub : (opsMean : List (HloOp τ sig (Elt F))).Forall fun op => op.bufs ⊆ tcRefs τ sig := by
  unfold opsMean
  exact ⟨nullary_bufs_sub .., binary_bufs_sub .., nullary_bufs_sub .., unary_bufs_sub .., binary_bufs_sub ..⟩
/-- Every operation of the stretch determines its result. -/
theorem opsMean_fresh : (opsMean : List (HloOp τ sig (Elt F))).Forall fun op => op.fresh = ∅ := by
  unfold opsMean
  exact ⟨rfl, rfl, rfl, rfl, rfl⟩
/-- The buffers the stretch writes, in order. -/
abbrev opsMean_W : List (Ref sig .tc) :=
  [main_cst, main_v0, main_cst_0, main_v1, main_v2]
theorem opsMean_writes : (opsMean : List (HloOp τ sig (Elt F))).Forall fun op =>
    op.writes ⊆ (opsMean_W.map (Proc.devRef (τ := τ) .tc)).toFinset := by
  unfold opsMean
  writes_in
/-- A buffer the stretch does not write keeps its contents through it. -/
theorem opsMean_keep (W : Valuation τ sig (Elt F)) (r : Ref sig .tc) (h : r ∉ opsMean_W) :
    after opsMean W (no_index (Proc.devRef .tc r)) = W (Proc.devRef .tc r) :=
  after_of_writes_sub opsMean W opsMean_writes h
/-- From any contents the stretch leaves the column means of the inputs at its last buffer. -/
theorem opsMean_main_v2 (W : Valuation τ sig (Elt F)) :
    after opsMean W (no_index (main_v2 : DevRef τ sig)) = Terms.mean (W main_arg0) := by
  unfold opsMean
  read_fold

/-- The column variances: the zero degrees of freedom, then the variance function laid out at its call (the centred inputs squared and summed over the divisor) and inside it the selection between that quotient and the not-a-number fill. -/
def opsVar : List (HloOp τ sig (Elt F)) :=
  [ StableHlo.nullary main_c (constantI S_ 32 0#32),
    StableHlo.TRef.nullary main_call0.cst (constant S_ .f32 0x00000000#32),
    StableHlo.TRef.binary (.of main_arg0 : StableHlo.TRef sig ⟨S100000x3, .f32⟩) main_call0.cst main_call0.v0 (fun x v => Host.reduceAdd x v reducesTo_S100000x3_S3_d0 h_S_),
    StableHlo.TRef.unary main_call0.v0 main_call0.v1 (broadcastInDim S1x3 ![1] bcast_S3_S1x3_1),
    StableHlo.TRef.nullary main_call0.cst_0 (constant S_ .f32 0x47C35000#32),
    StableHlo.TRef.unary main_call0.cst_0 main_call0.v2 (broadcastInDim S1x3 ![] bcast_S_S1x3),
    StableHlo.TRef.binary main_call0.v1 main_call0.v2 main_call0.v3 Host.divf,
    StableHlo.TRef.unary main_call0.v3 main_call0.v4 (broadcastInDim S100000x3 ![0, 1] bcast_S1x3_S100000x3_0_1),
    StableHlo.TRef.binary (.of main_arg0 : StableHlo.TRef sig ⟨S100000x3, .f32⟩) main_call0.v4 main_call0.v5 subf,
    StableHlo.TRef.binary main_call0.v5 main_call0.v5 main_call0.v6 mulf,
    StableHlo.TRef.unary (.of main_c : StableHlo.TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x3_S3_d0 h_S_),
    StableHlo.TRef.unary main_call0.v8 main_call0.v10 (broadcastInDim S3 ![] bcast_S_S3),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S3 ![] bcast_S_S3),
    StableHlo.TRef.ternary main_call0.v12 main_call0.v11 main_call0.call0.v1 main_call0.call0.v2 (fun p a b => select (broadcastInDim S3 ![] bcast_S_S3 p) a b) ]
/-- Every buffer the stretch touches is one of the core's. -/
theorem opsVar_sub : (opsVar : List (HloOp τ sig (Elt F))).Forall fun op => op.bufs ⊆ tcRefs τ sig := by
  unfold opsVar
  exact ⟨nullary_bufs_sub .., nullary_bufs_sub .., binary_bufs_sub .., unary_bufs_sub .., nullary_bufs_sub ..,
    unary_bufs_sub .., binary_bufs_sub .., unary_bufs_sub .., binary_bufs_sub .., binary_bufs_sub ..,
    unary_bufs_sub .., nullary_bufs_sub .., binary_bufs_sub .., nullary_bufs_sub .., binary_bufs_sub ..,
    unary_bufs_sub .., binary_bufs_sub .., nullary_bufs_sub .., binary_bufs_sub .., nullary_bufs_sub ..,
    unary_bufs_sub .., unary_bufs_sub .., ternary_bufs_sub ..⟩
/-- Every operation of the stretch determines its result. -/
theorem opsVar_fresh : (opsVar : List (HloOp τ sig (Elt F))).Forall fun op => op.fresh = ∅ := by
  unfold opsVar
  exact ⟨rfl, rfl, rfl, rfl, rfl, rfl, rfl, rfl, rfl, rfl, rfl, rfl, rfl, rfl, rfl, rfl, rfl, rfl, rfl, rfl, rfl, rfl, rfl⟩
/-- The buffers the stretch writes, in order. -/
abbrev opsVar_W : List (Ref sig .tc) :=
  [main_c, main_call0_cst, main_call0_v0, main_call0_v1, main_call0_cst_0, main_call0_v2, main_call0_v3, main_call0_v4,
   main_call0_v5, main_call0_v6, main_call0_v7, main_call0_cst_1, main_call0_v8, main_call0_cst_2, main_call0_v9,
   main_call0_v10, main_call0_v11, main_call0_cst_3, main_call0_v12, main_call0_cst_4, main_call0_call0_v0,
   main_call0_call0_v1, main_v3]
theorem opsVar_writes : (opsVar : List (HloOp τ sig (Elt F))).Forall fun op =>
    op.writes ⊆ (opsVar_W.map (Proc.devRef (τ := τ) .tc)).toFinset := by
  unfold opsVar
  writes_in
/-- A buffer the stretch does not write keeps its contents through it. -/
theorem opsVar_keep (W : Valuation τ sig (Elt F)) (r : Ref sig .tc) (h : r ∉ opsVar_W) :
    after opsVar W (no_index (Proc.devRef .tc r)) = W (Proc.devRef .tc r) :=
  after_of_writes_sub opsVar W opsVar_writes h
/-- From any contents the stretch leaves the column variances of the inputs at the result of the variance function. -/
theorem opsVar_main_v3 (W : Valuation τ sig (Elt F)) :
    after opsVar W (no_index (main_v3 : DevRef τ sig)) = Terms.var (W main_arg0) := by
  unfold opsVar
  read_fold

/-- The normalised inputs: centred by the mean, divided by the root of the variance plus a small constant, scaled and shifted. -/
def opsNorm : List (HloOp τ sig (Elt F)) :=
  [ StableHlo.unary main_v2 main_v4 (broadcastInDim S1x3 ![1] bcast_S3_S1x3_1 : (⟨S3, .f32⟩ : BufTy).Contents (Elt F) → (⟨S1x3, .f32⟩ : BufTy).Contents (Elt F)),
    StableHlo.unary main_v4 main_v5 (broadcastInDim S100000x3 ![0, 1] bcast_S1x3_S100000x3_0_1 : (⟨S1x3, .f32⟩ : BufTy).Contents (Elt F) → (⟨S100000x3, .f32⟩ : BufTy).Contents (Elt F)),
    StableHlo.binary main_arg0 main_v5 main_v6 (subf : (⟨S100000x3, .f32⟩ : BufTy).Contents (Elt F) → (⟨S100000x3, .f32⟩ : BufTy).Contents (Elt F) → (⟨S100000x3, .f32⟩ : BufTy).Contents (Elt F)),
    StableHlo.nullary main_cst_1 (constant S_ .f32 0x3727C5AC#32),
    StableHlo.unary main_cst_1 main_v7 (broadcastInDim S3 ![] bcast_S_S3 : (⟨S_, .f32⟩ : BufTy).Contents (Elt F) → (⟨S3, .f32⟩ : BufTy).Contents (Elt F)),
    StableHlo.binary main_v3 main_v7 main_v8 (addf : (⟨S3, .f32⟩ : BufTy).Contents (Elt F) → (⟨S3, .f32⟩ : BufTy).Contents (Elt F) → (⟨S3, .f32⟩ : BufTy).Contents (Elt F)),
    StableHlo.unary main_v8 main_v9 (Host.sqrt : (⟨S3, .f32⟩ : BufTy).Contents (Elt F) → (⟨S3, .f32⟩ : BufTy).Contents (Elt F)),
    StableHlo.unary main_v9 main_v10 (broadcastInDim S1x3 ![1] bcast_S3_S1x3_1 : (⟨S3, .f32⟩ : BufTy).Contents (Elt F) → (⟨S1x3, .f32⟩ : BufTy).Contents (Elt F)),
    StableHlo.unary main_v10 main_v11 (broadcastInDim S100000x3 ![0, 1] bcast_S1x3_S100000x3_0_1 : (⟨S1x3, .f32⟩ : BufTy).Contents (Elt F) → (⟨S100000x3, .f32⟩ : BufTy).Contents (Elt F)),
    StableHlo.binary main_v6 main_v11 main_v12 (Host.divf : (⟨S100000x3, .f32⟩ : BufTy).Contents (Elt F) → (⟨S100000x3, .f32⟩ : BufTy).Contents (Elt F) → (⟨S100000x3, .f32⟩ : BufTy).Contents (Elt F)),
    StableHlo.unary main_arg3 main_v13 (broadcastInDim S1x3 ![1] bcast_S3_S1x3_1 : (⟨S3, .f32⟩ : BufTy).Contents (Elt F) → (⟨S1x3, .f32⟩ : BufTy).Contents (Elt F)),
    StableHlo.unary main_v13 main_v14 (broadcastInDim S100000x3 ![0, 1] bcast_S1x3_S100000x3_0_1 : (⟨S1x3, .f32⟩ : BufTy).Contents (Elt F) → (⟨S100000x3, .f32⟩ : BufTy).Contents (Elt F)),
    StableHlo.binary main_v12 main_v14 main_v15 (mulf : (⟨S100000x3, .f32⟩ : BufTy).Contents (Elt F) → (⟨S100000x3, .f32⟩ : BufTy).Contents (Elt F) → (⟨S100000x3, .f32⟩ : BufTy).Contents (Elt F)),
    StableHlo.unary main_arg4 main_v16 (broadcastInDim S1x3 ![1] bcast_S3_S1x3_1 : (⟨S3, .f32⟩ : BufTy).Contents (Elt F) → (⟨S1x3, .f32⟩ : BufTy).Contents (Elt F)),
    StableHlo.unary main_v16 main_v17 (broadcastInDim S100000x3 ![0, 1] bcast_S1x3_S100000x3_0_1 : (⟨S1x3, .f32⟩ : BufTy).Contents (Elt F) → (⟨S100000x3, .f32⟩ : BufTy).Contents (Elt F)),
    StableHlo.binary main_v15 main_v17 main_v18 (addf : (⟨S100000x3, .f32⟩ : BufTy).Contents (Elt F) → (⟨S100000x3, .f32⟩ : BufTy).Contents (Elt F) → (⟨S100000x3, .f32⟩ : BufTy).Contents (Elt F)) ]
/-- Every buffer the stretch touches is one of the core's. -/
theorem opsNorm_sub : (opsNorm : List (HloOp τ sig (Elt F))).Forall fun op => op.bufs ⊆ tcRefs τ sig := by
  unfold opsNorm
  exact ⟨unary_bufs_sub .., unary_bufs_sub .., binary_bufs_sub .., nullary_bufs_sub .., unary_bufs_sub ..,
    binary_bufs_sub .., unary_bufs_sub .., unary_bufs_sub .., unary_bufs_sub .., binary_bufs_sub .., unary_bufs_sub ..,
    unary_bufs_sub .., binary_bufs_sub .., unary_bufs_sub .., unary_bufs_sub .., binary_bufs_sub ..⟩
/-- Every operation of the stretch determines its result. -/
theorem opsNorm_fresh : (opsNorm : List (HloOp τ sig (Elt F))).Forall fun op => op.fresh = ∅ := by
  unfold opsNorm
  exact ⟨rfl, rfl, rfl, rfl, rfl, rfl, rfl, rfl, rfl, rfl, rfl, rfl, rfl, rfl, rfl, rfl⟩
/-- The buffers the stretch writes, in order. -/
abbrev opsNorm_W : List (Ref sig .tc) :=
  [main_v4, main_v5, main_v6, main_cst_1, main_v7, main_v8, main_v9, main_v10, main_v11, main_v12, main_v13, main_v14,
   main_v15, main_v16, main_v17, main_v18]
theorem opsNorm_writes : (opsNorm : List (HloOp τ sig (Elt F))).Forall fun op =>
    op.writes ⊆ (opsNorm_W.map (Proc.devRef (τ := τ) .tc)).toFinset := by
  unfold opsNorm
  writes_in
/-- A buffer the stretch does not write keeps its contents through it. -/
theorem opsNorm_keep (W : Valuation τ sig (Elt F)) (r : Ref sig .tc) (h : r ∉ opsNorm_W) :
    after opsNorm W (no_index (Proc.devRef .tc r)) = W (Proc.devRef .tc r) :=
  after_of_writes_sub opsNorm W opsNorm_writes h
/-- From any contents the stretch leaves the inputs normalised by the mean and variance buffers, scaled and shifted. -/
theorem opsNorm_main_v18 (W : Valuation τ sig (Elt F)) :
    after opsNorm W (no_index (main_v18 : DevRef τ sig)) = Terms.xnorm (W main_arg0) (W main_v2) (W main_v3) (W main_arg3) (W main_arg4) := by
  unfold opsNorm
  read_fold

/-- The node table: the two-layer perceptron of the normalised inputs (the rectifier laid out at its call), beside the normalised inputs. -/
def opsNode : List (HloOp τ sig (Elt F)) :=
  [ StableHlo.binary main_v18 main_arg5 main_v19 ((fun l r => Host.dotGeneral dot_S100000x3_S3x32_S100000x32_1_0_0_1_n_n none l r) : (⟨S100000x3, .f32⟩ : BufTy).Contents (Elt F) → (⟨S3x32, .f32⟩ : BufTy).Contents (Elt F) → (⟨S100000x32, .f32⟩ : BufTy).Contents (Elt F)),
    StableHlo.unary main_arg6 main_v20 (broadcastInDim S1x32 ![1] bcast_S32_S1x32_1 : (⟨S32, .f32⟩ : BufTy).Contents (Elt F) → (⟨S1x32, .f32⟩ : BufTy).Contents (Elt F)),
    StableHlo.unary main_v20 main_v21 (broadcastInDim S100000x32 ![0, 1] bcast_S1x32_S100000x32_0_1 : (⟨S1x32, .f32⟩ : BufTy).Contents (Elt F) → (⟨S100000x32, .f32⟩ : BufTy).Contents (Elt F)),
    StableHlo.binary main_v19 main_v21 main_v22 (addf : (⟨S100000x32, .f32⟩ : BufTy).Contents (Elt F) → (⟨S100000x32, .f32⟩ : BufTy).Contents (Elt F) → (⟨S100000x32, .f32⟩ : BufTy).Contents (Elt F)),
    StableHlo.TRef.nullary main_call1.cst (constant S_ .f32 0x00000000#32),
    StableHlo.TRef.unary main_call1.cst main_call1.v0 (broadcastInDim S100000x32 ![] bcast_S_S100000x32),
    StableHlo.TRef.binary (.of main_v22 : StableHlo.TRef sig ⟨S100000x32, .f32⟩) main_call1.v0 main_call1.v1 maximumf,
    StableHlo.binary main_v23 main_arg7 main_v24 ((fun l r => Host.dotGeneral dot_S100000x32_S32x32_S100000x32_1_0_0_1_n_n none l r) : (⟨S100000x32, .f32⟩ : BufTy).Contents (Elt F) → (⟨S32x32, .f32⟩ : BufTy).Contents (Elt F) → (⟨S100000x32, .f32⟩ : BufTy).Contents (Elt F)),
    StableHlo.unary main_arg8 main_v25 (broadcastInDim S1x32 ![1] bcast_S32_S1x32_1 : (⟨S32, .f32⟩ : BufTy).Contents (Elt F) → (⟨S1x32, .f32⟩ : BufTy).Contents (Elt F)),
    StableHlo.unary main_v25 main_v26 (broadcastInDim S100000x32 ![0, 1] bcast_S1x32_S100000x32_0_1 : (⟨S1x32, .f32⟩ : BufTy).Contents (Elt F) → (⟨S100000x32, .f32⟩ : BufTy).Contents (Elt F)),
    StableHlo.binary main_v24 main_v26 main_v27 (addf : (⟨S100000x32, .f32⟩ : BufTy).Contents (Elt F) → (⟨S100000x32, .f32⟩ : BufTy).Contents (Elt F) → (⟨S100000x32, .f32⟩ : BufTy).Contents (Elt F)),
    StableHlo.unary main_v27 main_v28 (Host.tanh : (⟨S100000x32, .f32⟩ : BufTy).Contents (Elt F) → (⟨S100000x32, .f32⟩ : BufTy).Contents (Elt F)),
    StableHlo.binary main_v28 main_v18 main_v29 ((fun a b => concatenate S100000x35 1 [⟨S100000x32, a⟩, ⟨S100000x3, b⟩] concatenates_S100000x32_S100000x3_S100000x35_d1) : (⟨S100000x32, .f32⟩ : BufTy).Contents (Elt F) → (⟨S100000x3, .f32⟩ : BufTy).Contents (Elt F) → (⟨S100000x35, .f32⟩ : BufTy).Contents (Elt F)) ]
/-- Every buffer the stretch touches is one of the core's. -/
theorem opsNode_sub : (opsNode : List (HloOp τ sig (Elt F))).Forall fun op => op.bufs ⊆ tcRefs τ sig := by
  unfold opsNode
  exact ⟨binary_bufs_sub .., unary_bufs_sub .., unary_bufs_sub .., binary_bufs_sub .., nullary_bufs_sub ..,
    unary_bufs_sub .., binary_bufs_sub .., binary_bufs_sub .., unary_bufs_sub .., unary_bufs_sub ..,
    binary_bufs_sub .., unary_bufs_sub .., binary_bufs_sub ..⟩
/-- Every operation of the stretch determines its result. -/
theorem opsNode_fresh : (opsNode : List (HloOp τ sig (Elt F))).Forall fun op => op.fresh = ∅ := by
  unfold opsNode
  exact ⟨rfl, rfl, rfl, rfl, rfl, rfl, rfl, rfl, rfl, rfl, rfl, rfl, rfl⟩
/-- The buffers the stretch writes, in order. -/
abbrev opsNode_W : List (Ref sig .tc) :=
  [main_v19, main_v20, main_v21, main_v22, main_call1_cst, main_call1_v0, main_v23, main_v24, main_v25, main_v26,
   main_v27, main_v28, main_v29]
theorem opsNode_writes : (opsNode : List (HloOp τ sig (Elt F))).Forall fun op =>
    op.writes ⊆ (opsNode_W.map (Proc.devRef (τ := τ) .tc)).toFinset := by
  unfold opsNode
  writes_in
/-- A buffer the stretch does not write keeps its contents through it. -/
theorem opsNode_keep (W : Valuation τ sig (Elt F)) (r : Ref sig .tc) (h : r ∉ opsNode_W) :
    after opsNode W (no_index (Proc.devRef .tc r)) = W (Proc.devRef .tc r) :=
  after_of_writes_sub opsNode W opsNode_writes h
/-- From any contents the stretch leaves the node table of the normalised inputs. -/
theorem opsNode_main_v29 (W : Valuation τ sig (Elt F)) :
    after opsNode W (no_index (main_v29 : DevRef τ sig)) = Terms.xc (W main_v18) (W main_arg5) (W main_arg6) (W main_arg7) (W main_arg8) := by
  unfold opsNode
  read_fold

/-- The two rows of the edge-index pair. -/
def opsIdx : List (HloOp τ sig (Elt F)) :=
  [ StableHlo.unary main_arg1 main_v30 ((extractStridedSlice S1x3200000 ![0, 0] · slices_S2x3200000_S1x3200000_0_0) : (⟨S2x3200000, .i32⟩ : BufTy).Contents (Elt F) → (⟨S1x3200000, .i32⟩ : BufTy).Contents (Elt F)),
    StableHlo.reshape main_v30 main_v31 rfl shapeCasts_S1x3200000_S3200000,
    StableHlo.unary main_arg1 main_v32 ((extractStridedSlice S1x3200000 ![1, 0] · slices_S2x3200000_S1x3200000_1_0) : (⟨S2x3200000, .i32⟩ : BufTy).Contents (Elt F) → (⟨S1x3200000, .i32⟩ : BufTy).Contents (Elt F)),
    StableHlo.reshape main_v32 main_v33 rfl shapeCasts_S1x3200000_S3200000 ]
/-- Every buffer the stretch touches is one of the core's. -/
theorem opsIdx_sub : (opsIdx : List (HloOp τ sig (Elt F))).Forall fun op => op.bufs ⊆ tcRefs τ sig := by
  unfold opsIdx
  exact ⟨unary_bufs_sub .., reshape_bufs_sub .., unary_bufs_sub .., reshape_bufs_sub ..⟩
/-- Every operation of the stretch determines its result. -/
theorem opsIdx_fresh : (opsIdx : List (HloOp τ sig (Elt F))).Forall fun op => op.fresh = ∅ := by
  unfold opsIdx
  exact ⟨rfl, rfl, rfl, rfl⟩
/-- The buffers the stretch writes, in order. -/
abbrev opsIdx_W : List (Ref sig .tc) :=
  [main_v30, main_v31, main_v32, main_v33]
theorem opsIdx_writes : (opsIdx : List (HloOp τ sig (Elt F))).Forall fun op =>
    op.writes ⊆ (opsIdx_W.map (Proc.devRef (τ := τ) .tc)).toFinset := by
  unfold opsIdx
  writes_in
/-- A buffer the stretch does not write keeps its contents through it. -/
theorem opsIdx_keep (W : Valuation τ sig (Elt F)) (r : Ref sig .tc) (h : r ∉ opsIdx_W) :
    after opsIdx W (no_index (Proc.devRef .tc r)) = W (Proc.devRef .tc r) :=
  after_of_writes_sub opsIdx W opsIdx_writes h
/-- From any contents the stretch leaves the first row of the index pair, -/
theorem opsIdx_main_v31 (W : Valuation τ sig (Elt F)) :
    after opsIdx W (no_index (main_v31 : DevRef τ sig)) = Terms.idxRow0 (W main_arg1) := by
  unfold opsIdx
  read_fold
/-- and the second row. -/
theorem opsIdx_main_v33 (W : Valuation τ sig (Elt F)) :
    after opsIdx W (no_index (main_v33 : DevRef τ sig)) = Terms.idxRow1 (W main_arg1) := by
  unfold opsIdx
  read_fold

/-- The node table's rows gathered at the second index row, wrapped once from below. -/
def opsGat1 : List (HloOp τ sig (Elt F)) :=
  [ StableHlo.nullary main_c_2 (constantI S_ 32 0#32),
    StableHlo.unary main_c_2 main_v34 (broadcastInDim S3200000 ![] bcast_S_S3200000 : (⟨S_, .i32⟩ : BufTy).Contents (Elt F) → (⟨S3200000, .i32⟩ : BufTy).Contents (Elt F)),
    StableHlo.binary main_v33 main_v34 main_v35 (cmpi .slt : (⟨S3200000, .i32⟩ : BufTy).Contents (Elt F) → (⟨S3200000, .i32⟩ : BufTy).Contents (Elt F) → (⟨S3200000, .i1⟩ : BufTy).Contents (Elt F)),
    StableHlo.nullary main_c_3 (constantI S_ 32 100000#32),
    StableHlo.unary main_c_3 main_v36 (broadcastInDim S3200000 ![] bcast_S_S3200000 : (⟨S_, .i32⟩ : BufTy).Contents (Elt F) → (⟨S3200000, .i32⟩ : BufTy).Contents (Elt F)),
    StableHlo.binary main_v33 main_v36 main_v37 (addi : (⟨S3200000, .i32⟩ : BufTy).Contents (Elt F) → (⟨S3200000, .i32⟩ : BufTy).Contents (Elt F) → (⟨S3200000, .i32⟩ : BufTy).Contents (Elt F)),
    StableHlo.ternary main_v35 main_v37 main_v33 main_v38 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v38 main_v39 (broadcastInDim S3200000x1 ![0] bcast_S3200000_S3200000x1_0 : (⟨S3200000, .i32⟩ : BufTy).Contents (Elt F) → (⟨S3200000x1, .i32⟩ : BufTy).Contents (Elt F)),
    StableHlo.binary main_v29 main_v39 main_v40 ((fun x i => Host.gather gather_S100000x35_S3200000x1_S3200000x35_1_0_n_n_0_1_135 x i) : (⟨S100000x35, .f32⟩ : BufTy).Contents (Elt F) → (⟨S3200000x1, .i32⟩ : BufTy).Contents (Elt F) → (⟨S3200000x35, .f32⟩ : BufTy).Contents (Elt F)) ]
/-- Every buffer the stretch touches is one of the core's. -/
theorem opsGat1_sub : (opsGat1 : List (HloOp τ sig (Elt F))).Forall fun op => op.bufs ⊆ tcRefs τ sig := by
  unfold opsGat1
  exact ⟨nullary_bufs_sub .., unary_bufs_sub .., binary_bufs_sub .., nullary_bufs_sub .., unary_bufs_sub ..,
    binary_bufs_sub .., ternary_bufs_sub .., unary_bufs_sub .., binary_bufs_sub ..⟩
/-- Every operation of the stretch determines its result. -/
theorem opsGat1_fresh : (opsGat1 : List (HloOp τ sig (Elt F))).Forall fun op => op.fresh = ∅ := by
  unfold opsGat1
  exact ⟨rfl, rfl, rfl, rfl, rfl, rfl, rfl, rfl, rfl⟩
/-- The buffers the stretch writes, in order. -/
abbrev opsGat1_W : List (Ref sig .tc) :=
  [main_c_2, main_v34, main_v35, main_c_3, main_v36, main_v37, main_v38, main_v39, main_v40]
theorem opsGat1_writes : (opsGat1 : List (HloOp τ sig (Elt F))).Forall fun op =>
    op.writes ⊆ (opsGat1_W.map (Proc.devRef (τ := τ) .tc)).toFinset := by
  unfold opsGat1
  writes_in
/-- A buffer the stretch does not write keeps its contents through it. -/
theorem opsGat1_keep (W : Valuation τ sig (Elt F)) (r : Ref sig .tc) (h : r ∉ opsGat1_W) :
    after opsGat1 W (no_index (Proc.devRef .tc r)) = W (Proc.devRef .tc r) :=
  after_of_writes_sub opsGat1 W opsGat1_writes h
/-- From any contents the stretch leaves the node table's rows at the wrapped second index row. -/
theorem opsGat1_main_v40 (W : Valuation τ sig (Elt F)) :
    after opsGat1 W (no_index (main_v40 : DevRef τ sig)) = Terms.gat (W main_v29) (W main_v33) := by
  unfold opsGat1
  read_fold

/-- The node table's rows gathered at the first index row, wrapped once from below. -/
def opsGat2 : List (HloOp τ sig (Elt F)) :=
  [ StableHlo.nullary main_c_4 (constantI S_ 32 0#32),
    StableHlo.unary main_c_4 main_v41 (broadcastInDim S3200000 ![] bcast_S_S3200000 : (⟨S_, .i32⟩ : BufTy).Contents (Elt F) → (⟨S3200000, .i32⟩ : BufTy).Contents (Elt F)),
    StableHlo.binary main_v31 main_v41 main_v42 (cmpi .slt : (⟨S3200000, .i32⟩ : BufTy).Contents (Elt F) → (⟨S3200000, .i32⟩ : BufTy).Contents (Elt F) → (⟨S3200000, .i1⟩ : BufTy).Contents (Elt F)),
    StableHlo.nullary main_c_5 (constantI S_ 32 100000#32),
    StableHlo.unary main_c_5 main_v43 (broadcastInDim S3200000 ![] bcast_S_S3200000 : (⟨S_, .i32⟩ : BufTy).Contents (Elt F) → (⟨S3200000, .i32⟩ : BufTy).Contents (Elt F)),
    StableHlo.binary main_v31 main_v43 main_v44 (addi : (⟨S3200000, .i32⟩ : BufTy).Contents (Elt F) → (⟨S3200000, .i32⟩ : BufTy).Contents (Elt F) → (⟨S3200000, .i32⟩ : BufTy).Contents (Elt F)),
    StableHlo.ternary main_v42 main_v44 main_v31 main_v45 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v45 main_v46 (broadcastInDim S3200000x1 ![0] bcast_S3200000_S3200000x1_0 : (⟨S3200000, .i32⟩ : BufTy).Contents (Elt F) → (⟨S3200000x1, .i32⟩ : BufTy).Contents (Elt F)),
    StableHlo.binary main_v29 main_v46 main_v47 ((fun x i => Host.gather gather_S100000x35_S3200000x1_S3200000x35_1_0_n_n_0_1_135 x i) : (⟨S100000x35, .f32⟩ : BufTy).Contents (Elt F) → (⟨S3200000x1, .i32⟩ : BufTy).Contents (Elt F) → (⟨S3200000x35, .f32⟩ : BufTy).Contents (Elt F)) ]
/-- Every buffer the stretch touches is one of the core's. -/
theorem opsGat2_sub : (opsGat2 : List (HloOp τ sig (Elt F))).Forall fun op => op.bufs ⊆ tcRefs τ sig := by
  unfold opsGat2
  exact ⟨nullary_bufs_sub .., unary_bufs_sub .., binary_bufs_sub .., nullary_bufs_sub .., unary_bufs_sub ..,
    binary_bufs_sub .., ternary_bufs_sub .., unary_bufs_sub .., binary_bufs_sub ..⟩
/-- Every operation of the stretch determines its result. -/
theorem opsGat2_fresh : (opsGat2 : List (HloOp τ sig (Elt F))).Forall fun op => op.fresh = ∅ := by
  unfold opsGat2
  exact ⟨rfl, rfl, rfl, rfl, rfl, rfl, rfl, rfl, rfl⟩
/-- The buffers the stretch writes, in order. -/
abbrev opsGat2_W : List (Ref sig .tc) :=
  [main_c_4, main_v41, main_v42, main_c_5, main_v43, main_v44, main_v45, main_v46, main_v47]
theorem opsGat2_writes : (opsGat2 : List (HloOp τ sig (Elt F))).Forall fun op =>
    op.writes ⊆ (opsGat2_W.map (Proc.devRef (τ := τ) .tc)).toFinset := by
  unfold opsGat2
  writes_in
/-- A buffer the stretch does not write keeps its contents through it. -/
theorem opsGat2_keep (W : Valuation τ sig (Elt F)) (r : Ref sig .tc) (h : r ∉ opsGat2_W) :
    after opsGat2 W (no_index (Proc.devRef .tc r)) = W (Proc.devRef .tc r) :=
  after_of_writes_sub opsGat2 W opsGat2_writes h
/-- From any contents the stretch leaves the node table's rows at the wrapped first index row. -/
theorem opsGat2_main_v47 (W : Valuation τ sig (Elt F)) :
    after opsGat2 W (no_index (main_v47 : DevRef τ sig)) = Terms.gat (W main_v29) (W main_v31) := by
  unfold opsGat2
  read_fold

/-- The message table: the row difference, the three-piece concatenation, and the two-layer edge perceptron over it (the rectifier laid out at its call). -/
def opsMsg : List (HloOp τ sig (Elt F)) :=
  [ StableHlo.binary main_v47 main_v40 main_v48 (subf : (⟨S3200000x35, .f32⟩ : BufTy).Contents (Elt F) → (⟨S3200000x35, .f32⟩ : BufTy).Contents (Elt F) → (⟨S3200000x35, .f32⟩ : BufTy).Contents (Elt F)),
    StableHlo.nary ![main_v40, main_v48, main_arg2] main_v49 (fun u => concatenate S3200000x71 1 [⟨S3200000x35, u 0⟩, ⟨S3200000x35, u 1⟩, ⟨S3200000x1, u 2⟩] concatenates_S3200000x35_S3200000x35_S3200000x1_S3200000x71_d1),
    StableHlo.binary main_v49 main_arg9 main_v50 ((fun l r => Host.dotGeneral dot_S3200000x71_S71x64_S3200000x64_1_0_0_1_n_n none l r) : (⟨S3200000x71, .f32⟩ : BufTy).Contents (Elt F) → (⟨S71x64, .f32⟩ : BufTy).Contents (Elt F) → (⟨S3200000x64, .f32⟩ : BufTy).Contents (Elt F)),
    StableHlo.unary main_arg10 main_v51 (broadcastInDim S1x64 ![1] bcast_S64_S1x64_1 : (⟨S64, .f32⟩ : BufTy).Contents (Elt F) → (⟨S1x64, .f32⟩ : BufTy).Contents (Elt F)),
    StableHlo.unary main_v51 main_v52 (broadcastInDim S3200000x64 ![0, 1] bcast_S1x64_S3200000x64_0_1 : (⟨S1x64, .f32⟩ : BufTy).Contents (Elt F) → (⟨S3200000x64, .f32⟩ : BufTy).Contents (Elt F)),
    StableHlo.binary main_v50 main_v52 main_v53 (addf : (⟨S3200000x64, .f32⟩ : BufTy).Contents (Elt F) → (⟨S3200000x64, .f32⟩ : BufTy).Contents (Elt F) → (⟨S3200000x64, .f32⟩ : BufTy).Contents (Elt F)),
    StableHlo.TRef.nullary main_call2.cst (constant S_ .f32 0x00000000#32),
    StableHlo.TRef.unary main_call2.cst main_call2.v0 (broadcastInDim S3200000x64 ![] bcast_S_S3200000x64),
    StableHlo.TRef.binary (.of main_v53 : StableHlo.TRef sig ⟨S3200000x64, .f32⟩) main_call2.v0 main_call2.v1 maximumf,
    StableHlo.binary main_v54 main_arg11 main_v55 ((fun l r => Host.dotGeneral dot_S3200000x64_S64x32_S3200000x32_1_0_0_1_n_n none l r) : (⟨S3200000x64, .f32⟩ : BufTy).Contents (Elt F) → (⟨S64x32, .f32⟩ : BufTy).Contents (Elt F) → (⟨S3200000x32, .f32⟩ : BufTy).Contents (Elt F)),
    StableHlo.unary main_arg12 main_v56 (broadcastInDim S1x32 ![1] bcast_S32_S1x32_1 : (⟨S32, .f32⟩ : BufTy).Contents (Elt F) → (⟨S1x32, .f32⟩ : BufTy).Contents (Elt F)),
    StableHlo.unary main_v56 main_v57 (broadcastInDim S3200000x32 ![0, 1] bcast_S1x32_S3200000x32_0_1 : (⟨S1x32, .f32⟩ : BufTy).Contents (Elt F) → (⟨S3200000x32, .f32⟩ : BufTy).Contents (Elt F)),
    StableHlo.binary main_v55 main_v57 main_v58 (addf : (⟨S3200000x32, .f32⟩ : BufTy).Contents (Elt F) → (⟨S3200000x32, .f32⟩ : BufTy).Contents (Elt F) → (⟨S3200000x32, .f32⟩ : BufTy).Contents (Elt F)),
    StableHlo.unary main_v58 main_v59 (Host.tanh : (⟨S3200000x32, .f32⟩ : BufTy).Contents (Elt F) → (⟨S3200000x32, .f32⟩ : BufTy).Contents (Elt F)) ]
/-- Every buffer the stretch touches is one of the core's. -/
theorem opsMsg_sub : (opsMsg : List (HloOp τ sig (Elt F))).Forall fun op => op.bufs ⊆ tcRefs τ sig := by
  unfold opsMsg
  exact ⟨binary_bufs_sub .., nary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub .., unary_bufs_sub ..⟩
/-- Every operation of the stretch determines its result. -/
theorem opsMsg_fresh : (opsMsg : List (HloOp τ sig (Elt F))).Forall fun op => op.fresh = ∅ := by
  unfold opsMsg
  exact ⟨rfl, rfl, rfl, rfl, rfl, rfl, rfl, rfl, rfl, rfl, rfl, rfl, rfl, rfl⟩
/-- The buffers the stretch writes, in order. -/
abbrev opsMsg_W : List (Ref sig .tc) :=
  [main_v48, main_v49, main_v50, main_v51, main_v52, main_v53, main_call2_cst, main_call2_v0, main_v54, main_v55,
   main_v56, main_v57, main_v58, main_v59]
theorem opsMsg_writes : (opsMsg : List (HloOp τ sig (Elt F))).Forall fun op =>
    op.writes ⊆ (opsMsg_W.map (Proc.devRef (τ := τ) .tc)).toFinset := by
  unfold opsMsg
  writes_in
/-- A buffer the stretch does not write keeps its contents through it. -/
theorem opsMsg_keep (W : Valuation τ sig (Elt F)) (r : Ref sig .tc) (h : r ∉ opsMsg_W) :
    after opsMsg W (no_index (Proc.devRef .tc r)) = W (Proc.devRef .tc r) :=
  after_of_writes_sub opsMsg W opsMsg_writes h
/-- From any contents the stretch leaves the message table of the two gathered tables and the edge attribute. -/
theorem opsMsg_main_v59 (W : Valuation τ sig (Elt F)) :
    after opsMsg W (no_index (main_v59 : DevRef τ sig)) = Terms.msg (W main_v40) (W main_v47) (W main_arg2) (W main_arg9) (W main_arg10) (W main_arg11) (W main_arg12) := by
  unfold opsMsg
  read_fold

/-- The messages summed onto their target nodes, beside the normalised inputs: the second node table. -/
def opsAgg : List (HloOp τ sig (Elt F)) :=
  [ StableHlo.nullary main_cst_6 (constant S_ .f32 0x00000000#32),
    StableHlo.unary main_cst_6 main_v60 (broadcastInDim S100000x32 ![] bcast_S_S100000x32 : (⟨S_, .f32⟩ : BufTy).Contents (Elt F) → (⟨S100000x32, .f32⟩ : BufTy).Contents (Elt F)),
    StableHlo.unary main_v33 main_v61 (broadcastInDim S3200000x1 ![0] bcast_S3200000_S3200000x1_0 : (⟨S3200000, .i32⟩ : BufTy).Contents (Elt F) → (⟨S3200000x1, .i32⟩ : BufTy).Contents (Elt F)),
    StableHlo.ternary main_v60 main_v61 main_v59 main_v62 ((fun x i u => Host.scatterAdd scatter_S100000x32_S3200000x1_S3200000x32_1_0_0_1 x i u) : (⟨S100000x32, .f32⟩ : BufTy).Contents (Elt F) → (⟨S3200000x1, .i32⟩ : BufTy).Contents (Elt F) → (⟨S3200000x32, .f32⟩ : BufTy).Contents (Elt F) → (⟨S100000x32, .f32⟩ : BufTy).Contents (Elt F)),
    StableHlo.binary main_v62 main_v18 main_v63 ((fun a b => concatenate S100000x35 1 [⟨S100000x32, a⟩, ⟨S100000x3, b⟩] concatenates_S100000x32_S100000x3_S100000x35_d1) : (⟨S100000x32, .f32⟩ : BufTy).Contents (Elt F) → (⟨S100000x3, .f32⟩ : BufTy).Contents (Elt F) → (⟨S100000x35, .f32⟩ : BufTy).Contents (Elt F)) ]
/-- Every buffer the stretch touches is one of the core's. -/
theorem opsAgg_sub : (opsAgg : List (HloOp τ sig (Elt F))).Forall fun op => op.bufs ⊆ tcRefs τ sig := by
  unfold opsAgg
  exact ⟨nullary_bufs_sub .., unary_bufs_sub .., unary_bufs_sub .., ternary_bufs_sub .., binary_bufs_sub ..⟩
/-- Every operation of the stretch determines its result. -/
theorem opsAgg_fresh : (opsAgg : List (HloOp τ sig (Elt F))).Forall fun op => op.fresh = ∅ := by
  unfold opsAgg
  exact ⟨rfl, rfl, rfl, rfl, rfl⟩
/-- The buffers the stretch writes, in order. -/
abbrev opsAgg_W : List (Ref sig .tc) :=
  [main_cst_6, main_v60, main_v61, main_v62, main_v63]
theorem opsAgg_writes : (opsAgg : List (HloOp τ sig (Elt F))).Forall fun op =>
    op.writes ⊆ (opsAgg_W.map (Proc.devRef (τ := τ) .tc)).toFinset := by
  unfold opsAgg
  writes_in
/-- A buffer the stretch does not write keeps its contents through it. -/
theorem opsAgg_keep (W : Valuation τ sig (Elt F)) (r : Ref sig .tc) (h : r ∉ opsAgg_W) :
    after opsAgg W (no_index (Proc.devRef .tc r)) = W (Proc.devRef .tc r) :=
  after_of_writes_sub opsAgg W opsAgg_writes h
/-- From any contents the stretch leaves the second node table: the messages summed at the second index row, beside the normalised inputs. -/
theorem opsAgg_main_v63 (W : Valuation τ sig (Elt F)) :
    after opsAgg W (no_index (main_v63 : DevRef τ sig)) = Terms.xc2 (Terms.agg (W main_v59) (W main_v33)) (W main_v18) := by
  unfold opsAgg
  read_fold

/-- The second node table's rows gathered at the first index row, wrapped once from below. -/
def opsGat3 : List (HloOp τ sig (Elt F)) :=
  [ StableHlo.nullary main_c_7 (constantI S_ 32 0#32),
    StableHlo.unary main_c_7 main_v64 (broadcastInDim S3200000 ![] bcast_S_S3200000 : (⟨S_, .i32⟩ : BufTy).Contents (Elt F) → (⟨S3200000, .i32⟩ : BufTy).Contents (Elt F)),
    StableHlo.binary main_v31 main_v64 main_v65 (cmpi .slt : (⟨S3200000, .i32⟩ : BufTy).Contents (Elt F) → (⟨S3200000, .i32⟩ : BufTy).Contents (Elt F) → (⟨S3200000, .i1⟩ : BufTy).Contents (Elt F)),
    StableHlo.nullary main_c_8 (constantI S_ 32 100000#32),
    StableHlo.unary main_c_8 main_v66 (broadcastInDim S3200000 ![] bcast_S_S3200000 : (⟨S_, .i32⟩ : BufTy).Contents (Elt F) → (⟨S3200000, .i32⟩ : BufTy).Contents (Elt F)),
    StableHlo.binary main_v31 main_v66 main_v67 (addi : (⟨S3200000, .i32⟩ : BufTy).Contents (Elt F) → (⟨S3200000, .i32⟩ : BufTy).Contents (Elt F) → (⟨S3200000, .i32⟩ : BufTy).Contents (Elt F)),
    StableHlo.ternary main_v65 main_v67 main_v31 main_v68 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v68 main_v69 (broadcastInDim S3200000x1 ![0] bcast_S3200000_S3200000x1_0 : (⟨S3200000, .i32⟩ : BufTy).Contents (Elt F) → (⟨S3200000x1, .i32⟩ : BufTy).Contents (Elt F)),
    StableHlo.binary main_v63 main_v69 main_v70 ((fun x i => Host.gather gather_S100000x35_S3200000x1_S3200000x35_1_0_n_n_0_1_135 x i) : (⟨S100000x35, .f32⟩ : BufTy).Contents (Elt F) → (⟨S3200000x1, .i32⟩ : BufTy).Contents (Elt F) → (⟨S3200000x35, .f32⟩ : BufTy).Contents (Elt F)) ]
/-- Every buffer the stretch touches is one of the core's. -/
theorem opsGat3_sub : (opsGat3 : List (HloOp τ sig (Elt F))).Forall fun op => op.bufs ⊆ tcRefs τ sig := by
  unfold opsGat3
  exact ⟨nullary_bufs_sub .., unary_bufs_sub .., binary_bufs_sub .., nullary_bufs_sub .., unary_bufs_sub ..,
    binary_bufs_sub .., ternary_bufs_sub .., unary_bufs_sub .., binary_bufs_sub ..⟩
/-- Every operation of the stretch determines its result. -/
theorem opsGat3_fresh : (opsGat3 : List (HloOp τ sig (Elt F))).Forall fun op => op.fresh = ∅ := by
  unfold opsGat3
  exact ⟨rfl, rfl, rfl, rfl, rfl, rfl, rfl, rfl, rfl⟩
/-- The buffers the stretch writes, in order. -/
abbrev opsGat3_W : List (Ref sig .tc) :=
  [main_c_7, main_v64, main_v65, main_c_8, main_v66, main_v67, main_v68, main_v69, main_v70]
theorem opsGat3_writes : (opsGat3 : List (HloOp τ sig (Elt F))).Forall fun op =>
    op.writes ⊆ (opsGat3_W.map (Proc.devRef (τ := τ) .tc)).toFinset := by
  unfold opsGat3
  writes_in
/-- A buffer the stretch does not write keeps its contents through it. -/
theorem opsGat3_keep (W : Valuation τ sig (Elt F)) (r : Ref sig .tc) (h : r ∉ opsGat3_W) :
    after opsGat3 W (no_index (Proc.devRef .tc r)) = W (Proc.devRef .tc r) :=
  after_of_writes_sub opsGat3 W opsGat3_writes h
/-- From any contents the stretch leaves the second node table's rows at the wrapped first index row. -/
theorem opsGat3_main_v70 (W : Valuation τ sig (Elt F)) :
    after opsGat3 W (no_index (main_v70 : DevRef τ sig)) = Terms.gat (W main_v63) (W main_v31) := by
  unfold opsGat3
  read_fold

/-- The second node table's rows gathered at the second index row, wrapped once from below. -/
def opsGat4 : List (HloOp τ sig (Elt F)) :=
  [ StableHlo.nullary main_c_9 (constantI S_ 32 0#32),
    StableHlo.unary main_c_9 main_v71 (broadcastInDim S3200000 ![] bcast_S_S3200000 : (⟨S_, .i32⟩ : BufTy).Contents (Elt F) → (⟨S3200000, .i32⟩ : BufTy).Contents (Elt F)),
    StableHlo.binary main_v33 main_v71 main_v72 (cmpi .slt : (⟨S3200000, .i32⟩ : BufTy).Contents (Elt F) → (⟨S3200000, .i32⟩ : BufTy).Contents (Elt F) → (⟨S3200000, .i1⟩ : BufTy).Contents (Elt F)),
    StableHlo.nullary main_c_10 (constantI S_ 32 100000#32),
    StableHlo.unary main_c_10 main_v73 (broadcastInDim S3200000 ![] bcast_S_S3200000 : (⟨S_, .i32⟩ : BufTy).Contents (Elt F) → (⟨S3200000, .i32⟩ : BufTy).Contents (Elt F)),
    StableHlo.binary main_v33 main_v73 main_v74 (addi : (⟨S3200000, .i32⟩ : BufTy).Contents (Elt F) → (⟨S3200000, .i32⟩ : BufTy).Contents (Elt F) → (⟨S3200000, .i32⟩ : BufTy).Contents (Elt F)),
    StableHlo.ternary main_v72 main_v74 main_v33 main_v75 (select : (⟨S3200000, .i1⟩ : BufTy).Contents (Elt F) → (⟨S3200000, .i32⟩ : BufTy).Contents (Elt F) → (⟨S3200000, .i32⟩ : BufTy).Contents (Elt F) → (⟨S3200000, .i32⟩ : BufTy).Contents (Elt F)),
    StableHlo.unary main_v75 main_v76 (broadcastInDim S3200000x1 ![0] bcast_S3200000_S3200000x1_0 : (⟨S3200000, .i32⟩ : BufTy).Contents (Elt F) → (⟨S3200000x1, .i32⟩ : BufTy).Contents (Elt F)),
    StableHlo.binary main_v63 main_v76 main_v77 ((fun x i => Host.gather gather_S100000x35_S3200000x1_S3200000x35_1_0_n_n_0_1_135 x i) : (⟨S100000x35, .f32⟩ : BufTy).Contents (Elt F) → (⟨S3200000x1, .i32⟩ : BufTy).Contents (Elt F) → (⟨S3200000x35, .f32⟩ : BufTy).Contents (Elt F)) ]
/-- Every buffer the stretch touches is one of the core's. -/
theorem opsGat4_sub : (opsGat4 : List (HloOp τ sig (Elt F))).Forall fun op => op.bufs ⊆ tcRefs τ sig := by
  unfold opsGat4
  exact ⟨nullary_bufs_sub .., unary_bufs_sub .., binary_bufs_sub .., nullary_bufs_sub .., unary_bufs_sub ..,
    binary_bufs_sub .., ternary_bufs_sub .., unary_bufs_sub .., binary_bufs_sub ..⟩
/-- Every operation of the stretch determines its result. -/
theorem opsGat4_fresh : (opsGat4 : List (HloOp τ sig (Elt F))).Forall fun op => op.fresh = ∅ := by
  unfold opsGat4
  exact ⟨rfl, rfl, rfl, rfl, rfl, rfl, rfl, rfl, rfl⟩
/-- The buffers the stretch writes, in order. -/
abbrev opsGat4_W : List (Ref sig .tc) :=
  [main_c_9, main_v71, main_v72, main_c_10, main_v73, main_v74, main_v75, main_v76, main_v77]
theorem opsGat4_writes : (opsGat4 : List (HloOp τ sig (Elt F))).Forall fun op =>
    op.writes ⊆ (opsGat4_W.map (Proc.devRef (τ := τ) .tc)).toFinset := by
  unfold opsGat4
  writes_in
/-- A buffer the stretch does not write keeps its contents through it. -/
theorem opsGat4_keep (W : Valuation τ sig (Elt F)) (r : Ref sig .tc) (h : r ∉ opsGat4_W) :
    after opsGat4 W (no_index (Proc.devRef .tc r)) = W (Proc.devRef .tc r) :=
  after_of_writes_sub opsGat4 W opsGat4_writes h
/-- From any contents the stretch leaves the second node table's rows at the wrapped second index row. -/
theorem opsGat4_main_v77 (W : Valuation τ sig (Elt F)) :
    after opsGat4 W (no_index (main_v77 : DevRef τ sig)) = Terms.gat (W main_v63) (W main_v33) := by
  unfold opsGat4
  read_fold

/-- The output perceptron's pre-activation over the three-piece concatenation (the rectifier laid out at its call). -/
def opsLogit : List (HloOp τ sig (Elt F)) :=
  [ StableHlo.nary ![main_v70, main_v77, main_arg2] main_v78 (fun u => concatenate S3200000x71 1 [⟨S3200000x35, u 0⟩, ⟨S3200000x35, u 1⟩, ⟨S3200000x1, u 2⟩] concatenates_S3200000x35_S3200000x35_S3200000x1_S3200000x71_d1),
    StableHlo.binary main_v78 main_arg13 main_v79 ((fun l r => Host.dotGeneral dot_S3200000x71_S71x64_S3200000x64_1_0_0_1_n_n none l r) : (⟨S3200000x71, .f32⟩ : BufTy).Contents (Elt F) → (⟨S71x64, .f32⟩ : BufTy).Contents (Elt F) → (⟨S3200000x64, .f32⟩ : BufTy).Contents (Elt F)),
    StableHlo.unary main_arg14 main_v80 (broadcastInDim S1x64 ![1] bcast_S64_S1x64_1 : (⟨S64, .f32⟩ : BufTy).Contents (Elt F) → (⟨S1x64, .f32⟩ : BufTy).Contents (Elt F)),
    StableHlo.unary main_v80 main_v81 (broadcastInDim S3200000x64 ![0, 1] bcast_S1x64_S3200000x64_0_1 : (⟨S1x64, .f32⟩ : BufTy).Contents (Elt F) → (⟨S3200000x64, .f32⟩ : BufTy).Contents (Elt F)),
    StableHlo.binary main_v79 main_v81 main_v82 (addf : (⟨S3200000x64, .f32⟩ : BufTy).Contents (Elt F) → (⟨S3200000x64, .f32⟩ : BufTy).Contents (Elt F) → (⟨S3200000x64, .f32⟩ : BufTy).Contents (Elt F)),
    StableHlo.TRef.nullary main_call3.cst (constant S_ .f32 0x00000000#32),
    StableHlo.TRef.unary main_call3.cst main_call3.v0 (broadcastInDim S3200000x64 ![] bcast_S_S3200000x64),
    StableHlo.TRef.binary (.of main_v82 : StableHlo.TRef sig ⟨S3200000x64, .f32⟩) main_call3.v0 main_call3.v1 maximumf,
    StableHlo.binary main_v83 main_arg15 main_v84 ((fun l r => Host.dotGeneral dot_S3200000x64_S64x1_S3200000x1_1_0_0_1_n_n none l r) : (⟨S3200000x64, .f32⟩ : BufTy).Contents (Elt F) → (⟨S64x1, .f32⟩ : BufTy).Contents (Elt F) → (⟨S3200000x1, .f32⟩ : BufTy).Contents (Elt F)),
    StableHlo.unary main_arg16 main_v85 (broadcastInDim S1x1 ![1] bcast_S1_S1x1_1 : (⟨S1, .f32⟩ : BufTy).Contents (Elt F) → (⟨S1x1, .f32⟩ : BufTy).Contents (Elt F)),
    StableHlo.unary main_v85 main_v86 (broadcastInDim S3200000x1 ![0, 1] bcast_S1x1_S3200000x1_0_1 : (⟨S1x1, .f32⟩ : BufTy).Contents (Elt F) → (⟨S3200000x1, .f32⟩ : BufTy).Contents (Elt F)),
    StableHlo.binary main_v84 main_v86 main_v87 (addf : (⟨S3200000x1, .f32⟩ : BufTy).Contents (Elt F) → (⟨S3200000x1, .f32⟩ : BufTy).Contents (Elt F) → (⟨S3200000x1, .f32⟩ : BufTy).Contents (Elt F)) ]
/-- Every buffer the stretch touches is one of the core's. -/
theorem opsLogit_sub : (opsLogit : List (HloOp τ sig (Elt F))).Forall fun op => op.bufs ⊆ tcRefs τ sig := by
  unfold opsLogit
  exact ⟨nary_bufs_sub .., binary_bufs_sub .., unary_bufs_sub .., unary_bufs_sub .., binary_bufs_sub ..,
    nullary_bufs_sub .., unary_bufs_sub .., binary_bufs_sub .., binary_bufs_sub .., unary_bufs_sub ..,
    unary_bufs_sub .., binary_bufs_sub ..⟩
/-- Every operation of the stretch determines its result. -/
theorem opsLogit_fresh : (opsLogit : List (HloOp τ sig (Elt F))).Forall fun op => op.fresh = ∅ := by
  unfold opsLogit
  exact ⟨rfl, rfl, rfl, rfl, rfl, rfl, rfl, rfl, rfl, rfl, rfl, rfl⟩
/-- The buffers the stretch writes, in order. -/
abbrev opsLogit_W : List (Ref sig .tc) :=
  [main_v78, main_v79, main_v80, main_v81, main_v82, main_call3_cst, main_call3_v0, main_v83, main_v84, main_v85,
   main_v86, main_v87]
theorem opsLogit_writes : (opsLogit : List (HloOp τ sig (Elt F))).Forall fun op =>
    op.writes ⊆ (opsLogit_W.map (Proc.devRef (τ := τ) .tc)).toFinset := by
  unfold opsLogit
  writes_in
/-- A buffer the stretch does not write keeps its contents through it. -/
theorem opsLogit_keep (W : Valuation τ sig (Elt F)) (r : Ref sig .tc) (h : r ∉ opsLogit_W) :
    after opsLogit W (no_index (Proc.devRef .tc r)) = W (Proc.devRef .tc r) :=
  after_of_writes_sub opsLogit W opsLogit_writes h
/-- From any contents the stretch leaves the output perceptron's pre-activation of the two gathered tables and the edge attribute. -/
theorem opsLogit_main_v87 (W : Valuation τ sig (Elt F)) :
    after opsLogit W (no_index (main_v87 : DevRef τ sig)) = Terms.logit (W main_v70) (W main_v77) (W main_arg2) (W main_arg13) (W main_arg14) (W main_arg15) (W main_arg16) := by
  unfold opsLogit
  read_fold

/-- The logistic function of the pre-activation, flattened to the result. -/
def opsOut : List (HloOp τ sig (Elt F)) :=
  [ StableHlo.unary main_v87 main_v88 (Host.negf : (⟨S3200000x1, .f32⟩ : BufTy).Contents (Elt F) → (⟨S3200000x1, .f32⟩ : BufTy).Contents (Elt F)),
    StableHlo.unary main_v88 main_v89 (Host.exp : (⟨S3200000x1, .f32⟩ : BufTy).Contents (Elt F) → (⟨S3200000x1, .f32⟩ : BufTy).Contents (Elt F)),
    StableHlo.nullary main_cst_11 (constant S_ .f32 0x3F800000#32),
    StableHlo.unary main_cst_11 main_v90 (broadcastInDim S3200000x1 ![] bcast_S_S3200000x1 : (⟨S_, .f32⟩ : BufTy).Contents (Elt F) → (⟨S3200000x1, .f32⟩ : BufTy).Contents (Elt F)),
    StableHlo.binary main_v90 main_v89 main_v91 (addf : (⟨S3200000x1, .f32⟩ : BufTy).Contents (Elt F) → (⟨S3200000x1, .f32⟩ : BufTy).Contents (Elt F) → (⟨S3200000x1, .f32⟩ : BufTy).Contents (Elt F)),
    StableHlo.nullary main_cst_12 (constant S_ .f32 0x3F800000#32),
    StableHlo.unary main_cst_12 main_v92 (broadcastInDim S3200000x1 ![] bcast_S_S3200000x1 : (⟨S_, .f32⟩ : BufTy).Contents (Elt F) → (⟨S3200000x1, .f32⟩ : BufTy).Contents (Elt F)),
    StableHlo.binary main_v92 main_v91 main_v93 (Host.divf : (⟨S3200000x1, .f32⟩ : BufTy).Contents (Elt F) → (⟨S3200000x1, .f32⟩ : BufTy).Contents (Elt F) → (⟨S3200000x1, .f32⟩ : BufTy).Contents (Elt F)),
    StableHlo.reshape main_v93 main_v94 rfl shapeCasts_S3200000x1_S3200000 ]
/-- Every buffer the stretch touches is one of the core's. -/
theorem opsOut_sub : (opsOut : List (HloOp τ sig (Elt F))).Forall fun op => op.bufs ⊆ tcRefs τ sig := by
  unfold opsOut
  exact ⟨unary_bufs_sub .., unary_bufs_sub .., nullary_bufs_sub .., unary_bufs_sub .., binary_bufs_sub ..,
    nullary_bufs_sub .., unary_bufs_sub .., binary_bufs_sub .., reshape_bufs_sub ..⟩
/-- Every operation of the stretch determines its result. -/
theorem opsOut_fresh : (opsOut : List (HloOp τ sig (Elt F))).Forall fun op => op.fresh = ∅ := by
  unfold opsOut
  exact ⟨rfl, rfl, rfl, rfl, rfl, rfl, rfl, rfl, rfl⟩
/-- The buffers the stretch writes, in order. -/
abbrev opsOut_W : List (Ref sig .tc) :=
  [main_v88, main_v89, main_cst_11, main_v90, main_v91, main_cst_12, main_v92, main_v93, main_v94]
theorem opsOut_writes : (opsOut : List (HloOp τ sig (Elt F))).Forall fun op =>
    op.writes ⊆ (opsOut_W.map (Proc.devRef (τ := τ) .tc)).toFinset := by
  unfold opsOut
  writes_in
/-- A buffer the stretch does not write keeps its contents through it. -/
theorem opsOut_keep (W : Valuation τ sig (Elt F)) (r : Ref sig .tc) (h : r ∉ opsOut_W) :
    after opsOut W (no_index (Proc.devRef .tc r)) = W (Proc.devRef .tc r) :=
  after_of_writes_sub opsOut W opsOut_writes h
/-- From any contents the stretch leaves the logistic function of the pre-activation, flattened, at the result buffer. -/
theorem opsOut_main_v94 (W : Valuation τ sig (Elt F)) :
    after opsOut W (no_index (main_v94 : DevRef τ sig)) = fun i => shapeCast S3200000 (Terms.sigm (W main_v87)) shapeCasts_S3200000x1_S3200000 i := by
  unfold opsOut
  read_fold

/-! ## The whole line -/

/-- The reference's operations, in order: the stretches one after the other. -/
abbrev ops : List (HloOp τ sig (Elt F)) :=
  opsMean ++ (opsVar ++ (opsNorm ++ (opsNode ++ (opsIdx ++ (opsGat1 ++ (opsGat2 ++ (opsMsg ++ (opsAgg ++ (opsGat3 ++ (opsGat4 ++ (opsLogit ++ (opsOut))))))))))))

-- one hundred and thirty-seven binds re-associated: the rewriting under the chain recurses once per operation
set_option maxRecDepth 16384 in
set_option maxHeartbeats 4000000 in
/-- The program is that straight line: with the called functions' bodies in place of the calls and the two windows
    in place of their names, both sides are one chain of operation steps once sequencing is re-associated. -/
theorem main_eq (c : Dev nD) : main (F := F) c = seq ops := by
  simp only [ops, seq_append, opsMean, opsVar, opsNorm, opsNode, opsIdx, opsGat1, opsGat2, opsMsg, opsAgg, opsGat3, opsGat4, opsLogit, opsOut,
    main, main_part0, main_part1, fn_var.body, fn_where.body, fn_relu.body, fn_relu_0.body, seq, bind_assoc, pure_bind]

theorem ops_sub : (ops : List (HloOp τ sig (Elt F))).Forall fun op => op.bufs ⊆ tcRefs τ sig := by
  simp only [ops, List.forall_append]
  exact ⟨opsMean_sub, opsVar_sub, opsNorm_sub, opsNode_sub, opsIdx_sub, opsGat1_sub, opsGat2_sub, opsMsg_sub, opsAgg_sub,
    opsGat3_sub, opsGat4_sub, opsLogit_sub, opsOut_sub⟩

theorem ops_fresh : ∀ op ∈ (ops : List (HloOp τ sig (Elt F))), op.fresh = ∅ := by
  refine List.forall_iff_forall_mem.1 ?_
  simp only [ops, List.forall_append]
  exact ⟨opsMean_fresh, opsVar_fresh, opsNorm_fresh, opsNode_fresh, opsIdx_fresh, opsGat1_fresh, opsGat2_fresh,
    opsMsg_fresh, opsAgg_fresh, opsGat3_fresh, opsGat4_fresh, opsLogit_fresh, opsOut_fresh⟩

/-- The fold read at the result buffer is the stages composed: each stretch's equation rewrites its stage's buffer,
    a buffer read across a stretch that does not write it passes through (the reference's absence from the
    stretch's written list decided), and the stages so composed are `Terms.result` with its local names unfolded. -/
theorem result_eq (V : Valuation τ sig (Elt F)) :
    after ops V (main_v94 : DevRef τ sig) = Terms.result (V main_arg0) (V main_arg1) (V main_arg2) (V main_arg3) (V main_arg4) (V main_arg5) (V main_arg6) (V main_arg7) (V main_arg8) (V main_arg9) (V main_arg10) (V main_arg11) (V main_arg12) (V main_arg13) (V main_arg14) (V main_arg15) (V main_arg16) := by
  simp (disch := decide) only [ops, after_app,
    opsMean_main_v2, opsVar_main_v3, opsNorm_main_v18, opsNode_main_v29, opsIdx_main_v31, opsIdx_main_v33,
    opsGat1_main_v40, opsGat2_main_v47, opsMsg_main_v59, opsAgg_main_v63, opsGat3_main_v70, opsGat4_main_v77,
    opsLogit_main_v87, opsOut_main_v94,
    opsMean_keep, opsVar_keep, opsNorm_keep, opsNode_keep, opsIdx_keep, opsGat1_keep, opsGat2_keep, opsMsg_keep,
    opsAgg_keep, opsGat3_keep, opsGat4_keep, opsLogit_keep, opsOut_keep]
  rfl

/-- A buffer no stretch writes, an argument's among them, keeps its contents through the whole line. -/
theorem arg_eq (V : Valuation τ sig (Elt F)) (r : Ref sig .tc)
    (h : r ∉ opsMean_W ++ (opsVar_W ++ (opsNorm_W ++ (opsNode_W ++ (opsIdx_W ++ (opsGat1_W ++ (opsGat2_W ++ (opsMsg_W ++ (opsAgg_W ++ (opsGat3_W ++ (opsGat4_W ++ (opsLogit_W ++ (opsOut_W))))))))))))) :
    after ops V (Proc.devRef .tc r) = V (Proc.devRef .tc r) := by
  simp only [List.mem_append, not_or] at h
  obtain ⟨h0, h1, h2, h3, h4, h5, h6, h7, h8, h9, h10, h11, h12⟩ := h
  simp only [ops, after_app]
  rw [opsOut_keep _ r h12, opsLogit_keep _ r h11, opsGat4_keep _ r h10, opsGat3_keep _ r h9, opsAgg_keep _ r h8,
    opsMsg_keep _ r h7, opsGat2_keep _ r h6, opsGat1_keep _ r h5, opsIdx_keep _ r h4, opsNode_keep _ r h3,
    opsNorm_keep _ r h2, opsVar_keep _ r h1, opsMean_keep _ r h0]

/-- The signature scopes no buffer and no semaphore: the program is tensor values only. -/
theorem scopedRefs_eq : (Finset.univ.filter fun b : Ref sig .tc => b.isScoped) = ∅ := by decide
theorem scopedSems_eq : (Finset.univ.filter fun sm : SemLoc sig => sm.isScoped .tc) = ∅ := by decide

/-- Every weakly fair execution of the reference terminates, its result buffer at the composed stages of the
    argument arrays and its arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v94) = Terms.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) :=
  (θ_run defs _ _).mono (fun _ h c => ⟨(h c main_v94).trans (result_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide)),
      (h c main_arg11).trans (arg_eq _ main_arg11 (by decide)),
      (h c main_arg12).trans (arg_eq _ main_arg12 (by decide)),
      (h c main_arg13).trans (arg_eq _ main_arg13 (by decide)),
      (h c main_arg14).trans (arg_eq _ main_arg14 (by decide)),
      (h c main_arg15).trans (arg_eq _ main_arg15 (by decide)),
      (h c main_arg16).trans (arg_eq _ main_arg16 (by decide))⟩)
    (run_seq scopedRefs_eq scopedSems_eq defs main (fun _ => ops) main_eq (fun _ => ops_sub) m ρ (fun _ => ops_fresh))

end Cert.ReferenceIdeal.Run

end
-- ==== Proof.lean ====
/-
  The certificate of a graph network's forward pass on the chip against its array-language reference, over the
  extended reals, where every edge index lies in [0, 100000).

  Both programs normalise the node inputs by the batch mean and variance, run a two-layer perceptron on them, gather
  the resulting 35-wide node rows at the two ends of each edge, run an edge perceptron on the gathered rows and the edge
  attribute to form messages, sum the messages onto their target nodes, gather again and run the output perceptron.
  The chip program does the three dense stages in pallas_call regions over row blocks; the reference does them as
  whole-array products.  They agree because (1) a product with the inverse root of a positive number is the quotient by
  its root — the variance is a mean of squares, so variance plus epsilon is positive —; (2) an inner product over the
  71-wide concatenation of two 35-wide rows and one attribute is the sum of the three inner products with rows 0–34,
  35–69 and 70 of the weight, finite sums regrouping freely; (3) the chip program's gather fills a row with the
  not-a-number pattern where its index is out of range, which under the precondition is nowhere, so it is the
  reference's plain gather; and the mean, the variance, the scatter-add and the concatenations are the same operations
  applied to equal arrays.  The three frames: the two chip programs' are the generated frame certificates, the
  reference's is its run with the result dropped.  No operation was rewritten by the idealisation, so that
  conjunct is trivial.
-/
import proofs.«411465_j83708912599063_2_alg».proof.Defs
import proofs.«411465_j83708912599063_2_alg».proof.Proof.Gen.Kernel
import proofs.«411465_j83708912599063_2_alg».proof.Proof.Gen.Kernel.Frame
import proofs.«411465_j83708912599063_2_alg».proof.Proof.Gen.KernelIdeal
import proofs.«411465_j83708912599063_2_alg».proof.Proof.Gen.KernelIdeal.Frame
import proofs.«411465_j83708912599063_2_alg».proof.Proof.Gen.ReferenceIdeal
import proofs.«411465_j83708912599063_2_alg».proof.Proof.Gen.Pre_finite_inputs
import proofs.«411465_j83708912599063_2_alg».proof.Proof.KRun
import proofs.«411465_j83708912599063_2_alg».proof.Proof.KChain
import proofs.«411465_j83708912599063_2_alg».proof.Proof.RRun
import proofs.«411465_j83708912599063_2_alg».proof.Proof.Take
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Run.run (F := Ideal) m ρ)

/-- From memories agreeing on the arguments both programs end with the reference's composed stages of the argument
    arrays in their result buffers. -/
theorem algebraic : Cert.algebraic_KernelIdeal_ReferenceIdeal := by
  intro m ρ m' ρ' hpre hagree
  refine ⟨fun c => Cert.ReferenceIdeal.Terms.result (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16)), ?_, ?_⟩
  · refine (θ_run Cert.KernelIdeal.defs _ _).mono (fun r h c => ⟨(h c).1.trans ?_, (h c).2⟩)
      (Cert.KernelIdeal.Named.run_named (F := Ideal) m ρ)
    obtain ⟨hrow, hcol⟩ := Cert.Take.inRange_of_pre _ _ _ _ _ _ _ _ _ _ _ _ _ _ _ _ _ (hpre c)
    exact (Cert.KernelIdeal.Chain.out_eq m ρ c).trans (Cert.KernelIdeal.Chain.result_eq m c hrow hcol)
  · refine (θ_run Cert.ReferenceIdeal.defs _ _).mono (fun r h c => ⟨(h c).1.trans ?_, (h c).2⟩)
      (Cert.ReferenceIdeal.Run.run (F := Ideal) m' ρ')
    obtain ⟨e0, e1, e2, e3, e4, e5, e6, e7, e8, e9, e10, e11, e12, e13, e14, e15, e16⟩ := hagree c
    rw [e0, e1, e2, e3, e4, e5, e6, e7, e8, e9, e10, e11, e12, e13, e14, e15, e16]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
